-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x128 : Shape := ⟨3, ![2, 2048, 128]⟩
abbrev S2x2048x16x3 : Shape := ⟨4, ![2, 2048, 16, 3]⟩
abbrev S2x2048x32x32 : Shape := ⟨4, ![2, 2048, 32, 32]⟩
abbrev S2x2048x32x1x3 : Shape := ⟨5, ![2, 2048, 32, 1, 3]⟩
abbrev S2x2048x32 : Shape := ⟨3, ![2, 2048, 32]⟩
abbrev S33x33 : Shape := ⟨2, ![33, 33]⟩
abbrev S128x321 : Shape := ⟨2, ![128, 321]⟩
abbrev S128 : Shape := ⟨1, ![128]⟩
abbrev S16x33 : Shape := ⟨2, ![16, 33]⟩
abbrev S16x128 : Shape := ⟨2, ![16, 128]⟩
abbrev S16 : Shape := ⟨1, ![16]⟩
abbrev S16x16 : Shape := ⟨2, ![16, 16]⟩
abbrev S128x144 : Shape := ⟨2, ![128, 144]⟩
abbrev S_ : Shape := ⟨0, ![]⟩

class Facts : Prop where
  bcast_S_S2x2048x128 : S_.BroadcastsInDim S2x2048x128 (![] : Fin 0 → Fin S2x2048x128.rank)
  reducesTo_S2x2048x128_S_d0_1_2 : S2x2048x128.ReducesTo [0, 1, 2] S_
  h_S_ : 0 < S_.numel
  bcast_S_S2x2048x16x3 : S_.BroadcastsInDim S2x2048x16x3 (![] : Fin 0 → Fin S2x2048x16x3.rank)
  reducesTo_S2x2048x16x3_S_d0_1_2_3 : S2x2048x16x3.ReducesTo [0, 1, 2, 3] S_
  bcast_S_S2x2048x32x32 : S_.BroadcastsInDim S2x2048x32x32 (![] : Fin 0 → Fin S2x2048x32x32.rank)
  reducesTo_S2x2048x32x32_S_d0_1_2_3 : S2x2048x32x32.ReducesTo [0, 1, 2, 3] S_
  bcast_S_S2x2048x32x1x3 : S_.BroadcastsInDim S2x2048x32x1x3 (![] : Fin 0 → Fin S2x2048x32x1x3.rank)
  reducesTo_S2x2048x32x1x3_S_d0_1_2_3_4 : S2x2048x32x1x3.ReducesTo [0, 1, 2, 3, 4] S_
  bcast_S_S33x33 : S_.BroadcastsInDim S33x33 (![] : Fin 0 → Fin S33x33.rank)
  reducesTo_S33x33_S_d0_1 : S33x33.ReducesTo [0, 1] S_
  bcast_S_S128x321 : S_.BroadcastsInDim S128x321 (![] : Fin 0 → Fin S128x321.rank)
  reducesTo_S128x321_S_d0_1 : S128x321.ReducesTo [0, 1] S_
  bcast_S_S128 : S_.BroadcastsInDim S128 (![] : Fin 0 → Fin S128.rank)
  reducesTo_S128_S_d0 : S128.ReducesTo [0] S_
  bcast_S_S16x33 : S_.BroadcastsInDim S16x33 (![] : Fin 0 → Fin S16x33.rank)
  reducesTo_S16x33_S_d0_1 : S16x33.ReducesTo [0, 1] S_
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S128x144 : S_.BroadcastsInDim S128x144 (![] : Fin 0 → Fin S128x144.rank)
  reducesTo_S128x144_S_d0_1 : S128x144.ReducesTo [0, 1] S_

variable [Facts]

def fn_part6 {F : FTy → Type} [FloatOps F] (main_arg22 : FVec F S16 .f32) (main_v98 : IVec S_ 1) (main_v101 : IVec S16x128 1) (main_c_39 : IVec S_ 1) : IVec S_ 1 :=
  let main_v102 : IVec S_ 1 := (fun x v => Host.reduce IntOp.andi x v reducesTo_S16x128_S_d0_1 h_S_) main_v101 main_c_39
  let main_v103 : IVec S_ 1 := andi main_v98 main_v102
  let main_v104 : FVec F S16 .f32 := Host.absf main_arg22
  let main_cst_40 : FVec F S_ .f32 := constant S_ .f32 0x7F800000#32
  let main_v105 : FVec F S16 .f32 := broadcastInDim S16 ![] bcast_S_S16 main_cst_40
  let main_v106 : IVec S16 1 := cmpf .olt main_v104 main_v105
  let main_c_41 : IVec S_ 1 := constantI S_ 1 1#1
  let main_v107 : IVec S_ 1 := (fun x v => Host.reduce IntOp.andi x v reducesTo_S16_S_d0 h_S_) main_v106 main_c_41
  let main_v108 : IVec S_ 1 := andi main_v103 main_v107
  main_v108

def fn_part5 {F : FTy → Type} [FloatOps F] (main_arg19 : FVec F S128 .f32) (main_arg20 : FVec F S16x16 .f32) (main_arg21 : FVec F S16x128 .f32) (main_arg22 : FVec F S16 .f32) (main_v83 : IVec S_ 1) (main_v84 : FVec F S128x144 .f32) (main_cst_32 : FVec F S_ .f32) : IVec S_ 1 :=
  let main_v85 : FVec F S128x144 .f32 := broadcastInDim S128x144 ![] bcast_S_S128x144 main_cst_32
  let main_v86 : IVec S128x144 1 := cmpf .olt main_v84 main_v85
  let main_c_33 : IVec S_ 1 := constantI S_ 1 1#1
  let main_v87 : IVec S_ 1 := (fun x v => Host.reduce IntOp.andi x v reducesTo_S128x144_S_d0_1 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S16x16 .f32 := Host.absf main_arg20
  let main_cst_36 : FVec F S_ .f32 := constant S_ .f32 0x7F800000#32
  let main_v95 : FVec F S16x16 .f32 := broadcastInDim S16x16 ![] bcast_S_S16x16 main_cst_36
  let main_v96 : IVec S16x16 1 := cmpf .olt main_v94 main_v95
  let main_c_37 : IVec S_ 1 := constantI S_ 1 1#1
  let main_v97 : IVec S_ 1 := (fun x v => Host.reduce IntOp.andi x v reducesTo_S16x16_S_d0_1 h_S_) main_v96 main_c_37
  let main_v98 : IVec S_ 1 := andi main_v93 main_v97
  let main_v99 : FVec F S16x128 .f32 := Host.absf main_arg21
  let main_cst_38 : FVec F S_ .f32 := constant S_ .f32 0x7F800000#32
  let main_v100 : FVec F S16x128 .f32 := broadcastInDim S16x128 ![] bcast_S_S16x128 main_cst_38
  let main_v101 : IVec S16x128 1 := cmpf .olt main_v99 main_v100
  let main_c_39 : IVec S_ 1 := constantI S_ 1 1#1
  fn_part6 (F := F) main_arg22 main_v98 main_v101 main_c_39

def fn_part4 {F : FTy → Type} [FloatOps F] (main_arg15 : FVec F S16x128 .f32) (main_arg16 : FVec F S16 .f32) (main_arg17 : FVec F S16x16 .f32) (main_arg18 : FVec F S128x144 .f32) (main_arg19 : FVec F S128 .f32) (main_arg20 : FVec F S16x16 .f32) (main_arg21 : FVec F S16x128 .f32) (main_arg22 : FVec F S16 .f32) (main_v63 : IVec S_ 1) (main_v67 : IVec S_ 1) : IVec S_ 1 :=
  let main_v68 : IVec S_ 1 := andi main_v63 main_v67
  let main_v69 : FVec F S16x128 .f32 := Host.absf main_arg15
  let main_cst_26 : FVec F S_ .f32 := constant S_ .f32 0x7F800000#32
  let main_v70 : FVec F S16x128 .f32 := broadcastInDim S16x128 ![] bcast_S_S16x128 main_cst_26
  let main_v71 : IVec S16x128 1 := cmpf .olt main_v69 main_v70
  let main_c_27 : IVec S_ 1 := constantI S_ 1 1#1
  let main_v72 : IVec S_ 1 := (fun x v => Host.reduce IntOp.andi x v reducesTo_S16x128_S_d0_1 h_S_) main_v71 main_c_27
  let main_v73 : IVec S_ 1 := andi main_v68 main_v72
  let main_v74 : FVec F S16 .f32 := Host.absf main_arg16
  let main_cst_28 : FVec F S_ .f32 := constant S_ .f32 0x7F800000#32
  let main_v75 : FVec F S16 .f32 := broadcastInDim S16 ![] bcast_S_S16 main_cst_28
  let main_v76 : IVec S16 1 := cmpf .olt main_v74 main_v75
  let main_c_29 : IVec S_ 1 := constantI S_ 1 1#1
  let main_v77 : IVec S_ 1 := (fun x v => Host.reduce IntOp.andi x v reducesTo_S16_S_d0 h_S_) main_v76 main_c_29
  let main_v78 : IVec S_ 1 := andi main_v73 main_v77
  let main_v79 : FVec F S16x16 .f32 := Host.absf main_arg17
  let main_cst_30 : FVec F S_ .f32 := constant S_ .f32 0x7F800000#32
  let main_v80 : FVec F S16x16 .f32 := broadcastInDim S16x16 ![] bcast_S_S16x16 main_cst_30
  let main_v81 : IVec S16x16 1 := cmpf .olt main_v79 main_v80
  let main_c_31 : IVec S_ 1 := constantI S_ 1 1#1
  let main_v82 : IVec S_ 1 := (fun x v => Host.reduce IntOp.andi x v reducesTo_S16x16_S_d0_1 h_S_) main_v81 main_c_31
  let main_v83 : IVec S_ 1 := andi main_v78 main_v82
  let main_v84 : FVec F S128x144 .f32 := Host.absf main_arg18
  let main_cst_32 : FVec F S_ .f32 := constant S_ .f32 0x7F800000#32
  fn_part5 (F := F) main_arg19 main_arg20 main_arg21 main_arg22 main_v83 main_v84 main_cst_32

def fn_part3 {F : FTy → Type} [FloatOps F] (main_arg12 : FVec F S128x144 .f32) (main_arg13 : FVec F S128 .f32) (main_arg14 : FVec F S16x16 .f32) (main_arg15 : FVec F S16x128 .f32) (main_arg16 : FVec F S16 .f32) (main_arg17 : FVec F S16x16 .f32) (main_arg18 : FVec F S128x144 .f32) (main_arg19 : FVec F S128 .f32) (main_arg20 : FVec F S16x16 .f32) (main_arg21 : FVec F S16x128 .f32) (main_arg22 : FVec F S16 .f32) (main_v48 : IVec S_ 1) (main_v49 : FVec F S16x16 .f32) (main_v50 : FVec F S16x16 .f32) : IVec S_ 1 :=
  let main_v51 : IVec S16x16 1 := cmpf .olt main_v49 main_v50
  let main_c_19 : IVec S_ 1 := constantI S_ 1 1#1
  let main_v52 : IVec S_ 1 := (fun x v => Host.reduce IntOp.andi x v reducesTo_S16x16_S_d0_1 h_S_) main_v51 main_c_19
  let main_v53 : IVec S_ 1 := andi main_v48 main_v52
  let main_v54 : FVec F S128x144 .f32 := Host.absf main_arg12
  let main_cst_20 : FVec F S_ .f32 := constant S_ .f32 0x7F800000#32
  let main_v55 : FVec F S128x144 .f32 := broadcastInDim S128x144 ![] bcast_S_S128x144 main_cst_20
  let main_v56 : IVec S128x144 1 := cmpf .olt main_v54 main_v55
  let main_c_21 : IVec S_ 1 := constantI S_ 1 1#1
  let main_v57 : IVec S_ 1 := (fun x v => Host.reduce IntOp.andi x v reducesTo_S128x144_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S16x16 .f32 := Host.absf main_arg14
  let main_cst_24 : FVec F S_ .f32 := constant S_ .f32 0x7F800000#32
  let main_v65 : FVec F S16x16 .f32 := broadcastInDim S16x16 ![] bcast_S_S16x16 main_cst_24
  let main_v66 : IVec S16x16 1 := cmpf .olt main_v64 main_v65
  let main_c_25 : IVec S_ 1 := constantI S_ 1 1#1
  let main_v67 : IVec S_ 1 := (fun x v => Host.reduce IntOp.andi x v reducesTo_S16x16_S_d0_1 h_S_) main_v66 main_c_25
  fn_part4 (F := F) main_arg15 main_arg16 main_arg17 main_arg18 main_arg19 main_arg20 main_arg21 main_arg22 main_v63 main_v67

def fn_part2 {F : FTy → Type} [FloatOps F] (main_arg8 : FVec F S16x33 .f32) (main_arg9 : FVec F S16x128 .f32) (main_arg10 : FVec F S16 .f32) (main_arg11 : FVec F S16x16 .f32) (main_arg12 : FVec F S128x144 .f32) (main_arg13 : FVec F S128 .f32) (main_arg14 : FVec F S16x16 .f32) (main_arg15 : FVec F S16x128 .f32) (main_arg16 : FVec F S16 .f32) (main_arg17 : FVec F S16x16 .f32) (main_arg18 : FVec F S128x144 .f32) (main_arg19 : FVec F S128 .f32) (main_arg20 : FVec F S16x16 .f32) (main_arg21 : FVec F S16x128 .f32) (main_arg22 : FVec F S16 .f32) (main_v33 : IVec S_ 1) : IVec S_ 1 :=
  let main_v34 : FVec F S16x33 .f32 := Host.absf main_arg8
  let main_cst_12 : FVec F S_ .f32 := constant S_ .f32 0x7F800000#32
  let main_v35 : FVec F S16x33 .f32 := broadcastInDim S16x33 ![] bcast_S_S16x33 main_cst_12
  let main_v36 : IVec S16x33 1 := cmpf .olt main_v34 main_v35
  let main_c_13 : IVec S_ 1 := constantI S_ 1 1#1
  let main_v37 : IVec S_ 1 := (fun x v => Host.reduce IntOp.andi x v reducesTo_S16x33_S_d0_1 h_S_) main_v36 main_c_13
  let main_v38 : IVec S_ 1 := andi main_v33 main_v37
  let main_v39 : FVec F S16x128 .f32 := Host.absf main_arg9
  let main_cst_14 : FVec F S_ .f32 := constant S_ .f32 0x7F800000#32
  let main_v40 : FVec F S16x128 .f32 := broadcastInDim S16x128 ![] bcast_S_S16x128 main_cst_14
  let main_v41 : IVec S16x128 1 := cmpf .olt main_v39 main_v40
  let main_c_15 : IVec S_ 1 := constantI S_ 1 1#1
  let main_v42 : IVec S_ 1 := (fun x v => Host.reduce IntOp.andi x v reducesTo_S16x128_S_d0_1 h_S_) main_v41 main_c_15
  let main_v43 : IVec S_ 1 := andi main_v38 main_v42
  let main_v44 : FVec F S16 .f32 := Host.absf main_arg10
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S16x16 .f32 := Host.absf main_arg11
  let main_cst_18 : FVec F S_ .f32 := constant S_ .f32 0x7F800000#32
  let main_v50 : FVec F S16x16 .f32 := broadcastInDim S16x16 ![] bcast_S_S16x16 main_cst_18
  fn_part3 (F := F) main_arg12 main_arg13 main_arg14 main_arg15 main_arg16 main_arg17 main_arg18 main_arg19 main_arg20 main_arg21 main_arg22 main_v48 main_v49 main_v50

def fn_part1 {F : FTy → Type} [FloatOps F] (main_arg5 : FVec F S33x33 .f32) (main_arg6 : FVec F S128x321 .f32) (main_arg7 : FVec F S128 .f32) (main_arg8 : FVec F S16x33 .f32) (main_arg9 : FVec F S16x128 .f32) (main_arg10 : FVec F S16 .f32) (main_arg11 : FVec F S16x16 .f32) (main_arg12 : FVec F S128x144 .f32) (main_arg13 : FVec F S128 .f32) (main_arg14 : FVec F S16x16 .f32) (main_arg15 : FVec F S16x128 .f32) (main_arg16 : FVec F S16 .f32) (main_arg17 : FVec F S16x16 .f32) (main_arg18 : FVec F S128x144 .f32) (main_arg19 : FVec F S128 .f32) (main_arg20 : FVec F S16x16 .f32) (main_arg21 : FVec F S16x128 .f32) (main_arg22 : FVec F S16 .f32) (main_v13 : IVec S_ 1) (main_v16 : IVec S2x2048x32x1x3 1) : IVec S_ 1 :=
  let main_c_5 : IVec S_ 1 := constantI S_ 1 1#1
  let main_v17 : IVec S_ 1 := (fun x v => Host.reduce IntOp.andi x v reducesTo_S2x2048x32x1x3_S_d0_1_2_3_4 h_S_) main_v16 main_c_5
  let main_v18 : IVec S_ 1 := andi main_v13 main_v17
  let main_v19 : FVec F S33x33 .f32 := Host.absf main_arg5
  let main_cst_6 : FVec F S_ .f32 := constant S_ .f32 0x7F800000#32
  let main_v20 : FVec F S33x33 .f32 := broadcastInDim S33x33 ![] bcast_S_S33x33 main_cst_6
  let main_v21 : IVec S33x33 1 := cmpf .olt main_v19 main_v20
  let main_c_7 : IVec S_ 1 := constantI S_ 1 1#1
  let main_v22 : IVec S_ 1 := (fun x v => Host.reduce IntOp.andi x v reducesTo_S33x33_S_d0_1 h_S_) main_v21 main_c_7
  let main_v23 : IVec S_ 1 := andi main_v18 main_v22
  let main_v24 : FVec F S128x321 .f32 := Host.absf main_arg6
  let main_cst_8 : FVec F S_ .f32 := constant S_ .f32 0x7F800000#32
  let main_v25 : FVec F S128x321 .f32 := broadcastInDim S128x321 ![] bcast_S_S128x321 main_cst_8
  let main_v26 : IVec S128x321 1 := cmpf .olt main_v24 main_v25
  let main_c_9 : IVec S_ 1 := constantI S_ 1 1#1
  let main_v27 : IVec S_ 1 := (fun x v => Host.reduce IntOp.andi x v reducesTo_S128x321_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S2x2048x128 .f32) (main_arg1 : FVec F S2x2048x16x3 .f32) (main_arg2 : FVec F S2x2048x32x32 .f32) (main_arg3 : FVec F S2x2048x32x1x3 .f32) (main_arg4 : IVec S2x2048x32 32) (main_arg5 : FVec F S33x33 .f32) (main_arg6 : FVec F S128x321 .f32) (main_arg7 : FVec F S128 .f32) (main_arg8 : FVec F S16x33 .f32) (main_arg9 : FVec F S16x128 .f32) (main_arg10 : FVec F S16 .f32) (main_arg11 : FVec F S16x16 .f32) (main_arg12 : FVec F S128x144 .f32) (main_arg13 : FVec F S128 .f32) (main_arg14 : FVec F S16x16 .f32) (main_arg15 : FVec F S16x128 .f32) (main_arg16 : FVec F S16 .f32) (main_arg17 : FVec F S16x16 .f32) (main_arg18 : FVec F S128x144 .f32) (main_arg19 : FVec F S128 .f32) (main_arg20 : FVec F S16x16 .f32) (main_arg21 : FVec F S16x128 .f32) (main_arg22 : FVec F S16 .f32) : IVec S_ 1 :=
  let main_v0 : FVec F S2x2048x128 .f32 := Host.absf main_arg0
  let main_cst : FVec F S_ .f32 := constant S_ .f32 0x7F800000#32
  let main_v1 : FVec F S2x2048x128 .f32 := broadcastInDim S2x2048x128 ![] bcast_S_S2x2048x128 main_cst
  let main_v2 : IVec S2x2048x128 1 := cmpf .olt main_v0 main_v1
  let main_c : IVec S_ 1 := constantI S_ 1 1#1
  let main_v3 : IVec S_ 1 := (fun x v => Host.reduce IntOp.andi x v reducesTo_S2x2048x128_S_d0_1_2 h_S_) main_v2 main_c
  let main_v4 : FVec F S2x2048x16x3 .f32 := Host.absf main_arg1
  let main_cst_0 : FVec F S_ .f32 := constant S_ .f32 0x7F800000#32
  let main_v5 : FVec F S2x2048x16x3 .f32 := broadcastInDim S2x2048x16x3 ![] bcast_S_S2x2048x16x3 main_cst_0
  let main_v6 : IVec S2x2048x16x3 1 := cmpf .olt main_v4 main_v5
  let main_c_1 : IVec S_ 1 := constantI S_ 1 1#1
  let main_v7 : IVec S_ 1 := (fun x v => Host.reduce IntOp.andi x v reducesTo_S2x2048x16x3_S_d0_1_2_3 h_S_) main_v6 main_c_1
  let main_v8 : IVec S_ 1 := andi main_v3 main_v7
  let main_v9 : FVec F S2x2048x32x32 .f32 := Host.absf main_arg2
  let main_cst_2 : FVec F S_ .f32 := constant S_ .f32 0x7F800000#32
  let main_v10 : FVec F S2x2048x32x32 .f32 := broadcastInDim S2x2048x32x32 ![] bcast_S_S2x2048x32x32 main_cst_2
  let main_v11 : IVec S2x2048x32x32 1 := cmpf .olt main_v9 main_v10
  let main_c_3 : IVec S_ 1 := constantI S_ 1 1#1
  let main_v12 : IVec S_ 1 := (fun x v => Host.reduce IntOp.andi x v reducesTo_S2x2048x32x32_S_d0_1_2_3 h_S_) main_v11 main_c_3
  let main_v13 : IVec S_ 1 := andi main_v8 main_v12
  let main_v14 : FVec F S2x2048x32x1x3 .f32 := Host.absf main_arg3
  let main_cst_4 : FVec F S_ .f32 := constant S_ .f32 0x7F800000#32
  let main_v15 : FVec F S2x2048x32x1x3 .f32 := broadcastInDim S2x2048x32x1x3 ![] bcast_S_S2x2048x32x1x3 main_cst_4
  let main_v16 : IVec S2x2048x32x1x3 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S2x2048x128 : Shape := ⟨3, ![2, 2048, 128]⟩
abbrev S2x2048x16x3 : Shape := ⟨4, ![2, 2048, 16, 3]⟩
abbrev S2x2048x32x32 : Shape := ⟨4, ![2, 2048, 32, 32]⟩
abbrev S2x2048x32x1x3 : Shape := ⟨5, ![2, 2048, 32, 1, 3]⟩
abbrev S2x2048x32 : Shape := ⟨3, ![2, 2048, 32]⟩
abbrev S33x33 : Shape := ⟨2, ![33, 33]⟩
abbrev S128x321 : Shape := ⟨2, ![128, 321]⟩
abbrev S128 : Shape := ⟨1, ![128]⟩
abbrev S16x33 : Shape := ⟨2, ![16, 33]⟩
abbrev S16x128 : Shape := ⟨2, ![16, 128]⟩
abbrev S16 : Shape := ⟨1, ![16]⟩
abbrev S16x16 : Shape := ⟨2, ![16, 16]⟩
abbrev S128x144 : Shape := ⟨2, ![128, 144]⟩
abbrev S_ : Shape := ⟨0, ![]⟩
abbrev S2x2048x32x1 : Shape := ⟨4, ![2, 2048, 32, 1]⟩
abbrev S2x2048x32x128 : Shape := ⟨4, ![2, 2048, 32, 128]⟩
abbrev S2x2048x32x16x3 : Shape := ⟨5, ![2, 2048, 32, 16, 3]⟩
abbrev S3x2x2048x16 : Shape := ⟨4, ![3, 2, 2048, 16]⟩
abbrev S3x2x2048x32x16 : Shape := ⟨5, ![3, 2, 2048, 32, 16]⟩
abbrev S3x2x2048x32x1 : Shape := ⟨5, ![3, 2, 2048, 32, 1]⟩
abbrev S3x2x2048x32 : Shape := ⟨4, ![3, 2, 2048, 32]⟩
abbrev S4096x128 : Shape := ⟨2, ![4096, 128]⟩
abbrev S3x4096x16 : Shape := ⟨3, ![3, 4096, 16]⟩
abbrev S4096x32x128 : Shape := ⟨3, ![4096, 32, 128]⟩
abbrev S3x4096x32x16 : Shape := ⟨4, ![3, 4096, 32, 16]⟩
abbrev S4096x32x32 : Shape := ⟨3, ![4096, 32, 32]⟩
abbrev S3x4096x32 : Shape := ⟨3, ![3, 4096, 32]⟩
abbrev S32x128 : Shape := ⟨2, ![32, 128]⟩
abbrev S3x32x16 : Shape := ⟨3, ![3, 32, 16]⟩
abbrev S32x32x128 : Shape := ⟨3, ![32, 32, 128]⟩
abbrev S3x32x32x16 : Shape := ⟨4, ![3, 32, 32, 16]⟩
abbrev S32x32x32 : Shape := ⟨3, ![32, 32, 32]⟩
abbrev S3x32x32 : Shape := ⟨3, ![3, 32, 32]⟩
abbrev S32x1x128 : Shape := ⟨3, ![32, 1, 128]⟩
abbrev S32x32x288 : Shape := ⟨3, ![32, 32, 288]⟩
abbrev S1024x288 : Shape := ⟨2, ![1024, 288]⟩
abbrev S1x32x16 : Shape := ⟨3, ![1, 32, 16]⟩
abbrev S32x16 : Shape := ⟨2, ![32, 16]⟩
abbrev S1x32x32x16 : Shape := ⟨4, ![1, 32, 32, 16]⟩
abbrev S32x32x16 : Shape := ⟨3, ![32, 32, 16]⟩
abbrev S1x32x32 : Shape := ⟨3, ![1, 32, 32]⟩
abbrev S32x32 : Shape := ⟨2, ![32, 32]⟩
abbrev S32x1x16 : Shape := ⟨3, ![32, 1, 16]⟩
abbrev S32x32x1 : Shape := ⟨3, ![32, 32, 1]⟩
abbrev S32x32x33 : Shape := ⟨3, ![32, 32, 33]⟩
abbrev S1024x33 : Shape := ⟨2, ![1024, 33]⟩
abbrev S1024x321 : Shape := ⟨2, ![1024, 321]⟩
abbrev S321x128 : Shape := ⟨2, ![321, 128]⟩
abbrev S1024x128 : Shape := ⟨2, ![1024, 128]⟩
abbrev S1x128 : Shape := ⟨2, ![1, 128]⟩
abbrev S33x16 : Shape := ⟨2, ![33, 16]⟩
abbrev S1024x16 : Shape := ⟨2, ![1024, 16]⟩
abbrev S128x16 : Shape := ⟨2, ![128, 16]⟩
abbrev S1x16 : Shape := ⟨2, ![1, 16]⟩
abbrev S1024x144 : Shape := ⟨2, ![1024, 144]⟩
abbrev S144x128 : Shape := ⟨2, ![144, 128]⟩

abbrev nBuf : Space → Nat
  | .hbm => 72
  | .vmem => 34
  | .smem => 0
  | _ => 0

abbrev bufTy : (tb : Table) → Fin (tcTables nBuf tb) → BufTy
  | .hbm, ⟨0, _⟩ => ⟨S2x2048x128, .f32⟩
  | .hbm, ⟨1, _⟩ => ⟨S2x2048x16x3, .f32⟩
  | .hbm, ⟨2, _⟩ => ⟨S2x2048x32x32, .f32⟩
  | .hbm, ⟨3, _⟩ => ⟨S2x2048x32x1x3, .f32⟩
  | .hbm, ⟨4, _⟩ => ⟨S2x2048x32, .i32⟩
  | .hbm, ⟨5, _⟩ => ⟨S33x33, .f32⟩
  | .hbm, ⟨6, _⟩ => ⟨S128x321, .f32⟩
  | .hbm, ⟨7, _⟩ => ⟨S128, .f32⟩
  | .hbm, ⟨8, _⟩ => ⟨S16x33, .f32⟩
  | .hbm, ⟨9, _⟩ => ⟨S16x128, .f32⟩
  | .hbm, ⟨10, _⟩ => ⟨S16, .f32⟩
  | .hbm, ⟨11, _⟩ => ⟨S16x16, .f32⟩
  | .hbm, ⟨12, _⟩ => ⟨S128x144, .f32⟩
  | .hbm, ⟨13, _⟩ => ⟨S128, .f32⟩
  | .hbm, ⟨14, _⟩ => ⟨S16x16, .f32⟩
  | .hbm, ⟨15, _⟩ => ⟨S16x128, .f32⟩
  | .hbm, ⟨16, _⟩ => ⟨S16, .f32⟩
  | .hbm, ⟨17, _⟩ => ⟨S16x16, .f32⟩
  | .hbm, ⟨18, _⟩ => ⟨S128x144, .f32⟩
  | .hbm, ⟨19, _⟩ => ⟨S128, .f32⟩
  | .hbm, ⟨20, _⟩ => ⟨S16x16, .f32⟩
  | .hbm, ⟨21, _⟩ => ⟨S16x128, .f32⟩
  | .hbm, ⟨22, _⟩ => ⟨S16, .f32⟩
  | .hbm, ⟨23, _⟩ => ⟨S2x2048x128, .bf16⟩
  | .hbm, ⟨24, _⟩ => ⟨S2x2048x16x3, .bf16⟩
  | .hbm, ⟨25, _⟩ => ⟨S_, .i32⟩
  | .hbm, ⟨26, _⟩ => ⟨S2x2048x32, .i32⟩
  | .hbm, ⟨27, _⟩ => ⟨S2x2048x32, .i1⟩
  | .hbm, ⟨28, _⟩ => ⟨S_, .i32⟩
  | .hbm, ⟨29, _⟩ => ⟨S2x2048x32, .i32⟩
  | .hbm, ⟨30, _⟩ => ⟨S2x2048x32, .i32⟩
  | .hbm, ⟨31, _⟩ => ⟨S2x2048x32, .i32⟩
  | .hbm, ⟨32, _⟩ => ⟨S2x2048x32x1, .i32⟩
  | .hbm, ⟨33, _⟩ => ⟨S2x2048x32x128, .bf16⟩
  | .hbm, ⟨34, _⟩ => ⟨S_, .i32⟩
  | .hbm, ⟨35, _⟩ => ⟨S2x2048x32, .i32⟩
  | .hbm, ⟨36, _⟩ => ⟨S2x2048x32, .i1⟩
  | .hbm, ⟨37, _⟩ => ⟨S_, .i32⟩
  | .hbm, ⟨38, _⟩ => ⟨S2x2048x32, .i32⟩
  | .hbm, ⟨39, _⟩ => ⟨S2x2048x32, .i32⟩
  | .hbm, ⟨40, _⟩ => ⟨S2x2048x32, .i32⟩
  | .hbm, ⟨41, _⟩ => ⟨S2x2048x32x1, .i32⟩
  | .hbm, ⟨42, _⟩ => ⟨S2x2048x32x16x3, .bf16⟩
  | .hbm, ⟨43, _⟩ => ⟨S2x2048x32x32, .bf16⟩
  | .hbm, ⟨44, _⟩ => ⟨S2x2048x32x1x3, .bf16⟩
  | .hbm, ⟨45, _⟩ => ⟨S3x2x2048x16, .f32⟩
  | .hbm, ⟨46, _⟩ => ⟨S3x2x2048x32x16, .bf16⟩
  | .hbm, ⟨47, _⟩ => ⟨S3x2x2048x32x1, .bf16⟩
  | .hbm, ⟨48, _⟩ => ⟨S3x2x2048x32, .bf16⟩
  | .hbm, ⟨49, _⟩ => ⟨S4096x128, .f32⟩
  | .hbm, ⟨50, _⟩ => ⟨S3x4096x16, .f32⟩
  | .hbm, ⟨51, _⟩ => ⟨S4096x32x128, .bf16⟩
  | .hbm, ⟨52, _⟩ => ⟨S3x4096x32x16, .bf16⟩
  | .hbm, ⟨53, _⟩ => ⟨S4096x32x32, .bf16⟩
  | .hbm, ⟨54, _⟩ => ⟨S3x4096x32, .bf16⟩
  | .hbm, ⟨55, _⟩ => ⟨S33x33, .bf16⟩
  | .hbm, ⟨56, _⟩ => ⟨S128x321, .bf16⟩
  | .hbm, ⟨57, _⟩ => ⟨S16x33, .bf16⟩
  | .hbm, ⟨58, _⟩ => ⟨S16x128, .bf16⟩
  | .hbm, ⟨59, _⟩ => ⟨S16x16, .bf16⟩
  | .hbm, ⟨60, _⟩ => ⟨S128x144, .bf16⟩
  | .hbm, ⟨61, _⟩ => ⟨S16x16, .bf16⟩
  | .hbm, ⟨62, _⟩ => ⟨S16x128, .bf16⟩
  | .hbm, ⟨63, _⟩ => ⟨S16x16, .bf16⟩
  | .hbm, ⟨64, _⟩ => ⟨S128x144, .bf16⟩
  | .hbm, ⟨65, _⟩ => ⟨S16x16, .bf16⟩
  | .hbm, ⟨66, _⟩ => ⟨S16x128, .bf16⟩
  | .hbm, ⟨67, _⟩ => ⟨S4096x128, .f32⟩
  | .hbm, ⟨68, _⟩ => ⟨S3x4096x16, .f32⟩
  | .hbm, ⟨69, _⟩ => ⟨S2x2048x128, .f32⟩
  | .hbm, ⟨70, _⟩ => ⟨S3x2x2048x16, .f32⟩
  | .hbm, ⟨71, _⟩ => ⟨S2x2048x16x3, .f32⟩
  | .local _ .vmem, ⟨0, _⟩ => ⟨S32x128, .f32⟩
  | .local _ .vmem, ⟨1, _⟩ => ⟨S32x128, .f32⟩
  | .local _ .vmem, ⟨2, _⟩ => ⟨S3x32x16, .f32⟩
  | .local _ .vmem, ⟨3, _⟩ => ⟨S3x32x16, .f32⟩
  | .local _ .vmem, ⟨4, _⟩ => ⟨S32x32x128, .bf16⟩
  | .local _ .vmem, ⟨5, _⟩ => ⟨S32x32x128, .bf16⟩
  | .local _ .vmem, ⟨6, _⟩ => ⟨S3x32x32x16, .bf16⟩
  | .local _ .vmem, ⟨7, _⟩ => ⟨S3x32x32x16, .bf16⟩
  | .local _ .vmem, ⟨8, _⟩ => ⟨S32x32x32, .bf16⟩
  | .local _ .vmem, ⟨9, _⟩ => ⟨S32x32x32, .bf16⟩
  | .local _ .vmem, ⟨10, _⟩ => ⟨S3x32x32, .bf16⟩
  | .local _ .vmem, ⟨11, _⟩ => ⟨S3x32x32, .bf16⟩
  | .local _ .vmem, ⟨12, _⟩ => ⟨S33x33, .bf16⟩
  | .local _ .vmem, ⟨13, _⟩ => ⟨S128x321, .bf16⟩
  | .local _ .vmem, ⟨14, _⟩ => ⟨S128, .f32⟩
  | .local _ .vmem, ⟨15, _⟩ => ⟨S16x33, .bf16⟩
  | .local _ .vmem, ⟨16, _⟩ => ⟨S16x128, .bf16⟩
  | .local _ .vmem, ⟨17, _⟩ => ⟨S16, .f32⟩
  | .local _ .vmem, ⟨18, _⟩ => ⟨S16x16, .bf16⟩
  | .local _ .vmem, ⟨19, _⟩ => ⟨S128x144, .bf16⟩
  | .local _ .vmem, ⟨20, _⟩ => ⟨S128, .f32⟩
  | .local _ .vmem, ⟨21, _⟩ => ⟨S16x16, .bf16⟩
  | .local _ .vmem, ⟨22, _⟩ => ⟨S16x128, .bf16⟩
  | .local _ .vmem, ⟨23, _⟩ => ⟨S16, .f32⟩
  | .local _ .vmem, ⟨24, _⟩ => ⟨S16x16, .bf16⟩
  | .local _ .vmem, ⟨25, _⟩ => ⟨S128x144, .bf16⟩
  | .local _ .vmem, ⟨26, _⟩ => ⟨S128, .f32⟩
  | .local _ .vmem, ⟨27, _⟩ => ⟨S16x16, .bf16⟩
  | .local _ .vmem, ⟨28, _⟩ => ⟨S16x128, .bf16⟩
  | .local _ .vmem, ⟨29, _⟩ => ⟨S16, .f32⟩
  | .local _ .vmem, ⟨30, _⟩ => ⟨S32x128, .f32⟩
  | .local _ .vmem, ⟨31, _⟩ => ⟨S32x128, .f32⟩
  | .local _ .vmem, ⟨32, _⟩ => ⟨S3x32x16, .f32⟩
  | .local _ .vmem, ⟨33, _⟩ => ⟨S3x32x16, .f32⟩
  | _, _ => ⟨S2x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_c : Ref sig .tc := ⟨.hbm, 25, rfl⟩
abbrev main_v2 : Ref sig .tc := ⟨.hbm, 26, rfl⟩
abbrev main_v3 : Ref sig .tc := ⟨.hbm, 27, rfl⟩
abbrev main_c_0 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_c_1 : Ref sig .tc := ⟨.hbm, 34, rfl⟩
abbrev main_v9 : Ref sig .tc := ⟨.hbm, 35, rfl⟩
abbrev main_v10 : Ref sig .tc := ⟨.hbm, 36, rfl⟩
abbrev main_c_2 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40_0 : Ref sig .tc := ⟨.hbm, 67, rfl⟩
abbrev main_v40_1 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg21_0 : Ref sig .tc := ⟨.vmem, 27, rfl⟩
abbrev cc0_stg22_0 : Ref sig .tc := ⟨.vmem, 28, rfl⟩
abbrev cc0_stg23_0 : Ref sig .tc := ⟨.vmem, 29, rfl⟩
abbrev cc0_stg24_0 : Ref sig .tc := ⟨.vmem, 30, rfl⟩
abbrev cc0_stg24_1 : Ref sig .tc := ⟨.vmem, 31, rfl⟩
abbrev cc0_stg25_0 : Ref sig .tc := ⟨.vmem, 32, rfl⟩
abbrev cc0_stg25_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem20_0 : DmaSem sig := 26
abbrev cc0_sem21_0 : DmaSem sig := 27
abbrev cc0_sem22_0 : DmaSem sig := 28
abbrev cc0_sem23_0 : DmaSem sig := 29
abbrev cc0_sem24_0 : DmaSem sig := 30
abbrev cc0_sem24_1 : DmaSem sig := 31
abbrev cc0_sem25_0 : DmaSem sig := 32
abbrev cc0_sem25_1 : DmaSem sig := 33

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x32x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x32x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x32x32x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x32x32 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x32x32 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S33x33 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x321 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x33 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x16 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x144 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S16x16 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S16x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S16 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S16x16 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x144 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S16x16 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S16x128 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S16 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S32x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S3x32x16 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

class Facts₀ : Prop where
  bitsLt_bf16_f32 : FTy.bits .bf16 < FTy.bits .f32
  bcast_S_S2x2048x32 : S_.BroadcastsInDim S2x2048x32 (![] : Fin 0 → Fin S2x2048x32.rank)
  bcast_S2x2048x32_S2x2048x32x1_0_1_2 : S2x2048x32.BroadcastsInDim S2x2048x32x1 (![0, 1, 2] : Fin 3 → Fin S2x2048x32x1.rank)
  transposes_S2x2048x16x3_S3x2x2048x16_3_0_1_2 : S2x2048x16x3.Transposes [3, 0, 1, 2] S3x2x2048x16
  transposes_S2x2048x32x16x3_S3x2x2048x32x16_4_0_1_2_3 : S2x2048x32x16x3.Transposes [4, 0, 1, 2, 3] S3x2x2048x32x16
  transposes_S2x2048x32x1x3_S3x2x2048x32x1_4_0_1_2_3 : S2x2048x32x1x3.Transposes [4, 0, 1, 2, 3] S3x2x2048x32x1
  shapeCasts_S3x2x2048x32x1_S3x2x2048x32 : S3x2x2048x32x1.ShapeCasts S3x2x2048x32
  shapeCasts_S2x2048x128_S4096x128 : S2x2048x128.ShapeCasts S4096x128
  shapeCasts_S3x2x2048x16_S3x4096x16 : S3x2x2048x16.ShapeCasts S3x4096x16
  shapeCasts_S2x2048x32x128_S4096x32x128 : S2x2048x32x128.ShapeCasts S4096x32x128
  shapeCasts_S3x2x2048x32x16_S3x4096x32x16 : S3x2x2048x32x16.ShapeCasts S3x4096x32x16
  shapeCasts_S2x2048x32x32_S4096x32x32 : S2x2048x32x32.ShapeCasts S4096x32x32
  shapeCasts_S3x2x2048x32_S3x4096x32 : S3x2x2048x32.ShapeCasts S3x4096x32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S32x32x128_S32x32x128_0_0_0 : ∀ a, (![0, 0, 0] : Fin 3 → Nat) a + S32x32x128.size a ≤ S32x32x128.size a
  h_S32x32x128 : 0 < S32x32x128.numel
  shapeCasts_S32x32x128_S32x32x128 : S32x32x128.ShapeCasts S32x32x128
  inb_S32x32x32_S32x32x32_0_0_0 : ∀ a, (![0, 0, 0] : Fin 3 → Nat) a + S32x32x32.size a ≤ S32x32x32.size a
  h_S32x32x32 : 0 < S32x32x32.numel
  shapeCasts_S32x32x32_S32x32x32 : S32x32x32.ShapeCasts S32x32x32
  shapeCasts_S32x128_S32x1x128 : S32x128.ShapeCasts S32x1x128
  shapeCasts_S32x1x128_S32x1x128 : S32x1x128.ShapeCasts S32x1x128
  broadcasts_S32x1x128_S32x32x128 : S32x1x128.Broadcasts S32x32x128
  concatenates_S32x32x128_S32x32x128_S32x32x32_S32x32x288_d2 : Shape.Concatenates [S32x32x128, S32x32x128, S32x32x32] S32x32x288 2
  shapeCasts_S32x32x288_S1024x288 : S32x32x288.ShapeCasts S1024x288
  inb_S3x32x16_S1x32x16_0_0_0 : ∀ a, (![0, 0, 0] : Fin 3 → Nat) a + S1x32x16.size a ≤ S3x32x16.size a
  h_S1x32x16 : 0 < S1x32x16.numel
  shapeCasts_S1x32x16_S32x16 : S1x32x16.ShapeCasts S32x16
  inb_S3x32x32x16_S1x32x32x16_0_0_0_0 : ∀ a, (![0, 0, 0, 0] : Fin 4 → Nat) a + S1x32x32x16.size a ≤ S3x32x32x16.size a
  h_S1x32x32x16 : 0 < S1x32x32x16.numel
  shapeCasts_S1x32x32x16_S32x32x16 : S1x32x32x16.ShapeCasts S32x32x16
  inb_S3x32x32_S1x32x32_0_0_0 : ∀ a, (![0, 0, 0] : Fin 3 → Nat) a + S1x32x32.size a ≤ S3x32x32.size a
  h_S1x32x32 : 0 < S1x32x32.numel
  shapeCasts_S1x32x32_S32x32 : S1x32x32.ShapeCasts S32x32
  shapeCasts_S32x16_S32x1x16 : S32x16.ShapeCasts S32x1x16
  shapeCasts_S32x1x16_S32x1x16 : S32x1x16.ShapeCasts S32x1x16
  broadcasts_S32x1x16_S32x32x16 : S32x1x16.Broadcasts S32x32x16
  shapeCasts_S32x32_S32x32x1 : S32x32.ShapeCasts S32x32x1
  concatenates_S32x32x16_S32x32x16_S32x32x1_S32x32x33_d2 : Shape.Concatenates [S32x32x16, S32x32x16, S32x32x1] S32x32x33 2
  shapeCasts_S32x32x33_S1024x33 : S32x32x33.ShapeCasts S1024x33
  inb_S3x32x16_S1x32x16_1_0_0 : ∀ a, (![1, 0, 0] : Fin 3 → Nat) a + S1x32x16.size a ≤ S3x32x16.size a
  inb_S3x32x32x16_S1x32x32x16_1_0_0_0 : ∀ a, (![1, 0, 0, 0] : Fin 4 → Nat) a + S1x32x32x16.size a ≤ S3x32x32x16.size a
  inb_S3x32x32_S1x32x32_1_0_0 : ∀ a, (![1, 0, 0] : Fin 3 → Nat) a + S1x32x32.size a ≤ S3x32x32.size a
  inb_S3x32x16_S1x32x16_2_0_0 : ∀ a, (![2, 0, 0] : Fin 3 → Nat) a + S1x32x16.size a ≤ S3x32x16.size a
  inb_S3x32x32x16_S1x32x32x16_2_0_0_0 : ∀ a, (![2, 0, 0, 0] : Fin 4 → Nat) a + S1x32x32x16.size a ≤ S3x32x32x16.size a
  inb_S3x32x32_S1x32x32_2_0_0 : ∀ a, (![2, 0, 0] : Fin 3 → Nat) a + S1x32x32.size a ≤ S3x32x32.size a
  inb_S33x33_S33x33_0_0 : ∀ a, (![0, 0] : Fin 2 → Nat) a + S33x33.size a ≤ S33x33.size a
  h_S33x33 : 0 < S33x33.numel
  shapeCasts_S33x33_S33x33 : S33x33.ShapeCasts S33x33
  inb_S128x321_S128x321_0_0 : ∀ a, (![0, 0] : Fin 2 → Nat) a + S128x321.size a ≤ S128x321.size a
  h_S128x321 : 0 < S128x321.numel
  shapeCasts_S128x321_S128x321 : S128x321.ShapeCasts S128x321
  inb_S128_S128_0 : ∀ a, (![0] : Fin 1 → Nat) a + S128.size a ≤ S128.size a
  h_S128 : 0 < S128.numel
  inb_S16x33_S16x33_0_0 : ∀ a, (![0, 0] : Fin 2 → Nat) a + S16x33.size a ≤ S16x33.size a
  h_S16x33 : 0 < S16x33.numel
  shapeCasts_S16x33_S16x33 : S16x33.ShapeCasts S16x33
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S16_S16_0 : ∀ a, (![0] : Fin 1 → Nat) a + S16.size a ≤ S16.size a
  h_S16 : 0 < S16.numel
  transposes_S33x33_p1_0_S33x33 : S33x33.Transposes [1, 0] S33x33
  concatenates_S1024x288_S1024x33_S1024x321_d1 : Shape.Concatenates [S1024x288, S1024x33] S1024x321 1
  transposes_S128x321_p1_0_S321x128 : S128x321.Transposes [1, 0] S321x128
  shapeCasts_S128_S1x128 : S128.ShapeCasts S1x128
  broadcasts_S1x128_S1024x128 : S1x128.Broadcasts S1024x128
  transposes_S16x33_p1_0_S33x16 : S16x33.Transposes [1, 0] S33x16
  transposes_S16x128_p1_0_S128x16 : S16x128.Transposes [1, 0] S128x16
  shapeCasts_S16_S1x16 : S16.ShapeCasts S1x16
  broadcasts_S1x16_S1024x16 : S1x16.Broadcasts S1024x16
  inb_S16x16_S16x16_0_0 : ∀ a, (![0, 0] : Fin 2 → Nat) a + S16x16.size a ≤ S16x16.size a
  h_S16x16 : 0 < S16x16.numel
  shapeCasts_S16x16_S16x16 : S16x16.ShapeCasts S16x16
  inb_S128x144_S128x144_0_0 : ∀ a, (![0, 0] : Fin 2 → Nat) a + S128x144.size a ≤ S128x144.size a
  h_S128x144 : 0 < S128x144.numel
  shapeCasts_S128x144_S128x144 : S128x144.ShapeCasts S128x144
  transposes_S16x16_p1_0_S16x16 : S16x16.Transposes [1, 0] S16x16
  concatenates_S1024x128_S1024x16_S1024x144_d1 : Shape.Concatenates [S1024x128, S1024x16] S1024x144 1
  transposes_S128x144_p1_0_S144x128 : S128x144.Transposes [1, 0] S144x128
  shapeCasts_S1024x128_S32x32x128 : S1024x128.ShapeCasts S32x32x128
  reduces_S32x32x128_S32x128 : S32x32x128.Reduces [1] S32x128
  shapeCasts_S1024x16_S32x32x16 : S1024x16.ShapeCasts S32x32x16
  reduces_S32x32x16_S32x16 : S32x32x16.Reduces [1] S32x16
  shapeCasts_S32x16_S1x32x16 : S32x16.ShapeCasts S1x32x16
  shapeCasts_S4096x128_S2x2048x128 : S4096x128.ShapeCasts S2x2048x128
  shapeCasts_S3x4096x16_S3x2x2048x16 : S3x4096x16.ShapeCasts S3x2x2048x16
  transposes_S3x2x2048x16_S2x2048x16x3_1_2_3_0 : S3x2x2048x16.Transposes [1, 2, 3, 0] S2x2048x16x3
  gather_S2x2048x128_S2x2048x32x1_S2x2048x32x128_3_1_0_0_1_3_11128_wf : GatherDims.WF S2x2048x128 S2x2048x32x1 S2x2048x32x128 [3] [1] [0] [1] [0] 3 ![1, 1, 128]
  gather_S2x2048x16x3_S2x2048x32x1_S2x2048x32x16x3_34_1_0_0_1_3_11163_wf : GatherDims.WF S2x2048x16x3 S2x2048x32x1 S2x2048x32x16x3 [3, 4] [1] [0] [1] [0] 3 ![1, 1, 16, 3]
  dot_S1024x33_S33x33_S1024x33_1_0_0_1_n_n_wf : DotDims.WF S1024x33 S33x33 S1024x33 [1] [0] [0] [1] [] []
  dot_S1024x321_S321x128_S1024x128_1_0_0_1_n_n_wf : DotDims.WF S1024x321 S321x128 S1024x128 [1] [0] [0] [1] [] []
  dot_S1024x33_S33x16_S1024x16_1_0_0_1_n_n_wf : DotDims.WF S1024x33 S33x16 S1024x16 [1] [0] [0] [1] [] []
  dot_S1024x128_S128x16_S1024x16_1_0_0_1_n_n_wf : DotDims.WF S1024x128 S128x16 S1024x16 [1] [0] [0] [1] [] []
  dot_S1024x16_S16x16_S1024x16_1_0_0_1_n_n_wf : DotDims.WF S1024x16 S16x16 S1024x16 [1] [0] [0] [1] [] []
  dot_S1024x144_S144x128_S1024x128_1_0_0_1_n_n_wf : DotDims.WF S1024x144 S144x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128.size a ≤ S4096x128.size a
  hwx0_0 : ∀ i : grid0.Coords, EltTy.bits .f32 = 32 ∨ (Rect.block (s := S4096x128) S32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x32x16.size a ≤ S3x4096x16.size a
  hwx0_1 : ∀ i : grid0.Coords, EltTy.bits .f32 = 32 ∨ (Rect.block (s := S3x4096x16) S3x32x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x32x128.size a ≤ S4096x32x128.size a
  hwx0_2 : ∀ i : grid0.Coords, EltTy.bits .bf16 = 32 ∨ (Rect.block (s := S4096x32x128) S32x32x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x32x32x16.size a ≤ S3x4096x32x16.size a
  hwx0_3 : ∀ i : grid0.Coords, EltTy.bits .bf16 = 32 ∨ (Rect.block (s := S3x4096x32x16) S3x32x32x16.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x32x32.size a ≤ S4096x32x32.size a
  hwx0_4 : ∀ i : grid0.Coords, EltTy.bits .bf16 = 32 ∨ (Rect.block (s := S4096x32x32) S32x32x32.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3x32x32.size a ≤ S3x4096x32.size a
  hwx0_5 : ∀ i : grid0.Coords, EltTy.bits .bf16 = 32 ∨ (Rect.block (s := S3x4096x32) S3x32x32.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S33x33.size a ≤ S33x33.size a
  hwx0_6 : ∀ i : grid0.Coords, EltTy.bits .bf16 = 32 ∨ (Rect.block (s := S33x33) S33x33.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x321.size a ≤ S128x321.size a
  hwx0_7 : ∀ i : grid0.Coords, EltTy.bits .bf16 = 32 ∨ (Rect.block (s := S128x321) S128x321.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x33.size a ≤ S16x33.size a
  hwx0_9 : ∀ i : grid0.Coords, EltTy.bits .bf16 = 32 ∨ (Rect.block (s := S16x33) S16x33.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S16x128.size a ≤ S16x128.size a
  hwx0_10 : ∀ i : grid0.Coords, EltTy.bits .bf16 = 32 ∨ (Rect.block (s := S16x128) S16x128.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S16.size a ≤ S16.size a
  hwx0_11 : ∀ i : grid0.Coords, EltTy.bits .f32 = 32 ∨ (Rect.block (s := S16) S16.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S16x16.size a ≤ S16x16.size a
  hwx0_12 : ∀ i : grid0.Coords, EltTy.bits .bf16 = 32 ∨ (Rect.block (s := S16x16) S16x16.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x144.size a ≤ S128x144.size a
  hwx0_13 : ∀ i : grid0.Coords, EltTy.bits .bf16 = 32 ∨ (Rect.block (s := S128x144) S128x144.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128.size a ≤ S128.size a
  hwx0_14 : ∀ i : grid0.Coords, EltTy.bits .f32 = 32 ∨ (Rect.block (s := S128) S128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S16x16.size a ≤ S16x16.size a
  hwx0_15 : ∀ i : grid0.Coords, EltTy.bits .bf16 = 32 ∨ (Rect.block (s := S16x16) S16x16.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S16x128.size a ≤ S16x128.size a
  hwx0_16 : ∀ i : grid0.Coords, EltTy.bits .bf16 = 32 ∨ (Rect.block (s := S16x128) S16x128.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S16.size a ≤ S16.size a
  hwx0_17 : ∀ i : grid0.Coords, EltTy.bits .f32 = 32 ∨ (Rect.block (s := S16) S16.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S16x16.size a ≤ S16x16.size a
  hwx0_18 : ∀ i : grid0.Coords, EltTy.bits .bf16 = 32 ∨ (Rect.block (s := S16x16) S16x16.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S128x144.size a ≤ S128x144.size a
  hwx0_19 : ∀ i : grid0.Coords, EltTy.bits .bf16 = 32 ∨ (Rect.block (s := S128x144) S128x144.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S128.size a ≤ S128.size a
  hwx0_20 : ∀ i : grid0.Coords, EltTy.bits .f32 = 32 ∨ (Rect.block (s := S128) S128.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S16x16.size a ≤ S16x16.size a
  hwx0_21 : ∀ i : grid0.Coords, EltTy.bits .bf16 = 32 ∨ (Rect.block (s := S16x16) S16x16.size (cc0_transform_21 i) (hinb0_21 i)).WholeWords (EltTy.packing .bf16)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S16x128.size a ≤ S16x128.size a
  hwx0_22 : ∀ i : grid0.Coords, EltTy.bits .bf16 = 32 ∨ (Rect.block (s := S16x128) S16x128.size (cc0_transform_22 i) (hinb0_22 i)).WholeWords (EltTy.packing .bf16)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S16.size a ≤ S16.size a
  hwx0_23 : ∀ i : grid0.Coords, EltTy.bits .f32 = 32 ∨ (Rect.block (s := S16) S16.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S32x128.size a ≤ S4096x128.size a
  hwx0_24 : ∀ i : grid0.Coords, EltTy.bits .f32 = 32 ∨ (Rect.block (s := S4096x128) S32x128.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S3x32x16.size a ≤ S3x4096x16.size a
  hwx0_25 : ∀ i : grid0.Coords, EltTy.bits .f32 = 32 ∨ (Rect.block (s := S3x4096x16) S3x32x16.size (cc0_transform_25 i) (hinb0_25 i)).WholeWords (EltTy.packing .f32)

variable [Facts₀]

def gather_S2x2048x128_S2x2048x32x1_S2x2048x32x128_3_1_0_0_1_3_11128 : GatherDims S2x2048x128 S2x2048x32x1 S2x2048x32x128 where
  offsetDims := [3]
  collapsedSliceDims := [1]
  operandBatchingDims := [0]
  startIndicesBatchingDims := [0]
  startIndexMap := [1]
  indexVectorDim := 3
  sliceSizes := ![1, 1, 128]
  wf := gather_S2x2048x128_S2x2048x32x1_S2x2048x32x128_3_1_0_0_1_3_11128_wf
def gather_S2x2048x16x3_S2x2048x32x1_S2x2048x32x16x3_34_1_0_0_1_3_11163 : GatherDims S2x2048x16x3 S2x2048x32x1 S2x2048x32x16x3 where
  offsetDims := [3, 4]
  collapsedSliceDims := [1]
  operandBatchingDims := [0]
  startIndicesBatchingDims := [0]
  startIndexMap := [1]
  indexVectorDim := 3
  sliceSizes := ![1, 1, 16, 3]
  wf := gather_S2x2048x16x3_S2x2048x32x1_S2x2048x32x16x3_34_1_0_0_1_3_11163_wf
def dot_S1024x33_S33x33_S1024x33_1_0_0_1_n_n : DotDims S1024x33 S33x33 S1024x33 where
  lhsContracting := [1]
  rhsContracting := [0]
  lhsNonContracting := [0]
  rhsNonContracting := [1]
  lhsBatch := []
  rhsBatch := []
  wf := dot_S1024x33_S33x33_S1024x33_1_0_0_1_n_n_wf
def dot_S1024x321_S321x128_S1024x128_1_0_0_1_n_n : DotDims S1024x321 S321x128 S1024x128 where
  lhsContracting := [1]
  rhsContracting := [0]
  lhsNonContracting := [0]
  rhsNonContracting := [1]
  lhsBatch := []
  rhsBatch := []
  wf := dot_S1024x321_S321x128_S1024x128_1_0_0_1_n_n_wf
def dot_S1024x33_S33x16_S1024x16_1_0_0_1_n_n : DotDims S1024x33 S33x16 S1024x16 where
  lhsContracting := [1]
  rhsContracting := [0]
  lhsNonContracting := [0]
  rhsNonContracting := [1]
  lhsBatch := []
  rhsBatch := []
  wf := dot_S1024x33_S33x16_S1024x16_1_0_0_1_n_n_wf
def dot_S1024x128_S128x16_S1024x16_1_0_0_1_n_n : DotDims S1024x128 S128x16 S1024x16 where
  lhsContracting := [1]
  rhsContracting := [0]
  lhsNonContracting := [0]
  rhsNonContracting := [1]
  lhsBatch := []
  rhsBatch := []
  wf := dot_S1024x128_S128x16_S1024x16_1_0_0_1_n_n_wf
def dot_S1024x16_S16x16_S1024x16_1_0_0_1_n_n : DotDims S1024x16 S16x16 S1024x16 where
  lhsContracting := [1]
  rhsContracting := [0]
  lhsNonContracting := [0]
  rhsNonContracting := [1]
  lhsBatch := []
  rhsBatch := []
  wf := dot_S1024x16_S16x16_S1024x16_1_0_0_1_n_n_wf
def dot_S1024x144_S144x128_S1024x128_1_0_0_1_n_n : DotDims S1024x144 S144x128 S1024x128 where
  lhsContracting := [1]
  rhsContracting := [0]
  lhsNonContracting := [0]
  rhsNonContracting := [1]
  lhsBatch := []
  rhsBatch := []
  wf := dot_S1024x144_S144x128_S1024x128_1_0_0_1_n_n_wf

abbrev win0_0 : Pipeline.Window sig grid0 :=
  Pipeline.Window.ofSpec (Memref.whole main_v22) S32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S3x32x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S32x32x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S3x32x32x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v26) S32x32x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v27) S3x32x32.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v28) S33x33.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S128x321.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v30) S16x33.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v31) S16x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S16.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v32) S16x16.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v33) S128x144.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg13) S128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v34) S16x16.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v35) S16x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg16) S16.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v36) S16x16.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v37) S128x144.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg19) S128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v38) S16x16.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v39) S16x128.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg22) S16.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v40_0) S32x128.size cc0_transform_24 reads0_24 true false 2 stage0_24 sem0_24
    hrank0 hreads0_24 hinb0_24 nbuf0_24 (Memref.isWhole_whole _) hwx0_24 hstage0_24

abbrev win0_25 : Pipeline.Window sig grid0 :=
  Pipeline.Window.ofSpec (Memref.whole main_v40_1) S3x32x16.size cc0_transform_25 reads0_25 true false 2 stage0_25 sem0_25
    hrank0 hreads0_25 hinb0_25 nbuf0_25 (Memref.isWhole_whole _) hwx0_25 hstage0_25

abbrev win0 : Fin 26 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | ⟨_ + 26, h⟩ => absurd h (Nat.not_lt.2 (Nat.le_add_left _ _))
abbrev spec0 : Fin 26 → Pipeline.WinSpec sig grid0.rank := fun w => (win0 w).toWinSpec

class Facts : Prop extends Facts₀ where

variable [Facts]
-- ==== ReferenceIdeal.lean ====
abbrev S2x2048x128 : Shape := ⟨3, ![2, 2048, 128]⟩
abbrev S2x2048x16x3 : Shape := ⟨4, ![2, 2048, 16, 3]⟩
abbrev S2x2048x32x32 : Shape := ⟨4, ![2, 2048, 32, 32]⟩
abbrev S2x2048x32x1x3 : Shape := ⟨5, ![2, 2048, 32, 1, 3]⟩
abbrev S2x2048x32 : Shape := ⟨3, ![2, 2048, 32]⟩
abbrev S33x33 : Shape := ⟨2, ![33, 33]⟩
abbrev S128x321 : Shape := ⟨2, ![128, 321]⟩
abbrev S128 : Shape := ⟨1, ![128]⟩
abbrev S16x33 : Shape := ⟨2, ![16, 33]⟩
abbrev S16x128 : Shape := ⟨2, ![16, 128]⟩
abbrev S16 : Shape := ⟨1, ![16]⟩
abbrev S16x16 : Shape := ⟨2, ![16, 16]⟩
abbrev S128x144 : Shape := ⟨2, ![128, 144]⟩
abbrev S_ : Shape := ⟨0, ![]⟩
abbrev S2x2048x32x1 : Shape := ⟨4, ![2, 2048, 32, 1]⟩
abbrev S2x2048x32x128 : Shape := ⟨4, ![2, 2048, 32, 128]⟩
abbrev S2x2048x32x16x3 : Shape := ⟨5, ![2, 2048, 32, 16, 3]⟩
abbrev S2x2048x1x128 : Shape := ⟨4, ![2, 2048, 1, 128]⟩
abbrev S2x2048x1x16x3 : Shape := ⟨5, ![2, 2048, 1, 16, 3]⟩
abbrev S2x2048x32x288 : Shape := ⟨4, ![2, 2048, 32, 288]⟩
abbrev S2x2048x32x33x3 : Shape := ⟨5, ![2, 2048, 32, 33, 3]⟩
abbrev S2x2048x32x3x33 : Shape := ⟨5, ![2, 2048, 32, 3, 33]⟩
abbrev S2x2048x32x33 : Shape := ⟨4, ![2, 2048, 32, 33]⟩
abbrev S2x2048x32x321 : Shape := ⟨4, ![2, 2048, 32, 321]⟩
abbrev S1x1x1x128 : Shape := ⟨4, ![1, 1, 1, 128]⟩
abbrev S2x2048x32x3x16 : Shape := ⟨5, ![2, 2048, 32, 3, 16]⟩
abbrev S2x2048x32x16 : Shape := ⟨4, ![2, 2048, 32, 16]⟩
abbrev S1x1x1x16 : Shape := ⟨4, ![1, 1, 1, 16]⟩
abbrev S2x2048x32x16x1 : Shape := ⟨5, ![2, 2048, 32, 16, 1]⟩
abbrev S2x2048x32x144 : Shape := ⟨4, ![2, 2048, 32, 144]⟩

abbrev nBuf : Space → Nat
  | .hbm => 177
  | .vmem => 0
  | .smem => 0
  | _ => 0

abbrev hbmTy0_0 (i : Nat) : BufTy := match i % 128 with
  | 0 => ⟨S2x2048x128, .f32⟩
  | 1 => ⟨S2x2048x16x3, .f32⟩
  | 2 => ⟨S2x2048x32x32, .f32⟩
  | 3 => ⟨S2x2048x32x1x3, .f32⟩
  | 4 => ⟨S2x2048x32, .i32⟩
  | 5 => ⟨S33x33, .f32⟩
  | 6 => ⟨S128x321, .f32⟩
  | 7 => ⟨S128, .f32⟩
  | 8 => ⟨S16x33, .f32⟩
  | 9 => ⟨S16x128, .f32⟩
  | 10 => ⟨S16, .f32⟩
  | 11 => ⟨S16x16, .f32⟩
  | 12 => ⟨S128x144, .f32⟩
  | 13 => ⟨S128, .f32⟩
  | 14 => ⟨S16x16, .f32⟩
  | 15 => ⟨S16x128, .f32⟩
  | 16 => ⟨S16, .f32⟩
  | 17 => ⟨S16x16, .f32⟩
  | 18 => ⟨S128x144, .f32⟩
  | 19 => ⟨S128, .f32⟩
  | 20 => ⟨S16x16, .f32⟩
  | 21 => ⟨S16x128, .f32⟩
  | 22 => ⟨S16, .f32⟩
  | 23 => ⟨S_, .i32⟩
  | 24 => ⟨S2x2048x32, .i32⟩
  | 25 => ⟨S2x2048x32, .i1⟩
  | 26 => ⟨S_, .i32⟩
  | 27 => ⟨S2x2048x32, .i32⟩
  | 28 => ⟨S2x2048x32, .i32⟩
  | 29 => ⟨S2x2048x32, .i32⟩
  | 30 => ⟨S2x2048x32x1, .i32⟩
  | 31 => ⟨S2x2048x32x128, .f32⟩
  | 32 => ⟨S_, .i32⟩
  | 33 => ⟨S2x2048x32, .i32⟩
  | 34 => ⟨S2x2048x32, .i1⟩
  | 35 => ⟨S_, .i32⟩
  | 36 => ⟨S2x2048x32, .i32⟩
  | 37 => ⟨S2x2048x32, .i32⟩
  | 38 => ⟨S2x2048x32, .i32⟩
  | 39 => ⟨S2x2048x32x1, .i32⟩
  | 40 => ⟨S2x2048x32x16x3, .f32⟩
  | 41 => ⟨S2x2048x1x128, .f32⟩
  | 42 => ⟨S2x2048x32x128, .f32⟩
  | 43 => ⟨S2x2048x1x16x3, .f32⟩
  | 44 => ⟨S2x2048x32x16x3, .f32⟩
  | 45 => ⟨S2x2048x32x288, .f32⟩
  | 46 => ⟨S2x2048x32x33x3, .f32⟩
  | 47 => ⟨S2x2048x32x3x33, .f32⟩
  | 48 => ⟨S2x2048x32x3x33, .f32⟩
  | 49 => ⟨S2x2048x32x3x33, .f32⟩
  | 50 => ⟨S_, .f32⟩
  | 51 => ⟨S2x2048x32x33, .f32⟩
  | 52 => ⟨S_, .f32⟩
  | 53 => ⟨S_, .f32⟩
  | 54 => ⟨S2x2048x32x33, .f32⟩
  | 55 => ⟨S2x2048x32x33, .f32⟩
  | 56 => ⟨S2x2048x32x33, .f32⟩
  | 57 => ⟨S2x2048x32x321, .f32⟩
  | 58 => ⟨S2x2048x32x128, .f32⟩
  | 59 => ⟨S1x1x1x128, .f32⟩
  | 60 => ⟨S2x2048x32x128, .f32⟩
  | 61 => ⟨S2x2048x32x128, .f32⟩
  | 62 => ⟨S2x2048x32x3x16, .f32⟩
  | 63 => ⟨S2x2048x32x16x3, .f32⟩
  | 64 => ⟨S2x2048x32x128, .f32⟩
  | 65 => ⟨S2x2048x32x128, .f32⟩
  | 66 => ⟨S_, .f32⟩
  | 67 => ⟨S2x2048x32x128, .f32⟩
  | 68 => ⟨S2x2048x32x128, .f32⟩
  | 69 => ⟨S_, .f32⟩
  | 70 => ⟨S2x2048x32x128, .f32⟩
  | 71 => ⟨S2x2048x32x128, .f32⟩
  | 72 => ⟨S2x2048x32x16, .f32⟩
  | 73 => ⟨S1x1x1x16, .f32⟩
  | 74 => ⟨S2x2048x32x16, .f32⟩
  | 75 => ⟨S2x2048x32x16, .f32⟩
  | 76 => ⟨S2x2048x32x16, .f32⟩
  | 77 => ⟨S2x2048x32x16, .f32⟩
  | 78 => ⟨S_, .f32⟩
  | 79 => ⟨S2x2048x32x16, .f32⟩
  | 80 => ⟨S2x2048x32x16, .f32⟩
  | 81 => ⟨S_, .f32⟩
  | 82 => ⟨S2x2048x32x16, .f32⟩
  | 83 => ⟨S2x2048x32x16, .f32⟩
  | 84 => ⟨S2x2048x32x16x1, .f32⟩
  | 85 => ⟨S2x2048x32x16x3, .f32⟩
  | 86 => ⟨S2x2048x32x16x3, .f32⟩
  | 87 => ⟨S_, .f32⟩
  | 88 => ⟨S2x2048x32x128, .f32⟩
  | 89 => ⟨S2x2048x32x128, .f32⟩
  | 90 => ⟨S2x2048x32x3x16, .f32⟩
  | 91 => ⟨S2x2048x32x3x16, .f32⟩
  | 92 => ⟨S2x2048x32x3x16, .f32⟩
  | 93 => ⟨S_, .f32⟩
  | 94 => ⟨S2x2048x32x16, .f32⟩
  | 95 => ⟨S_, .f32⟩
  | 96 => ⟨S_, .f32⟩
  | 97 => ⟨S2x2048x32x16, .f32⟩
  | 98 => ⟨S2x2048x32x16, .f32⟩
  | 99 => ⟨S2x2048x32x16, .f32⟩
  | 100 => ⟨S2x2048x32x144, .f32⟩
  | 101 => ⟨S2x2048x32x128, .f32⟩
  | 102 => ⟨S1x1x1x128, .f32⟩
  | 103 => ⟨S2x2048x32x128, .f32⟩
  | 104 => ⟨S2x2048x32x128, .f32⟩
  | 105 => ⟨S2x2048x32x3x16, .f32⟩
  | 106 => ⟨S2x2048x32x16x3, .f32⟩
  | 107 => ⟨S2x2048x32x128, .f32⟩
  | 108 => ⟨S2x2048x32x128, .f32⟩
  | 109 => ⟨S_, .f32⟩
  | 110 => ⟨S2x2048x32x128, .f32⟩
  | 111 => ⟨S2x2048x32x128, .f32⟩
  | 112 => ⟨S_, .f32⟩
  | 113 => ⟨S2x2048x32x128, .f32⟩
  | 114 => ⟨S2x2048x32x128, .f32⟩
  | 115 => ⟨S2x2048x32x16, .f32⟩
  | 116 => ⟨S1x1x1x16, .f32⟩
  | 117 => ⟨S2x2048x32x16, .f32⟩
  | 118 => ⟨S2x2048x32x16, .f32⟩
  | 119 => ⟨S2x2048x32x16, .f32⟩
  | 120 => ⟨S2x2048x32x16, .f32⟩
  | 121 => ⟨S_, .f32⟩
  | 122 => ⟨S2x2048x32x16, .f32⟩
  | 123 => ⟨S2x2048x32x16, .f32⟩
  | 124 => ⟨S_, .f32⟩
  | 125 => ⟨S2x2048x32x16, .f32⟩
  | 126 => ⟨S2x2048x32x16, .f32⟩
  | 127 => ⟨S2x2048x32x16x1, .f32⟩
  | _ => ⟨S2x2048x128, .f32⟩

abbrev hbmTy0_1 (i : Nat) : BufTy := match i % 128 with
  | 0 => ⟨S2x2048x32x16x3, .f32⟩
  | 1 => ⟨S2x2048x32x16x3, .f32⟩
  | 2 => ⟨S_, .f32⟩
  | 3 => ⟨S2x2048x32x128, .f32⟩
  | 4 => ⟨S2x2048x32x128, .f32⟩
  | 5 => ⟨S2x2048x32x3x16, .f32⟩
  | 6 => ⟨S2x2048x32x3x16, .f32⟩
  | 7 => ⟨S2x2048x32x3x16, .f32⟩
  | 8 => ⟨S_, .f32⟩
  | 9 => ⟨S2x2048x32x16, .f32⟩
  | 10 => ⟨S_, .f32⟩
  | 11 => ⟨S_, .f32⟩
  | 12 => ⟨S2x2048x32x16, .f32⟩
  | 13 => ⟨S2x2048x32x16, .f32⟩
  | 14 => ⟨S2x2048x32x16, .f32⟩
  | 15 => ⟨S2x2048x32x144, .f32⟩
  | 16 => ⟨S2x2048x32x128, .f32⟩
  | 17 => ⟨S1x1x1x128, .f32⟩
  | 18 => ⟨S2x2048x32x128, .f32⟩
  | 19 => ⟨S2x2048x32x128, .f32⟩
  | 20 => ⟨S2x2048x32x3x16, .f32⟩
  | 21 => ⟨S2x2048x32x16x3, .f32⟩
  | 22 => ⟨S2x2048x32x16, .f32⟩
  | 23 => ⟨S1x1x1x16, .f32⟩
  | 24 => ⟨S2x2048x32x16, .f32⟩
  | 25 => ⟨S2x2048x32x16, .f32⟩
  | 26 => ⟨S2x2048x32x16, .f32⟩
  | 27 => ⟨S2x2048x32x16, .f32⟩
  | 28 => ⟨S_, .f32⟩
  | 29 => ⟨S2x2048x32x16, .f32⟩
  | 30 => ⟨S2x2048x32x16, .f32⟩
  | 31 => ⟨S_, .f32⟩
  | 32 => ⟨S2x2048x32x16, .f32⟩
  | 33 => ⟨S2x2048x32x16, .f32⟩
  | 34 => ⟨S2x2048x32x16x1, .f32⟩
  | 35 => ⟨S2x2048x32x16x3, .f32⟩
  | 36 => ⟨S2x2048x32x16x3, .f32⟩
  | 37 => ⟨S_, .f32⟩
  | 38 => ⟨S2x2048x128, .f32⟩
  | 39 => ⟨S_, .f32⟩
  | 40 => ⟨S2x2048x128, .f32⟩
  | 41 => ⟨S2x2048x128, .f32⟩
  | 42 => ⟨S_, .f32⟩
  | 43 => ⟨S2x2048x16x3, .f32⟩
  | 44 => ⟨S_, .f32⟩
  | 45 => ⟨S2x2048x16x3, .f32⟩
  | 46 => ⟨S2x2048x16x3, .f32⟩
  | 47 => ⟨S2x2048x128, .f32⟩
  | 48 => ⟨S2x2048x16x3, .f32⟩
  | _ => ⟨S2x2048x128, .f32⟩

abbrev hbmTy (i : Nat) : BufTy := match i / 128 with
  | 0 => hbmTy0_0 i
  | 1 => hbmTy0_1 i
  | _ => ⟨S2x2048x128, .f32⟩

abbrev bufTy : (tb : Table) → Fin (tcTables nBuf tb) → BufTy
  | .hbm, ⟨i, _⟩ => hbmTy i
  | _, _ => ⟨S2x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_v0 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_c_1 : Ref sig .tc := ⟨.hbm, 32, rfl⟩
abbrev main_v7 : Ref sig .tc := ⟨.hbm, 33, rfl⟩
abbrev main_v8 : Ref sig .tc := ⟨.hbm, 34, rfl⟩
abbrev main_c_2 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst : Ref sig .tc := ⟨.hbm, 50, rfl⟩
abbrev main_v23 : Ref sig .tc := ⟨.hbm, 51, rfl⟩
abbrev main_cst_3 : Ref sig .tc := ⟨.hbm, 52, rfl⟩
abbrev main_call0_v0 : Ref sig .tc := ⟨.hbm, 53, rfl⟩
abbrev main_call0_v1 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_4 : Ref sig .tc := ⟨.hbm, 66, rfl⟩
abbrev main_v35 : Ref sig .tc := ⟨.hbm, 67, rfl⟩
abbrev main_v36 : Ref sig .tc := ⟨.hbm, 68, rfl⟩
abbrev main_cst_5 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_6 : Ref sig .tc := ⟨.hbm, 78, rfl⟩
abbrev main_v45 : Ref sig .tc := ⟨.hbm, 79, rfl⟩
abbrev main_v46 : Ref sig .tc := ⟨.hbm, 80, rfl⟩
abbrev main_cst_7 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_call1_cst : Ref sig .tc := ⟨.hbm, 87, rfl⟩
abbrev main_call1_v0 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_8 : Ref sig .tc := ⟨.hbm, 93, rfl⟩
abbrev main_v56 : Ref sig .tc := ⟨.hbm, 94, rfl⟩
abbrev main_cst_9 : Ref sig .tc := ⟨.hbm, 95, rfl⟩
abbrev main_call2_v0 : Ref sig .tc := ⟨.hbm, 96, rfl⟩
abbrev main_call2_v1 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst_10 : Ref sig .tc := ⟨.hbm, 109, rfl⟩
abbrev main_v68 : Ref sig .tc := ⟨.hbm, 110, rfl⟩
abbrev main_v69 : Ref sig .tc := ⟨.hbm, 111, rfl⟩
abbrev main_cst_11 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_cst_12 : Ref sig .tc := ⟨.hbm, 121, rfl⟩
abbrev main_v78 : Ref sig .tc := ⟨.hbm, 122, rfl⟩
abbrev main_v79 : Ref sig .tc := ⟨.hbm, 123, rfl⟩
abbrev main_cst_13 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_call3_cst : Ref sig .tc := ⟨.hbm, 130, rfl⟩
abbrev main_call3_v0 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_cst_14 : Ref sig .tc := ⟨.hbm, 136, rfl⟩
abbrev main_v89 : Ref sig .tc := ⟨.hbm, 137, rfl⟩
abbrev main_cst_15 : Ref sig .tc := ⟨.hbm, 138, rfl⟩
abbrev main_call4_v0 : Ref sig .tc := ⟨.hbm, 139, rfl⟩
abbrev main_call4_v1 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_cst_16 : Ref sig .tc := ⟨.hbm, 156, rfl⟩
abbrev main_v105 : Ref sig .tc := ⟨.hbm, 157, rfl⟩
abbrev main_v106 : Ref sig .tc := ⟨.hbm, 158, rfl⟩
abbrev main_cst_17 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_cst_18 : Ref sig .tc := ⟨.hbm, 165, rfl⟩
abbrev main_v112 : Ref sig .tc := ⟨.hbm, 166, rfl⟩
abbrev main_cst_19 : Ref sig .tc := ⟨.hbm, 167, rfl⟩
abbrev main_v113 : Ref sig .tc := ⟨.hbm, 168, rfl⟩
abbrev main_v114 : Ref sig .tc := ⟨.hbm, 169, rfl⟩
abbrev main_cst_20 : Ref sig .tc := ⟨.hbm, 170, rfl⟩
abbrev main_v115 : Ref sig .tc := ⟨.hbm, 171, rfl⟩
abbrev main_cst_21 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩

abbrev nD : Nat := 1
abbrev τ : Topo := Topo.v7x

variable {F : FTy → Type} [FloatOps F]

class Facts₀ : Prop where
  bcast_S_S2x2048x32 : S_.BroadcastsInDim S2x2048x32 (![] : Fin 0 → Fin S2x2048x32.rank)
  bcast_S2x2048x32_S2x2048x32x1_0_1_2 : S2x2048x32.BroadcastsInDim S2x2048x32x1 (![0, 1, 2] : Fin 3 → Fin S2x2048x32x1.rank)
  bcast_S2x2048x128_S2x2048x1x128_0_1_3 : S2x2048x128.BroadcastsInDim S2x2048x1x128 (![0, 1, 3] : Fin 3 → Fin S2x2048x1x128.rank)
  bcast_S2x2048x1x128_S2x2048x32x128_0_1_2_3 : S2x2048x1x128.BroadcastsInDim S2x2048x32x128 (![0, 1, 2, 3] : Fin 4 → Fin S2x2048x32x128.rank)
  bcast_S2x2048x16x3_S2x2048x1x16x3_0_1_3_4 : S2x2048x16x3.BroadcastsInDim S2x2048x1x16x3 (![0, 1, 3, 4] : Fin 4 → Fin S2x2048x1x16x3.rank)
  bcast_S2x2048x1x16x3_S2x2048x32x16x3_0_1_2_3_4 : S2x2048x1x16x3.BroadcastsInDim S2x2048x32x16x3 (![0, 1, 2, 3, 4] : Fin 5 → Fin S2x2048x32x16x3.rank)
  concatenates_S2x2048x32x128_S2x2048x32x128_S2x2048x32x32_S2x2048x32x288_d3 : Shape.Concatenates [S2x2048x32x128, S2x2048x32x128, S2x2048x32x32] S2x2048x32x288 3
  concatenates_S2x2048x32x16x3_S2x2048x32x16x3_S2x2048x32x1x3_S2x2048x32x33x3_d3 : Shape.Concatenates [S2x2048x32x16x3, S2x2048x32x16x3, S2x2048x32x1x3] S2x2048x32x33x3 3
  transposes_S2x2048x32x33x3_S2x2048x32x3x33_0_1_2_4_3 : S2x2048x32x33x3.Transposes [0, 1, 2, 4, 3] S2x2048x32x3x33
  reducesTo_S2x2048x32x3x33_S2x2048x32x33_d3 : S2x2048x32x3x33.ReducesTo [3] S2x2048x32x33
  h_S_ : 0 < S_.numel
  bcast_S_S2x2048x32x33 : S_.BroadcastsInDim S2x2048x32x33 (![] : Fin 0 → Fin S2x2048x32x33.rank)
  concatenates_S2x2048x32x288_S2x2048x32x33_S2x2048x32x321_d3 : Shape.Concatenates [S2x2048x32x288, S2x2048x32x33] S2x2048x32x321 3
  bcast_S128_S1x1x1x128_3 : S128.BroadcastsInDim S1x1x1x128 (![3] : Fin 1 → Fin S1x1x1x128.rank)
  bcast_S1x1x1x128_S2x2048x32x128_0_1_2_3 : S1x1x1x128.BroadcastsInDim S2x2048x32x128 (![0, 1, 2, 3] : Fin 4 → Fin S2x2048x32x128.rank)
  transposes_S2x2048x32x3x16_S2x2048x32x16x3_0_1_2_4_3 : S2x2048x32x3x16.Transposes [0, 1, 2, 4, 3] S2x2048x32x16x3
  bcast_S_S2x2048x32x128 : S_.BroadcastsInDim S2x2048x32x128 (![] : Fin 0 → Fin S2x2048x32x128.rank)
  bcast_S16_S1x1x1x16_3 : S16.BroadcastsInDim S1x1x1x16 (![3] : Fin 1 → Fin S1x1x1x16.rank)
  bcast_S1x1x1x16_S2x2048x32x16_0_1_2_3 : S1x1x1x16.BroadcastsInDim S2x2048x32x16 (![0, 1, 2, 3] : Fin 4 → Fin S2x2048x32x16.rank)
  bcast_S_S2x2048x32x16 : S_.BroadcastsInDim S2x2048x32x16 (![] : Fin 0 → Fin S2x2048x32x16.rank)
  bcast_S2x2048x32x16_S2x2048x32x16x1_0_1_2_3 : S2x2048x32x16.BroadcastsInDim S2x2048x32x16x1 (![0, 1, 2, 3] : Fin 4 → Fin S2x2048x32x16x1.rank)
  bcast_S2x2048x32x16x1_S2x2048x32x16x3_0_1_2_3_4 : S2x2048x32x16x1.BroadcastsInDim S2x2048x32x16x3 (![0, 1, 2, 3, 4] : Fin 5 → Fin S2x2048x32x16x3.rank)
  transposes_S2x2048x32x16x3_S2x2048x32x3x16_0_1_2_4_3 : S2x2048x32x16x3.Transposes [0, 1, 2, 4, 3] S2x2048x32x3x16
  reducesTo_S2x2048x32x3x16_S2x2048x32x16_d3 : S2x2048x32x3x16.ReducesTo [3] S2x2048x32x16
  concatenates_S2x2048x32x128_S2x2048x32x16_S2x2048x32x144_d3 : Shape.Concatenates [S2x2048x32x128, S2x2048x32x16] S2x2048x32x144 3
  reducesTo_S2x2048x32x128_S2x2048x128_d2 : S2x2048x32x128.ReducesTo [2] S2x2048x128
  bcast_S_S2x2048x128 : S_.BroadcastsInDim S2x2048x128 (![] : Fin 0 → Fin S2x2048x128.rank)
  reducesTo_S2x2048x32x16x3_S2x2048x16x3_d2 : S2x2048x32x16x3.ReducesTo [2] S2x2048x16x3
  bcast_S_S2x2048x16x3 : S_.BroadcastsInDim S2x2048x16x3 (![] : Fin 0 → Fin S2x2048x16x3.rank)
  gather_S2x2048x128_S2x2048x32x1_S2x2048x32x128_3_1_0_0_1_3_11128_wf : GatherDims.WF S2x2048x128 S2x2048x32x1 S2x2048x32x128 [3] [1] [0] [1] [0] 3 ![1, 1, 128]
  gather_S2x2048x16x3_S2x2048x32x1_S2x2048x32x16x3_34_1_0_0_1_3_11163_wf : GatherDims.WF S2x2048x16x3 S2x2048x32x1 S2x2048x32x16x3 [3, 4] [1] [0] [1] [0] 3 ![1, 1, 16, 3]
  dot_S2x2048x32x3x33_S33x33_S2x2048x32x3x33_4_1_0123_0_n_n_wf : DotDims.WF S2x2048x32x3x33 S33x33 S2x2048x32x3x33 [4] [1] [0, 1, 2, 3] [0] [] []
  dot_S2x2048x32x321_S128x321_S2x2048x32x128_3_1_012_0_n_n_wf : DotDims.WF S2x2048x32x321 S128x321 S2x2048x32x128 [3] [1] [0, 1, 2] [0] [] []
  dot_S2x2048x32x3x33_S16x33_S2x2048x32x3x16_4_1_0123_0_n_n_wf : DotDims.WF S2x2048x32x3x33 S16x33 S2x2048x32x3x16 [4] [1] [0, 1, 2, 3] [0] [] []
  dot_S2x2048x32x128_S16x128_S2x2048x32x16_3_1_012_0_n_n_wf : DotDims.WF S2x2048x32x128 S16x128 S2x2048x32x16 [3] [1] [0, 1, 2] [0] [] []
  dot_S2x2048x32x3x16_S16x16_S2x2048x32x3x16_4_1_0123_0_n_n_wf : DotDims.WF S2x2048x32x3x16 S16x16 S2x2048x32x3x16 [4] [1] [0, 1, 2, 3] [0] [] []
  dot_S2x2048x32x144_S128x144_S2x2048x32x128_3_1_012_0_n_n_wf : DotDims.WF S2x2048x32x144 S128x144 S2x2048x32x128 [3] [1] [0, 1, 2] [0] [] []

variable [Facts₀]

def gather_S2x2048x128_S2x2048x32x1_S2x2048x32x128_3_1_0_0_1_3_11128 : GatherDims S2x2048x128 S2x2048x32x1 S2x2048x32x128 where
  offsetDims := [3]
  collapsedSliceDims := [1]
  operandBatchingDims := [0]
  startIndicesBatchingDims := [0]
  startIndexMap := [1]
  indexVectorDim := 3
  sliceSizes := ![1, 1, 128]
  wf := gather_S2x2048x128_S2x2048x32x1_S2x2048x32x128_3_1_0_0_1_3_11128_wf
def gather_S2x2048x16x3_S2x2048x32x1_S2x2048x32x16x3_34_1_0_0_1_3_11163 : GatherDims S2x2048x16x3 S2x2048x32x1 S2x2048x32x16x3 where
  offsetDims := [3, 4]
  collapsedSliceDims := [1]
  operandBatchingDims := [0]
  startIndicesBatchingDims := [0]
  startIndexMap := [1]
  indexVectorDim := 3
  sliceSizes := ![1, 1, 16, 3]
  wf := gather_S2x2048x16x3_S2x2048x32x1_S2x2048x32x16x3_34_1_0_0_1_3_11163_wf
def dot_S2x2048x32x3x33_S33x33_S2x2048x32x3x33_4_1_0123_0_n_n : DotDims S2x2048x32x3x33 S33x33 S2x2048x32x3x33 where
  lhsContracting := [4]
  rhsContracting := [1]
  lhsNonContracting := [0, 1, 2, 3]
  rhsNonContracting := [0]
  lhsBatch := []
  rhsBatch := []
  wf := dot_S2x2048x32x3x33_S33x33_S2x2048x32x3x33_4_1_0123_0_n_n_wf
def dot_S2x2048x32x321_S128x321_S2x2048x32x128_3_1_012_0_n_n : DotDims S2x2048x32x321 S128x321 S2x2048x32x128 where
  lhsContracting := [3]
  rhsContracting := [1]
  lhsNonContracting := [0, 1, 2]
  rhsNonContracting := [0]
  lhsBatch := []
  rhsBatch := []
  wf := dot_S2x2048x32x321_S128x321_S2x2048x32x128_3_1_012_0_n_n_wf
def dot_S2x2048x32x3x33_S16x33_S2x2048x32x3x16_4_1_0123_0_n_n : DotDims S2x2048x32x3x33 S16x33 S2x2048x32x3x16 where
  lhsContracting := [4]
  rhsContracting := [1]
  lhsNonContracting := [0, 1, 2, 3]
  rhsNonContracting := [0]
  lhsBatch := []
  rhsBatch := []
  wf := dot_S2x2048x32x3x33_S16x33_S2x2048x32x3x16_4_1_0123_0_n_n_wf
def dot_S2x2048x32x128_S16x128_S2x2048x32x16_3_1_012_0_n_n : DotDims S2x2048x32x128 S16x128 S2x2048x32x16 where
  lhsContracting := [3]
  rhsContracting := [1]
  lhsNonContracting := [0, 1, 2]
  rhsNonContracting := [0]
  lhsBatch := []
  rhsBatch := []
  wf := dot_S2x2048x32x128_S16x128_S2x2048x32x16_3_1_012_0_n_n_wf
def dot_S2x2048x32x3x16_S16x16_S2x2048x32x3x16_4_1_0123_0_n_n : DotDims S2x2048x32x3x16 S16x16 S2x2048x32x3x16 where
  lhsContracting := [4]
  rhsContracting := [1]
  lhsNonContracting := [0, 1, 2, 3]
  rhsNonContracting := [0]
  lhsBatch := []
  rhsBatch := []
  wf := dot_S2x2048x32x3x16_S16x16_S2x2048x32x3x16_4_1_0123_0_n_n_wf
def dot_S2x2048x32x144_S128x144_S2x2048x32x128_3_1_012_0_n_n : DotDims S2x2048x32x144 S128x144 S2x2048x32x128 where
  lhsContracting := [3]
  rhsContracting := [1]
  lhsNonContracting := [0, 1, 2]
  rhsNonContracting := [0]
  lhsBatch := []
  rhsBatch := []
  wf := dot_S2x2048x32x144_S128x144_S2x2048x32x128_3_1_012_0_n_n_wf

class Facts : Prop extends Facts₀ where

variable [Facts]
-- ==== Proof.RefRun.lean ====
/-
  The array program's run, stretch by stretch.  Its @main is a straight line of 154 host operations; the final
  contents of every buffer are the fold of the operations' results over the launch contents.  Read in five
  stretches — the first layer; the second layer up to its clipped norm; the rest of the second layer; the third layer
  up to its clipped norm; the rest of the third layer with the two results — each stretch's outgoing arrays are the
  stage functions of the read-at-an-index module applied to @main's arguments: a stretch is evaluated over whatever the
  stretches before it left, and what they left in the buffers it reads is the previous stretches' statements.  A
  stretch that opens with a two-piece concatenate takes its two operands from those statements by the concatenate's
  own congruence.
-/
import proofs.«418785_j9663676416046_3_alg».proof.Proof.RefOps
import proofs.«418785_j9663676416046_3_alg».proof.Proof.RefRead
import Idealize.ShloMosaic.Lib.Pipeline.Frame

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

/-- A two-piece concatenation of equal pieces is the same array. -/
theorem concatenate_pair_congr {α : Type} {t s₁ s₂ : Shape} {a : Fin t.rank} {x₁ x₁' : s₁.Idx → α} {x₂ x₂' : s₂.Idx → α}
    (h : Shape.Concatenates [s₁, s₂] t a) (h₁ : x₁ = x₁') (h₂ : x₂ = x₂') :
    concatenate t a [⟨s₁, x₁⟩, ⟨s₂, x₂⟩] h = concatenate t a [⟨s₁, x₁'⟩, ⟨s₂, x₂'⟩] h := by
  subst h₁ h₂; rfl

variable {F : FTy → Type} [FloatOps F] (m : (ℓ : Loc nD τ sig) → Buf (Elt F) ℓ) (c : Dev nD)

/-! ## The first layer -/

set_option maxRecDepth 8192 in
set_option maxHeartbeats 4000000 in
theorem A52 : after (opsA (F := F)) (launchContents m c) (Proc.devRef .tc main_v52) = val_main_v52 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold opsA
  after_results_simp <;> rfl

set_option maxRecDepth 8192 in
set_option maxHeartbeats 4000000 in
theorem A51 : after (opsA (F := F)) (launchContents m c) (Proc.devRef .tc main_v51) = val_main_v51 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold opsA
  after_results_simp <;> rfl

set_option maxRecDepth 8192 in
set_option maxHeartbeats 4000000 in
theorem Akept0 : after (opsA (F := F)) (launchContents m c) (Proc.devRef .tc main_arg0) = (m ((c.tc : Thread nD τ).loc main_arg0)) := by
  unfold opsA
  after_results_simp <;> rfl

set_option maxRecDepth 8192 in
set_option maxHeartbeats 4000000 in
theorem Akept1 : after (opsA (F := F)) (launchContents m c) (Proc.devRef .tc main_arg1) = (m ((c.tc : Thread nD τ).loc main_arg1)) := by
  unfold opsA
  after_results_simp <;> rfl

set_option maxRecDepth 8192 in
set_option maxHeartbeats 4000000 in
theorem Akept11 : after (opsA (F := F)) (launchContents m c) (Proc.devRef .tc main_arg11) = (m ((c.tc : Thread nD τ).loc main_arg11)) := by
  unfold opsA
  after_results_simp <;> rfl

set_option maxRecDepth 8192 in
set_option maxHeartbeats 4000000 in
theorem Akept12 : after (opsA (F := F)) (launchContents m c) (Proc.devRef .tc main_arg12) = (m ((c.tc : Thread nD τ).loc main_arg12)) := by
  unfold opsA
  after_results_simp <;> rfl

set_option maxRecDepth 8192 in
set_option maxHeartbeats 4000000 in
theorem Akept13 : after (opsA (F := F)) (launchContents m c) (Proc.devRef .tc main_arg13) = (m ((c.tc : Thread nD τ).loc main_arg13)) := by
  unfold opsA
  after_results_simp <;> rfl

set_option maxRecDepth 8192 in
set_option maxHeartbeats 4000000 in
theorem Akept14 : after (opsA (F := F)) (launchContents m c) (Proc.devRef .tc main_arg14) = (m ((c.tc : Thread nD τ).loc main_arg14)) := by
  unfold opsA
  after_results_simp <;> rfl

set_option maxRecDepth 8192 in
set_option maxHeartbeats 4000000 in
theorem Akept15 : after (opsA (F := F)) (launchContents m c) (Proc.devRef .tc main_arg15) = (m ((c.tc : Thread nD τ).loc main_arg15)) := by
  unfold opsA
  after_results_simp <;> rfl

set_option maxRecDepth 8192 in
set_option maxHeartbeats 4000000 in
theorem Akept16 : after (opsA (F := F)) (launchContents m c) (Proc.devRef .tc main_arg16) = (m ((c.tc : Thread nD τ).loc main_arg16)) := by
  unfold opsA
  after_results_simp <;> rfl

set_option maxRecDepth 8192 in
set_option maxHeartbeats 4000000 in
theorem Akept17 : after (opsA (F := F)) (launchContents m c) (Proc.devRef .tc main_arg17) = (m ((c.tc : Thread nD τ).loc main_arg17)) := by
  unfold opsA
  after_results_simp <;> rfl

set_option maxRecDepth 8192 in
set_option maxHeartbeats 4000000 in
theorem Akept18 : after (opsA (F := F)) (launchContents m c) (Proc.devRef .tc main_arg18) = (m ((c.tc : Thread nD τ).loc main_arg18)) := by
  unfold opsA
  after_results_simp <;> rfl

set_option maxRecDepth 8192 in
set_option maxHeartbeats 4000000 in
theorem Akept19 : after (opsA (F := F)) (launchContents m c) (Proc.devRef .tc main_arg19) = (m ((c.tc : Thread nD τ).loc main_arg19)) := by
  unfold opsA
  after_results_simp <;> rfl

set_option maxRecDepth 8192 in
set_option maxHeartbeats 4000000 in
theorem Akept20 : after (opsA (F := F)) (launchContents m c) (Proc.devRef .tc main_arg20) = (m ((c.tc : Thread nD τ).loc main_arg20)) := by
  unfold opsA
  after_results_simp <;> rfl

set_option maxRecDepth 8192 in
set_option maxHeartbeats 4000000 in
theorem Akept21 : after (opsA (F := F)) (launchContents m c) (Proc.devRef .tc main_arg21) = (m ((c.tc : Thread nD τ).loc main_arg21)) := by
  unfold opsA
  after_results_simp <;> rfl

set_option maxRecDepth 8192 in
set_option maxHeartbeats 4000000 in
theorem Akept22 : after (opsA (F := F)) (launchContents m c) (Proc.devRef .tc main_arg22) = (m ((c.tc : Thread nD τ).loc main_arg22)) := by
  unfold opsA
  after_results_simp <;> rfl

/-! ## The second layer up to its clipped norm -/

set_option maxRecDepth 8192 in
set_option maxHeartbeats 4000000 in
theorem B1_54 : after (opsB1 (F := F)) (after (opsA (F := F)) (launchContents m c)) (Proc.devRef .tc main_v54) = val_main_v54 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold opsB1
  after_results_simp
  simp only [A51 m c, Akept11 m c]
  rfl

set_option maxRecDepth 8192 in
set_option maxHeartbeats 4000000 in
theorem B1_58 : after (opsB1 (F := F)) (after (opsA (F := F)) (launchContents m c)) (Proc.devRef .tc main_v58) = val_main_v58 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold opsB1
  after_results_simp
  simp only [A51 m c, Akept11 m c]
  rfl

set_option maxRecDepth 8192 in
set_option maxHeartbeats 4000000 in
theorem B1_52 : after (opsB1 (F := F)) (after (opsA (F := F)) (launchContents m c)) (Proc.devRef .tc main_v52) = val_main_v52 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold opsB1
  after_results_simp
  exact A52 m c

set_option maxRecDepth 8192 in
set_option maxHeartbeats 4000000 in
theorem B1kept0 : after (opsB1 (F := F)) (after (opsA (F := F)) (launchContents m c)) (Proc.devRef .tc main_arg0) = (m ((c.tc : Thread nD τ).loc main_arg0)) := by
  unfold opsB1
  after_results_simp
  exact Akept0 m c

set_option maxRecDepth 8192 in
set_option maxHeartbeats 4000000 in
theorem B1kept1 : after (opsB1 (F := F)) (after (opsA (F := F)) (launchContents m c)) (Proc.devRef .tc main_arg1) = (m ((c.tc : Thread nD τ).loc main_arg1)) := by
  unfold opsB1
  after_results_simp
  exact Akept1 m c

set_option maxRecDepth 8192 in
set_option maxHeartbeats 4000000 in
theorem B1kept12 : after (opsB1 (F := F)) (after (opsA (F := F)) (launchContents m c)) (Proc.devRef .tc main_arg12) = (m ((c.tc : Thread nD τ).loc main_arg12)) := by
  unfold opsB1
  after_results_simp
  exact Akept12 m c

set_option maxRecDepth 8192 in
set_option maxHeartbeats 4000000 in
theorem B1kept13 : after (opsB1 (F := F)) (after (opsA (F := F)) (launchContents m c)) (Proc.devRef .tc main_arg13) = (m ((c.tc : Thread nD τ).loc main_arg13)) := by
  unfold opsB1
  after_results_simp
  exact Akept13 m c

set_option maxRecDepth 8192 in
set_option maxHeartbeats 4000000 in
theorem B1kept14 : after (opsB1 (F := F)) (after (opsA (F := F)) (launchContents m c)) (Proc.devRef .tc main_arg14) = (m ((c.tc : Thread nD τ).loc main_arg14)) := by
  unfold opsB1
  after_results_simp
  exact Akept14 m c

set_option maxRecDepth 8192 in
set_option maxHeartbeats 4000000 in
theorem B1kept15 : after (opsB1 (F := F)) (after (opsA (F := F)) (launchContents m c)) (Proc.devRef .tc main_arg15) = (m ((c.tc : Thread nD τ).loc main_arg15)) := by
  unfold opsB1
  after_results_simp
  exact Akept15 m c

set_option maxRecDepth 8192 in
set_option maxHeartbeats 4000000 in
theorem B1kept16 : after (opsB1 (F := F)) (after (opsA (F := F)) (launchContents m c)) (Proc.devRef .tc main_arg16) = (m ((c.tc : Thread nD τ).loc main_arg16)) := by
  unfold opsB1
  after_results_simp
  exact Akept16 m c

set_option maxRecDepth 8192 in
set_option maxHeartbeats 4000000 in
theorem B1kept17 : after (opsB1 (F := F)) (after (opsA (F := F)) (launchContents m c)) (Proc.devRef .tc main_arg17) = (m ((c.tc : Thread nD τ).loc main_arg17)) := by
  unfold opsB1
  after_results_simp
  exact Akept17 m c

set_option maxRecDepth 8192 in
set_option maxHeartbeats 4000000 in
theorem B1kept18 : after (opsB1 (F := F)) (after (opsA (F := F)) (launchContents m c)) (Proc.devRef .tc main_arg18) = (m ((c.tc : Thread nD τ).loc main_arg18)) := by
  unfold opsB1
  after_results_simp
  exact Akept18 m c

set_option maxRecDepth 8192 in
set_option maxHeartbeats 4000000 in
theorem B1kept19 : after (opsB1 (F := F)) (after (opsA (F := F)) (launchContents m c)) (Proc.devRef .tc main_arg19) = (m ((c.tc : Thread nD τ).loc main_arg19)) := by
  unfold opsB1
  after_results_simp
  exact Akept19 m c

set_option maxRecDepth 8192 in
set_option maxHeartbeats 4000000 in
theorem B1kept20 : after (opsB1 (F := F)) (after (opsA (F := F)) (launchContents m c)) (Proc.devRef .tc main_arg20) = (m ((c.tc : Thread nD τ).loc main_arg20)) := by
  unfold opsB1
  after_results_simp
  exact Akept20 m c

set_option maxRecDepth 8192 in
set_option maxHeartbeats 4000000 in
theorem B1kept21 : after (opsB1 (F := F)) (after (opsA (F := F)) (launchContents m c)) (Proc.devRef .tc main_arg21) = (m ((c.tc : Thread nD τ).loc main_arg21)) := by
  unfold opsB1
  after_results_simp
  exact Akept21 m c

set_option maxRecDepth 8192 in
set_option maxHeartbeats 4000000 in
theorem B1kept22 : after (opsB1 (F := F)) (after (opsA (F := F)) (launchContents m c)) (Proc.devRef .tc main_arg22) = (m ((c.tc : Thread nD τ).loc main_arg22)) := by
  unfold opsB1
  after_results_simp
  exact Akept22 m c

/-! ## The rest of the second layer -/

set_option maxRecDepth 8192 in
set_option maxHeartbeats 4000000 in
theorem B85 : after (opsB2 (F := F)) (after (opsB1 (F := F)) (after (opsA (F := F)) (launchContents m c))) (Proc.devRef .tc main_v85) = val_main_v85 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  unfold opsB2
  after_results_simp
  rw [concatenate_pair_congr (α := F .f32) (s₁ := S2x2048x32x128) (s₂ := S2x2048x32x16) _ (B1_52 m c) (B1_58 m c)]
  simp only [B1kept12 m c, B1kept13 m c]
  rfl

set_option maxRecDepth 8192 in
set_option maxHeartbeats 4000000 in
theorem B84 : after (opsB2 (F := F)) (after (opsB1 (F := F)) (after (opsA (F := F)) (launchContents m c))) (Proc.devRef .tc main_v84) = val_main_v84 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  unfold opsB2
  after_results_simp
  rw [concatenate_pair_congr (α := F .f32) (s₁ := S2x2048x32x128) (s₂ := S2x2048x32x16) _ (B1_52 m c) (B1_58 m c)]
  simp only [B1_54 m c, B1kept12 m c, B1kept13 m c, B1kept14 m c, B1kept15 m c, B1kept16 m c]
  rfl

set_option maxRecDepth 8192 in
set_option maxHeartbeats 4000000 in
theorem B2kept0 : after (opsB2 (F := F)) (after (opsB1 (F := F)) (after (opsA (F := F)) (launchContents m c))) (Proc.devRef .tc main_arg0) = (m ((c.tc : Thread nD τ).loc main_arg0)) := by
  unfold opsB2
  after_results_simp
  exact B1kept0 m c

set_option maxRecDepth 8192 in
set_option maxHeartbeats 4000000 in
theorem B2kept1 : after (opsB2 (F := F)) (after (opsB1 (F := F)) (after (opsA (F := F)) (launchContents m c))) (Proc.devRef .tc main_arg1) = (m ((c.tc : Thread nD τ).loc main_arg1)) := by
  unfold opsB2
  after_results_simp
  exact B1kept1 m c

set_option maxRecDepth 8192 in
set_option maxHeartbeats 4000000 in
theorem B2kept17 : after (opsB2 (F := F)) (after (opsB1 (F := F)) (after (opsA (F := F)) (launchContents m c))) (Proc.devRef .tc main_arg17) = (m ((c.tc : Thread nD τ).loc main_arg17)) := by
  unfold opsB2
  after_results_simp
  exact B1kept17 m c

set_option maxRecDepth 8192 in
set_option maxHeartbeats 4000000 in
theorem B2kept18 : after (opsB2 (F := F)) (after (opsB1 (F := F)) (after (opsA (F := F)) (launchContents m c))) (Proc.devRef .tc main_arg18) = (m ((c.tc : Thread nD τ).loc main_arg18)) := by
  unfold opsB2
  after_results_simp
  exact B1kept18 m c

set_option maxRecDepth 8192 in
set_option maxHeartbeats 4000000 in
theorem B2kept19 : after (opsB2 (F := F)) (after (opsB1 (F := F)) (after (opsA (F := F)) (launchContents m c))) (Proc.devRef .tc main_arg19) = (m ((c.tc : Thread nD τ).loc main_arg19)) := by
  unfold opsB2
  after_results_simp
  exact B1kept19 m c

set_option maxRecDepth 8192 in
set_option maxHeartbeats 4000000 in
theorem B2kept20 : after (opsB2 (F := F)) (after (opsB1 (F := F)) (after (opsA (F := F)) (launchContents m c))) (Proc.devRef .tc main_arg20) = (m ((c.tc : Thread nD τ).loc main_arg20)) := by
  unfold opsB2
  after_results_simp
  exact B1kept20 m c

set_option maxRecDepth 8192 in
set_option maxHeartbeats 4000000 in
theorem B2kept21 : after (opsB2 (F := F)) (after (opsB1 (F := F)) (after (opsA (F := F)) (launchContents m c))) (Proc.devRef .tc main_arg21) = (m ((c.tc : Thread nD τ).loc main_arg21)) := by
  unfold opsB2
  after_results_simp
  exact B1kept21 m c

set_option maxRecDepth 8192 in
set_option maxHeartbeats 4000000 in
theorem B2kept22 : after (opsB2 (F := F)) (after (opsB1 (F := F)) (after (opsA (F := F)) (launchContents m c))) (Proc.devRef .tc main_arg22) = (m ((c.tc : Thread nD τ).loc main_arg22)) := by
  unfold opsB2
  after_results_simp
  exact B1kept22 m c

/-! ## The third layer up to its clipped norm -/

set_option maxRecDepth 8192 in
set_option maxHeartbeats 4000000 in
theorem C1_87 : after (opsC1 (F := F)) (after (opsB2 (F := F)) (after (opsB1 (F := F)) (after (opsA (F := F)) (launchContents m c)))) (Proc.devRef .tc main_v87) = val_main_v87 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  unfold opsC1
  after_results_simp
  simp only [B84 m c, B2kept17 m c]
  rfl

set_option maxRecDepth 8192 in
set_option maxHeartbeats 4000000 in
theorem C1_91 : after (opsC1 (F := F)) (after (opsB2 (F := F)) (after (opsB1 (F := F)) (after (opsA (F := F)) (launchContents m c)))) (Proc.devRef .tc main_v91) = val_main_v91 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  unfold opsC1
  after_results_simp
  simp only [B84 m c, B2kept17 m c]
  rfl

set_option maxRecDepth 8192 in
set_option maxHeartbeats 4000000 in
theorem C1_85 : after (opsC1 (F := F)) (after (opsB2 (F := F)) (after (opsB1 (F := F)) (after (opsA (F := F)) (launchContents m c)))) (Proc.devRef .tc main_v85) = val_main_v85 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  unfold opsC1
  after_results_simp
  exact B85 m c

set_option maxRecDepth 8192 in
set_option maxHeartbeats 4000000 in
theorem C1kept0 : after (opsC1 (F := F)) (after (opsB2 (F := F)) (after (opsB1 (F := F)) (after (opsA (F := F)) (launchContents m c)))) (Proc.devRef .tc main_arg0) = (m ((c.tc : Thread nD τ).loc main_arg0)) := by
  unfold opsC1
  after_results_simp
  exact B2kept0 m c

set_option maxRecDepth 8192 in
set_option maxHeartbeats 4000000 in
theorem C1kept1 : after (opsC1 (F := F)) (after (opsB2 (F := F)) (after (opsB1 (F := F)) (after (opsA (F := F)) (launchContents m c)))) (Proc.devRef .tc main_arg1) = (m ((c.tc : Thread nD τ).loc main_arg1)) := by
  unfold opsC1
  after_results_simp
  exact B2kept1 m c

set_option maxRecDepth 8192 in
set_option maxHeartbeats 4000000 in
theorem C1kept18 : after (opsC1 (F := F)) (after (opsB2 (F := F)) (after (opsB1 (F := F)) (after (opsA (F := F)) (launchContents m c)))) (Proc.devRef .tc main_arg18) = (m ((c.tc : Thread nD τ).loc main_arg18)) := by
  unfold opsC1
  after_results_simp
  exact B2kept18 m c

set_option maxRecDepth 8192 in
set_option maxHeartbeats 4000000 in
theorem C1kept19 : after (opsC1 (F := F)) (after (opsB2 (F := F)) (after (opsB1 (F := F)) (after (opsA (F := F)) (launchContents m c)))) (Proc.devRef .tc main_arg19) = (m ((c.tc : Thread nD τ).loc main_arg19)) := by
  unfold opsC1
  after_results_simp
  exact B2kept19 m c

set_option maxRecDepth 8192 in
set_option maxHeartbeats 4000000 in
theorem C1kept20 : after (opsC1 (F := F)) (after (opsB2 (F := F)) (after (opsB1 (F := F)) (after (opsA (F := F)) (launchContents m c)))) (Proc.devRef .tc main_arg20) = (m ((c.tc : Thread nD τ).loc main_arg20)) := by
  unfold opsC1
  after_results_simp
  exact B2kept20 m c

set_option maxRecDepth 8192 in
set_option maxHeartbeats 4000000 in
theorem C1kept21 : after (opsC1 (F := F)) (after (opsB2 (F := F)) (after (opsB1 (F := F)) (after (opsA (F := F)) (launchContents m c)))) (Proc.devRef .tc main_arg21) = (m ((c.tc : Thread nD τ).loc main_arg21)) := by
  unfold opsC1
  after_results_simp
  exact B2kept21 m c

set_option maxRecDepth 8192 in
set_option maxHeartbeats 4000000 in
theorem C1kept22 : after (opsC1 (F := F)) (after (opsB2 (F := F)) (after (opsB1 (F := F)) (after (opsA (F := F)) (launchContents m c)))) (Proc.devRef .tc main_arg22) = (m ((c.tc : Thread nD τ).loc main_arg22)) := by
  unfold opsC1
  after_results_simp
  exact B2kept22 m c

/-! ## The rest of the third layer and the two results -/

set_option maxRecDepth 8192 in
set_option maxHeartbeats 4000000 in
theorem C118 : after (opsC2 (F := F)) (after (opsC1 (F := F)) (after (opsB2 (F := F)) (after (opsB1 (F := F)) (after (opsA (F := F)) (launchContents m c))))) (Proc.devRef .tc main_v118) = val_main_v118 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  unfold opsC2
  after_results_simp
  rw [concatenate_pair_congr (α := F .f32) (s₁ := S2x2048x32x128) (s₂ := S2x2048x32x16) _ (C1_85 m c) (C1_91 m c)]
  simp only [C1kept0 m c, C1kept18 m c, C1kept19 m c]
  rfl

set_option maxRecDepth 8192 in
set_option maxHeartbeats 4000000 in
theorem C119 : after (opsC2 (F := F)) (after (opsC1 (F := F)) (after (opsB2 (F := F)) (after (opsB1 (F := F)) (after (opsA (F := F)) (launchContents m c))))) (Proc.devRef .tc main_v119) = val_main_v119 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) := by
  unfold opsC2
  after_results_simp
  rw [concatenate_pair_congr (α := F .f32) (s₁ := S2x2048x32x128) (s₂ := S2x2048x32x16) _ (C1_85 m c) (C1_91 m c)]
  simp only [C1_87 m c, C1kept1 m c, C1kept18 m c, C1kept19 m c, C1kept20 m c, C1kept21 m c, C1kept22 m c]
  rfl

/-- The whole line's first result. -/
theorem R118 : after (ops (F := F)) (launchContents m c) (Proc.devRef .tc main_v118) = val_main_v118 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  rw [ops_split, StableHlo.after_append, StableHlo.after_append, StableHlo.after_append, StableHlo.after_append]
  exact C118 m c

/-- The whole line's second result. -/
theorem R119 : after (ops (F := F)) (launchContents m c) (Proc.devRef .tc main_v119) = val_main_v119 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) := by
  rw [ops_split, StableHlo.after_append, StableHlo.after_append, StableHlo.after_append, StableHlo.after_append]
  exact C119 m c
/-! ## The run -/

set_option maxRecDepth 8192 in
set_option maxHeartbeats 61600000 in
/-- On every device, for any float values, from any memory with zero counters: every weakly fair execution of @main
    terminates with each result at its stage function of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v118) = val_main_v118 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_v119) = val_main_v119 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => ⟨(h c main_v118).trans (R118 m c),
      (h c main_v119).trans (R119 m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl),
      (h c main_arg15).trans (by after_results_simp <;> rfl),
      (h c main_arg16).trans (by after_results_simp <;> rfl),
      (h c main_arg17).trans (by after_results_simp <;> rfl),
      (h c main_arg18).trans (by after_results_simp <;> rfl),
      (h c main_arg19).trans (by after_results_simp <;> rfl),
      (h c main_arg20).trans (by after_results_simp <;> rfl),
      (h c main_arg21).trans (by after_results_simp <;> rfl),
      (h c main_arg22).trans (by after_results_simp <;> rfl)⟩)
    (run_seq scopedRefs_eq scopedSems_eq defs main (fun _ => ops) main_eq (fun _ => ops_sub) m ρ)

end Cert.ReferenceIdeal.Value

end
-- ==== Proof.KHost.lean ====
/-
  What the tile program's windows hold when the region is entered, read at an index.  Before the region the
  program only re-lays its inputs: a change of float format (the identity on extended reals), the neighbour gather
  (kept as the array it returns), transposes that bring the spatial coordinate to the front, and reshapes that merge
  the batch and node axes into one axis of 4096 nodes.  Node r of that axis is batch r / 2048, node r % 2048.
-/
import proofs.«418785_j9663676416046_3_alg».proof.Proof.KernelIdealFrame
import Idealize.ShloMosaic.Lib.Pipeline.Value
import Idealize.ShloMosaic.Lib.ValueIdx
import Idealize.ShloMosaic.Lib.StableHlo.Run

noncomputable section

namespace Cert.KernelIdeal.Arr

open Idealize.ShloMosaic Idealize.ShloMosaic.TcCoe Idealize.ShloMosaic.ValueIdx Idealize.SL.Sem Idealize.ShloMosaic.StableHlo
open Cert.KernelIdeal Cert.KernelIdeal.Gen Cert.KernelIdeal.GenP

variable (m : (ℓ : Loc nD τ sig) → Buf (Elt Ideal) ℓ)

/-- The batch of node `r` of the merged axis. -/
def nodeB (r : Fin 4096) : Fin 2 := ⟨r.val / 2048, by have := r.isLt; omega⟩
/-- Its position inside the batch. -/
def nodeN (r : Fin 4096) : Fin 2048 := ⟨r.val % 2048, Nat.mod_lt _ (by decide)⟩

/-- The neighbour indices as the gathers take them: a negative index counts from the end. -/
def nbrIdx (c : Dev nD) : IVec S2x2048x32x1 32 :=
  broadcastInDim S2x2048x32x1 ![0, 1, 2] bcast_S2x2048x32_S2x2048x32x1_0_1_2
    (select
      (cmpi CmpIPredicate.slt (m ((c : Thread nD τ).loc main_arg4))
        (broadcastInDim S2x2048x32 ![] bcast_S_S2x2048x32 (constantI S_ 32 0#32)))
      (addi (m ((c : Thread nD τ).loc main_arg4))
        (broadcastInDim S2x2048x32 ![] bcast_S_S2x2048x32 (constantI S_ 32 2048#32)))
      (m ((c : Thread nD τ).loc main_arg4)))

/-- The gathered neighbours' scalar rows. -/
def XS (c : Dev nD) : Vec Ideal S2x2048x32x128 .bf16 :=
  Host.gather gather_S2x2048x128_S2x2048x32x1_S2x2048x32x128_3_1_0_0_1_3_11128
    (truncf (F := Ideal) FTy.bf16 (m ((c : Thread nD τ).loc main_arg0) : FVec Ideal S2x2048x128 .f32) bitsLt_bf16_f32) (nbrIdx m c)

/-- The gathered neighbours' vector rows. -/
def XV (c : Dev nD) : Vec Ideal S2x2048x32x16x3 .bf16 :=
  Host.gather gather_S2x2048x16x3_S2x2048x32x1_S2x2048x32x16x3_34_1_0_0_1_3_11163
    (truncf (F := Ideal) FTy.bf16 (m ((c : Thread nD τ).loc main_arg1) : FVec Ideal S2x2048x16x3 .f32) bitsLt_bf16_f32) (nbrIdx m c)

/-! ## The six tiled windows' arrays -/

set_option maxHeartbeats 1000000 in
theorem V_v22 (c : Dev nD) : (V m c main_v22 : Vec Ideal S4096x128 .f32)
    = shapeCast S4096x128 (m ((c : Thread nD τ).loc main_arg0)) shapeCasts_S2x2048x128_S4096x128 := by
  show StableHlo.after hostOps0 (fun b => m (c, b)) (Proc.devRef .tc main_v22) = _
  after_results
  rfl

set_option maxHeartbeats 1000000 in
theorem V_v23 (c : Dev nD) : (V m c main_v23 : Vec Ideal S3x4096x16 .f32)
    = shapeCast S3x4096x16 (transpose S3x2x2048x16 [3, 0, 1, 2] (m ((c : Thread nD τ).loc main_arg1))
        transposes_S2x2048x16x3_S3x2x2048x16_3_0_1_2) shapeCasts_S3x2x2048x16_S3x4096x16 := by
  show StableHlo.after hostOps0 (fun b => m (c, b)) (Proc.devRef .tc main_v23) = _
  after_results
  rfl

set_option maxHeartbeats 1000000 in
theorem V_v24 (c : Dev nD) : (V m c main_v24 : Vec Ideal S4096x32x128 .bf16)
    = shapeCast S4096x32x128 (XS m c) shapeCasts_S2x2048x32x128_S4096x32x128 := by
  show StableHlo.after hostOps0 (fun b => m (c, b)) (Proc.devRef .tc main_v24) = _
  after_results
  rfl

set_option maxHeartbeats 1000000 in
theorem V_v25 (c : Dev nD) : (V m c main_v25 : Vec Ideal S3x4096x32x16 .bf16)
    = shapeCast S3x4096x32x16 (transpose S3x2x2048x32x16 [4, 0, 1, 2, 3] (XV m c)
        transposes_S2x2048x32x16x3_S3x2x2048x32x16_4_0_1_2_3) shapeCasts_S3x2x2048x32x16_S3x4096x32x16 := by
  show StableHlo.after hostOps0 (fun b => m (c, b)) (Proc.devRef .tc main_v25) = _
  after_results
  rfl

set_option maxHeartbeats 1000000 in
theorem V_v26 (c : Dev nD) : (V m c main_v26 : Vec Ideal S4096x32x32 .bf16)
    = shapeCast S4096x32x32 (truncf (F := Ideal) FTy.bf16 (m ((c : Thread nD τ).loc main_arg2) : FVec Ideal S2x2048x32x32 .f32) bitsLt_bf16_f32)
        shapeCasts_S2x2048x32x32_S4096x32x32 := by
  show StableHlo.after hostOps0 (fun b => m (c, b)) (Proc.devRef .tc main_v26) = _
  after_results
  rfl

set_option maxHeartbeats 1000000 in
theorem V_v27 (c : Dev nD) : (V m c main_v27 : Vec Ideal S3x4096x32 .bf16)
    = shapeCast S3x4096x32
        (shapeCast S3x2x2048x32
          (transpose S3x2x2048x32x1 [4, 0, 1, 2, 3]
            (truncf (F := Ideal) FTy.bf16 (m ((c : Thread nD τ).loc main_arg3) : FVec Ideal S2x2048x32x1x3 .f32) bitsLt_bf16_f32)
            transposes_S2x2048x32x1x3_S3x2x2048x32x1_4_0_1_2_3)
          shapeCasts_S3x2x2048x32x1_S3x2x2048x32)
        shapeCasts_S3x2x2048x32_S3x4096x32 := by
  show StableHlo.after hostOps0 (fun b => m (c, b)) (Proc.devRef .tc main_v27) = _
  after_results
  rfl

/-! ## The windows' arrays read at an index -/

/-- The batch and position of a node recombine to the node. -/
private theorem node_split (r : Fin 4096) : (nodeB r).val * 2048 + (nodeN r).val = r.val := by
  show r.val / 2048 * 2048 + r.val % 2048 = r.val
  omega

/-- Merging the batch and node axes, read backwards: `[2, 2048, 128]` as `[4096, 128]`. -/
private theorem merge_3_128 {α : Type} (x : S2x2048x128.Idx → α) (h : S2x2048x128.ShapeCasts S4096x128)
    (r : Fin 4096) (f : Fin 128) : shapeCast S4096x128 x h (ix2 r f) = x (ix3 (nodeB r) (nodeN r) f) :=
  shapeCast_apply x h _ _ (by
    rw [Shape.rowMajor_val_three, Shape.rowMajor_val_two]
    show ((nodeB r).val * 2048 + (nodeN r).val) * 128 + f.val = r.val * 128 + f.val
    rw [node_split])

/-- `[3, 2, 2048, 16]` as `[3, 4096, 16]`. -/
private theorem merge_4_16 {α : Type} (x : S3x2x2048x16.Idx → α) (h : S3x2x2048x16.ShapeCasts S3x4096x16)
    (u : Fin 3) (r : Fin 4096) (i : Fin 16) :
    shapeCast S3x4096x16 x h (ix3 u r i) = x (ix4 u (nodeB r) (nodeN r) i) :=
  shapeCast_apply x h _ _ (by
    rw [Shape.rowMajor_val_four, Shape.rowMajor_val_three]
    show ((u.val * 2 + (nodeB r).val) * 2048 + (nodeN r).val) * 16 + i.val = (u.val * 4096 + r.val) * 16 + i.val
    have := node_split r
    omega)

/-- `[2, 2048, 32, 128]` as `[4096, 32, 128]`. -/
private theorem merge_4_128 {α : Type} (x : S2x2048x32x128.Idx → α) (h : S2x2048x32x128.ShapeCasts S4096x32x128)
    (r : Fin 4096) (k : Fin 32) (f : Fin 128) :
    shapeCast S4096x32x128 x h (ix3 r k f) = x (ix4 (nodeB r) (nodeN r) k f) :=
  shapeCast_apply x h _ _ (by
    rw [Shape.rowMajor_val_four, Shape.rowMajor_val_three]
    show (((nodeB r).val * 2048 + (nodeN r).val) * 32 + k.val) * 128 + f.val = (r.val * 32 + k.val) * 128 + f.val
    rw [node_split])

/-- `[3, 2, 2048, 32, 16]` as `[3, 4096, 32, 16]`. -/
private theorem merge_5_16 {α : Type} (x : S3x2x2048x32x16.Idx → α) (h : S3x2x2048x32x16.ShapeCasts S3x4096x32x16)
    (u : Fin 3) (r : Fin 4096) (k : Fin 32) (i : Fin 16) :
    shapeCast S3x4096x32x16 x h (ix4 u r k i) = x (ix5 u (nodeB r) (nodeN r) k i) :=
  shapeCast_apply x h _ _ (by
    rw [Shape.rowMajor_val_five, Shape.rowMajor_val_four]
    show (((u.val * 2 + (nodeB r).val) * 2048 + (nodeN r).val) * 32 + k.val) * 16 + i.val
      = ((u.val * 4096 + r.val) * 32 + k.val) * 16 + i.val
    have := node_split r
    omega)

/-- `[2, 2048, 32, 32]` as `[4096, 32, 32]`. -/
private theorem merge_4_32 {α : Type} (x : S2x2048x32x32.Idx → α) (h : S2x2048x32x32.ShapeCasts S4096x32x32)
    (r : Fin 4096) (k : Fin 32) (f : Fin 32) :
    shapeCast S4096x32x32 x h (ix3 r k f) = x (ix4 (nodeB r) (nodeN r) k f) :=
  shapeCast_apply x h _ _ (by
    rw [Shape.rowMajor_val_four, Shape.rowMajor_val_three]
    show (((nodeB r).val * 2048 + (nodeN r).val) * 32 + k.val) * 32 + f.val = (r.val * 32 + k.val) * 32 + f.val
    rw [node_split])

/-- `[3, 2, 2048, 32]` as `[3, 4096, 32]`. -/
private theorem merge_4_e {α : Type} (x : S3x2x2048x32.Idx → α) (h : S3x2x2048x32.ShapeCasts S3x4096x32)
    (u : Fin 3) (r : Fin 4096) (k : Fin 32) :
    shapeCast S3x4096x32 x h (ix3 u r k) = x (ix4 u (nodeB r) (nodeN r) k) :=
  shapeCast_apply x h _ _ (by
    rw [Shape.rowMajor_val_four, Shape.rowMajor_val_three]
    show ((u.val * 2 + (nodeB r).val) * 2048 + (nodeN r).val) * 32 + k.val = (u.val * 4096 + r.val) * 32 + k.val
    have := node_split r
    omega)

/-- A trailing unit axis put back: `[3, 2, 2048, 32]` read in `[3, 2, 2048, 32, 1]`. -/
private theorem unit_5 {α : Type} (x : S3x2x2048x32x1.Idx → α) (h : S3x2x2048x32x1.ShapeCasts S3x2x2048x32)
    (u : Fin 3) (b : Fin 2) (n : Fin 2048) (k : Fin 32) :
    shapeCast S3x2x2048x32 x h (ix4 u b n k) = x (ix5 u b n k (0 : Fin 1)) :=
  shapeCast_apply x h _ _ (by
    rw [Shape.rowMajor_val_five, Shape.rowMajor_val_four]
    show (((u.val * 2 + b.val) * 2048 + n.val) * 32 + k.val) * 1 + 0 = ((u.val * 2 + b.val) * 2048 + n.val) * 32 + k.val
    omega)

/-- The spatial coordinate brought to the front of a rank-4 array, read backwards. -/
private theorem front_4 {α : Type} (x : S2x2048x16x3.Idx → α) (h : S2x2048x16x3.Transposes [3, 0, 1, 2] S3x2x2048x16)
    (u : Fin 3) (b : Fin 2) (n : Fin 2048) (i : Fin 16) :
    transpose S3x2x2048x16 [3, 0, 1, 2] x h (ix4 u b n i) = x (ix4 b n i u) :=
  transpose_apply _ x h _ _ fun a => match a with | ⟨0, _⟩ => rfl | ⟨1, _⟩ => rfl | ⟨2, _⟩ => rfl | ⟨3, _⟩ => rfl

/-- The same at rank 5, sixteen channels. -/
private theorem front_5_16 {α : Type} (x : S2x2048x32x16x3.Idx → α)
    (h : S2x2048x32x16x3.Transposes [4, 0, 1, 2, 3] S3x2x2048x32x16)
    (u : Fin 3) (b : Fin 2) (n : Fin 2048) (k : Fin 32) (i : Fin 16) :
    transpose S3x2x2048x32x16 [4, 0, 1, 2, 3] x h (ix5 u b n k i) = x (ix5 b n k i u) :=
  transpose_apply _ x h _ _ fun a =>
    match a with | ⟨0, _⟩ => rfl | ⟨1, _⟩ => rfl | ⟨2, _⟩ => rfl | ⟨3, _⟩ => rfl | ⟨4, _⟩ => rfl

/-- The same at rank 5, one channel. -/
private theorem front_5_1 {α : Type} (x : S2x2048x32x1x3.Idx → α)
    (h : S2x2048x32x1x3.Transposes [4, 0, 1, 2, 3] S3x2x2048x32x1)
    (u : Fin 3) (b : Fin 2) (n : Fin 2048) (k : Fin 32) (i : Fin 1) :
    transpose S3x2x2048x32x1 [4, 0, 1, 2, 3] x h (ix5 u b n k i) = x (ix5 b n k i u) :=
  transpose_apply _ x h _ _ fun a =>
    match a with | ⟨0, _⟩ => rfl | ⟨1, _⟩ => rfl | ⟨2, _⟩ => rfl | ⟨3, _⟩ => rfl | ⟨4, _⟩ => rfl

/-- The scalar features: the merged node axis split back into batch and position. -/
theorem W22_at (c : Dev nD) (r : Fin 4096) (f : Fin 128) : (V m c main_v22 : Vec Ideal S4096x128 .f32) (ix2 r f) = (m ((c : Thread nD τ).loc main_arg0) : Vec Ideal S2x2048x128 .f32) (ix3 (nodeB r) (nodeN r) f) := by
  rw [V_v22]
  exact merge_3_128 _ _ r f

/-- The vector features: the spatial coordinate, brought to the front, goes back to the last axis. -/
theorem W23_at (c : Dev nD) (u : Fin 3) (r : Fin 4096) (i : Fin 16) : (V m c main_v23 : Vec Ideal S3x4096x16 .f32) (ix3 u r i) = (m ((c : Thread nD τ).loc main_arg1) : Vec Ideal S2x2048x16x3 .f32) (ix4 (nodeB r) (nodeN r) i u) := by
  rw [V_v23]
  exact (merge_4_16 _ _ u r i).trans (front_4 _ _ u (nodeB r) (nodeN r) i)

/-- The gathered neighbours' scalar rows. -/
theorem W24_at (c : Dev nD) (r : Fin 4096) (k : Fin 32) (f : Fin 128) : (V m c main_v24 : Vec Ideal S4096x32x128 .bf16) (ix3 r k f) = XS m c (ix4 (nodeB r) (nodeN r) k f) := by
  rw [V_v24]
  exact merge_4_128 _ _ r k f

/-- The gathered neighbours' vector rows. -/
theorem W25_at (c : Dev nD) (u : Fin 3) (r : Fin 4096) (k : Fin 32) (i : Fin 16) : (V m c main_v25 : Vec Ideal S3x4096x32x16 .bf16) (ix4 u r k i) = XV m c (ix5 (nodeB r) (nodeN r) k i u) := by
  rw [V_v25]
  exact (merge_5_16 _ _ u r k i).trans (front_5_16 _ _ u (nodeB r) (nodeN r) k i)

/-- The edges' scalar rows (the change of float format is the identity on extended reals). -/
theorem W26_at (c : Dev nD) (r : Fin 4096) (k : Fin 32) (f : Fin 32) : (V m c main_v26 : Vec Ideal S4096x32x32 .bf16) (ix3 r k f) = (m ((c : Thread nD τ).loc main_arg2) : Vec Ideal S2x2048x32x32 .f32) (ix4 (nodeB r) (nodeN r) k f) := by
  rw [V_v26]
  exact merge_4_32 _ _ r k f

/-- The edges' vector rows: one channel, whose unit axis the program drops. -/
theorem W27_at (c : Dev nD) (u : Fin 3) (r : Fin 4096) (k : Fin 32) : (V m c main_v27 : Vec Ideal S3x4096x32 .bf16) (ix3 u r k) = (m ((c : Thread nD τ).loc main_arg3) : Vec Ideal S2x2048x32x1x3 .f32) (ix5 (nodeB r) (nodeN r) k 0 u) := by
  rw [V_v27]
  exact ((merge_4_e _ _ u r k).trans (unit_5 _ _ u (nodeB r) (nodeN r) k)).trans
    (front_5_1 _ _ u (nodeB r) (nodeN r) k 0)

end Cert.KernelIdeal.Arr

end
-- ==== Proof.KBlk.lean ====
/-
  Where each grid point's blocks sit in the arrays.  The grid has 128 points; point t's block of a tiled window
  holds nodes t * 32, …, t * 32 + 31 of the merged axis of 4096 nodes (the other axes whole), and every weight
  window's block is its whole array, which is the weight argument itself (a change of float format being the
  identity on extended reals).  The two output windows' blocks sit the same way, and together they cover their arrays.
-/
import proofs.«418785_j9663676416046_3_alg».proof.Proof.KernelIdealFrame
import Idealize.ShloMosaic.Lib.Pipeline.Value
import Idealize.ShloMosaic.Lib.ValueIdx
import Idealize.ShloMosaic.Lib.StableHlo.Run

noncomputable section

namespace Cert.KernelIdeal.Arr

open Idealize.ShloMosaic Idealize.ShloMosaic.TcCoe Idealize.ShloMosaic.ValueIdx Idealize.SL.Sem Idealize.ShloMosaic.StableHlo
open Cert.KernelIdeal Cert.KernelIdeal.Gen Cert.KernelIdeal.GenP

variable (m : (ℓ : Loc nD τ sig) → Buf (Elt Ideal) ℓ)

/-- Node `p` of grid point `t`'s block, on the merged axis of 4096 nodes. -/
def trow (t : Fin cfg0.N) (p : Fin 32) : Fin 4096 :=
  ⟨t.val * 32 + p.val, by have := t.isLt; have := p.isLt; have : cfg0.N = 128 := N_0; omega⟩

/-! ## The block indices over the grid -/

/-- The tiled windows' block index at point `t`: `t` on the node axis, `0` on every other axis. -/
theorem idx_facts0 : ∀ t : Fin cfg0.N, win0_0.index t (0 : Fin 2) = t.val ∧ win0_0.index t (1 : Fin 2) = 0 :=
  (by decide +kernel : ∀ t : Fin grid0.N, _)
theorem idx_facts1 : ∀ t : Fin cfg0.N, win0_1.index t (0 : Fin 3) = 0 ∧ win0_1.index t (1 : Fin 3) = t.val
    ∧ win0_1.index t (2 : Fin 3) = 0 :=
  (by decide +kernel : ∀ t : Fin grid0.N, _)
theorem idx_facts2 : ∀ t : Fin cfg0.N, win0_2.index t (0 : Fin 3) = t.val ∧ win0_2.index t (1 : Fin 3) = 0
    ∧ win0_2.index t (2 : Fin 3) = 0 :=
  (by decide +kernel : ∀ t : Fin grid0.N, _)
theorem idx_facts3 : ∀ t : Fin cfg0.N, win0_3.index t (0 : Fin 4) = 0 ∧ win0_3.index t (1 : Fin 4) = t.val
    ∧ win0_3.index t (2 : Fin 4) = 0 ∧ win0_3.index t (3 : Fin 4) = 0 :=
  (by decide +kernel : ∀ t : Fin grid0.N, _)
theorem idx_facts4 : ∀ t : Fin cfg0.N, win0_4.index t (0 : Fin 3) = t.val ∧ win0_4.index t (1 : Fin 3) = 0
    ∧ win0_4.index t (2 : Fin 3) = 0 :=
  (by decide +kernel : ∀ t : Fin grid0.N, _)
theorem idx_facts5 : ∀ t : Fin cfg0.N, win0_5.index t (0 : Fin 3) = 0 ∧ win0_5.index t (1 : Fin 3) = t.val
    ∧ win0_5.index t (2 : Fin 3) = 0 :=
  (by decide +kernel : ∀ t : Fin grid0.N, _)
theorem idx_facts24 : ∀ t : Fin cfg0.N, win0_24.index t (0 : Fin 2) = t.val ∧ win0_24.index t (1 : Fin 2) = 0 :=
  (by decide +kernel : ∀ t : Fin grid0.N, _)
theorem idx_facts25 : ∀ t : Fin cfg0.N, win0_25.index t (0 : Fin 3) = 0 ∧ win0_25.index t (1 : Fin 3) = t.val
    ∧ win0_25.index t (2 : Fin 3) = 0 :=
  (by decide +kernel : ∀ t : Fin grid0.N, _)

/-! ## The six tiled windows' blocks -/

theorem blk0_at (c : Dev nD) (t : Fin cfg0.N) (p : Fin 32) (f : Fin 128) :
    (iblk m c 0 t : Vec Ideal S32x128 .f32) (ix2 p f) = (V m c main_v22 : Vec Ideal S4096x128 .f32) (ix2 (trow t p) f) := by
  obtain ⟨e0, e1⟩ := idx_facts0 t
  show V m c main_v22 (((cfg0.win 0).blk t).view.emb (ix2 p f)) = _
  refine congrArg (V m c main_v22) ?_
  funext a; apply Fin.ext
  match a with
  | ⟨0, _⟩ => show win0_0.index t (0 : Fin 2) * 32 + 1 * p.val = t.val * 32 + p.val; omega
  | ⟨1, _⟩ => show win0_0.index t (1 : Fin 2) * 128 + 1 * f.val = f.val; omega

theorem blk1_at (c : Dev nD) (t : Fin cfg0.N) (u : Fin 3) (p : Fin 32) (i : Fin 16) :
    (iblk m c 1 t : Vec Ideal S3x32x16 .f32) (ix3 u p i) = (V m c main_v23 : Vec Ideal S3x4096x16 .f32) (ix3 u (trow t p) i) := by
  obtain ⟨e0, e1, e2⟩ := idx_facts1 t
  show V m c main_v23 (((cfg0.win 1).blk t).view.emb (ix3 u p i)) = _
  refine congrArg (V m c main_v23) ?_
  funext a; apply Fin.ext
  match a with
  | ⟨0, _⟩ => show win0_1.index t (0 : Fin 3) * 3 + 1 * u.val = u.val; omega
  | ⟨1, _⟩ => show win0_1.index t (1 : Fin 3) * 32 + 1 * p.val = t.val * 32 + p.val; omega
  | ⟨2, _⟩ => show win0_1.index t (2 : Fin 3) * 16 + 1 * i.val = i.val; omega

theorem blk2_at (c : Dev nD) (t : Fin cfg0.N) (p k : Fin 32) (f : Fin 128) :
    (iblk m c 2 t : Vec Ideal S32x32x128 .bf16) (ix3 p k f) = (V m c main_v24 : Vec Ideal S4096x32x128 .bf16) (ix3 (trow t p) k f) := by
  obtain ⟨e0, e1, e2⟩ := idx_facts2 t
  show V m c main_v24 (((cfg0.win 2).blk t).view.emb (ix3 p k f)) = _
  refine congrArg (V m c main_v24) ?_
  funext a; apply Fin.ext
  match a with
  | ⟨0, _⟩ => show win0_2.index t (0 : Fin 3) * 32 + 1 * p.val = t.val * 32 + p.val; omega
  | ⟨1, _⟩ => show win0_2.index t (1 : Fin 3) * 32 + 1 * k.val = k.val; omega
  | ⟨2, _⟩ => show win0_2.index t (2 : Fin 3) * 128 + 1 * f.val = f.val; omega

theorem blk3_at (c : Dev nD) (t : Fin cfg0.N) (u : Fin 3) (p k : Fin 32) (i : Fin 16) :
    (iblk m c 3 t : Vec Ideal S3x32x32x16 .bf16) (ix4 u p k i)
      = (V m c main_v25 : Vec Ideal S3x4096x32x16 .bf16) (ix4 u (trow t p) k i) := by
  obtain ⟨e0, e1, e2, e3⟩ := idx_facts3 t
  show V m c main_v25 (((cfg0.win 3).blk t).view.emb (ix4 u p k i)) = _
  refine congrArg (V m c main_v25) ?_
  funext a; apply Fin.ext
  match a with
  | ⟨0, _⟩ => show win0_3.index t (0 : Fin 4) * 3 + 1 * u.val = u.val; omega
  | ⟨1, _⟩ => show win0_3.index t (1 : Fin 4) * 32 + 1 * p.val = t.val * 32 + p.val; omega
  | ⟨2, _⟩ => show win0_3.index t (2 : Fin 4) * 32 + 1 * k.val = k.val; omega
  | ⟨3, _⟩ => show win0_3.index t (3 : Fin 4) * 16 + 1 * i.val = i.val; omega

theorem blk4_at (c : Dev nD) (t : Fin cfg0.N) (p k : Fin 32) (f : Fin 32) :
    (iblk m c 4 t : Vec Ideal S32x32x32 .bf16) (ix3 p k f) = (V m c main_v26 : Vec Ideal S4096x32x32 .bf16) (ix3 (trow t p) k f) := by
  obtain ⟨e0, e1, e2⟩ := idx_facts4 t
  show V m c main_v26 (((cfg0.win 4).blk t).view.emb (ix3 p k f)) = _
  refine congrArg (V m c main_v26) ?_
  funext a; apply Fin.ext
  match a with
  | ⟨0, _⟩ => show win0_4.index t (0 : Fin 3) * 32 + 1 * p.val = t.val * 32 + p.val; omega
  | ⟨1, _⟩ => show win0_4.index t (1 : Fin 3) * 32 + 1 * k.val = k.val; omega
  | ⟨2, _⟩ => show win0_4.index t (2 : Fin 3) * 32 + 1 * f.val = f.val; omega

theorem blk5_at (c : Dev nD) (t : Fin cfg0.N) (u : Fin 3) (p k : Fin 32) :
    (iblk m c 5 t : Vec Ideal S3x32x32 .bf16) (ix3 u p k) = (V m c main_v27 : Vec Ideal S3x4096x32 .bf16) (ix3 u (trow t p) k) := by
  obtain ⟨e0, e1, e2⟩ := idx_facts5 t
  show V m c main_v27 (((cfg0.win 5).blk t).view.emb (ix3 u p k)) = _
  refine congrArg (V m c main_v27) ?_
  funext a; apply Fin.ext
  match a with
  | ⟨0, _⟩ => show win0_5.index t (0 : Fin 3) * 3 + 1 * u.val = u.val; omega
  | ⟨1, _⟩ => show win0_5.index t (1 : Fin 3) * 32 + 1 * p.val = t.val * 32 + p.val; omega
  | ⟨2, _⟩ => show win0_5.index t (2 : Fin 3) * 32 + 1 * k.val = k.val; omega

/-! ## The weight windows: every block is the whole array, which is the weight argument itself -/

/-- A weight window's block index is `0` on every axis at every point. -/
theorem idx_facts6 : ∀ t : Fin cfg0.N, win0_6.index t (0 : Fin 2) = 0 ∧ win0_6.index t (1 : Fin 2) = 0 :=
  (by decide +kernel : ∀ t : Fin grid0.N, _)
theorem idx_facts7 : ∀ t : Fin cfg0.N, win0_7.index t (0 : Fin 2) = 0 ∧ win0_7.index t (1 : Fin 2) = 0 :=
  (by decide +kernel : ∀ t : Fin grid0.N, _)
theorem idx_facts8 : ∀ t : Fin cfg0.N, win0_8.index t (0 : Fin 1) = 0 :=
  (by decide +kernel : ∀ t : Fin grid0.N, _)
theorem idx_facts9 : ∀ t : Fin cfg0.N, win0_9.index t (0 : Fin 2) = 0 ∧ win0_9.index t (1 : Fin 2) = 0 :=
  (by decide +kernel : ∀ t : Fin grid0.N, _)
theorem idx_facts10 : ∀ t : Fin cfg0.N, win0_10.index t (0 : Fin 2) = 0 ∧ win0_10.index t (1 : Fin 2) = 0 :=
  (by decide +kernel : ∀ t : Fin grid0.N, _)
theorem idx_facts11 : ∀ t : Fin cfg0.N, win0_11.index t (0 : Fin 1) = 0 :=
  (by decide +kernel : ∀ t : Fin grid0.N, _)
theorem idx_facts12 : ∀ t : Fin cfg0.N, win0_12.index t (0 : Fin 2) = 0 ∧ win0_12.index t (1 : Fin 2) = 0 :=
  (by decide +kernel : ∀ t : Fin grid0.N, _)
theorem idx_facts13 : ∀ t : Fin cfg0.N, win0_13.index t (0 : Fin 2) = 0 ∧ win0_13.index t (1 : Fin 2) = 0 :=
  (by decide +kernel : ∀ t : Fin grid0.N, _)
theorem idx_facts14 : ∀ t : Fin cfg0.N, win0_14.index t (0 : Fin 1) = 0 :=
  (by decide +kernel : ∀ t : Fin grid0.N, _)
theorem idx_facts15 : ∀ t : Fin cfg0.N, win0_15.index t (0 : Fin 2) = 0 ∧ win0_15.index t (1 : Fin 2) = 0 :=
  (by decide +kernel : ∀ t : Fin grid0.N, _)
theorem idx_facts16 : ∀ t : Fin cfg0.N, win0_16.index t (0 : Fin 2) = 0 ∧ win0_16.index t (1 : Fin 2) = 0 :=
  (by decide +kernel : ∀ t : Fin grid0.N, _)
theorem idx_facts17 : ∀ t : Fin cfg0.N, win0_17.index t (0 : Fin 1) = 0 :=
  (by decide +kernel : ∀ t : Fin grid0.N, _)
theorem idx_facts18 : ∀ t : Fin cfg0.N, win0_18.index t (0 : Fin 2) = 0 ∧ win0_18.index t (1 : Fin 2) = 0 :=
  (by decide +kernel : ∀ t : Fin grid0.N, _)
theorem idx_facts19 : ∀ t : Fin cfg0.N, win0_19.index t (0 : Fin 2) = 0 ∧ win0_19.index t (1 : Fin 2) = 0 :=
  (by decide +kernel : ∀ t : Fin grid0.N, _)
theorem idx_facts20 : ∀ t : Fin cfg0.N, win0_20.index t (0 : Fin 1) = 0 :=
  (by decide +kernel : ∀ t : Fin grid0.N, _)
theorem idx_facts21 : ∀ t : Fin cfg0.N, win0_21.index t (0 : Fin 2) = 0 ∧ win0_21.index t (1 : Fin 2) = 0 :=
  (by decide +kernel : ∀ t : Fin grid0.N, _)
theorem idx_facts22 : ∀ t : Fin cfg0.N, win0_22.index t (0 : Fin 2) = 0 ∧ win0_22.index t (1 : Fin 2) = 0 :=
  (by decide +kernel : ∀ t : Fin grid0.N, _)
theorem idx_facts23 : ∀ t : Fin cfg0.N, win0_23.index t (0 : Fin 1) = 0 :=
  (by decide +kernel : ∀ t : Fin grid0.N, _)

/-! The converted weights as the region finds them: the weight arguments (the change of format is the identity). -/

set_option maxHeartbeats 1000000 in
theorem V_v28 (c : Dev nD) : (V m c main_v28 : Vec Ideal S33x33 .bf16) = (m ((c : Thread nD τ).loc main_arg5) : Vec Ideal S33x33 .f32) := by
  show StableHlo.after hostOps0 (fun b => m (c, b)) (Proc.devRef .tc main_v28) = _
  after_results
  rfl

set_option maxHeartbeats 1000000 in
theorem V_v29 (c : Dev nD) : (V m c main_v29 : Vec Ideal S128x321 .bf16) = (m ((c : Thread nD τ).loc main_arg6) : Vec Ideal S128x321 .f32) := by
  show StableHlo.after hostOps0 (fun b => m (c, b)) (Proc.devRef .tc main_v29) = _
  after_results
  rfl

set_option maxHeartbeats 1000000 in
theorem V_v30 (c : Dev nD) : (V m c main_v30 : Vec Ideal S16x33 .bf16) = (m ((c : Thread nD τ).loc main_arg8) : Vec Ideal S16x33 .f32) := by
  show StableHlo.after hostOps0 (fun b => m (c, b)) (Proc.devRef .tc main_v30) = _
  after_results
  rfl

set_option maxHeartbeats 1000000 in
theorem V_v31 (c : Dev nD) : (V m c main_v31 : Vec Ideal S16x128 .bf16) = (m ((c : Thread nD τ).loc main_arg9) : Vec Ideal S16x128 .f32) := by
  show StableHlo.after hostOps0 (fun b => m (c, b)) (Proc.devRef .tc main_v31) = _
  after_results
  rfl

set_option maxHeartbeats 1000000 in
theorem V_v32 (c : Dev nD) : (V m c main_v32 : Vec Ideal S16x16 .bf16) = (m ((c : Thread nD τ).loc main_arg11) : Vec Ideal S16x16 .f32) := by
  show StableHlo.after hostOps0 (fun b => m (c, b)) (Proc.devRef .tc main_v32) = _
  after_results
  rfl

set_option maxHeartbeats 1000000 in
theorem V_v33 (c : Dev nD) : (V m c main_v33 : Vec Ideal S128x144 .bf16) = (m ((c : Thread nD τ).loc main_arg12) : Vec Ideal S128x144 .f32) := by
  show StableHlo.after hostOps0 (fun b => m (c, b)) (Proc.devRef .tc main_v33) = _
  after_results
  rfl

set_option maxHeartbeats 1000000 in
theorem V_v34 (c : Dev nD) : (V m c main_v34 : Vec Ideal S16x16 .bf16) = (m ((c : Thread nD τ).loc main_arg14) : Vec Ideal S16x16 .f32) := by
  show StableHlo.after hostOps0 (fun b => m (c, b)) (Proc.devRef .tc main_v34) = _
  after_results
  rfl

set_option maxHeartbeats 1000000 in
theorem V_v35 (c : Dev nD) : (V m c main_v35 : Vec Ideal S16x128 .bf16) = (m ((c : Thread nD τ).loc main_arg15) : Vec Ideal S16x128 .f32) := by
  show StableHlo.after hostOps0 (fun b => m (c, b)) (Proc.devRef .tc main_v35) = _
  after_results
  rfl

set_option maxHeartbeats 1000000 in
theorem V_v36 (c : Dev nD) : (V m c main_v36 : Vec Ideal S16x16 .bf16) = (m ((c : Thread nD τ).loc main_arg17) : Vec Ideal S16x16 .f32) := by
  show StableHlo.after hostOps0 (fun b => m (c, b)) (Proc.devRef .tc main_v36) = _
  after_results
  rfl

set_option maxHeartbeats 1000000 in
theorem V_v37 (c : Dev nD) : (V m c main_v37 : Vec Ideal S128x144 .bf16) = (m ((c : Thread nD τ).loc main_arg18) : Vec Ideal S128x144 .f32) := by
  show StableHlo.after hostOps0 (fun b => m (c, b)) (Proc.devRef .tc main_v37) = _
  after_results
  rfl

set_option maxHeartbeats 1000000 in
theorem V_v38 (c : Dev nD) : (V m c main_v38 : Vec Ideal S16x16 .bf16) = (m ((c : Thread nD τ).loc main_arg20) : Vec Ideal S16x16 .f32) := by
  show StableHlo.after hostOps0 (fun b => m (c, b)) (Proc.devRef .tc main_v38) = _
  after_results
  rfl

set_option maxHeartbeats 1000000 in
theorem V_v39 (c : Dev nD) : (V m c main_v39 : Vec Ideal S16x128 .bf16) = (m ((c : Thread nD τ).loc main_arg21) : Vec Ideal S16x128 .f32) := by
  show StableHlo.after hostOps0 (fun b => m (c, b)) (Proc.devRef .tc main_v39) = _
  after_results
  rfl

theorem blk6_eq (c : Dev nD) (t : Fin cfg0.N) :
    (iblk m c 6 t : Vec Ideal S33x33 .bf16) = (m ((c : Thread nD τ).loc main_arg5) : Vec Ideal S33x33 .f32) := by
  funext y
  obtain ⟨e0, e1⟩ := idx_facts6 t
  refine Eq.trans ?_ (congrFun (V_v28 m c) y)
  show V m c main_v28 (((cfg0.win 6).blk t).view.emb y) = V m c main_v28 y
  refine congrArg (V m c main_v28) ?_
  funext a; apply Fin.ext
  match a with
  | ⟨0, _⟩ => show win0_6.index t (0 : Fin 2) * 33 + 1 * (y 0).val = (y 0).val; omega
  | ⟨1, _⟩ => show win0_6.index t (1 : Fin 2) * 33 + 1 * (y 1).val = (y 1).val; omega

theorem blk7_eq (c : Dev nD) (t : Fin cfg0.N) :
    (iblk m c 7 t : Vec Ideal S128x321 .bf16) = (m ((c : Thread nD τ).loc main_arg6) : Vec Ideal S128x321 .f32) := by
  funext y
  obtain ⟨e0, e1⟩ := idx_facts7 t
  refine Eq.trans ?_ (congrFun (V_v29 m c) y)
  show V m c main_v29 (((cfg0.win 7).blk t).view.emb y) = V m c main_v29 y
  refine congrArg (V m c main_v29) ?_
  funext a; apply Fin.ext
  match a with
  | ⟨0, _⟩ => show win0_7.index t (0 : Fin 2) * 128 + 1 * (y 0).val = (y 0).val; omega
  | ⟨1, _⟩ => show win0_7.index t (1 : Fin 2) * 321 + 1 * (y 1).val = (y 1).val; omega

theorem blk8_eq (c : Dev nD) (t : Fin cfg0.N) :
    (iblk m c 8 t : Vec Ideal S128 .f32) = (m ((c : Thread nD τ).loc main_arg7) : Vec Ideal S128 .f32) := by
  funext y
  have e0 := idx_facts8 t
  refine Eq.trans ?_ (congrFun (V_main_arg7 m c) y)
  show V m c main_arg7 (((cfg0.win 8).blk t).view.emb y) = V m c main_arg7 y
  refine congrArg (V m c main_arg7) ?_
  funext a; apply Fin.ext
  match a with
  | ⟨0, _⟩ => show win0_8.index t (0 : Fin 1) * 128 + 1 * (y 0).val = (y 0).val; omega

theorem blk9_eq (c : Dev nD) (t : Fin cfg0.N) :
    (iblk m c 9 t : Vec Ideal S16x33 .bf16) = (m ((c : Thread nD τ).loc main_arg8) : Vec Ideal S16x33 .f32) := by
  funext y
  obtain ⟨e0, e1⟩ := idx_facts9 t
  refine Eq.trans ?_ (congrFun (V_v30 m c) y)
  show V m c main_v30 (((cfg0.win 9).blk t).view.emb y) = V m c main_v30 y
  refine congrArg (V m c main_v30) ?_
  funext a; apply Fin.ext
  match a with
  | ⟨0, _⟩ => show win0_9.index t (0 : Fin 2) * 16 + 1 * (y 0).val = (y 0).val; omega
  | ⟨1, _⟩ => show win0_9.index t (1 : Fin 2) * 33 + 1 * (y 1).val = (y 1).val; omega

theorem blk10_eq (c : Dev nD) (t : Fin cfg0.N) :
    (iblk m c 10 t : Vec Ideal S16x128 .bf16) = (m ((c : Thread nD τ).loc main_arg9) : Vec Ideal S16x128 .f32) := by
  funext y
  obtain ⟨e0, e1⟩ := idx_facts10 t
  refine Eq.trans ?_ (congrFun (V_v31 m c) y)
  show V m c main_v31 (((cfg0.win 10).blk t).view.emb y) = V m c main_v31 y
  refine congrArg (V m c main_v31) ?_
  funext a; apply Fin.ext
  match a with
  | ⟨0, _⟩ => show win0_10.index t (0 : Fin 2) * 16 + 1 * (y 0).val = (y 0).val; omega
  | ⟨1, _⟩ => show win0_10.index t (1 : Fin 2) * 128 + 1 * (y 1).val = (y 1).val; omega

theorem blk11_eq (c : Dev nD) (t : Fin cfg0.N) :
    (iblk m c 11 t : Vec Ideal S16 .f32) = (m ((c : Thread nD τ).loc main_arg10) : Vec Ideal S16 .f32) := by
  funext y
  have e0 := idx_facts11 t
  refine Eq.trans ?_ (congrFun (V_main_arg10 m c) y)
  show V m c main_arg10 (((cfg0.win 11).blk t).view.emb y) = V m c main_arg10 y
  refine congrArg (V m c main_arg10) ?_
  funext a; apply Fin.ext
  match a with
  | ⟨0, _⟩ => show win0_11.index t (0 : Fin 1) * 16 + 1 * (y 0).val = (y 0).val; omega

theorem blk12_eq (c : Dev nD) (t : Fin cfg0.N) :
    (iblk m c 12 t : Vec Ideal S16x16 .bf16) = (m ((c : Thread nD τ).loc main_arg11) : Vec Ideal S16x16 .f32) := by
  funext y
  obtain ⟨e0, e1⟩ := idx_facts12 t
  refine Eq.trans ?_ (congrFun (V_v32 m c) y)
  show V m c main_v32 (((cfg0.win 12).blk t).view.emb y) = V m c main_v32 y
  refine congrArg (V m c main_v32) ?_
  funext a; apply Fin.ext
  match a with
  | ⟨0, _⟩ => show win0_12.index t (0 : Fin 2) * 16 + 1 * (y 0).val = (y 0).val; omega
  | ⟨1, _⟩ => show win0_12.index t (1 : Fin 2) * 16 + 1 * (y 1).val = (y 1).val; omega

theorem blk13_eq (c : Dev nD) (t : Fin cfg0.N) :
    (iblk m c 13 t : Vec Ideal S128x144 .bf16) = (m ((c : Thread nD τ).loc main_arg12) : Vec Ideal S128x144 .f32) := by
  funext y
  obtain ⟨e0, e1⟩ := idx_facts13 t
  refine Eq.trans ?_ (congrFun (V_v33 m c) y)
  show V m c main_v33 (((cfg0.win 13).blk t).view.emb y) = V m c main_v33 y
  refine congrArg (V m c main_v33) ?_
  funext a; apply Fin.ext
  match a with
  | ⟨0, _⟩ => show win0_13.index t (0 : Fin 2) * 128 + 1 * (y 0).val = (y 0).val; omega
  | ⟨1, _⟩ => show win0_13.index t (1 : Fin 2) * 144 + 1 * (y 1).val = (y 1).val; omega

theorem blk14_eq (c : Dev nD) (t : Fin cfg0.N) :
    (iblk m c 14 t : Vec Ideal S128 .f32) = (m ((c : Thread nD τ).loc main_arg13) : Vec Ideal S128 .f32) := by
  funext y
  have e0 := idx_facts14 t
  refine Eq.trans ?_ (congrFun (V_main_arg13 m c) y)
  show V m c main_arg13 (((cfg0.win 14).blk t).view.emb y) = V m c main_arg13 y
  refine congrArg (V m c main_arg13) ?_
  funext a; apply Fin.ext
  match a with
  | ⟨0, _⟩ => show win0_14.index t (0 : Fin 1) * 128 + 1 * (y 0).val = (y 0).val; omega

theorem blk15_eq (c : Dev nD) (t : Fin cfg0.N) :
    (iblk m c 15 t : Vec Ideal S16x16 .bf16) = (m ((c : Thread nD τ).loc main_arg14) : Vec Ideal S16x16 .f32) := by
  funext y
  obtain ⟨e0, e1⟩ := idx_facts15 t
  refine Eq.trans ?_ (congrFun (V_v34 m c) y)
  show V m c main_v34 (((cfg0.win 15).blk t).view.emb y) = V m c main_v34 y
  refine congrArg (V m c main_v34) ?_
  funext a; apply Fin.ext
  match a with
  | ⟨0, _⟩ => show win0_15.index t (0 : Fin 2) * 16 + 1 * (y 0).val = (y 0).val; omega
  | ⟨1, _⟩ => show win0_15.index t (1 : Fin 2) * 16 + 1 * (y 1).val = (y 1).val; omega

theorem blk16_eq (c : Dev nD) (t : Fin cfg0.N) :
    (iblk m c 16 t : Vec Ideal S16x128 .bf16) = (m ((c : Thread nD τ).loc main_arg15) : Vec Ideal S16x128 .f32) := by
  funext y
  obtain ⟨e0, e1⟩ := idx_facts16 t
  refine Eq.trans ?_ (congrFun (V_v35 m c) y)
  show V m c main_v35 (((cfg0.win 16).blk t).view.emb y) = V m c main_v35 y
  refine congrArg (V m c main_v35) ?_
  funext a; apply Fin.ext
  match a with
  | ⟨0, _⟩ => show win0_16.index t (0 : Fin 2) * 16 + 1 * (y 0).val = (y 0).val; omega
  | ⟨1, _⟩ => show win0_16.index t (1 : Fin 2) * 128 + 1 * (y 1).val = (y 1).val; omega

theorem blk17_eq (c : Dev nD) (t : Fin cfg0.N) :
    (iblk m c 17 t : Vec Ideal S16 .f32) = (m ((c : Thread nD τ).loc main_arg16) : Vec Ideal S16 .f32) := by
  funext y
  have e0 := idx_facts17 t
  refine Eq.trans ?_ (congrFun (V_main_arg16 m c) y)
  show V m c main_arg16 (((cfg0.win 17).blk t).view.emb y) = V m c main_arg16 y
  refine congrArg (V m c main_arg16) ?_
  funext a; apply Fin.ext
  match a with
  | ⟨0, _⟩ => show win0_17.index t (0 : Fin 1) * 16 + 1 * (y 0).val = (y 0).val; omega

theorem blk18_eq (c : Dev nD) (t : Fin cfg0.N) :
    (iblk m c 18 t : Vec Ideal S16x16 .bf16) = (m ((c : Thread nD τ).loc main_arg17) : Vec Ideal S16x16 .f32) := by
  funext y
  obtain ⟨e0, e1⟩ := idx_facts18 t
  refine Eq.trans ?_ (congrFun (V_v36 m c) y)
  show V m c main_v36 (((cfg0.win 18).blk t).view.emb y) = V m c main_v36 y
  refine congrArg (V m c main_v36) ?_
  funext a; apply Fin.ext
  match a with
  | ⟨0, _⟩ => show win0_18.index t (0 : Fin 2) * 16 + 1 * (y 0).val = (y 0).val; omega
  | ⟨1, _⟩ => show win0_18.index t (1 : Fin 2) * 16 + 1 * (y 1).val = (y 1).val; omega

theorem blk19_eq (c : Dev nD) (t : Fin cfg0.N) :
    (iblk m c 19 t : Vec Ideal S128x144 .bf16) = (m ((c : Thread nD τ).loc main_arg18) : Vec Ideal S128x144 .f32) := by
  funext y
  obtain ⟨e0, e1⟩ := idx_facts19 t
  refine Eq.trans ?_ (congrFun (V_v37 m c) y)
  show V m c main_v37 (((cfg0.win 19).blk t).view.emb y) = V m c main_v37 y
  refine congrArg (V m c main_v37) ?_
  funext a; apply Fin.ext
  match a with
  | ⟨0, _⟩ => show win0_19.index t (0 : Fin 2) * 128 + 1 * (y 0).val = (y 0).val; omega
  | ⟨1, _⟩ => show win0_19.index t (1 : Fin 2) * 144 + 1 * (y 1).val = (y 1).val; omega

theorem blk20_eq (c : Dev nD) (t : Fin cfg0.N) :
    (iblk m c 20 t : Vec Ideal S128 .f32) = (m ((c : Thread nD τ).loc main_arg19) : Vec Ideal S128 .f32) := by
  funext y
  have e0 := idx_facts20 t
  refine Eq.trans ?_ (congrFun (V_main_arg19 m c) y)
  show V m c main_arg19 (((cfg0.win 20).blk t).view.emb y) = V m c main_arg19 y
  refine congrArg (V m c main_arg19) ?_
  funext a; apply Fin.ext
  match a with
  | ⟨0, _⟩ => show win0_20.index t (0 : Fin 1) * 128 + 1 * (y 0).val = (y 0).val; omega

theorem blk21_eq (c : Dev nD) (t : Fin cfg0.N) :
    (iblk m c 21 t : Vec Ideal S16x16 .bf16) = (m ((c : Thread nD τ).loc main_arg20) : Vec Ideal S16x16 .f32) := by
  funext y
  obtain ⟨e0, e1⟩ := idx_facts21 t
  refine Eq.trans ?_ (congrFun (V_v38 m c) y)
  show V m c main_v38 (((cfg0.win 21).blk t).view.emb y) = V m c main_v38 y
  refine congrArg (V m c main_v38) ?_
  funext a; apply Fin.ext
  match a with
  | ⟨0, _⟩ => show win0_21.index t (0 : Fin 2) * 16 + 1 * (y 0).val = (y 0).val; omega
  | ⟨1, _⟩ => show win0_21.index t (1 : Fin 2) * 16 + 1 * (y 1).val = (y 1).val; omega

theorem blk22_eq (c : Dev nD) (t : Fin cfg0.N) :
    (iblk m c 22 t : Vec Ideal S16x128 .bf16) = (m ((c : Thread nD τ).loc main_arg21) : Vec Ideal S16x128 .f32) := by
  funext y
  obtain ⟨e0, e1⟩ := idx_facts22 t
  refine Eq.trans ?_ (congrFun (V_v39 m c) y)
  show V m c main_v39 (((cfg0.win 22).blk t).view.emb y) = V m c main_v39 y
  refine congrArg (V m c main_v39) ?_
  funext a; apply Fin.ext
  match a with
  | ⟨0, _⟩ => show win0_22.index t (0 : Fin 2) * 16 + 1 * (y 0).val = (y 0).val; omega
  | ⟨1, _⟩ => show win0_22.index t (1 : Fin 2) * 128 + 1 * (y 1).val = (y 1).val; omega

theorem blk23_eq (c : Dev nD) (t : Fin cfg0.N) :
    (iblk m c 23 t : Vec Ideal S16 .f32) = (m ((c : Thread nD τ).loc main_arg22) : Vec Ideal S16 .f32) := by
  funext y
  have e0 := idx_facts23 t
  refine Eq.trans ?_ (congrFun (V_main_arg22 m c) y)
  show V m c main_arg22 (((cfg0.win 23).blk t).view.emb y) = V m c main_arg22 y
  refine congrArg (V m c main_arg22) ?_
  funext a; apply Fin.ext
  match a with
  | ⟨0, _⟩ => show win0_23.index t (0 : Fin 1) * 16 + 1 * (y 0).val = (y 0).val; omega

/-! ## The output windows -/

theorem out24_emb (t : Fin cfg0.N) (p : Fin 32) (j : Fin 128) :
    ((cfg0.win 24).blk t).view.emb (ix2 p j) = (ix2 (trow t p) j : S4096x128.Idx) := by
  obtain ⟨e0, e1⟩ := idx_facts24 t
  funext a; apply Fin.ext
  match a with
  | ⟨0, _⟩ => show win0_24.index t (0 : Fin 2) * 32 + 1 * p.val = t.val * 32 + p.val; omega
  | ⟨1, _⟩ => show win0_24.index t (1 : Fin 2) * 128 + 1 * j.val = j.val; omega

/-- An index of the array is in point `t`'s block iff each coordinate is in the block's range on its axis. -/
theorem mem_blk24 (t : Fin cfg0.N) (i : S4096x128.Idx) :
    i ∈ ((cfg0.win 24).blk t).view.set ↔ ∀ a : Fin 2, win0_24.index t a * S32x128.size a ≤ (i a).val
      ∧ (i a).val < win0_24.index t a * S32x128.size a + S32x128.size a := by
  show i ∈ ((View.whole main_v40_0).slice (win0_24.rect t)).set ↔ _
  rw [View.set_slice_whole, Rect.mem_set_unit]
  exact Iff.rfl

theorem cover24 (i : S4096x128.Idx) :
    ∃ t : Fin cfg0.N, (cfg0.win 24).flush t = true ∧ i ∈ ((cfg0.win 24).blk t).view.set := by
  have hN : cfg0.N = 128 := N_0
  have hi0 : (i 0).val < 4096 := (i 0).isLt
  have hi1 : (i 1).val < 128 := (i 1).isLt
  obtain ⟨t, ht⟩ : ∃ t : Fin cfg0.N, t.val = (i 0).val / 32 := ⟨⟨(i 0).val / 32, by omega⟩, rfl⟩
  obtain ⟨e0, e1⟩ := idx_facts24 t
  refine ⟨t, flush0_24 t, ?_⟩
  rw [mem_blk24]
  intro a
  match a with
  | ⟨0, _⟩ =>
    show win0_24.index t (0 : Fin 2) * 32 ≤ (i 0).val ∧ (i 0).val < win0_24.index t (0 : Fin 2) * 32 + 32
    omega
  | ⟨1, _⟩ =>
    show win0_24.index t (1 : Fin 2) * 128 ≤ (i 1).val ∧ (i 1).val < win0_24.index t (1 : Fin 2) * 128 + 128
    omega

theorem out25_emb (t : Fin cfg0.N) (u : Fin 3) (p : Fin 32) (g : Fin 16) :
    ((cfg0.win 25).blk t).view.emb (ix3 u p g) = (ix3 u (trow t p) g : S3x4096x16.Idx) := by
  obtain ⟨e0, e1, e2⟩ := idx_facts25 t
  funext a; apply Fin.ext
  match a with
  | ⟨0, _⟩ => show win0_25.index t (0 : Fin 3) * 3 + 1 * u.val = u.val; omega
  | ⟨1, _⟩ => show win0_25.index t (1 : Fin 3) * 32 + 1 * p.val = t.val * 32 + p.val; omega
  | ⟨2, _⟩ => show win0_25.index t (2 : Fin 3) * 16 + 1 * g.val = g.val; omega

theorem mem_blk25 (t : Fin cfg0.N) (i : S3x4096x16.Idx) :
    i ∈ ((cfg0.win 25).blk t).view.set ↔ ∀ a : Fin 3, win0_25.index t a * S3x32x16.size a ≤ (i a).val
      ∧ (i a).val < win0_25.index t a * S3x32x16.size a + S3x32x16.size a := by
  show i ∈ ((View.whole main_v40_1).slice (win0_25.rect t)).set ↔ _
  rw [View.set_slice_whole, Rect.mem_set_unit]
  exact Iff.rfl

theorem cover25 (i : S3x4096x16.Idx) :
    ∃ t : Fin cfg0.N, (cfg0.win 25).flush t = true ∧ i ∈ ((cfg0.win 25).blk t).view.set := by
  have hN : cfg0.N = 128 := N_0
  have hi0 : (i 0).val < 3 := (i 0).isLt
  have hi1 : (i 1).val < 4096 := (i 1).isLt
  have hi2 : (i 2).val < 16 := (i 2).isLt
  obtain ⟨t, ht⟩ : ∃ t : Fin cfg0.N, t.val = (i 1).val / 32 := ⟨⟨(i 1).val / 32, by omega⟩, rfl⟩
  obtain ⟨e0, e1, e2⟩ := idx_facts25 t
  refine ⟨t, flush0_25 t, ?_⟩
  rw [mem_blk25]
  intro a
  match a with
  | ⟨0, _⟩ =>
    show win0_25.index t (0 : Fin 3) * 3 ≤ (i 0).val ∧ (i 0).val < win0_25.index t (0 : Fin 3) * 3 + 3
    omega
  | ⟨1, _⟩ =>
    show win0_25.index t (1 : Fin 3) * 32 ≤ (i 1).val ∧ (i 1).val < win0_25.index t (1 : Fin 3) * 32 + 32
    omega
  | ⟨2, _⟩ =>
    show win0_25.index t (2 : Fin 3) * 16 ≤ (i 2).val ∧ (i 2).val < win0_25.index t (2 : Fin 3) * 16 + 16
    omega

end Cert.KernelIdeal.Arr

end
-- ==== Proof.KTail.lean ====
/-
  The two host lines after the region.  The program's first result is the region's scalar result array, an array
  of 4096 nodes by 128 channels, read as 2 batches of 2048 nodes: entry (b, n, j) is entry (b * 2048 + n, j).  Its
  second result is the region's vector result array, 3 spatial coordinates by 4096 nodes by 16 channels, read as
  3 by 2 by 2048 by 16 and then with the spatial coordinate moved to the last axis: entry (b, n, g, u) is entry
  (u, b * 2048 + n, g).
-/
import proofs.«418785_j9663676416046_3_alg».proof.Proof.KernelIdealFrame
import Idealize.ShloMosaic.Lib.Pipeline.Value
import Idealize.ShloMosaic.Lib.ValueIdx
import Idealize.ShloMosaic.Lib.StableHlo.Run

noncomputable section

namespace Cert.KernelIdeal.Arr

open Idealize.ShloMosaic Idealize.ShloMosaic.TcCoe Idealize.ShloMosaic.ValueIdx Idealize.SL.Sem Idealize.ShloMosaic.StableHlo
open Cert.KernelIdeal Cert.KernelIdeal.Gen Cert.KernelIdeal.GenP
open Idealize.ShloMosaic.Pipeline (Dat)

variable (m : (ℓ : Loc nD τ sig) → Buf (Elt Ideal) ℓ)

/-! ## The two results as functions of the region's arrays -/

set_option maxHeartbeats 1000000 in
/-- The first result: the scalar result array re-read with the node axis split into batch and position. -/
theorem tail41_fn (c : Dev nD) :
    (Pipeline.afterTail₀ cfgs (dats m) 0 (V0 m) [hostOps1] c main_v41 : Vec Ideal S2x2048x128 .f32)
      = shapeCast S2x2048x128
          (Pipeline.withArrays (cfgs 0).spec c (V0 m c) (fun w => (dats m 0 c).arrAt w (cfgs 0).N)
            (Proc.devRef .tc main_v40_0))
          shapeCasts_S4096x128_S2x2048x128 := by
  unfold Pipeline.afterTail₀
  show StableHlo.after hostOps1 _ (Proc.devRef .tc main_v41) = _
  after_results
  rfl

set_option maxHeartbeats 1000000 in
/-- The second result: the vector result array re-read likewise, then its spatial coordinate moved to the last axis. -/
theorem tail43_fn (c : Dev nD) :
    (Pipeline.afterTail₀ cfgs (dats m) 0 (V0 m) [hostOps1] c main_v43 : Vec Ideal S2x2048x16x3 .f32)
      = transpose S2x2048x16x3 [1, 2, 3, 0]
          (shapeCast S3x2x2048x16
            (Pipeline.withArrays (cfgs 0).spec c (V0 m c) (fun w => (dats m 0 c).arrAt w (cfgs 0).N)
              (Proc.devRef .tc main_v40_1))
            shapeCasts_S3x4096x16_S3x2x2048x16)
          transposes_S3x2x2048x16_S2x2048x16x3_1_2_3_0 := by
  unfold Pipeline.afterTail₀
  show StableHlo.after hostOps1 _ (Proc.devRef .tc main_v43) = _
  after_results
  rfl

/-! ## Read at an index -/

/-- The node axis split into batch and position: `[4096, 128]` read as `[2, 2048, 128]`. -/
private theorem split_3_128 {α : Type} (x : S4096x128.Idx → α) (h : S4096x128.ShapeCasts S2x2048x128)
    (b : Fin 2) (n : Fin 2048) (j : Fin 128) :
    shapeCast S2x2048x128 x h (ix3 b n j)
      = x (ix2 ⟨b.val * 2048 + n.val, by have := b.isLt; have := n.isLt; omega⟩ j) :=
  shapeCast_apply x h _ _ (by
    rw [Shape.rowMajor_val_two, Shape.rowMajor_val_three]
    rfl)

/-- `[3, 4096, 16]` read as `[3, 2, 2048, 16]`. -/
private theorem split_4_16 {α : Type} (x : S3x4096x16.Idx → α) (h : S3x4096x16.ShapeCasts S3x2x2048x16)
    (u : Fin 3) (b : Fin 2) (n : Fin 2048) (g : Fin 16) :
    shapeCast S3x2x2048x16 x h (ix4 u b n g)
      = x (ix3 u ⟨b.val * 2048 + n.val, by have := b.isLt; have := n.isLt; omega⟩ g) :=
  shapeCast_apply x h _ _ (by
    rw [Shape.rowMajor_val_three, Shape.rowMajor_val_four]
    show (u.val * 4096 + (b.val * 2048 + n.val)) * 16 + g.val = ((u.val * 2 + b.val) * 2048 + n.val) * 16 + g.val
    omega)

/-- The spatial coordinate moved from the front to the last axis, read backwards. -/
private theorem back_4 {α : Type} (x : S3x2x2048x16.Idx → α) (h : S3x2x2048x16.Transposes [1, 2, 3, 0] S2x2048x16x3)
    (b : Fin 2) (n : Fin 2048) (g : Fin 16) (u : Fin 3) :
    transpose S2x2048x16x3 [1, 2, 3, 0] x h (ix4 b n g u) = x (ix4 u b n g) :=
  transpose_apply _ x h _ _ fun a => match a with | ⟨0, _⟩ => rfl | ⟨1, _⟩ => rfl | ⟨2, _⟩ => rfl | ⟨3, _⟩ => rfl

theorem tail41 (G : Dev nD → Vec Ideal S4096x128 .f32) (hG : ∀ c, (dats m 0 c).arrAt 24 cfg0.N = G c) (c : Dev nD)
    (b : Fin 2) (n : Fin 2048) (j : Fin 128) :
    (Pipeline.afterTail₀ cfgs (dats m) 0 (V0 m) [hostOps1] c main_v41 : Vec Ideal S2x2048x128 .f32) (ix3 b n j)
      = G c (ix2 ⟨b.val * 2048 + n.val, by have := b.isLt; have := n.isLt; omega⟩ j) := by
  refine (congrFun (tail41_fn m c) (ix3 b n j)).trans ?_
  refine (split_3_128 _ _ b n j).trans ?_
  exact congrFun ((Pipeline.withArrays_arr spec0 launch0.win.arr_inj c _ _ 24).trans (hG c)) _

theorem tail43 (G : Dev nD → Vec Ideal S3x4096x16 .f32) (hG : ∀ c, (dats m 0 c).arrAt 25 cfg0.N = G c) (c : Dev nD)
    (b : Fin 2) (n : Fin 2048) (g : Fin 16) (u : Fin 3) :
    (Pipeline.afterTail₀ cfgs (dats m) 0 (V0 m) [hostOps1] c main_v43 : Vec Ideal S2x2048x16x3 .f32) (ix4 b n g u)
      = G c (ix3 u ⟨b.val * 2048 + n.val, by have := b.isLt; have := n.isLt; omega⟩ g) := by
  refine (congrFun (tail43_fn m c) (ix4 b n g u)).trans ?_
  refine (back_4 _ _ b n g u).trans ?_
  refine (split_4_16 _ _ u b n g).trans ?_
  exact congrFun ((Pipeline.withArrays_arr spec0 launch0.win.arr_inj c _ _ 25).trans (hG c)) _

end Cert.KernelIdeal.Arr

end
-- ==== Proof.Spec.lean ====
/-
  The message function of a three-layer geometric-vector-perceptron convolution, written row by row on
  extended reals: for one edge, a row of scalar features and three rows of vector features (one per spatial
  coordinate) go through three layers; a layer contracts the vector rows with a matrix, takes the clipped
  Euclidean norm over the three coordinates, joins it to the scalar row, applies an affine map, and gates the
  contracted vector rows by a logistic of an affine map of the (activated) scalar row.  Everything here is a
  function of ONE edge's rows and of the weights: whatever tiling or array layout a program uses, its value at an
  edge is this function of that edge's rows.
-/
import Idealize.ShloMosaic.PureOps.Ideal
import Idealize.ShloMosaic.Lib.ValueIdx
import Mathlib.Data.EReal.Basic
import Mathlib.Algebra.BigOperators.Group.Finset.Basic

open Idealize.ShloMosaic Idealize.ShloMosaic.ValueIdx

noncomputable section

namespace GvpSpec

/-- Output channel `j` of a linear map with weight matrix `w` (rows = output channels): Σ_i x_i · w_{j,i}. -/
def lin {n k : ℕ} (w : (⟨2, ![n, k]⟩ : Shape).Idx → EReal) (x : Fin k → EReal) (j : Fin n) : EReal :=
  ∑ i : Fin k, x i * w (ix2 j i)

/-- The same with a bias. -/
def aff {n k : ℕ} (w : (⟨2, ![n, k]⟩ : Shape).Idx → EReal) (b : (⟨1, ![n]⟩ : Shape).Idx → EReal) (x : Fin k → EReal)
    (j : Fin n) : EReal := lin w x j + b (ix1 j)

/-- The lower clip of the squared norm: the binary32 number nearest 1e-8, kept as its word. -/
def eps : EReal := Ideal.ofBits .f32 0x322BCC77#32

/-- The divisor of the mean over the 32 neighbours, kept as its word (32.0). -/
def nbrs : EReal := Ideal.ofBits .f32 0x42000000#32

/-- Channel `j` of the clipped norm over the three spatial coordinates. -/
def vnorm {h : ℕ} (x : Fin 3 → Fin h → EReal) (j : Fin h) : EReal :=
  Ideal.sqrt (max eps (x 0 j * x 0 j + x 1 j * x 1 j + x 2 j * x 2 j))

/-- Two rows joined end to end. -/
def cat2 {a b : ℕ} (c : ℕ) (hc : a + b = c) (x : Fin a → EReal) (y : Fin b → EReal) (f : Fin c) : EReal :=
  if h : f.val < a then x ⟨f.val, h⟩ else y ⟨f.val - a, by omega⟩

/-- Three rows joined end to end. -/
def cat3 {a b d : ℕ} (c : ℕ) (hc : a + b + d = c) (x : Fin a → EReal) (y : Fin b → EReal) (z : Fin d → EReal)
    (f : Fin c) : EReal :=
  if h : f.val < a then x ⟨f.val, h⟩
  else if h2 : f.val < a + b then y ⟨f.val - a, by omega⟩ else z ⟨f.val - (a + b), by omega⟩

/-- One layer's six weight arrays: `si` scalar inputs, `vi` vector inputs, `h` hidden vector channels, `so`
    scalar outputs, `vo` vector outputs, `sf = si + h` the joined scalar row's length. -/
structure LayerW (vi h so vo sf : ℕ) where
  wh : (⟨2, ![h, vi]⟩ : Shape).Idx → EReal
  wsw : (⟨2, ![so, sf]⟩ : Shape).Idx → EReal
  wsb : (⟨1, ![so]⟩ : Shape).Idx → EReal
  wv : (⟨2, ![vo, h]⟩ : Shape).Idx → EReal
  wsvw : (⟨2, ![vo, so]⟩ : Shape).Idx → EReal
  wsvb : (⟨1, ![vo]⟩ : Shape).Idx → EReal

section Layer

variable {si vi h so vo sf : ℕ} (hsf : si + h = sf) (W : LayerW vi h so vo sf)

/-- The contracted vector rows. -/
def vh (mv : Fin 3 → Fin vi → EReal) (t : Fin 3) (j : Fin h) : EReal := lin W.wh (mv t) j

/-- The scalar row before activation. -/
def sPre (ms : Fin si → EReal) (mv : Fin 3 → Fin vi → EReal) (o : Fin so) : EReal :=
  aff W.wsw W.wsb (cat2 sf hsf ms (vnorm (vh W mv))) o

/-- The vector rows before gating. -/
def vLin (mv : Fin 3 → Fin vi → EReal) (t : Fin 3) (g : Fin vo) : EReal := lin W.wv (vh W mv t) g

/-- The gate of an activated layer: an affine map of the logistic of the scalar row. -/
def gateA (ms : Fin si → EReal) (mv : Fin 3 → Fin vi → EReal) (g : Fin vo) : EReal :=
  aff W.wsvw W.wsvb (fun o => Ideal.logistic (sPre hsf W ms mv o)) g

/-- The gate of the last layer: an affine map of the scalar row itself. -/
def gateN (ms : Fin si → EReal) (mv : Fin 3 → Fin vi → EReal) (g : Fin vo) : EReal :=
  aff W.wsvw W.wsvb (sPre hsf W ms mv) g

/-- The vector rows an activated layer returns. -/
def vOutA (ms : Fin si → EReal) (mv : Fin 3 → Fin vi → EReal) (t : Fin 3) (g : Fin vo) : EReal :=
  vLin W mv t g * Ideal.logistic (gateA hsf W ms mv g)

/-- The vector rows the last layer returns. -/
def vOutN (ms : Fin si → EReal) (mv : Fin 3 → Fin vi → EReal) (t : Fin 3) (g : Fin vo) : EReal :=
  vLin W mv t g * Ideal.logistic (gateN hsf W ms mv g)

/-- The scalar row an activated layer returns: the positive part. -/
def sOutA (ms : Fin si → EReal) (mv : Fin 3 → Fin vi → EReal) (o : Fin so) : EReal :=
  max (sPre hsf W ms mv o) 0

end Layer

/-- The three layers' weights. -/
structure Weights where
  l1 : LayerW 33 33 128 16 321
  l2 : LayerW 16 16 128 16 144
  l3 : LayerW 16 16 128 16 144

variable (W : Weights)

/-- The scalar message of one edge from its joined rows. -/
def msgS (ms : Fin 288 → EReal) (mv : Fin 3 → Fin 33 → EReal) : Fin 128 → EReal :=
  sPre (si := 128) rfl W.l3
    (sOutA (si := 128) rfl W.l2 (sOutA (si := 288) rfl W.l1 ms mv) (vOutA (si := 288) rfl W.l1 ms mv))
    (vOutA (si := 128) rfl W.l2 (sOutA (si := 288) rfl W.l1 ms mv) (vOutA (si := 288) rfl W.l1 ms mv))

/-- The vector message of one edge from its joined rows. -/
def msgV (ms : Fin 288 → EReal) (mv : Fin 3 → Fin 33 → EReal) : Fin 3 → Fin 16 → EReal :=
  vOutN (si := 128) rfl W.l3
    (sOutA (si := 128) rfl W.l2 (sOutA (si := 288) rfl W.l1 ms mv) (vOutA (si := 288) rfl W.l1 ms mv))
    (vOutA (si := 128) rfl W.l2 (sOutA (si := 288) rfl W.l1 ms mv) (vOutA (si := 288) rfl W.l1 ms mv))

/-- A node's update: its own entry plus the mean of the messages of its 32 edges. -/
def upd (x : EReal) (msgs : Fin 32 → EReal) : EReal := x + Ideal.div (∑ k : Fin 32, msgs k) nbrs

/-! ## One edge's rows, read off a tile and read off the whole arrays -/

/-- Row `p * 32 + k` of a 1024-row tile: the edge of the tile's node `p` and neighbour slot `k`. -/
def erow (p k : Fin 32) : Fin 1024 := ⟨p.val * 32 + k.val, by have := p.isLt; have := k.isLt; omega⟩

/-- The scalar row of an edge of a tile: the node's own row, the gathered neighbour's row, the edge's row. -/
def tileS (own : (⟨2, ![32, 128]⟩ : Shape).Idx → EReal) (nbr : (⟨3, ![32, 32, 128]⟩ : Shape).Idx → EReal)
    (edge : (⟨3, ![32, 32, 32]⟩ : Shape).Idx → EReal) (p k : Fin 32) : Fin 288 → EReal :=
  cat3 288 rfl (fun f : Fin 128 => own (ix2 p f)) (fun f : Fin 128 => nbr (ix3 p k f)) (fun f : Fin 32 => edge (ix3 p k f))

/-- One spatial coordinate's vector row of an edge of a tile (the coordinate is the leading, unit axis of the three
    loaded pieces). -/
def tileV1 (own : (⟨3, ![1, 32, 16]⟩ : Shape).Idx → EReal) (nbr : (⟨4, ![1, 32, 32, 16]⟩ : Shape).Idx → EReal)
    (edge : (⟨3, ![1, 32, 32]⟩ : Shape).Idx → EReal) (p k : Fin 32) : Fin 33 → EReal :=
  cat3 33 rfl (fun i : Fin 16 => own (ix3 0 p i)) (fun i : Fin 16 => nbr (ix4 0 p k i)) (fun _ : Fin 1 => edge (ix3 0 p k))

/-- The scalar row of edge `(b, n, k)` read off the whole arrays. -/
def edgeS (s : (⟨3, ![2, 2048, 128]⟩ : Shape).Idx → EReal) (xs : (⟨4, ![2, 2048, 32, 128]⟩ : Shape).Idx → EReal)
    (es : (⟨4, ![2, 2048, 32, 32]⟩ : Shape).Idx → EReal) (b : Fin 2) (n : Fin 2048) (k : Fin 32) : Fin 288 → EReal :=
  cat3 288 rfl (fun f : Fin 128 => s (ix3 b n f)) (fun f : Fin 128 => xs (ix4 b n k f)) (fun f : Fin 32 => es (ix4 b n k f))

/-- The vector rows of edge `(b, n, k)` read off the whole arrays, one per spatial coordinate `t`. -/
def edgeV (v : (⟨4, ![2, 2048, 16, 3]⟩ : Shape).Idx → EReal) (xv : (⟨5, ![2, 2048, 32, 16, 3]⟩ : Shape).Idx → EReal)
    (ev : (⟨5, ![2, 2048, 32, 1, 3]⟩ : Shape).Idx → EReal) (b : Fin 2) (n : Fin 2048) (k : Fin 32) (t : Fin 3) : Fin 33 → EReal :=
  cat3 33 rfl (fun i : Fin 16 => v (ix4 b n i t)) (fun i : Fin 16 => xv (ix5 b n k i t)) (fun i : Fin 1 => ev (ix5 b n k i t))

/-- The updated scalar features: every node's entry plus the mean of its 32 edges' scalar messages. -/
def outS (s : (⟨3, ![2, 2048, 128]⟩ : Shape).Idx → EReal) (xs : (⟨4, ![2, 2048, 32, 128]⟩ : Shape).Idx → EReal)
    (es : (⟨4, ![2, 2048, 32, 32]⟩ : Shape).Idx → EReal) (v : (⟨4, ![2, 2048, 16, 3]⟩ : Shape).Idx → EReal)
    (xv : (⟨5, ![2, 2048, 32, 16, 3]⟩ : Shape).Idx → EReal) (ev : (⟨5, ![2, 2048, 32, 1, 3]⟩ : Shape).Idx → EReal) :
    (⟨3, ![2, 2048, 128]⟩ : Shape).Idx → EReal := fun i =>
  upd (s i) (fun k => msgS W (edgeS s xs es (i 0) (i 1) k) (edgeV v xv ev (i 0) (i 1) k) (i 2))

/-- The updated vector features: every node's entry plus the mean of its 32 edges' vector messages. -/
def outV (s : (⟨3, ![2, 2048, 128]⟩ : Shape).Idx → EReal) (xs : (⟨4, ![2, 2048, 32, 128]⟩ : Shape).Idx → EReal)
    (es : (⟨4, ![2, 2048, 32, 32]⟩ : Shape).Idx → EReal) (v : (⟨4, ![2, 2048, 16, 3]⟩ : Shape).Idx → EReal)
    (xv : (⟨5, ![2, 2048, 32, 16, 3]⟩ : Shape).Idx → EReal) (ev : (⟨5, ![2, 2048, 32, 1, 3]⟩ : Shape).Idx → EReal) :
    (⟨4, ![2, 2048, 16, 3]⟩ : Shape).Idx → EReal := fun i =>
  upd (v i) (fun k => msgV W (edgeS s xs es (i 0) (i 1) k) (edgeV v xv ev (i 0) (i 1) k) (i 3) (i 2))

end GvpSpec

end
-- ==== Proof.LibMatProd.lean ====
import Idealize.ShloMosaic.PureOps.Ideal
import Idealize.ShloMosaic.Lib.ValueIdx
import Mathlib.Data.EReal.Basic
import Mathlib.Algebra.BigOperators.Group.Finset.Basic

/-!
# A matrix product on extended reals, index by index

`mmP A B` is the product of an `M × K` and a `K × N` array of extended reals: entry `(r, s)` is the sum over the
contracted axis of `A (r, j) * B (j, s)`. Every tiled matrix product of the program is this function of its two operand
arrays, whatever the tiling.
-/

open Idealize.ShloMosaic Idealize.ShloMosaic.ValueIdx

namespace MatProd

/-- The `M × K` by `K × N` product on extended reals, as a function of the result's index. -/
noncomputable def mmP {M K N : ℕ} (A : (⟨2, ![M, K]⟩ : Shape).Idx → EReal) (B : (⟨2, ![K, N]⟩ : Shape).Idx → EReal) :
    (⟨2, ![M, N]⟩ : Shape).Idx → EReal :=
  fun idx => ∑ j : Fin K, A (ix2 (idx 0) j) * B (ix2 j (idx 1))

/-- Entry `(r, s)` of the product is the sum of the products along the contracted axis. -/
theorem mmP_apply {M K N : ℕ} (A : (⟨2, ![M, K]⟩ : Shape).Idx → EReal) (B : (⟨2, ![K, N]⟩ : Shape).Idx → EReal)
    (r : Fin M) (s : Fin N) : mmP A B (ix2 r s) = ∑ j : Fin K, A (ix2 r j) * B (ix2 j s) := rfl

end MatProd
-- ==== Proof.LibDotPlain.lean ====
/-
  A plain matrix product read index by index, for any extents: a contraction of an [M × K] by a [K × N] array whose
  dimension numbers contract the left operand's axis 1 with the right operand's axis 0, with no batch axis, is the
  matrix product `MatProd.mmP` — entry (r, s) the sum over j of l (r, j) · r (j, s) — both as the host's
  `dot_general` and as the matrix unit's product into a zero accumulator, at the exact-arithmetic instance.
-/
import Idealize.ShloMosaic.PureOps.Ideal
import Idealize.ShloMosaic.PureOps.Ideal.Laws
import Idealize.ShloMosaic.PureOps.Contract
import Idealize.ShloMosaic.Lib.ValueIdx
import proofs.«418785_j9663676416046_3_alg».proof.Proof.LibMatProd

noncomputable section

namespace Idealize.ShloMosaic.DotPlain

open Idealize.ShloMosaic Idealize.ShloMosaic.ValueIdx MatProd

variable {M K N : Nat} (d : DotDims ⟨2, ![M, K]⟩ ⟨2, ![K, N]⟩ ⟨2, ![M, N]⟩)

/-- The left operand's row is the result's row. -/
theorem lhs_axis0 (hlb : d.lhsBatch = []) (hln : d.lhsNonContracting = [0]) (j : (⟨2, ![M, N]⟩ : Shape).Idx) (k : d.contr.Idx) :
    (d.lhsIdx j k 0).val = (j 0).val := by
  have key : ∀ (p q : Nat) (hp : p < (⟨2, ![M, N]⟩ : Shape).rank) (hq : q < (⟨2, ![M, N]⟩ : Shape).rank), p = q →
      (j ⟨p, hp⟩).val = (j ⟨q, hq⟩).val := fun p q hp hq h => by subst h; rfl
  unfold DotDims.lhsIdx
  rw [dif_neg (by rw [hlb]; exact List.not_mem_nil), dif_pos (by rw [hln]; exact List.mem_singleton.mpr rfl)]
  simp only [Fin.val_cast]
  exact key _ _ _ _ (by simp [hlb, hln])

/-- The right operand's column is the result's column. -/
theorem rhs_axis1 (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have key : ∀ (p q : Nat) (hp : p < (⟨2, ![M, N]⟩ : Shape).rank) (hq : q < (⟨2, ![M, N]⟩ : Shape).rank), p = q →
      (j ⟨p, hp⟩).val = (j ⟨q, hq⟩).val := fun p q hp hq h => by subst h; rfl
  unfold DotDims.rhsIdx
  rw [dif_neg (by rw [hrb]; exact List.not_mem_nil), dif_pos (by rw [hrn]; exact List.mem_singleton.mpr rfl)]
  simp only [Fin.val_cast]
  exact key _ _ _ _ (by simp [hlb, hln, hrn])

/-- The contraction's sum, re-indexed by the contracted coordinate: the matrix product's entry. -/
theorem contr_sum (hlc : d.lhsContracting = [1]) (hrc : d.rhsContracting = [0]) (hln : d.lhsNonContracting = [0])
    (hrn : d.rhsNonContracting = [1]) (hlb : d.lhsBatch = []) (hrb : d.rhsBatch = [])
    (X : (⟨2, ![M, K]⟩ : Shape).Idx → EReal) (Y : (⟨2, ![K, N]⟩ : Shape).Idx → EReal) (j : (⟨2, ![M, N]⟩ : Shape).Idx) :
    ∑ k : d.contr.Idx, X (d.lhsIdx j k) * Y (d.rhsIdx j k) = mmP X Y j := by
  have hr : d.contr.rank = 1 := by rw [d.rank_contr, hlc]; rfl
  have hs : d.contr.size ⟨0, by omega⟩ = K := by
    rw [d.size_contr 0 (by rw [hlc]; exact Nat.one_pos)]
    simp [hlc]
  refine (Equiv.sum_comp (contrEquiv1 d K hr hs).symm _).symm.trans ?_
  unfold mmP
  refine Finset.sum_congr rfl fun kk _ => ?_
  have e1 : d.lhsIdx j ((contrEquiv1 d K hr hs).symm kk) = ix2 (j 0) kk := by
    funext a; apply Fin.ext
    match a with
    | ⟨0, _⟩ => exact lhs_axis0 d hlb hln j _
    | ⟨1, _⟩ => exact (d.lhsIdx_val_of_single hlc j _).trans (contrEquiv1_symm_val d K hr hs kk)
  have e2 : d.rhsIdx j ((contrEquiv1 d K hr hs).symm kk) = ix2 kk (j 1) := by
    funext a; apply Fin.ext
    match a with
    | ⟨0, _⟩ => exact (d.rhsIdx_val_of_single hrc j _).trans (contrEquiv1_symm_val d K hr hs kk)
    | ⟨1, _⟩ => exact rhs_axis1 d hlb hrb hln hrn j _
  exact congrArg₂ (· * ·) (congrArg X e1) (congrArg Y e2)

/-- The host's `dot_general` with these dimension numbers is the matrix product. -/
theorem dotGeneral_eq (hlc : d.lhsContracting = [1]) (hrc : d.rhsContracting = [0]) (hln : d.lhsNonContracting = [0])
    (hrn : d.rhsNonContracting = [1]) (hlb : d.lhsBatch = []) (hrb : d.rhsBatch = []) {φ₁ φ₂ : FTy}
    (prec : Option ContractPrecision) (sched : HostSchedule)
    (X : FVec Ideal ⟨2, ![M, K]⟩ φ₁) (Y : FVec Ideal ⟨2, ![K, N]⟩ φ₂) :
    FloatOps.dotGeneral d prec sched X Y = mmP X Y := by
  funext j
  rw [Ideal.dotGeneral_apply]
  exact contr_sum d hlc hrc hln hrn hlb hrb X Y j

/-- The matrix unit's product with these dimension numbers into a zero accumulator is the matrix product. -/
theorem matmul_zero_eq (hlc : d.lhsContracting = [1]) (hrc : d.rhsContracting = [0]) (hln : d.lhsNonContracting = [0])
    (hrn : d.rhsNonContracting = [1]) (hlb : d.lhsBatch = []) (hrb : d.rhsBatch = []) {φ₁ φ₂ : FTy}
    (prec : Option ContractPrecision) (X : FVec Ideal ⟨2, ![M, K]⟩ φ₁) (Y : FVec Ideal ⟨2, ![K, N]⟩ φ₂) :
    FloatOps.matmul d prec X Y (constant ⟨2, ![M, N]⟩ .f32 0x00000000#32) = mmP X Y := by
  funext j
  rw [Ideal.matmul_constant_zero_apply]
  exact contr_sum d hlc hrc hln hrn hlb hrb X Y j

end Idealize.ShloMosaic.DotPlain

end
-- ==== Proof.KLayer1.lean ====
/-
  The first layer on a tile: row p * 32 + k of each of its four result matrices is the specification's first layer
  at the rows of the edge (node p, slot k) of the tile.
-/
import proofs.«418785_j9663676416046_3_alg».proof.Proof.Gen.KernelIdeal.Skeleton
import proofs.«418785_j9663676416046_3_alg».proof.Proof.Spec
import proofs.«418785_j9663676416046_3_alg».proof.Proof.LibDotPlain
import Idealize.ShloMosaic.Lib.ValueLayout
import Idealize.ShloMosaic.PureOps.Ideal.Laws

noncomputable section

namespace Cert.KernelIdeal.Tile

open Idealize.ShloMosaic Idealize.ShloMosaic.ValueIdx Cert.KernelIdeal Cert.KernelIdeal.Gen GvpSpec

variable (v0 : Vec Ideal S32x128 .f32) (v2 : Vec Ideal S32x32x128 .bf16) (v5 : Vec Ideal S32x32x32 .bf16)
  (v13 v27 v41 : Vec Ideal S1x32x16 .f32) (v15 v29 v43 : Vec Ideal S1x32x32x16 .bf16) (v18 v32 v46 : Vec Ideal S1x32x32 .bf16)
  (v55 : Vec Ideal S33x33 .bf16) (v57 : Vec Ideal S128x321 .bf16) (v59 : Vec Ideal S128 .f32)
  (v60 : Vec Ideal S16x33 .bf16) (v62 : Vec Ideal S16x128 .bf16) (v64 : Vec Ideal S16 .f32)

/-- The first layer's weights as loaded. -/
def W1 : LayerW 33 33 128 16 321 := ⟨v55, v57, v59, v60, v62, v64⟩

/-- The three coordinates' vector rows of an edge of the tile. -/
def tileV (p k : Fin 32) : Fin 3 → Fin 33 → EReal :=
  ![tileV1 v13 v15 v18 p k, tileV1 v27 v29 v32 p k, tileV1 v41 v43 v46 p k]

/-- The joined scalar rows, one per edge. -/
def A3 : FVec Ideal S1024x288 .f32 := k0_pay3 v0 v2 v5
/-- The third coordinate's joined vector rows. -/
def A9 : FVec Ideal S1024x33 .f32 := k0_pay9 v41 v43 v46
/-- The first coordinate's contracted vector rows. -/
def A14 : FVec Ideal S1024x33 .f32 := k0_pay14 (k0_pay5 v13 v15 v18) v55
/-- The second coordinate's joined vector rows. -/
def A15 : FVec Ideal S1024x33 .bf16 := k0_pay15 (k0_pay6 v27) (k0_pay7 v29) v32

/-- The first layer's gated vector rows, first coordinate. -/
def T21 : FVec Ideal S1024x16 .f32 :=
  k0_pay21 (A3 v0 v2 v5) (A9 v41 v43 v46) (k0_pay10 v55) (k0_pay11 v57) v59 (k0_pay12 v60) (k0_pay13 v62) v64
    (A14 v13 v15 v18 v55) (A15 v27 v29 v32) (k0_pay16 v55)
/-- Second coordinate. -/
def T22 : FVec Ideal S1024x16 .f32 :=
  k0_pay22 (A3 v0 v2 v5) (A9 v41 v43 v46) (k0_pay10 v55) (k0_pay11 v57) v59 (k0_pay12 v60) (k0_pay13 v62) v64
    (A14 v13 v15 v18 v55) (A15 v27 v29 v32) (k0_pay16 v55)
/-- Third coordinate. -/
def T23 : FVec Ideal S1024x16 .f32 :=
  k0_pay23 (A3 v0 v2 v5) (A9 v41 v43 v46) (k0_pay10 v55) (k0_pay11 v57) v59 (k0_pay12 v60) (k0_pay13 v62) v64
    (A14 v13 v15 v18 v55) (A15 v27 v29 v32) (k0_pay16 v55)
/-- The first layer's activated scalar rows. -/
def T24 : FVec Ideal S1024x128 .f32 :=
  k0_pay24 (A3 v0 v2 v5) (A9 v41 v43 v46) (k0_pay10 v55) (k0_pay11 v57) v59
    (A14 v13 v15 v18 v55) (A15 v27 v29 v32) (k0_pay16 v55)

/-! ## Rows of the operations, read at one edge -/

/-- Row r of the product of X with the transpose of W is the linear map W applied to row r of X. -/
private theorem mm_lin {M K N : ℕ} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = []) {φ₁ φ₂ : FTy}
    (X : FVec Ideal ⟨2, ![M, K]⟩ φ₁) (W : FVec Ideal ⟨2, ![N, K]⟩ φ₂)
    (ht : (⟨2, ![N, K]⟩ : Shape).Transposes [1, 0] ⟨2, ![K, N]⟩) (r : Fin M) (s : Fin N) :
    FloatOps.matmul d none X (transpose ⟨2, ![K, N]⟩ [1, 0] W ht) (constant ⟨2, ![M, N]⟩ .f32 0x00000000#32) (ix2 r s)
      = lin W (fun i => X (ix2 r i)) s := by
  rw [Idealize.ShloMosaic.DotPlain.matmul_zero_eq d hlc hrc hln hrn hlb hrb none X _, MatProd.mmP_apply]
  unfold lin
  exact Finset.sum_congr rfl fun i _ => by rw [transpose_ix2_apply]

/-- Three blocks of per-edge rows joined along the feature axis and laid out one row per edge: row p * 32 + k is the
    three rows of edge (p, k) joined end to end. -/
private theorem join_row {n1 n2 n3 n : ℕ} (hn : n1 + n2 + n3 = n)
    (x : (⟨3, ![32, 32, n1]⟩ : Shape).Idx → EReal) (y : (⟨3, ![32, 32, n2]⟩ : Shape).Idx → EReal)
    (z : (⟨3, ![32, 32, n3]⟩ : Shape).Idx → EReal)
    (hc : Shape.Concatenates [⟨3, ![32, 32, n1]⟩, ⟨3, ![32, 32, n2]⟩, ⟨3, ![32, 32, n3]⟩] ⟨3, ![32, 32, n]⟩ 2)
    (hs : (⟨3, ![32, 32, n]⟩ : Shape).ShapeCasts ⟨2, ![1024, n]⟩) (p k : Fin 32) (f : Fin n) :
    shapeCast ⟨2, ![1024, n]⟩ (concatenate ⟨3, ![32, 32, n]⟩ 2 [⟨_, x⟩, ⟨_, y⟩, ⟨_, z⟩] hc) hs (ix2 (erow p k) f)
      = cat3 n hn (fun i => x (ix3 p k i)) (fun i => y (ix3 p k i)) (fun i => z (ix3 p k i)) f := by
  refine (shapeCast_apply _ hs (ix2 (erow p k) f) (ix3 p k f) ?_).trans ?_
  · rw [Shape.rowMajor_val_three, Shape.rowMajor_val_two]; rfl
  · unfold cat3
    split_ifs with h1 h2
    · refine concatenate_apply_piece 2 [⟨_, x⟩, ⟨_, y⟩, ⟨_, z⟩] hc _ 0 (by simp) _ x rfl rfl 0 rfl (ix3 p k ⟨f.val, h1⟩) (fun b hb => ?_) ?_
      · match b with
        | ⟨0, _⟩ => rfl
        | ⟨1, _⟩ => rfl
        | ⟨2, _⟩ => exact absurd rfl hb
      · show 0 + f.val = f.val
        omega
    · refine concatenate_apply_piece 2 [⟨_, x⟩, ⟨_, y⟩, ⟨_, z⟩] hc _ 1 (by simp) _ y rfl rfl n1 rfl (ix3 p k ⟨f.val - n1, by omega⟩) (fun b hb => ?_) ?_
      · match b with
        | ⟨0, _⟩ => rfl
        | ⟨1, _⟩ => rfl
        | ⟨2, _⟩ => exact absurd rfl hb
      · show n1 + (f.val - n1) = f.val
        omega
    · refine concatenate_apply_piece 2 [⟨_, x⟩, ⟨_, y⟩, ⟨_, z⟩] hc _ 2 (by simp) _ z rfl rfl (n1 + n2) ?_ (ix3 p k ⟨f.val - (n1 + n2), by omega⟩) (fun b hb => ?_) ?_
      · simp
      · match b with
        | ⟨0, _⟩ => rfl
        | ⟨1, _⟩ => rfl
        | ⟨2, _⟩ => exact absurd rfl hb
      · show n1 + n2 + (f.val - (n1 + n2)) = f.val
        omega

/-- Joined rows agree when their pieces agree. -/
private theorem cat3_congr {a b d c : ℕ} (hc : a + b + d = c) {x x' : Fin a → EReal} {y y' : Fin b → EReal} {z z' : Fin d → EReal}
    (hx : ∀ i, x i = x' i) (hy : ∀ i, y i = y' i) (hz : ∀ i, z i = z' i) (f : Fin c) :
    cat3 c hc x y z f = cat3 c hc x' y' z' f := by
  obtain rfl : x = x' := funext hx
  obtain rfl : y = y' := funext hy
  obtain rfl : z = z' := funext hz
  rfl

/-- A node's own row, given a unit slot axis and broadcast over the 32 slots, is that row at every slot. -/
private theorem own_bcast {n : ℕ} (own : (⟨2, ![32, n]⟩ : Shape).Idx → EReal)
    (h1 : (⟨2, ![32, n]⟩ : Shape).ShapeCasts ⟨3, ![32, 1, n]⟩) (h2 : (⟨3, ![32, 1, n]⟩ : Shape).ShapeCasts ⟨3, ![32, 1, n]⟩)
    (hb : (⟨3, ![32, 1, n]⟩ : Shape).Broadcasts ⟨3, ![32, 32, n]⟩) (p k : Fin 32) (i : Fin n) :
    broadcastTo ⟨3, ![32, 32, n]⟩ (shapeCast ⟨3, ![32, 1, n]⟩ (shapeCast ⟨3, ![32, 1, n]⟩ own h1) h2) hb (ix3 p k i)
      = own (ix2 p i) := by
  rw [shapeCast_self]
  refine (broadcastTo_apply _ hb (ix3 p k i) (ix3 p (0 : Fin 1) i) (fun a => ?_)).trans ?_
  · match a with
    | ⟨0, _⟩ => rfl
    | ⟨1, _⟩ => rfl
    | ⟨2, _⟩ =>
      show i.val = if n = 1 then 0 else i.val
      split
      · have := i.isLt; omega
      · rfl
  · refine shapeCast_apply own h1 (ix3 p (0 : Fin 1) i) (ix2 p i) ?_
    rw [Shape.rowMajor_val_two, Shape.rowMajor_val_three]
    show p.val * n + i.val = (p.val * 1 + 0) * n + i.val
    simp

/-- One coordinate's joined vector rows: row p * 32 + k is the node's own row, the gathered row and the edge's entry
    of edge (p, k), joined end to end. -/
private theorem joinV_row (own : FVec Ideal S32x16 .f32) (nbr : FVec Ideal S32x32x16 .f32) (edge : FVec Ideal S32x32 .f32)
    (h1 : S32x16.ShapeCasts S32x1x16) (h2 : S32x1x16.ShapeCasts S32x1x16) (hb : S32x1x16.Broadcasts S32x32x16)
    (h3 : S32x32.ShapeCasts S32x32x1) (hc : Shape.Concatenates [S32x32x16, S32x32x16, S32x32x1] S32x32x33 2)
    (hs : S32x32x33.ShapeCasts S1024x33) (p k : Fin 32) (i : Fin 33) :
    shapeCast S1024x33 (concatenate S32x32x33 2 [⟨S32x32x16, broadcastTo S32x32x16 (shapeCast S32x1x16 (shapeCast S32x1x16 own h1) h2) hb⟩,
        ⟨S32x32x16, nbr⟩, ⟨S32x32x1, shapeCast S32x32x1 edge h3⟩] hc) hs (ix2 (erow p k) i)
      = cat3 33 rfl (fun i : Fin 16 => own (ix2 p i)) (fun i : Fin 16 => nbr (ix3 p k i)) (fun _ : Fin 1 => edge (ix2 p k)) i := by
  refine (join_row (n1 := 16) (n2 := 16) (n3 := 1) rfl _ _ _ hc hs p k i).trans ?_
  refine cat3_congr _ (fun i => own_bcast own h1 h2 hb p k i) (fun i => rfl) (fun i => ?_) i
  refine shapeCast_apply edge h3 (ix3 p k i) (ix2 p k) ?_
  rw [Shape.rowMajor_val_two, Shape.rowMajor_val_three]
  show p.val * 32 + k.val = (p.val * 32 + k.val) * 1 + i.val
  have := i.isLt
  omega

/-- The first coordinate's joined vector rows are the tile's vector rows. -/
private theorem pay5_row (p k : Fin 32) (i : Fin 33) :
    k0_pay5 v13 v15 v18 (ix2 (erow p k) i) = tileV1 v13 v15 v18 p k i := by
  unfold k0_pay5
  refine (joinV_row (k0_pay4 v13) _ _ _ _ _ _ _ _ p k i).trans ?_
  unfold tileV1
  refine cat3_congr _ (fun i => ?_) (fun i => ?_) (fun i => ?_) i
  · unfold k0_pay4; exact shapeCast_1ab_ab_apply v13 _ p i
  · exact shapeCast_1abc_abc_apply v15 _ p k i
  · exact shapeCast_1ab_ab_apply v18 _ p k

/-- The third coordinate's likewise. -/
private theorem pay9_row (p k : Fin 32) (i : Fin 33) :
    k0_pay9 v41 v43 v46 (ix2 (erow p k) i) = tileV1 v41 v43 v46 p k i := pay5_row v41 v43 v46 p k i

/-- The second coordinate's likewise. -/
private theorem pay15_row (p k : Fin 32) (i : Fin 33) :
    k0_pay15 (k0_pay6 v27) (k0_pay7 v29) v32 (ix2 (erow p k) i) = tileV1 v27 v29 v32 p k i := pay5_row v27 v29 v32 p k i

/-- The joined scalar rows are the tile's scalar rows. -/
private theorem pay3_row (p k : Fin 32) (f : Fin 288) :
    k0_pay3 v0 v2 v5 (ix2 (erow p k) f) = tileS v0 v2 v5 p k f := by
  unfold k0_pay3
  refine (join_row (n1 := 128) (n2 := 128) (n3 := 32) rfl _ _ _ _ _ p k f).trans ?_
  unfold tileS
  refine cat3_congr _ (fun i => ?_) (fun i => ?_) (fun i => ?_) f
  · refine (own_bcast (k0_pay2 v0) _ _ _ p k i).trans ?_
    unfold k0_pay2; rw [shapeCast_self]
  · show shapeCast S32x32x128 v2 _ (ix3 p k i) = _
    rw [shapeCast_self]
  · show shapeCast S32x32x32 v5 _ (ix3 p k i) = _
    rw [shapeCast_self]

/-- Two blocks of rows joined along the feature axis: row r is the two rows joined end to end. -/
private theorem cat2_row {n1 n2 n : ℕ} (hn : n1 + n2 = n)
    (x : (⟨2, ![1024, n1]⟩ : Shape).Idx → EReal) (y : (⟨2, ![1024, n2]⟩ : Shape).Idx → EReal)
    (hc : Shape.Concatenates [⟨2, ![1024, n1]⟩, ⟨2, ![1024, n2]⟩] ⟨2, ![1024, n]⟩ 1) (r : Fin 1024) (f : Fin n) :
    concatenate ⟨2, ![1024, n]⟩ 1 [⟨_, x⟩, ⟨_, y⟩] hc (ix2 r f)
      = cat2 n hn (fun i => x (ix2 r i)) (fun i => y (ix2 r i)) f := by
  unfold cat2
  split_ifs with h1
  · refine concatenate_pair_apply_left 1 x y hc (ix2 r f) rfl (ix2 r ⟨f.val, h1⟩) (fun b => ?_)
    match b with
    | ⟨0, _⟩ => rfl
    | ⟨1, _⟩ => rfl
  · refine concatenate_pair_apply_right 1 x y hc (ix2 r f) rfl rfl (ix2 r ⟨f.val - n1, by omega⟩) (fun b hb => ?_) ?_
    · match b with
      | ⟨0, _⟩ => rfl
      | ⟨1, _⟩ => exact absurd rfl hb
    · show f.val - n1 + n1 = f.val
      omega

/-- A bias row broadcast over the 1024 rows reads the bias at the column. -/
private theorem bias_row {n : ℕ} (b : (⟨1, ![n]⟩ : Shape).Idx → EReal) (h1 : (⟨1, ![n]⟩ : Shape).ShapeCasts ⟨2, ![1, n]⟩)
    (hb : (⟨2, ![1, n]⟩ : Shape).Broadcasts ⟨2, ![1024, n]⟩) (r : Fin 1024) (o : Fin n) :
    broadcastTo ⟨2, ![1024, n]⟩ (shapeCast ⟨2, ![1, n]⟩ b h1) hb (ix2 r o) = b (ix1 o) :=
  (broadcastTo_1b_ab_apply _ hb r o).trans (shapeCast_a_1a_apply b h1 0 o)

/-- Row r of an affine layer: the product with the transposed weight into a zero accumulator, plus the broadcast bias. -/
private theorem aff_row {K N : ℕ} (d : DotDims ⟨2, ![1024, K]⟩ ⟨2, ![K, N]⟩ ⟨2, ![1024, N]⟩)
    (hlc : d.lhsContracting = [1]) (hrc : d.rhsContracting = [0]) (hln : d.lhsNonContracting = [0])
    (hrn : d.rhsNonContracting = [1]) (hlb : d.lhsBatch = []) (hrb : d.rhsBatch = []) {φ₁ φ₂ : FTy}
    (X : FVec Ideal ⟨2, ![1024, K]⟩ φ₁) (W : FVec Ideal ⟨2, ![N, K]⟩ φ₂) (b : FVec Ideal ⟨1, ![N]⟩ .f32)
    (ht : (⟨2, ![N, K]⟩ : Shape).Transposes [1, 0] ⟨2, ![K, N]⟩)
    (h1 : (⟨1, ![N]⟩ : Shape).ShapeCasts ⟨2, ![1, N]⟩) (hb : (⟨2, ![1, N]⟩ : Shape).Broadcasts ⟨2, ![1024, N]⟩)
    (r : Fin 1024) (x : Fin K → EReal) (hx : ∀ i, X (ix2 r i) = x i) (o : Fin N) :
    addf (F := Ideal) (FloatOps.matmul d none X (transpose ⟨2, ![K, N]⟩ [1, 0] W ht) (constant ⟨2, ![1024, N]⟩ .f32 0x00000000#32))
        (broadcastTo ⟨2, ![1024, N]⟩ (shapeCast ⟨2, ![1, N]⟩ b h1) hb) (ix2 r o)
      = aff W b x o := by
  obtain rfl : (fun i => X (ix2 r i)) = x := funext hx
  show _ + _ = _
  rw [mm_lin d hlc hrc hln hrn hlb hrb X W ht r o, bias_row b h1 hb r o]
  rfl

/-- The loaded weight matrices pass through a shape cast to their own shape. -/
private theorem pay10_eq : k0_pay10 v55 = v55 := by unfold k0_pay10; exact shapeCast_self _ _
private theorem pay11_eq : k0_pay11 v57 = v57 := by unfold k0_pay11; exact shapeCast_self _ _
private theorem pay12_eq : k0_pay12 v60 = v60 := by unfold k0_pay12; exact shapeCast_self _ _
private theorem pay13_eq : k0_pay13 v62 = v62 := by unfold k0_pay13; exact shapeCast_self _ _

/-- The first coordinate's contracted rows: the contraction matrix applied to the joined row. -/
private theorem pay14_row (X : FVec Ideal S1024x33 .f32) (r : Fin 1024) (j : Fin 33) :
    k0_pay14 X v55 (ix2 r j) = lin v55 (fun i => X (ix2 r i)) j := by
  unfold k0_pay14
  rw [pay10_eq]
  exact mm_lin dot_S1024x33_S33x33_S1024x33_1_0_0_1_n_n rfl rfl rfl rfl rfl rfl _ v55 _ r j

/-- The second coordinate's. -/
private theorem pay17_row (X : FVec Ideal S1024x33 .bf16) (r : Fin 1024) (j : Fin 33) :
    k0_pay17 X (k0_pay16 v55) (ix2 r j) = lin v55 (fun i => X (ix2 r i)) j := by
  unfold k0_pay17 k0_pay16
  rw [pay10_eq]
  exact mm_lin dot_S1024x33_S33x33_S1024x33_1_0_0_1_n_n rfl rfl rfl rfl rfl rfl X v55 _ r j

/-- The third coordinate's. -/
private theorem pay18_row (X : FVec Ideal S1024x33 .f32) (r : Fin 1024) (j : Fin 33) :
    k0_pay18 X (k0_pay10 v55) (ix2 r j) = lin v55 (fun i => X (ix2 r i)) j := by
  unfold k0_pay18
  rw [pay10_eq]
  exact mm_lin dot_S1024x33_S33x33_S1024x33_1_0_0_1_n_n rfl rfl rfl rfl rfl rfl _ v55 _ r j

/-- Narrowing to the 16-bit format is the identity on extended reals. -/
private theorem truncf_bf16_apply {s : Shape} (a : FVec Ideal s .f32) (h : FTy.bits .bf16 < FTy.bits .f32) (i : s.Idx) :
    (truncf .bf16 a h : FVec Ideal s .bf16) i = a i := rfl

/-- A gated vector row: the output matrix applied to the contracted row, times the gate. -/
private theorem gated_row {φ₁ φ₂ : FTy} (X : FVec Ideal S1024x33 φ₁) (W : FVec Ideal S16x33 φ₂) (G : FVec Ideal S1024x16 .f32)
    (r : Fin 1024) (x : Fin 33 → EReal) (hX : ∀ i, X (ix2 r i) = x i) (ht : S16x33.Transposes [1, 0] S33x16) (g : Fin 16) :
    mulf (F := Ideal) (FloatOps.matmul dot_S1024x33_S33x16_S1024x16_1_0_0_1_n_n none X
        (transpose S33x16 [1, 0] W ht) (constant S1024x16 .f32 0x00000000#32)) G (ix2 r g)
      = lin W x g * G (ix2 r g) := by
  obtain rfl : (fun i => X (ix2 r i)) = x := funext hX
  refine (mulf_apply _ _ _).trans ?_
  rw [mm_lin dot_S1024x33_S33x16_S1024x16_1_0_0_1_n_n rfl rfl rfl rfl rfl rfl X W ht r g]

section Rows

variable (v12 : FVec Ideal S1024x288 .f32) (v54 v67 : FVec Ideal S1024x33 .f32) (v68 : FVec Ideal S1024x33 .bf16)
  (r : Fin 1024) (ms : Fin 288 → EReal) (mv : Fin 3 → Fin 33 → EReal)
  (h12 : ∀ f, v12 (ix2 r f) = ms f) (h67 : ∀ j, v67 (ix2 r j) = lin v55 (mv 0) j)
  (h68 : ∀ i, v68 (ix2 r i) = mv 1 i) (h54 : ∀ i, v54 (ix2 r i) = mv 2 i)

include h12 h67 h68 h54 in
/-- The scalar rows before activation: the affine map of the scalar row joined to the clipped norm of the three
    contracted vector rows. -/
private theorem pay19_row (o : Fin 128) :
    k0_pay19 v12 v54 (k0_pay10 v55) (k0_pay11 v57) v59 v67 v68 (k0_pay16 v55) (ix2 r o)
      = sPre (si := 288) rfl (W1 v55 v57 v59 v60 v62 v64) ms mv o := by
  unfold k0_pay19
  rw [pay11_eq]
  refine aff_row dot_S1024x321_S321x128_S1024x128_1_0_0_1_n_n rfl rfl rfl rfl rfl rfl _ v57 v59 _ _ _ r _ (fun i => ?_) o
  refine (truncf_bf16_apply _ _ _).trans ?_
  refine (cat2_row (n1 := 288) (n2 := 33) (n := 321) rfl v12 _ _ r i).trans ?_
  unfold cat2
  split_ifs with h1
  · exact h12 _
  · show Ideal.sqrt (max eps (v67 _ * v67 _ + k0_pay17 v68 (k0_pay16 v55) _ * k0_pay17 v68 (k0_pay16 v55) _
        + k0_pay18 v54 (k0_pay10 v55) _ * k0_pay18 v54 (k0_pay10 v55) _)) = _
    rw [h67, pay17_row, pay18_row]
    rw [show (fun i => v68 (ix2 r i)) = mv 1 from funext h68, show (fun i => v54 (ix2 r i)) = mv 2 from funext h54]
    rfl

include h12 h67 h68 h54 in
/-- The activated scalar rows: the positive part. -/
private theorem pay24_row (o : Fin 128) :
    k0_pay24 v12 v54 (k0_pay10 v55) (k0_pay11 v57) v59 v67 v68 (k0_pay16 v55) (ix2 r o)
      = sOutA (si := 288) rfl (W1 v55 v57 v59 v60 v62 v64) ms mv o := by
  unfold k0_pay24
  show max (k0_pay19 v12 v54 (k0_pay10 v55) (k0_pay11 v57) v59 v67 v68 (k0_pay16 v55) (ix2 r o)) (Ideal.ofBits .f32 0x00000000#32) = _
  rw [pay19_row v55 v57 v59 v60 v62 v64 v12 v54 v67 v68 r ms mv h12 h67 h68 h54 o, Ideal.ofBits_zero_f32]
  rfl

include h12 h67 h68 h54 in
/-- The gate: the logistic of the affine map of the logistic of the scalar rows. -/
private theorem pay20_row (g : Fin 16) :
    k0_pay20 v12 v54 (k0_pay10 v55) (k0_pay11 v57) v59 (k0_pay13 v62) v64 v67 v68 (k0_pay16 v55) (ix2 r g)
      = Ideal.logistic (gateA (si := 288) rfl (W1 v55 v57 v59 v60 v62 v64) ms mv g) := by
  unfold k0_pay20
  rw [pay13_eq]
  refine congrArg Ideal.logistic ?_
  refine aff_row dot_S1024x128_S128x16_S1024x16_1_0_0_1_n_n rfl rfl rfl rfl rfl rfl _ v62 v64 _ _ _ r _ (fun o => ?_) g
  show Ideal.logistic (k0_pay19 v12 v54 (k0_pay10 v55) (k0_pay11 v57) v59 v67 v68 (k0_pay16 v55) (ix2 r o)) = _
  rw [pay19_row v55 v57 v59 v60 v62 v64 v12 v54 v67 v68 r ms mv h12 h67 h68 h54 o]

include h12 h67 h68 h54 in
/-- The gated vector rows, first coordinate. -/
private theorem pay21_row (g : Fin 16) :
    k0_pay21 v12 v54 (k0_pay10 v55) (k0_pay11 v57) v59 (k0_pay12 v60) (k0_pay13 v62) v64 v67 v68 (k0_pay16 v55) (ix2 r g)
      = vOutA (si := 288) rfl (W1 v55 v57 v59 v60 v62 v64) ms mv 0 g := by
  unfold k0_pay21
  rw [pay12_eq]
  refine (gated_row _ v60 _ r (lin v55 (mv 0)) (fun i => ?_) _ g).trans ?_
  · exact (truncf_bf16_apply _ _ _).trans (h67 i)
  · rw [pay20_row v55 v57 v59 v60 v62 v64 v12 v54 v67 v68 r ms mv h12 h67 h68 h54 g]
    rfl

include h12 h67 h68 h54 in
/-- Second coordinate. -/
private theorem pay22_row (g : Fin 16) :
    k0_pay22 v12 v54 (k0_pay10 v55) (k0_pay11 v57) v59 (k0_pay12 v60) (k0_pay13 v62) v64 v67 v68 (k0_pay16 v55) (ix2 r g)
      = vOutA (si := 288) rfl (W1 v55 v57 v59 v60 v62 v64) ms mv 1 g := by
  unfold k0_pay22
  rw [pay12_eq]
  refine (gated_row _ v60 _ r (lin v55 (mv 1)) (fun i => ?_) _ g).trans ?_
  · refine (truncf_bf16_apply _ _ _).trans ?_
    rw [pay17_row]
    rw [show (fun i => v68 (ix2 r i)) = mv 1 from funext h68]
  · rw [pay20_row v55 v57 v59 v60 v62 v64 v12 v54 v67 v68 r ms mv h12 h67 h68 h54 g]
    rfl

include h12 h67 h68 h54 in
/-- Third coordinate. -/
private theorem pay23_row (g : Fin 16) :
    k0_pay23 v12 v54 (k0_pay10 v55) (k0_pay11 v57) v59 (k0_pay12 v60) (k0_pay13 v62) v64 v67 v68 (k0_pay16 v55) (ix2 r g)
      = vOutA (si := 288) rfl (W1 v55 v57 v59 v60 v62 v64) ms mv 2 g := by
  unfold k0_pay23
  rw [pay12_eq]
  refine (gated_row _ v60 _ r (lin v55 (mv 2)) (fun i => ?_) _ g).trans ?_
  · refine (truncf_bf16_apply _ _ _).trans ?_
    rw [pay18_row]
    rw [show (fun i => v54 (ix2 r i)) = mv 2 from funext h54]
  · rw [pay20_row v55 v57 v59 v60 v62 v64 v12 v54 v67 v68 r ms mv h12 h67 h68 h54 g]
    rfl

end Rows

/-- The first coordinate's contracted rows on the tile. -/
private theorem A14_row (p k : Fin 32) (j : Fin 33) :
    A14 v13 v15 v18 v55 (ix2 (erow p k) j) = lin v55 (tileV v13 v27 v41 v15 v29 v43 v18 v32 v46 p k 0) j := by
  unfold A14
  rw [pay14_row, show (fun i => k0_pay5 v13 v15 v18 (ix2 (erow p k) i)) = tileV1 v13 v15 v18 p k from
    funext (pay5_row v13 v15 v18 p k)]
  rfl

/-- The activated scalar rows. -/
theorem T24_row (p k : Fin 32) (o : Fin 128) :
    T24 v0 v2 v5 v13 v27 v41 v15 v29 v43 v18 v32 v46 v55 v57 v59 (ix2 (erow p k) o)
      = sOutA (si := 288) rfl (W1 v55 v57 v59 v60 v62 v64) (tileS v0 v2 v5 p k)
          (tileV v13 v27 v41 v15 v29 v43 v18 v32 v46 p k) o := by
  unfold T24
  exact pay24_row v55 v57 v59 v60 v62 v64 (A3 v0 v2 v5) (A9 v41 v43 v46) (A14 v13 v15 v18 v55) (A15 v27 v29 v32) (erow p k)
    (tileS v0 v2 v5 p k) (tileV v13 v27 v41 v15 v29 v43 v18 v32 v46 p k) (fun f => pay3_row v0 v2 v5 p k f)
    (fun j => A14_row v13 v27 v41 v15 v29 v43 v18 v32 v46 v55 p k j) (fun i => pay15_row v27 v29 v32 p k i)
    (fun i => pay9_row v41 v43 v46 p k i) o

/-- The gated vector rows, first coordinate. -/
theorem T21_row (p k : Fin 32) (g : Fin 16) :
    T21 v0 v2 v5 v13 v27 v41 v15 v29 v43 v18 v32 v46 v55 v57 v59 v60 v62 v64 (ix2 (erow p k) g)
      = vOutA (si := 288) rfl (W1 v55 v57 v59 v60 v62 v64) (tileS v0 v2 v5 p k)
          (tileV v13 v27 v41 v15 v29 v43 v18 v32 v46 p k) 0 g := by
  unfold T21
  exact pay21_row v55 v57 v59 v60 v62 v64 (A3 v0 v2 v5) (A9 v41 v43 v46) (A14 v13 v15 v18 v55) (A15 v27 v29 v32) (erow p k)
    (tileS v0 v2 v5 p k) (tileV v13 v27 v41 v15 v29 v43 v18 v32 v46 p k) (fun f => pay3_row v0 v2 v5 p k f)
    (fun j => A14_row v13 v27 v41 v15 v29 v43 v18 v32 v46 v55 p k j) (fun i => pay15_row v27 v29 v32 p k i)
    (fun i => pay9_row v41 v43 v46 p k i) g

/-- Second coordinate. -/
theorem T22_row (p k : Fin 32) (g : Fin 16) :
    T22 v0 v2 v5 v13 v27 v41 v15 v29 v43 v18 v32 v46 v55 v57 v59 v60 v62 v64 (ix2 (erow p k) g)
      = vOutA (si := 288) rfl (W1 v55 v57 v59 v60 v62 v64) (tileS v0 v2 v5 p k)
          (tileV v13 v27 v41 v15 v29 v43 v18 v32 v46 p k) 1 g := by
  unfold T22
  exact pay22_row v55 v57 v59 v60 v62 v64 (A3 v0 v2 v5) (A9 v41 v43 v46) (A14 v13 v15 v18 v55) (A15 v27 v29 v32) (erow p k)
    (tileS v0 v2 v5 p k) (tileV v13 v27 v41 v15 v29 v43 v18 v32 v46 p k) (fun f => pay3_row v0 v2 v5 p k f)
    (fun j => A14_row v13 v27 v41 v15 v29 v43 v18 v32 v46 v55 p k j) (fun i => pay15_row v27 v29 v32 p k i)
    (fun i => pay9_row v41 v43 v46 p k i) g

/-- Third coordinate. -/
theorem T23_row (p k : Fin 32) (g : Fin 16) :
    T23 v0 v2 v5 v13 v27 v41 v15 v29 v43 v18 v32 v46 v55 v57 v59 v60 v62 v64 (ix2 (erow p k) g)
      = vOutA (si := 288) rfl (W1 v55 v57 v59 v60 v62 v64) (tileS v0 v2 v5 p k)
          (tileV v13 v27 v41 v15 v29 v43 v18 v32 v46 p k) 2 g := by
  unfold T23
  exact pay23_row v55 v57 v59 v60 v62 v64 (A3 v0 v2 v5) (A9 v41 v43 v46) (A14 v13 v15 v18 v55) (A15 v27 v29 v32) (erow p k)
    (tileS v0 v2 v5 p k) (tileV v13 v27 v41 v15 v29 v43 v18 v32 v46 p k) (fun f => pay3_row v0 v2 v5 p k f)
    (fun j => A14_row v13 v27 v41 v15 v29 v43 v18 v32 v46 v55 p k j) (fun i => pay15_row v27 v29 v32 p k i)
    (fun i => pay9_row v41 v43 v46 p k i) g

end Cert.KernelIdeal.Tile

end
-- ==== Proof.KLayer2.lean ====
/-
  The second layer on a tile: given what row p * 32 + k of the first layer's four result matrices is (any scalar row
  S1 p k and vector rows V1 p k), row p * 32 + k of the second layer's five intermediate matrices is the
  specification's second layer at those rows.
-/
import proofs.«418785_j9663676416046_3_alg».proof.Proof.Gen.KernelIdeal.Skeleton
import proofs.«418785_j9663676416046_3_alg».proof.Proof.Spec
import proofs.«418785_j9663676416046_3_alg».proof.Proof.LibDotPlain
import Idealize.ShloMosaic.Lib.ValueLayout
import Idealize.ShloMosaic.Lib.Pipeline.Value

noncomputable section

namespace Cert.KernelIdeal.Tile

open Idealize.ShloMosaic Idealize.ShloMosaic.ValueIdx Cert.KernelIdeal Cert.KernelIdeal.Gen GvpSpec

/-! ## One lemma per operation pattern -/

/-- Row `e` of the product of `X` (narrowed) with the transpose of `W`, into the zero accumulator, is the linear map
    `W` of row `e` of `X`: entry `(e, j)` is the sum over `i` of `X (e, i) * W (j, i)`. -/
private theorem mmT_row {M K N : ℕ} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (hb : FTy.bits .bf16 < FTy.bits .f32) (ht : (⟨2, ![N, K]⟩ : Shape).Transposes [1, 0] ⟨2, ![K, N]⟩)
    (X : FVec Ideal ⟨2, ![M, K]⟩ .f32) (W : FVec Ideal ⟨2, ![N, K]⟩ .bf16) (e : Fin M) (j : Fin N) :
    matmul d none (truncf .bf16 X hb) (transpose ⟨2, ![K, N]⟩ [1, 0] W ht) (constant ⟨2, ![M, N]⟩ .f32 0x00000000#32)
        (ix2 e j)
      = lin W (fun i => X (ix2 e i)) j := by
  show FloatOps.matmul d none (truncf .bf16 X hb) (transpose ⟨2, ![K, N]⟩ [1, 0] W ht)
    (constant ⟨2, ![M, N]⟩ .f32 0x00000000#32) (ix2 e j) = _
  rw [DotPlain.matmul_zero_eq d hlc hrc hln hrn hlb hrb none, MatProd.mmP_apply]
  unfold lin
  refine Finset.sum_congr rfl fun i _ => ?_
  rw [transpose_ix2_apply]
  rfl

/-- A bias vector, viewed as one row and repeated over all rows, reads the bias at the column. -/
private theorem bias_row {M N : ℕ} (b : (⟨1, ![N]⟩ : Shape).Idx → EReal)
    (h1 : (⟨1, ![N]⟩ : Shape).ShapeCasts ⟨2, ![1, N]⟩) (h2 : (⟨2, ![1, N]⟩ : Shape).Broadcasts ⟨2, ![M, N]⟩)
    (e : Fin M) (o : Fin N) :
    broadcastTo ⟨2, ![M, N]⟩ (shapeCast ⟨2, ![1, N]⟩ b h1) h2 (ix2 e o) = b (ix1 o) := by
  rw [broadcastTo_1b_ab_apply, shapeCast_a_1a_apply]

/-- The same product with a bias row added: the affine map of row `e` of `X`. -/
private theorem affT_row {M K N : ℕ} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (hb : FTy.bits .bf16 < FTy.bits .f32) (ht : (⟨2, ![N, K]⟩ : Shape).Transposes [1, 0] ⟨2, ![K, N]⟩)
    (h1 : (⟨1, ![N]⟩ : Shape).ShapeCasts ⟨2, ![1, N]⟩) (h2 : (⟨2, ![1, N]⟩ : Shape).Broadcasts ⟨2, ![M, N]⟩)
    (X : FVec Ideal ⟨2, ![M, K]⟩ .f32) (W : FVec Ideal ⟨2, ![N, K]⟩ .bf16) (b : FVec Ideal ⟨1, ![N]⟩ .f32)
    (e : Fin M) (o : Fin N) :
    addf (matmul d none (truncf .bf16 X hb) (transpose ⟨2, ![K, N]⟩ [1, 0] W ht)
        (constant ⟨2, ![M, N]⟩ .f32 0x00000000#32)) (broadcastTo ⟨2, ![M, N]⟩ (shapeCast ⟨2, ![1, N]⟩ b h1) h2) (ix2 e o)
      = aff W b (fun i => X (ix2 e i)) o := by
  rw [addf_apply, mmT_row d hlc hrc hln hrn hlb hrb, bias_row]
  rfl

/-- Two matrices joined along their columns: a row of the result is the two rows joined end to end. -/
private theorem cat_row (x : FVec Ideal S1024x128 .f32) (y : FVec Ideal S1024x16 .f32)
    (h : Shape.Concatenates [S1024x128, S1024x16] S1024x144 1) (e : Fin 1024) (f : Fin 144) :
    concatenate S1024x144 1 [⟨S1024x128, x⟩, ⟨S1024x16, y⟩] h (ix2 e f)
      = cat2 144 rfl (fun a : Fin 128 => x (ix2 e a)) (fun c : Fin 16 => y (ix2 e c)) f := by
  unfold cat2
  split
  · next hf =>
    exact concatenate_pair_apply_left (1 : Fin S1024x144.rank) x y h (ix2 e f) rfl (ix2 e ⟨f.val, hf⟩)
      fun c => match c with | ⟨0, _⟩ => rfl | ⟨1, _⟩ => rfl
  · next hf =>
    refine concatenate_pair_apply_right (1 : Fin S1024x144.rank) x y h (ix2 e f) rfl rfl
      (ix2 e ⟨f.val - 128, by have := f.isLt; omega⟩) (fun c hc => ?_) ?_
    · match c with
      | ⟨0, _⟩ => rfl
      | ⟨1, _⟩ => exact absurd rfl hc
    · show f.val - 128 + 128 = f.val
      omega

/-- A weight matrix as loaded is the array it was loaded from. -/
private theorem pay25_eq (w : Vec Ideal S16x16 .bf16) : k0_pay25 (F := Ideal) w = w := shapeCast_self w _
private theorem pay26_eq (w : Vec Ideal S128x144 .bf16) : k0_pay26 (F := Ideal) w = w := shapeCast_self w _
private theorem pay27_eq (w : Vec Ideal S16x16 .bf16) : k0_pay27 (F := Ideal) w = w := shapeCast_self w _

variable (v106 v107 v108 : FVec Ideal S1024x16 .f32) (v110 : FVec Ideal S1024x128 .f32)
  (v111 : Vec Ideal S16x16 .bf16) (v113 : Vec Ideal S128x144 .bf16) (v115 : Vec Ideal S128 .f32)
  (v116 : Vec Ideal S16x16 .bf16) (v118 : Vec Ideal S16x128 .bf16) (v120 : Vec Ideal S16 .f32)
  (S1 : Fin 32 → Fin 32 → Fin 128 → EReal) (V1 : Fin 32 → Fin 32 → Fin 3 → Fin 16 → EReal)
  (h110 : ∀ p k o, v110 (ix2 (erow p k) o) = S1 p k o)
  (h106 : ∀ p k g, v106 (ix2 (erow p k) g) = V1 p k 0 g)
  (h107 : ∀ p k g, v107 (ix2 (erow p k) g) = V1 p k 1 g)
  (h108 : ∀ p k g, v108 (ix2 (erow p k) g) = V1 p k 2 g)

/-- The second layer's weights as loaded. -/
def W2 : LayerW 16 16 128 16 144 := ⟨v111, v113, v115, v116, v118, v120⟩

/-- The second layer's scalar rows before activation. -/
def U31 : FVec Ideal S1024x128 .f32 := k0_pay31 v106 v107 v108 v110 (k0_pay25 v111) (k0_pay26 v113) v115
/-- Its vector rows before gating, first coordinate. -/
def U32 : FVec Ideal S1024x16 .f32 := k0_pay32 v106 (k0_pay25 v111) v116
/-- Second coordinate. -/
def U33 : FVec Ideal S1024x16 .f32 := k0_pay33 v107 (k0_pay25 v111) v116
/-- Third coordinate. -/
def U34 : FVec Ideal S1024x16 .f32 := k0_pay34 v108 (k0_pay25 v111) v116
/-- Its gate: the logistic of the affine map of the logistic of the scalar rows. -/
def U35 : FVec Ideal S1024x16 .f32 :=
  k0_pay35 v106 v107 v108 v110 (k0_pay25 v111) (k0_pay26 v113) v115 v118 v120

/-! ## The payloads row by row -/

/-- A contracted vector row, first coordinate: row `e` of the product is the linear map `wh` of row `e`. -/
private theorem pay28_row (X : FVec Ideal S1024x16 .f32) (e : Fin 1024) (j : Fin 16) :
    k0_pay28 X (k0_pay25 v111) (ix2 e j) = lin v111 (fun i => X (ix2 e i)) j := by
  rw [pay25_eq]
  exact mmT_row _ rfl rfl rfl rfl rfl rfl _ _ X v111 e j

/-- Second coordinate. -/
private theorem pay29_row (X : FVec Ideal S1024x16 .f32) (e : Fin 1024) (j : Fin 16) :
    k0_pay29 X (k0_pay25 v111) (ix2 e j) = lin v111 (fun i => X (ix2 e i)) j := by
  rw [pay25_eq]
  exact mmT_row _ rfl rfl rfl rfl rfl rfl _ _ X v111 e j

/-- Third coordinate. -/
private theorem pay30_row (X : FVec Ideal S1024x16 .f32) (e : Fin 1024) (j : Fin 16) :
    k0_pay30 X (k0_pay25 v111) (ix2 e j) = lin v111 (fun i => X (ix2 e i)) j := by
  rw [pay25_eq]
  exact mmT_row _ rfl rfl rfl rfl rfl rfl _ _ X v111 e j

/-- A vector row before gating, first coordinate: the linear map `wv` of the contracted row. -/
private theorem pay32_row (X : FVec Ideal S1024x16 .f32) (e : Fin 1024) (g : Fin 16) :
    k0_pay32 X (k0_pay25 v111) v116 (ix2 e g)
      = lin v116 (fun j => lin v111 (fun i => X (ix2 e i)) j) g := by
  refine (mmT_row _ rfl rfl rfl rfl rfl rfl _ _ (k0_pay28 X (k0_pay25 v111)) (k0_pay27 v116) e g).trans ?_
  rw [pay27_eq]
  exact congrArg (fun r => lin v116 r g) (funext fun j => pay28_row v111 X e j)

/-- Second coordinate. -/
private theorem pay33_row (X : FVec Ideal S1024x16 .f32) (e : Fin 1024) (g : Fin 16) :
    k0_pay33 X (k0_pay25 v111) v116 (ix2 e g)
      = lin v116 (fun j => lin v111 (fun i => X (ix2 e i)) j) g := by
  refine (mmT_row _ rfl rfl rfl rfl rfl rfl _ _ (k0_pay29 X (k0_pay25 v111)) (k0_pay27 v116) e g).trans ?_
  rw [pay27_eq]
  exact congrArg (fun r => lin v116 r g) (funext fun j => pay29_row v111 X e j)

/-- Third coordinate. -/
private theorem pay34_row (X : FVec Ideal S1024x16 .f32) (e : Fin 1024) (g : Fin 16) :
    k0_pay34 X (k0_pay25 v111) v116 (ix2 e g)
      = lin v116 (fun j => lin v111 (fun i => X (ix2 e i)) j) g := by
  refine (mmT_row _ rfl rfl rfl rfl rfl rfl _ _ (k0_pay30 X (k0_pay25 v111)) (k0_pay27 v116) e g).trans ?_
  rw [pay27_eq]
  exact congrArg (fun r => lin v116 r g) (funext fun j => pay30_row v111 X e j)

/-- The scalar row before activation: the affine map `wsw`, `wsb` of the scalar row joined to the clipped norm of
    the three contracted rows. -/
private theorem pay31_row (e : Fin 1024) (s : Fin 128 → EReal) (x : Fin 3 → Fin 16 → EReal)
    (hs : ∀ a, v110 (ix2 e a) = s a) (h0 : ∀ i, v106 (ix2 e i) = x 0 i) (h1 : ∀ i, v107 (ix2 e i) = x 1 i)
    (h2 : ∀ i, v108 (ix2 e i) = x 2 i) (o : Fin 128) :
    k0_pay31 v106 v107 v108 v110 (k0_pay25 v111) (k0_pay26 v113) v115 (ix2 e o)
      = sPre (si := 128) rfl (W2 v111 v113 v115 v116 v118 v120) s x o := by
  have r0 : ∀ j, k0_pay28 v106 (k0_pay25 v111) (ix2 e j) = vh (W2 v111 v113 v115 v116 v118 v120) x 0 j := fun j =>
    (pay28_row v111 v106 e j).trans (congrArg (fun r => lin v111 r j) (funext h0))
  have r1 : ∀ j, k0_pay29 v107 (k0_pay25 v111) (ix2 e j) = vh (W2 v111 v113 v115 v116 v118 v120) x 1 j := fun j =>
    (pay29_row v111 v107 e j).trans (congrArg (fun r => lin v111 r j) (funext h1))
  have r2 : ∀ j, k0_pay30 v108 (k0_pay25 v111) (ix2 e j) = vh (W2 v111 v113 v115 v116 v118 v120) x 2 j := fun j =>
    (pay30_row v111 v108 e j).trans (congrArg (fun r => lin v111 r j) (funext h2))
  refine (affT_row _ rfl rfl rfl rfl rfl rfl _ _ _ _ _ (k0_pay26 v113) v115 e o).trans ?_
  rw [pay26_eq]
  refine congrArg (fun r => aff v113 v115 r o) (funext fun f => ?_)
  refine (cat_row _ _ _ e f).trans ?_
  refine congrArg₂ (fun a c => cat2 144 rfl a c f) (funext hs) (funext fun j => ?_)
  show Ideal.sqrt (max eps (k0_pay28 v106 (k0_pay25 v111) (ix2 e j) * k0_pay28 v106 (k0_pay25 v111) (ix2 e j)
    + k0_pay29 v107 (k0_pay25 v111) (ix2 e j) * k0_pay29 v107 (k0_pay25 v111) (ix2 e j)
    + k0_pay30 v108 (k0_pay25 v111) (ix2 e j) * k0_pay30 v108 (k0_pay25 v111) (ix2 e j))) = _
  rw [r0 j, r1 j, r2 j]
  rfl

/-- The gate: the logistic of the affine map `wsvw`, `wsvb` of the logistic of the scalar row. -/
private theorem pay35_row (e : Fin 1024) (s : Fin 128 → EReal) (x : Fin 3 → Fin 16 → EReal)
    (hs : ∀ a, v110 (ix2 e a) = s a) (h0 : ∀ i, v106 (ix2 e i) = x 0 i) (h1 : ∀ i, v107 (ix2 e i) = x 1 i)
    (h2 : ∀ i, v108 (ix2 e i) = x 2 i) (g : Fin 16) :
    k0_pay35 v106 v107 v108 v110 (k0_pay25 v111) (k0_pay26 v113) v115 v118 v120 (ix2 e g)
      = Ideal.logistic (gateA (si := 128) rfl (W2 v111 v113 v115 v116 v118 v120) s x g) := by
  refine congrArg Ideal.logistic ?_
  refine (affT_row _ rfl rfl rfl rfl rfl rfl _ _ _ _
    (logistic (k0_pay31 v106 v107 v108 v110 (k0_pay25 v111) (k0_pay26 v113) v115)) _ v120 e g).trans ?_
  rw [shapeCast_self]
  refine congrArg (fun r => aff v118 v120 r g) (funext fun o => ?_)
  exact congrArg Ideal.logistic (pay31_row v106 v107 v108 v110 v111 v113 v115 v116 v118 v120 e s x hs h0 h1 h2 o)

/-! ## The statements -/

include h110 h106 h107 h108 in
/-- The scalar rows before activation. -/
theorem U31_row (p k : Fin 32) (o : Fin 128) :
    U31 v106 v107 v108 v110 v111 v113 v115 (ix2 (erow p k) o)
      = sPre (si := 128) rfl (W2 v111 v113 v115 v116 v118 v120) (S1 p k) (V1 p k) o :=
  pay31_row v106 v107 v108 v110 v111 v113 v115 v116 v118 v120 (erow p k) (S1 p k) (V1 p k) (h110 p k) (h106 p k)
    (h107 p k) (h108 p k) o

include h106 in
/-- The vector rows before gating, first coordinate. -/
theorem U32_row (p k : Fin 32) (g : Fin 16) :
    U32 v106 v111 v116 (ix2 (erow p k) g) = vLin (W2 v111 v113 v115 v116 v118 v120) (V1 p k) 0 g :=
  (pay32_row v111 v116 v106 (erow p k) g).trans
    (congrArg (fun r => lin v116 (fun j => lin v111 r j) g) (funext (h106 p k)))

include h107 in
/-- Second coordinate. -/
theorem U33_row (p k : Fin 32) (g : Fin 16) :
    U33 v107 v111 v116 (ix2 (erow p k) g) = vLin (W2 v111 v113 v115 v116 v118 v120) (V1 p k) 1 g :=
  (pay33_row v111 v116 v107 (erow p k) g).trans
    (congrArg (fun r => lin v116 (fun j => lin v111 r j) g) (funext (h107 p k)))

include h108 in
/-- Third coordinate. -/
theorem U34_row (p k : Fin 32) (g : Fin 16) :
    U34 v108 v111 v116 (ix2 (erow p k) g) = vLin (W2 v111 v113 v115 v116 v118 v120) (V1 p k) 2 g :=
  (pay34_row v111 v116 v108 (erow p k) g).trans
    (congrArg (fun r => lin v116 (fun j => lin v111 r j) g) (funext (h108 p k)))

include h110 h106 h107 h108 in
/-- The gate. -/
theorem U35_row (p k : Fin 32) (g : Fin 16) :
    U35 v106 v107 v108 v110 v111 v113 v115 v118 v120 (ix2 (erow p k) g)
      = Ideal.logistic (gateA (si := 128) rfl (W2 v111 v113 v115 v116 v118 v120) (S1 p k) (V1 p k) g) :=
  pay35_row v106 v107 v108 v110 v111 v113 v115 v116 v118 v120 (erow p k) (S1 p k) (V1 p k) (h110 p k) (h106 p k)
    (h107 p k) (h108 p k) g

end Cert.KernelIdeal.Tile

end
-- ==== Proof.KLayer3.lean ====
/-
  The third layer and the stored blocks of a tile: given what row p * 32 + k of the second layer's five intermediate
  matrices is (scalar rows before activation SP, vector rows before gating VL, gate G), each stored block holds the
  node's own entry plus the mean over its 32 slots of the specification's third layer at the second layer's results.
-/
import proofs.«418785_j9663676416046_3_alg».proof.Proof.Gen.KernelIdeal.Skeleton
import proofs.«418785_j9663676416046_3_alg».proof.Proof.Spec
import proofs.«418785_j9663676416046_3_alg».proof.Proof.LibDotPlain
import Idealize.ShloMosaic.Lib.ValueLayout
import Idealize.ShloMosaic.Lib.Pipeline.Value
import Idealize.ShloMosaic.PureOps.Ideal.Laws

noncomputable section

namespace Cert.KernelIdeal.Tile

open Idealize.ShloMosaic Idealize.ShloMosaic.ValueIdx Cert.KernelIdeal Cert.KernelIdeal.Gen GvpSpec

variable (u31 : FVec Ideal S1024x128 .f32) (u32 u33 u34 u35 : FVec Ideal S1024x16 .f32)
  (v1 : FVec Ideal S32x128 .f32) (v14 v28 v42 : FVec Ideal S32x16 .f32)
  (v167 : Vec Ideal S16x16 .bf16) (v169 : Vec Ideal S128x144 .bf16) (v171 : Vec Ideal S128 .f32)
  (v172 : Vec Ideal S16x16 .bf16) (v174 : Vec Ideal S16x128 .bf16) (v176 : Vec Ideal S16 .f32)
  (SP : Fin 32 → Fin 32 → Fin 128 → EReal) (VL : Fin 32 → Fin 32 → Fin 3 → Fin 16 → EReal)
  (G : Fin 32 → Fin 32 → Fin 16 → EReal)
  (h31 : ∀ p k o, u31 (ix2 (erow p k) o) = SP p k o)
  (h32 : ∀ p k g, u32 (ix2 (erow p k) g) = VL p k 0 g)
  (h33 : ∀ p k g, u33 (ix2 (erow p k) g) = VL p k 1 g)
  (h34 : ∀ p k g, u34 (ix2 (erow p k) g) = VL p k 2 g)
  (h35 : ∀ p k g, u35 (ix2 (erow p k) g) = G p k g)

/-! ## Rows of the operations the third layer is made of -/

section Rows

open MatProd Idealize.ShloMosaic.DotPlain

/-- Row `e` of a product of a (rounded) matrix with a transposed weight into the zero accumulator: the linear map
    of that weight at row `e` of the matrix. -/
private theorem mm_row {M K N : ℕ} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (X : FVec Ideal ⟨2, ![M, K]⟩ .bf16) (W : FVec Ideal ⟨2, ![N, K]⟩ .bf16)
    (hT : (⟨2, ![N, K]⟩ : Shape).Transposes [1, 0] ⟨2, ![K, N]⟩) (e : Fin M) (s : Fin N) :
    FloatOps.matmul d none X (transpose ⟨2, ![K, N]⟩ [1, 0] W hT) (constant ⟨2, ![M, N]⟩ .f32 0x00000000#32) (ix2 e s)
      = lin W (fun i => X (ix2 e i)) s := by
  rw [matmul_zero_eq d hlc hrc hln hrn hlb hrb none, mmP_apply]
  unfold lin
  refine Finset.sum_congr rfl fun i _ => ?_
  rw [transpose_ix2_apply]

/-- A contracted vector row of the third layer: the weight's linear map of the gated row. -/
private theorem pay39_row (u ug : FVec Ideal S1024x16 .f32) (w : Vec Ideal S16x16 .bf16) (e : Fin 1024) (j : Fin 16) :
    k0_pay39 u ug w (ix2 e j) = lin w (fun i => u (ix2 e i) * ug (ix2 e i)) j := by
  unfold k0_pay39 k0_pay36
  rw [shapeCast_self]
  exact mm_row dot_S1024x16_S16x16_S1024x16_1_0_0_1_n_n rfl rfl rfl rfl rfl rfl _ w _ e j

/-- The second and third contracted vector rows likewise. -/
private theorem pay40_row (u ug : FVec Ideal S1024x16 .f32) (w : Vec Ideal S16x16 .bf16) (e : Fin 1024) (j : Fin 16) :
    k0_pay40 u ug w (ix2 e j) = lin w (fun i => u (ix2 e i) * ug (ix2 e i)) j := by
  unfold k0_pay40 k0_pay36
  rw [shapeCast_self]
  exact mm_row dot_S1024x16_S16x16_S1024x16_1_0_0_1_n_n rfl rfl rfl rfl rfl rfl _ w _ e j

private theorem pay41_row (u ug : FVec Ideal S1024x16 .f32) (w : Vec Ideal S16x16 .bf16) (e : Fin 1024) (j : Fin 16) :
    k0_pay41 u ug w (ix2 e j) = lin w (fun i => u (ix2 e i) * ug (ix2 e i)) j := by
  unfold k0_pay41 k0_pay36
  rw [shapeCast_self]
  exact mm_row dot_S1024x16_S16x16_S1024x16_1_0_0_1_n_n rfl rfl rfl rfl rfl rfl _ w _ e j

/-- Row `e` of two matrices joined along their columns: the two rows joined end to end. -/
private theorem concat_row (A : FVec Ideal S1024x128 .f32) (B : FVec Ideal S1024x16 .f32)
    (h : Shape.Concatenates [S1024x128, S1024x16] S1024x144 1) (e : Fin 1024) (f : Fin 144) :
    concatenate S1024x144 1 [⟨S1024x128, A⟩, ⟨S1024x16, B⟩] h (ix2 e f)
      = cat2 144 rfl (fun f => A (ix2 e f)) (fun j => B (ix2 e j)) f := by
  unfold cat2
  split
  · next hf =>
    refine concatenate_pair_apply_left (1 : Fin 2) A B h (ix2 e f) rfl (ix2 e ⟨f.val, hf⟩) fun b => ?_
    match b with
    | ⟨0, _⟩ => rfl
    | ⟨1, _⟩ => rfl
  · next hf =>
    refine concatenate_pair_apply_right (1 : Fin 2) A B h (ix2 e f) rfl rfl (ix2 e ⟨f.val - 128, by omega⟩) (fun b hb => ?_) ?_
    · match b with
      | ⟨0, _⟩ => rfl
      | ⟨1, _⟩ => exact absurd rfl hb
    · show f.val - 128 + 128 = f.val
      omega

/-- The sum over the 32 slots of a node: a matrix with one row per edge, cut into 32 blocks of 32 rows and summed
    over the rows of a block, holds at `(p, j)` the sum over the slots `k` of row `p * 32 + k`. -/
private theorem slots_sum {K : ℕ} (M : FVec Ideal ⟨2, ![1024, K]⟩ .f32)
    (hsc : (⟨2, ![1024, K]⟩ : Shape).ShapeCasts ⟨3, ![32, 32, K]⟩)
    (hred : (⟨3, ![32, 32, K]⟩ : Shape).Reduces [1] ⟨2, ![32, K]⟩) (hφ : FKind.Formats .f32)
    (hacc : (0x00000000#32 : BitVec (FTy.bits .f32)) = FKind.add.neutral .f32 hφ) (p : Fin 32) (j : Fin K) :
    multiReduction .add [1] ⟨2, ![32, K]⟩ (shapeCast ⟨3, ![32, 32, K]⟩ M hsc) 0x00000000#32 hred hφ hacc (ix2 p j)
      = ∑ k : Fin 32, M (ix2 (erow p k) j) := by
  refine (Ideal.multiReduction_add_single _ _ hred hφ hacc _).trans ?_
  show (∑ k : Fin 32, shapeCast ⟨3, ![32, 32, K]⟩ M hsc (hred.lift (ix2 p j) k)) = _
  refine Finset.sum_congr rfl fun k _ => ?_
  refine shapeCast_apply M hsc _ (ix2 (erow p k) j) ?_
  rw [Shape.rowMajor_val_two, Shape.rowMajor_val_three]
  rfl

/-- The vector rows before gating: the second weight's linear map of a contracted row. -/
private theorem pay43_row (u ug : FVec Ideal S1024x16 .f32) (w w2 : Vec Ideal S16x16 .bf16) (e : Fin 1024) (g : Fin 16) :
    k0_pay43 u ug w w2 (ix2 e g) = lin w2 (fun j => k0_pay39 u ug w (ix2 e j)) g := by
  unfold k0_pay43 k0_pay37
  rw [shapeCast_self]
  exact mm_row dot_S1024x16_S16x16_S1024x16_1_0_0_1_n_n rfl rfl rfl rfl rfl rfl _ w2 _ e g

/-- A bias row spread over every row of a matrix, read at an entry. -/
private theorem bias_row {a n : ℕ} (b : FVec Ideal ⟨1, ![n]⟩ .f32) (hs : (⟨1, ![n]⟩ : Shape).ShapeCasts ⟨2, ![1, n]⟩)
    (hb : (⟨2, ![1, n]⟩ : Shape).Broadcasts ⟨2, ![a, n]⟩) (e : Fin a) (g : Fin n) :
    broadcastTo ⟨2, ![a, n]⟩ (shapeCast ⟨2, ![1, n]⟩ b hs) hb (ix2 e g) = b (ix1 g) := by
  rw [broadcastTo_1b_ab_apply, shapeCast_a_1a_apply]

/-- The last layer's gate at row `e`: the logistic of the affine map of the scalar row. -/
private theorem pay45_row (w : Vec Ideal S16x128 .bf16) (b : Vec Ideal S16 .f32) (X : FVec Ideal S1024x128 .f32)
    (e : Fin 1024) (g : Fin 16) :
    k0_pay45 (k0_pay38 w) b X (ix2 e g) = Ideal.logistic (aff w b (fun o => X (ix2 e o)) g) := by
  unfold k0_pay45 k0_pay38
  rw [shapeCast_self]
  refine congrArg Ideal.logistic ?_
  unfold aff
  refine congrArg₂ (· + ·) ?_ ?_
  · exact mm_row dot_S1024x128_S128x16_S1024x16_1_0_0_1_n_n rfl rfl rfl rfl rfl rfl _ w _ e g
  · exact bias_row b _ _ e g

/-- Row `e` of the product of a (rounded) matrix of contracted rows with the second weight as the stored blocks
    take it. -/
private theorem mm_w2_row (Hm : FVec Ideal S1024x16 .f32) (w2 : Vec Ideal S16x16 .bf16) (e : Fin 1024) (g : Fin 16) :
    FloatOps.matmul dot_S1024x16_S16x16_S1024x16_1_0_0_1_n_n none (truncf .bf16 Hm bitsLt_bf16_f32)
        (transpose S16x16 [1, 0] (k0_pay37 w2) transposes_S16x16_p1_0_S16x16) (constant S1024x16 .f32 0x00000000#32) (ix2 e g)
      = lin w2 (fun j => Hm (ix2 e j)) g := by
  unfold k0_pay37
  rw [shapeCast_self]
  exact mm_row dot_S1024x16_S16x16_S1024x16_1_0_0_1_n_n rfl rfl rfl rfl rfl rfl _ w2 _ e g

end Rows

/-- The third layer's weights as loaded. -/
def W3 : LayerW 16 16 128 16 144 := ⟨v167, v169, v171, v172, v174, v176⟩

/-- The third layer's scalar rows. -/
def U42 : FVec Ideal S1024x128 .f32 := k0_pay42 u31 u32 u33 u34 u35 v167 v169 v171

/-- The stored scalar block. -/
def R46 : FVec Ideal S32x128 .f32 := k0_pay46 v1 (U42 u31 u32 u33 u34 u35 v167 v169 v171)
/-- The stored vector block, first coordinate. -/
def R47 : FVec Ideal S1x32x16 .f32 :=
  k0_pay47 v14 (k0_pay38 v174) v176 (U42 u31 u32 u33 u34 u35 v167 v169 v171) (k0_pay43 u32 u35 v167 v172)
/-- Second coordinate. -/
def R48 : FVec Ideal S1x32x16 .f32 :=
  k0_pay48 v28 (k0_pay37 v172) (k0_pay38 v174) v176 (U42 u31 u32 u33 u34 u35 v167 v169 v171) (k0_pay44 u33 u35 v167)
/-- Third coordinate. -/
def R1 : FVec Ideal S1x32x16 .f32 :=
  k0_pay1 v42 (k0_pay49 (k0_pay37 v172) (k0_pay38 v174) v176 (k0_pay41 u34 u35 v167)
    (U42 u31 u32 u33 u34 u35 v167 v169 v171))

/-- The second layer's scalar rows after activation, as the third layer reads them. -/
def s2 (p k : Fin 32) : Fin 128 → EReal := fun o => max (SP p k o) 0
/-- The second layer's gated vector rows, as the third layer reads them. -/
def v2 (p k : Fin 32) : Fin 3 → Fin 16 → EReal := fun t g => VL p k t g * G p k g

/-! ## The third layer at the rows of one edge -/

include h32 h35 in
/-- The first contracted vector row of edge `(p, k)`. -/
private theorem H0_row (p k : Fin 32) (j : Fin 16) :
    k0_pay39 u32 u35 v167 (ix2 (erow p k) j) = vh (W3 v167 v169 v171 v172 v174 v176) (v2 VL G p k) 0 j := by
  rw [pay39_row]
  refine congrArg (fun x => lin v167 x j) (funext fun i => ?_)
  rw [h32, h35]
  rfl

include h33 h35 in
/-- The second. -/
private theorem H1_row (p k : Fin 32) (j : Fin 16) :
    k0_pay40 u33 u35 v167 (ix2 (erow p k) j) = vh (W3 v167 v169 v171 v172 v174 v176) (v2 VL G p k) 1 j := by
  rw [pay40_row]
  refine congrArg (fun x => lin v167 x j) (funext fun i => ?_)
  rw [h33, h35]
  rfl

include h34 h35 in
/-- The third. -/
private theorem H2_row (p k : Fin 32) (j : Fin 16) :
    k0_pay41 u34 u35 v167 (ix2 (erow p k) j) = vh (W3 v167 v169 v171 v172 v174 v176) (v2 VL G p k) 2 j := by
  rw [pay41_row]
  refine congrArg (fun x => lin v167 x j) (funext fun i => ?_)
  rw [h34, h35]
  rfl

include h31 h32 h33 h34 h35 in
/-- The third layer's scalar row of edge `(p, k)`: the affine map of the activated scalar row joined to the clipped
    norm of the contracted vector rows. -/
private theorem U42_row (p k : Fin 32) (o : Fin 128) :
    U42 u31 u32 u33 u34 u35 v167 v169 v171 (ix2 (erow p k) o)
      = sPre (si := 128) rfl (W3 v167 v169 v171 v172 v174 v176) (s2 SP p k) (v2 VL G p k) o := by
  unfold U42 k0_pay42 sPre aff
  refine congrArg₂ (· + ·) ?_ ?_
  · rw [shapeCast_self]
    refine (mm_row dot_S1024x144_S144x128_S1024x128_1_0_0_1_n_n rfl rfl rfl rfl rfl rfl _ v169 _ (erow p k) o).trans ?_
    refine congrArg (fun x => lin v169 x o) (funext fun f => ?_)
    refine (concat_row _ _ concatenates_S1024x128_S1024x16_S1024x144_d1 (erow p k) f).trans ?_
    refine congrArg₂ (fun a b => cat2 144 rfl a b f) (funext fun f' => ?_) (funext fun j => ?_)
    · show max (u31 (ix2 (erow p k) f')) (Ideal.ofBits .f32 0x00000000#32) = max (SP p k f') 0
      rw [h31, Ideal.ofBits_zero_f32]
    · show Ideal.sqrt (max eps
          (k0_pay39 u32 u35 v167 (ix2 (erow p k) j) * k0_pay39 u32 u35 v167 (ix2 (erow p k) j)
            + k0_pay40 u33 u35 v167 (ix2 (erow p k) j) * k0_pay40 u33 u35 v167 (ix2 (erow p k) j)
            + k0_pay41 u34 u35 v167 (ix2 (erow p k) j) * k0_pay41 u34 u35 v167 (ix2 (erow p k) j))) = _
      rw [H0_row u32 u35 v167 v169 v171 v172 v174 v176 VL G h32 h35,
        H1_row u33 u35 v167 v169 v171 v172 v174 v176 VL G h33 h35,
        H2_row u34 u35 v167 v169 v171 v172 v174 v176 VL G h34 h35]
      rfl
  · exact bias_row v171 _ _ (erow p k) o

include h31 h32 h33 h34 h35 in
/-- A gated vector row of the last layer at edge `(p, k)`, given the matrix holding the contracted rows of spatial
    coordinate `t`: the second weight's linear map of that row, times the logistic of the gate. -/
private theorem vout_row (t : Fin 3) (H : FVec Ideal S1024x16 .f32) (p k : Fin 32) (g : Fin 16)
    (hH : ∀ j, H (ix2 (erow p k) j) = vh (W3 v167 v169 v171 v172 v174 v176) (v2 VL G p k) t j) :
    lin v172 (fun j => H (ix2 (erow p k) j)) g
        * k0_pay45 (k0_pay38 v174) v176 (U42 u31 u32 u33 u34 u35 v167 v169 v171) (ix2 (erow p k) g)
      = vOutN (si := 128) rfl (W3 v167 v169 v171 v172 v174 v176) (s2 SP p k) (v2 VL G p k) t g := by
  rw [pay45_row]
  unfold vOutN vLin gateN
  refine congrArg₂ (· * ·) ?_ (congrArg Ideal.logistic ?_)
  · exact congrArg (fun x => lin v172 x g) (funext hH)
  · refine congrArg (fun x => aff v174 v176 x g) (funext fun o => ?_)
    exact U42_row u31 u32 u33 u34 u35 v167 v169 v171 v172 v174 v176 SP VL G h31 h32 h33 h34 h35 p k o

include h31 h32 h33 h34 h35 in
/-- The stored scalar block. -/
theorem R46_apply (p : Fin 32) (j : Fin 128) :
    R46 u31 u32 u33 u34 u35 v1 v167 v169 v171 (ix2 p j)
      = upd (v1 (ix2 p j)) (fun k => sPre (si := 128) rfl (W3 v167 v169 v171 v172 v174 v176) (s2 SP p k) (v2 VL G p k) j) := by
  unfold R46 k0_pay46 upd
  refine congrArg (fun s => v1 (ix2 p j) + Ideal.div s nbrs) ?_
  refine (slots_sum _ _ _ _ _ p j).trans ?_
  exact Finset.sum_congr rfl fun k _ =>
    U42_row u31 u32 u33 u34 u35 v167 v169 v171 v172 v174 v176 SP VL G h31 h32 h33 h34 h35 p k j

include h31 h32 h33 h34 h35 in
/-- The stored vector block, first coordinate. -/
theorem R47_apply (p : Fin 32) (g : Fin 16) :
    R47 u31 u32 u33 u34 u35 v14 v167 v169 v171 v172 v174 v176 (ix3 0 p g)
      = upd (v14 (ix2 p g)) (fun k => vOutN (si := 128) rfl (W3 v167 v169 v171 v172 v174 v176) (s2 SP p k) (v2 VL G p k) 0 g) := by
  unfold R47 k0_pay47 upd
  rw [shapeCast_ab_1ab_apply]
  refine congrArg (fun s => v14 (ix2 p g) + Ideal.div s nbrs) ?_
  refine (slots_sum _ _ _ _ _ p g).trans ?_
  refine Finset.sum_congr rfl fun k _ => ?_
  refine Eq.trans (congrArg₂ (· * ·) (pay43_row u32 u35 v167 v172 (erow p k) g) rfl) ?_
  exact vout_row u31 u32 u33 u34 u35 v167 v169 v171 v172 v174 v176 SP VL G h31 h32 h33 h34 h35 0
    (k0_pay39 u32 u35 v167) p k g (H0_row u32 u35 v167 v169 v171 v172 v174 v176 VL G h32 h35 p k)

include h31 h32 h33 h34 h35 in
/-- Second coordinate. -/
theorem R48_apply (p : Fin 32) (g : Fin 16) :
    R48 u31 u32 u33 u34 u35 v28 v167 v169 v171 v172 v174 v176 (ix3 0 p g)
      = upd (v28 (ix2 p g)) (fun k => vOutN (si := 128) rfl (W3 v167 v169 v171 v172 v174 v176) (s2 SP p k) (v2 VL G p k) 1 g) := by
  unfold R48 k0_pay48 k0_pay44 upd
  rw [shapeCast_ab_1ab_apply]
  refine congrArg (fun s => v28 (ix2 p g) + Ideal.div s nbrs) ?_
  refine (slots_sum _ _ _ _ _ p g).trans ?_
  refine Finset.sum_congr rfl fun k _ => ?_
  refine Eq.trans (congrArg₂ (· * ·) (mm_w2_row (k0_pay40 u33 u35 v167) v172 (erow p k) g) rfl) ?_
  exact vout_row u31 u32 u33 u34 u35 v167 v169 v171 v172 v174 v176 SP VL G h31 h32 h33 h34 h35 1
    (k0_pay40 u33 u35 v167) p k g (H1_row u33 u35 v167 v169 v171 v172 v174 v176 VL G h33 h35 p k)

include h31 h32 h33 h34 h35 in
/-- Third coordinate. -/
theorem R1_apply (p : Fin 32) (g : Fin 16) :
    R1 u31 u32 u33 u34 u35 v42 v167 v169 v171 v172 v174 v176 (ix3 0 p g)
      = upd (v42 (ix2 p g)) (fun k => vOutN (si := 128) rfl (W3 v167 v169 v171 v172 v174 v176) (s2 SP p k) (v2 VL G p k) 2 g) := by
  unfold R1 k0_pay1 k0_pay49 upd
  rw [shapeCast_ab_1ab_apply]
  refine congrArg (fun s => v42 (ix2 p g) + Ideal.div s nbrs) ?_
  refine (slots_sum _ _ _ _ _ p g).trans ?_
  refine Finset.sum_congr rfl fun k _ => ?_
  refine Eq.trans (congrArg₂ (· * ·) (mm_w2_row (k0_pay41 u34 u35 v167) v172 (erow p k) g) rfl) ?_
  exact vout_row u31 u32 u33 u34 u35 v167 v169 v171 v172 v174 v176 SP VL G h31 h32 h33 h34 h35 2
    (k0_pay41 u34 u35 v167) p k g (H2_row u34 u35 v167 v169 v171 v172 v174 v176 VL G h34 h35 p k)

end Cert.KernelIdeal.Tile

end
-- ==== Proof.KTile.lean ====
/-
  One tile, whole: the four blocks a grid point stores, as functions of the pieces it loads.  The three layers'
  row lemmas are chained: row p * 32 + k of every intermediate matrix is the specification at the rows of the edge
  (node p, slot k), so each stored entry is the node's own entry plus the mean over the 32 slots of the edge's message.
-/
import proofs.«418785_j9663676416046_3_alg».proof.Proof.KLayer1
import proofs.«418785_j9663676416046_3_alg».proof.Proof.KLayer2
import proofs.«418785_j9663676416046_3_alg».proof.Proof.KLayer3
import Idealize.ShloMosaic.Lib.Pipeline.Value
import Idealize.ShloMosaic.Lib.ValueLayout

noncomputable section

namespace Cert.KernelIdeal.Tile

open Idealize.ShloMosaic Idealize.ShloMosaic.ValueIdx Cert.KernelIdeal Cert.KernelIdeal.Gen GvpSpec

variable (v0 : Vec Ideal S32x128 .f32) (v2 : Vec Ideal S32x32x128 .bf16) (v5 : Vec Ideal S32x32x32 .bf16)
  (v13 v27 v41 : Vec Ideal S1x32x16 .f32) (v15 v29 v43 : Vec Ideal S1x32x32x16 .bf16) (v18 v32 v46 : Vec Ideal S1x32x32 .bf16)
  (v55 : Vec Ideal S33x33 .bf16) (v57 : Vec Ideal S128x321 .bf16) (v59 : Vec Ideal S128 .f32)
  (v60 : Vec Ideal S16x33 .bf16) (v62 : Vec Ideal S16x128 .bf16) (v64 : Vec Ideal S16 .f32)
  (v111 : Vec Ideal S16x16 .bf16) (v113 : Vec Ideal S128x144 .bf16) (v115 : Vec Ideal S128 .f32)
  (v116 : Vec Ideal S16x16 .bf16) (v118 : Vec Ideal S16x128 .bf16) (v120 : Vec Ideal S16 .f32)
  (v167 : Vec Ideal S16x16 .bf16) (v169 : Vec Ideal S128x144 .bf16) (v171 : Vec Ideal S128 .f32)
  (v172 : Vec Ideal S16x16 .bf16) (v174 : Vec Ideal S16x128 .bf16) (v176 : Vec Ideal S16 .f32)

/-- The three layers' weights as the tile loads them. -/
def Wt : Weights := ⟨(W1 v55 v57 v59 v60 v62 v64), (W2 v111 v113 v115 v116 v118 v120), (W3 v167 v169 v171 v172 v174 v176)⟩

/-- The stored scalar block: the node's own entry plus the mean of its 32 edges' scalar messages. -/
theorem tile_s (p : Fin 32) (j : Fin 128) :
    R46 (U31 (T21 v0 v2 v5 v13 v27 v41 v15 v29 v43 v18 v32 v46 v55 v57 v59 v60 v62 v64) (T22 v0 v2 v5 v13 v27 v41 v15 v29 v43 v18 v32 v46 v55 v57 v59 v60 v62 v64) (T23 v0 v2 v5 v13 v27 v41 v15 v29 v43 v18 v32 v46 v55 v57 v59 v60 v62 v64) (T24 v0 v2 v5 v13 v27 v41 v15 v29 v43 v18 v32 v46 v55 v57 v59) v111 v113 v115) (U32 (T21 v0 v2 v5 v13 v27 v41 v15 v29 v43 v18 v32 v46 v55 v57 v59 v60 v62 v64) v111 v116) (U33 (T22 v0 v2 v5 v13 v27 v41 v15 v29 v43 v18 v32 v46 v55 v57 v59 v60 v62 v64) v111 v116) (U34 (T23 v0 v2 v5 v13 v27 v41 v15 v29 v43 v18 v32 v46 v55 v57 v59 v60 v62 v64) v111 v116) (U35 (T21 v0 v2 v5 v13 v27 v41 v15 v29 v43 v18 v32 v46 v55 v57 v59 v60 v62 v64) (T22 v0 v2 v5 v13 v27 v41 v15 v29 v43 v18 v32 v46 v55 v57 v59 v60 v62 v64) (T23 v0 v2 v5 v13 v27 v41 v15 v29 v43 v18 v32 v46 v55 v57 v59 v60 v62 v64) (T24 v0 v2 v5 v13 v27 v41 v15 v29 v43 v18 v32 v46 v55 v57 v59) v111 v113 v115 v118 v120) (k0_pay2 v0) v167 v169 v171 (ix2 p j)
      = upd (v0 (ix2 p j)) (fun k => msgS (Wt v55 v57 v59 v60 v62 v64 v111 v113 v115 v116 v118 v120 v167 v169 v171 v172 v174 v176)
          (tileS v0 v2 v5 p k) (tileV v13 v27 v41 v15 v29 v43 v18 v32 v46 p k) j) := by
  rw [R46_apply _ _ _ _ _ _ v167 v169 v171 v172 v174 v176
    (fun p k o => sPre (si := 128) rfl (W2 v111 v113 v115 v116 v118 v120) (sOutA (si := 288) rfl (W1 v55 v57 v59 v60 v62 v64) (tileS v0 v2 v5 p k) (tileV v13 v27 v41 v15 v29 v43 v18 v32 v46 p k)) (vOutA (si := 288) rfl (W1 v55 v57 v59 v60 v62 v64) (tileS v0 v2 v5 p k) (tileV v13 v27 v41 v15 v29 v43 v18 v32 v46 p k)) o)
    (fun p k t g => vLin (W2 v111 v113 v115 v116 v118 v120) (vOutA (si := 288) rfl (W1 v55 v57 v59 v60 v62 v64) (tileS v0 v2 v5 p k) (tileV v13 v27 v41 v15 v29 v43 v18 v32 v46 p k)) t g)
    (fun p k g => Ideal.logistic (gateA (si := 128) rfl (W2 v111 v113 v115 v116 v118 v120) (sOutA (si := 288) rfl (W1 v55 v57 v59 v60 v62 v64) (tileS v0 v2 v5 p k) (tileV v13 v27 v41 v15 v29 v43 v18 v32 v46 p k)) (vOutA (si := 288) rfl (W1 v55 v57 v59 v60 v62 v64) (tileS v0 v2 v5 p k) (tileV v13 v27 v41 v15 v29 v43 v18 v32 v46 p k)) g))
    (fun p k o => U31_row _ _ _ _ v111 v113 v115 v116 v118 v120 _ _ (fun p k o => T24_row v0 v2 v5 v13 v27 v41 v15 v29 v43 v18 v32 v46 v55 v57 v59 v60 v62 v64 p k o) (fun p k g => T21_row v0 v2 v5 v13 v27 v41 v15 v29 v43 v18 v32 v46 v55 v57 v59 v60 v62 v64 p k g) (fun p k g => T22_row v0 v2 v5 v13 v27 v41 v15 v29 v43 v18 v32 v46 v55 v57 v59 v60 v62 v64 p k g) (fun p k g => T23_row v0 v2 v5 v13 v27 v41 v15 v29 v43 v18 v32 v46 v55 v57 v59 v60 v62 v64 p k g) p k o)
    (fun p k g => U32_row _ v111 v113 v115 v116 v118 v120 _ (fun p k g => T21_row v0 v2 v5 v13 v27 v41 v15 v29 v43 v18 v32 v46 v55 v57 v59 v60 v62 v64 p k g) p k g)
    (fun p k g => U33_row _ v111 v113 v115 v116 v118 v120 _ (fun p k g => T22_row v0 v2 v5 v13 v27 v41 v15 v29 v43 v18 v32 v46 v55 v57 v59 v60 v62 v64 p k g) p k g)
    (fun p k g => U34_row _ v111 v113 v115 v116 v118 v120 _ (fun p k g => T23_row v0 v2 v5 v13 v27 v41 v15 v29 v43 v18 v32 v46 v55 v57 v59 v60 v62 v64 p k g) p k g)
    (fun p k g => U35_row _ _ _ _ v111 v113 v115 v116 v118 v120 _ _ (fun p k o => T24_row v0 v2 v5 v13 v27 v41 v15 v29 v43 v18 v32 v46 v55 v57 v59 v60 v62 v64 p k o) (fun p k g => T21_row v0 v2 v5 v13 v27 v41 v15 v29 v43 v18 v32 v46 v55 v57 v59 v60 v62 v64 p k g) (fun p k g => T22_row v0 v2 v5 v13 v27 v41 v15 v29 v43 v18 v32 v46 v55 v57 v59 v60 v62 v64 p k g) (fun p k g => T23_row v0 v2 v5 v13 v27 v41 v15 v29 v43 v18 v32 v46 v55 v57 v59 v60 v62 v64 p k g) p k g)
    p j, show k0_pay2 v0 = v0 from shapeCast_self _ _]
  rfl

/-- The stored vector block, first spatial coordinate: the node's own entry plus the mean of its 32 edges' vector messages. -/
theorem tile_v0 (p : Fin 32) (g : Fin 16) :
    R47 (U31 (T21 v0 v2 v5 v13 v27 v41 v15 v29 v43 v18 v32 v46 v55 v57 v59 v60 v62 v64) (T22 v0 v2 v5 v13 v27 v41 v15 v29 v43 v18 v32 v46 v55 v57 v59 v60 v62 v64) (T23 v0 v2 v5 v13 v27 v41 v15 v29 v43 v18 v32 v46 v55 v57 v59 v60 v62 v64) (T24 v0 v2 v5 v13 v27 v41 v15 v29 v43 v18 v32 v46 v55 v57 v59) v111 v113 v115) (U32 (T21 v0 v2 v5 v13 v27 v41 v15 v29 v43 v18 v32 v46 v55 v57 v59 v60 v62 v64) v111 v116) (U33 (T22 v0 v2 v5 v13 v27 v41 v15 v29 v43 v18 v32 v46 v55 v57 v59 v60 v62 v64) v111 v116) (U34 (T23 v0 v2 v5 v13 v27 v41 v15 v29 v43 v18 v32 v46 v55 v57 v59 v60 v62 v64) v111 v116) (U35 (T21 v0 v2 v5 v13 v27 v41 v15 v29 v43 v18 v32 v46 v55 v57 v59 v60 v62 v64) (T22 v0 v2 v5 v13 v27 v41 v15 v29 v43 v18 v32 v46 v55 v57 v59 v60 v62 v64) (T23 v0 v2 v5 v13 v27 v41 v15 v29 v43 v18 v32 v46 v55 v57 v59 v60 v62 v64) (T24 v0 v2 v5 v13 v27 v41 v15 v29 v43 v18 v32 v46 v55 v57 v59) v111 v113 v115 v118 v120) (k0_pay4 v13) v167 v169 v171 v172 v174 v176 (ix3 0 p g)
      = upd (v13 (ix3 0 p g)) (fun k => msgV (Wt v55 v57 v59 v60 v62 v64 v111 v113 v115 v116 v118 v120 v167 v169 v171 v172 v174 v176) (tileS v0 v2 v5 p k) (tileV v13 v27 v41 v15 v29 v43 v18 v32 v46 p k) 0 g) := by
  rw [R47_apply _ _ _ _ _ _ v167 v169 v171 v172 v174 v176
    (fun p k o => sPre (si := 128) rfl (W2 v111 v113 v115 v116 v118 v120) (sOutA (si := 288) rfl (W1 v55 v57 v59 v60 v62 v64) (tileS v0 v2 v5 p k) (tileV v13 v27 v41 v15 v29 v43 v18 v32 v46 p k)) (vOutA (si := 288) rfl (W1 v55 v57 v59 v60 v62 v64) (tileS v0 v2 v5 p k) (tileV v13 v27 v41 v15 v29 v43 v18 v32 v46 p k)) o)
    (fun p k t g => vLin (W2 v111 v113 v115 v116 v118 v120) (vOutA (si := 288) rfl (W1 v55 v57 v59 v60 v62 v64) (tileS v0 v2 v5 p k) (tileV v13 v27 v41 v15 v29 v43 v18 v32 v46 p k)) t g)
    (fun p k g => Ideal.logistic (gateA (si := 128) rfl (W2 v111 v113 v115 v116 v118 v120) (sOutA (si := 288) rfl (W1 v55 v57 v59 v60 v62 v64) (tileS v0 v2 v5 p k) (tileV v13 v27 v41 v15 v29 v43 v18 v32 v46 p k)) (vOutA (si := 288) rfl (W1 v55 v57 v59 v60 v62 v64) (tileS v0 v2 v5 p k) (tileV v13 v27 v41 v15 v29 v43 v18 v32 v46 p k)) g))
    (fun p k o => U31_row _ _ _ _ v111 v113 v115 v116 v118 v120 _ _ (fun p k o => T24_row v0 v2 v5 v13 v27 v41 v15 v29 v43 v18 v32 v46 v55 v57 v59 v60 v62 v64 p k o) (fun p k g => T21_row v0 v2 v5 v13 v27 v41 v15 v29 v43 v18 v32 v46 v55 v57 v59 v60 v62 v64 p k g) (fun p k g => T22_row v0 v2 v5 v13 v27 v41 v15 v29 v43 v18 v32 v46 v55 v57 v59 v60 v62 v64 p k g) (fun p k g => T23_row v0 v2 v5 v13 v27 v41 v15 v29 v43 v18 v32 v46 v55 v57 v59 v60 v62 v64 p k g) p k o)
    (fun p k g => U32_row _ v111 v113 v115 v116 v118 v120 _ (fun p k g => T21_row v0 v2 v5 v13 v27 v41 v15 v29 v43 v18 v32 v46 v55 v57 v59 v60 v62 v64 p k g) p k g)
    (fun p k g => U33_row _ v111 v113 v115 v116 v118 v120 _ (fun p k g => T22_row v0 v2 v5 v13 v27 v41 v15 v29 v43 v18 v32 v46 v55 v57 v59 v60 v62 v64 p k g) p k g)
    (fun p k g => U34_row _ v111 v113 v115 v116 v118 v120 _ (fun p k g => T23_row v0 v2 v5 v13 v27 v41 v15 v29 v43 v18 v32 v46 v55 v57 v59 v60 v62 v64 p k g) p k g)
    (fun p k g => U35_row _ _ _ _ v111 v113 v115 v116 v118 v120 _ _ (fun p k o => T24_row v0 v2 v5 v13 v27 v41 v15 v29 v43 v18 v32 v46 v55 v57 v59 v60 v62 v64 p k o) (fun p k g => T21_row v0 v2 v5 v13 v27 v41 v15 v29 v43 v18 v32 v46 v55 v57 v59 v60 v62 v64 p k g) (fun p k g => T22_row v0 v2 v5 v13 v27 v41 v15 v29 v43 v18 v32 v46 v55 v57 v59 v60 v62 v64 p k g) (fun p k g => T23_row v0 v2 v5 v13 v27 v41 v15 v29 v43 v18 v32 v46 v55 v57 v59 v60 v62 v64 p k g) p k g)
    p g, show k0_pay4 v13 (ix2 p g) = v13 (ix3 0 p g) from shapeCast_1ab_ab_apply _ _ p g]
  rfl

/-- Second spatial coordinate. -/
theorem tile_v1 (p : Fin 32) (g : Fin 16) :
    R48 (U31 (T21 v0 v2 v5 v13 v27 v41 v15 v29 v43 v18 v32 v46 v55 v57 v59 v60 v62 v64) (T22 v0 v2 v5 v13 v27 v41 v15 v29 v43 v18 v32 v46 v55 v57 v59 v60 v62 v64) (T23 v0 v2 v5 v13 v27 v41 v15 v29 v43 v18 v32 v46 v55 v57 v59 v60 v62 v64) (T24 v0 v2 v5 v13 v27 v41 v15 v29 v43 v18 v32 v46 v55 v57 v59) v111 v113 v115) (U32 (T21 v0 v2 v5 v13 v27 v41 v15 v29 v43 v18 v32 v46 v55 v57 v59 v60 v62 v64) v111 v116) (U33 (T22 v0 v2 v5 v13 v27 v41 v15 v29 v43 v18 v32 v46 v55 v57 v59 v60 v62 v64) v111 v116) (U34 (T23 v0 v2 v5 v13 v27 v41 v15 v29 v43 v18 v32 v46 v55 v57 v59 v60 v62 v64) v111 v116) (U35 (T21 v0 v2 v5 v13 v27 v41 v15 v29 v43 v18 v32 v46 v55 v57 v59 v60 v62 v64) (T22 v0 v2 v5 v13 v27 v41 v15 v29 v43 v18 v32 v46 v55 v57 v59 v60 v62 v64) (T23 v0 v2 v5 v13 v27 v41 v15 v29 v43 v18 v32 v46 v55 v57 v59 v60 v62 v64) (T24 v0 v2 v5 v13 v27 v41 v15 v29 v43 v18 v32 v46 v55 v57 v59) v111 v113 v115 v118 v120) (k0_pay6 v27) v167 v169 v171 v172 v174 v176 (ix3 0 p g)
      = upd (v27 (ix3 0 p g)) (fun k => msgV (Wt v55 v57 v59 v60 v62 v64 v111 v113 v115 v116 v118 v120 v167 v169 v171 v172 v174 v176) (tileS v0 v2 v5 p k) (tileV v13 v27 v41 v15 v29 v43 v18 v32 v46 p k) 1 g) := by
  rw [R48_apply _ _ _ _ _ _ v167 v169 v171 v172 v174 v176
    (fun p k o => sPre (si := 128) rfl (W2 v111 v113 v115 v116 v118 v120) (sOutA (si := 288) rfl (W1 v55 v57 v59 v60 v62 v64) (tileS v0 v2 v5 p k) (tileV v13 v27 v41 v15 v29 v43 v18 v32 v46 p k)) (vOutA (si := 288) rfl (W1 v55 v57 v59 v60 v62 v64) (tileS v0 v2 v5 p k) (tileV v13 v27 v41 v15 v29 v43 v18 v32 v46 p k)) o)
    (fun p k t g => vLin (W2 v111 v113 v115 v116 v118 v120) (vOutA (si := 288) rfl (W1 v55 v57 v59 v60 v62 v64) (tileS v0 v2 v5 p k) (tileV v13 v27 v41 v15 v29 v43 v18 v32 v46 p k)) t g)
    (fun p k g => Ideal.logistic (gateA (si := 128) rfl (W2 v111 v113 v115 v116 v118 v120) (sOutA (si := 288) rfl (W1 v55 v57 v59 v60 v62 v64) (tileS v0 v2 v5 p k) (tileV v13 v27 v41 v15 v29 v43 v18 v32 v46 p k)) (vOutA (si := 288) rfl (W1 v55 v57 v59 v60 v62 v64) (tileS v0 v2 v5 p k) (tileV v13 v27 v41 v15 v29 v43 v18 v32 v46 p k)) g))
    (fun p k o => U31_row _ _ _ _ v111 v113 v115 v116 v118 v120 _ _ (fun p k o => T24_row v0 v2 v5 v13 v27 v41 v15 v29 v43 v18 v32 v46 v55 v57 v59 v60 v62 v64 p k o) (fun p k g => T21_row v0 v2 v5 v13 v27 v41 v15 v29 v43 v18 v32 v46 v55 v57 v59 v60 v62 v64 p k g) (fun p k g => T22_row v0 v2 v5 v13 v27 v41 v15 v29 v43 v18 v32 v46 v55 v57 v59 v60 v62 v64 p k g) (fun p k g => T23_row v0 v2 v5 v13 v27 v41 v15 v29 v43 v18 v32 v46 v55 v57 v59 v60 v62 v64 p k g) p k o)
    (fun p k g => U32_row _ v111 v113 v115 v116 v118 v120 _ (fun p k g => T21_row v0 v2 v5 v13 v27 v41 v15 v29 v43 v18 v32 v46 v55 v57 v59 v60 v62 v64 p k g) p k g)
    (fun p k g => U33_row _ v111 v113 v115 v116 v118 v120 _ (fun p k g => T22_row v0 v2 v5 v13 v27 v41 v15 v29 v43 v18 v32 v46 v55 v57 v59 v60 v62 v64 p k g) p k g)
    (fun p k g => U34_row _ v111 v113 v115 v116 v118 v120 _ (fun p k g => T23_row v0 v2 v5 v13 v27 v41 v15 v29 v43 v18 v32 v46 v55 v57 v59 v60 v62 v64 p k g) p k g)
    (fun p k g => U35_row _ _ _ _ v111 v113 v115 v116 v118 v120 _ _ (fun p k o => T24_row v0 v2 v5 v13 v27 v41 v15 v29 v43 v18 v32 v46 v55 v57 v59 v60 v62 v64 p k o) (fun p k g => T21_row v0 v2 v5 v13 v27 v41 v15 v29 v43 v18 v32 v46 v55 v57 v59 v60 v62 v64 p k g) (fun p k g => T22_row v0 v2 v5 v13 v27 v41 v15 v29 v43 v18 v32 v46 v55 v57 v59 v60 v62 v64 p k g) (fun p k g => T23_row v0 v2 v5 v13 v27 v41 v15 v29 v43 v18 v32 v46 v55 v57 v59 v60 v62 v64 p k g) p k g)
    p g, show k0_pay6 v27 (ix2 p g) = v27 (ix3 0 p g) from shapeCast_1ab_ab_apply _ _ p g]
  rfl

/-- Third spatial coordinate. -/
theorem tile_v2 (p : Fin 32) (g : Fin 16) :
    R1 (U31 (T21 v0 v2 v5 v13 v27 v41 v15 v29 v43 v18 v32 v46 v55 v57 v59 v60 v62 v64) (T22 v0 v2 v5 v13 v27 v41 v15 v29 v43 v18 v32 v46 v55 v57 v59 v60 v62 v64) (T23 v0 v2 v5 v13 v27 v41 v15 v29 v43 v18 v32 v46 v55 v57 v59 v60 v62 v64) (T24 v0 v2 v5 v13 v27 v41 v15 v29 v43 v18 v32 v46 v55 v57 v59) v111 v113 v115) (U32 (T21 v0 v2 v5 v13 v27 v41 v15 v29 v43 v18 v32 v46 v55 v57 v59 v60 v62 v64) v111 v116) (U33 (T22 v0 v2 v5 v13 v27 v41 v15 v29 v43 v18 v32 v46 v55 v57 v59 v60 v62 v64) v111 v116) (U34 (T23 v0 v2 v5 v13 v27 v41 v15 v29 v43 v18 v32 v46 v55 v57 v59 v60 v62 v64) v111 v116) (U35 (T21 v0 v2 v5 v13 v27 v41 v15 v29 v43 v18 v32 v46 v55 v57 v59 v60 v62 v64) (T22 v0 v2 v5 v13 v27 v41 v15 v29 v43 v18 v32 v46 v55 v57 v59 v60 v62 v64) (T23 v0 v2 v5 v13 v27 v41 v15 v29 v43 v18 v32 v46 v55 v57 v59 v60 v62 v64) (T24 v0 v2 v5 v13 v27 v41 v15 v29 v43 v18 v32 v46 v55 v57 v59) v111 v113 v115 v118 v120) (k0_pay8 v41) v167 v169 v171 v172 v174 v176 (ix3 0 p g)
      = upd (v41 (ix3 0 p g)) (fun k => msgV (Wt v55 v57 v59 v60 v62 v64 v111 v113 v115 v116 v118 v120 v167 v169 v171 v172 v174 v176) (tileS v0 v2 v5 p k) (tileV v13 v27 v41 v15 v29 v43 v18 v32 v46 p k) 2 g) := by
  rw [R1_apply _ _ _ _ _ _ v167 v169 v171 v172 v174 v176
    (fun p k o => sPre (si := 128) rfl (W2 v111 v113 v115 v116 v118 v120) (sOutA (si := 288) rfl (W1 v55 v57 v59 v60 v62 v64) (tileS v0 v2 v5 p k) (tileV v13 v27 v41 v15 v29 v43 v18 v32 v46 p k)) (vOutA (si := 288) rfl (W1 v55 v57 v59 v60 v62 v64) (tileS v0 v2 v5 p k) (tileV v13 v27 v41 v15 v29 v43 v18 v32 v46 p k)) o)
    (fun p k t g => vLin (W2 v111 v113 v115 v116 v118 v120) (vOutA (si := 288) rfl (W1 v55 v57 v59 v60 v62 v64) (tileS v0 v2 v5 p k) (tileV v13 v27 v41 v15 v29 v43 v18 v32 v46 p k)) t g)
    (fun p k g => Ideal.logistic (gateA (si := 128) rfl (W2 v111 v113 v115 v116 v118 v120) (sOutA (si := 288) rfl (W1 v55 v57 v59 v60 v62 v64) (tileS v0 v2 v5 p k) (tileV v13 v27 v41 v15 v29 v43 v18 v32 v46 p k)) (vOutA (si := 288) rfl (W1 v55 v57 v59 v60 v62 v64) (tileS v0 v2 v5 p k) (tileV v13 v27 v41 v15 v29 v43 v18 v32 v46 p k)) g))
    (fun p k o => U31_row _ _ _ _ v111 v113 v115 v116 v118 v120 _ _ (fun p k o => T24_row v0 v2 v5 v13 v27 v41 v15 v29 v43 v18 v32 v46 v55 v57 v59 v60 v62 v64 p k o) (fun p k g => T21_row v0 v2 v5 v13 v27 v41 v15 v29 v43 v18 v32 v46 v55 v57 v59 v60 v62 v64 p k g) (fun p k g => T22_row v0 v2 v5 v13 v27 v41 v15 v29 v43 v18 v32 v46 v55 v57 v59 v60 v62 v64 p k g) (fun p k g => T23_row v0 v2 v5 v13 v27 v41 v15 v29 v43 v18 v32 v46 v55 v57 v59 v60 v62 v64 p k g) p k o)
    (fun p k g => U32_row _ v111 v113 v115 v116 v118 v120 _ (fun p k g => T21_row v0 v2 v5 v13 v27 v41 v15 v29 v43 v18 v32 v46 v55 v57 v59 v60 v62 v64 p k g) p k g)
    (fun p k g => U33_row _ v111 v113 v115 v116 v118 v120 _ (fun p k g => T22_row v0 v2 v5 v13 v27 v41 v15 v29 v43 v18 v32 v46 v55 v57 v59 v60 v62 v64 p k g) p k g)
    (fun p k g => U34_row _ v111 v113 v115 v116 v118 v120 _ (fun p k g => T23_row v0 v2 v5 v13 v27 v41 v15 v29 v43 v18 v32 v46 v55 v57 v59 v60 v62 v64 p k g) p k g)
    (fun p k g => U35_row _ _ _ _ v111 v113 v115 v116 v118 v120 _ _ (fun p k o => T24_row v0 v2 v5 v13 v27 v41 v15 v29 v43 v18 v32 v46 v55 v57 v59 v60 v62 v64 p k o) (fun p k g => T21_row v0 v2 v5 v13 v27 v41 v15 v29 v43 v18 v32 v46 v55 v57 v59 v60 v62 v64 p k g) (fun p k g => T22_row v0 v2 v5 v13 v27 v41 v15 v29 v43 v18 v32 v46 v55 v57 v59 v60 v62 v64 p k g) (fun p k g => T23_row v0 v2 v5 v13 v27 v41 v15 v29 v43 v18 v32 v46 v55 v57 v59 v60 v62 v64 p k g) p k g)
    p g, show k0_pay8 v41 (ix2 p g) = v41 (ix3 0 p g) from shapeCast_1ab_ab_apply _ _ p g]
  rfl

end Cert.KernelIdeal.Tile

end
-- ==== Proof.KFinal.lean ====
/-
  The tile program's two results as whole arrays.  A grid point's loaded pieces are rows of the arrays the region
  finds (block t holds nodes t*32 … t*32+31 of the merged node axis; node r is batch r / 2048, position r % 2048), so
  what each point writes back is its block of ONE function of @main's arguments: every node's own entry plus the mean
  of its 32 edges' messages.  The blocks tile the result arrays, the two host lines after the region only re-lay them,
  and the run's post states the two results at the specification's update.
-/
import proofs.«418785_j9663676416046_3_alg».proof.Proof.KHost
import proofs.«418785_j9663676416046_3_alg».proof.Proof.KBlk
import proofs.«418785_j9663676416046_3_alg».proof.Proof.KTail
import proofs.«418785_j9663676416046_3_alg».proof.Proof.KTile

noncomputable section

namespace Cert.KernelIdeal.Arr

open Idealize.ShloMosaic Idealize.ShloMosaic.TcCoe Idealize.ShloMosaic.ValueIdx Idealize.SL.Sem Idealize.ShloMosaic.StableHlo
open Cert.KernelIdeal Cert.KernelIdeal.Gen Cert.KernelIdeal.GenP Cert.KernelIdeal.Tile GvpSpec
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The three layers' weights as @main holds them. -/
def Wk (c : Dev nD) : Weights :=
  ⟨⟨(m ((c : Thread nD τ).loc main_arg5)), (m ((c : Thread nD τ).loc main_arg6)), (m ((c : Thread nD τ).loc main_arg7)), (m ((c : Thread nD τ).loc main_arg8)), (m ((c : Thread nD τ).loc main_arg9)), (m ((c : Thread nD τ).loc main_arg10))⟩,
   ⟨(m ((c : Thread nD τ).loc main_arg11)), (m ((c : Thread nD τ).loc main_arg12)), (m ((c : Thread nD τ).loc main_arg13)), (m ((c : Thread nD τ).loc main_arg14)), (m ((c : Thread nD τ).loc main_arg15)), (m ((c : Thread nD τ).loc main_arg16))⟩,
   ⟨(m ((c : Thread nD τ).loc main_arg17)), (m ((c : Thread nD τ).loc main_arg18)), (m ((c : Thread nD τ).loc main_arg19)), (m ((c : Thread nD τ).loc main_arg20)), (m ((c : Thread nD τ).loc main_arg21)), (m ((c : Thread nD τ).loc main_arg22))⟩⟩

/-- The updated scalar features as a function of @main's arguments. -/
def oS (c : Dev nD) : (⟨3, ![2, 2048, 128]⟩ : Shape).Idx → EReal :=
  outS (Wk m c) (m ((c : Thread nD τ).loc main_arg0)) (XS m c) (m ((c : Thread nD τ).loc main_arg2)) (m ((c : Thread nD τ).loc main_arg1)) (XV m c) (m ((c : Thread nD τ).loc main_arg3))
/-- The updated vector features as a function of @main's arguments. -/
def oV (c : Dev nD) : (⟨4, ![2, 2048, 16, 3]⟩ : Shape).Idx → EReal :=
  outV (Wk m c) (m ((c : Thread nD τ).loc main_arg0)) (XS m c) (m ((c : Thread nD τ).loc main_arg2)) (m ((c : Thread nD τ).loc main_arg1)) (XV m c) (m ((c : Thread nD τ).loc main_arg3))

/-- What the scalar result's array holds over the merged node axis. -/
def G24 (c : Dev nD) : Vec Ideal S4096x128 .f32 := fun i => oS m c (ix3 (nodeB (i 0)) (nodeN (i 0)) (i 1))
/-- What the vector result's array holds, spatial coordinate leading. -/
def G25 (c : Dev nD) : Vec Ideal S3x4096x16 .f32 := fun i => oV m c (ix4 (nodeB (i 1)) (nodeN (i 1)) (i 2) (i 0))

/-! ## The loaded pieces of a grid point are the arrays' rows -/

theorem ldW6 (c : Dev nD) (t : Fin cfg0.N) : (View.ld (iblk m c 6 t) r0_12) = (m ((c : Thread nD τ).loc main_arg5)) :=
  (View.ld_unit_zero (S := S33x33) hz2 _ _).trans (blk6_eq m c t)
theorem ldW7 (c : Dev nD) (t : Fin cfg0.N) : (View.ld (iblk m c 7 t) r0_13) = (m ((c : Thread nD τ).loc main_arg6)) :=
  (View.ld_unit_zero (S := S128x321) hz2 _ _).trans (blk7_eq m c t)
theorem ldW8 (c : Dev nD) (t : Fin cfg0.N) : (View.ld (iblk m c 8 t) r0_14) = (m ((c : Thread nD τ).loc main_arg7)) :=
  (View.ld_unit_zero (S := S128) hz1 _ _).trans (blk8_eq m c t)
theorem ldW9 (c : Dev nD) (t : Fin cfg0.N) : (View.ld (iblk m c 9 t) r0_15) = (m ((c : Thread nD τ).loc main_arg8)) :=
  (View.ld_unit_zero (S := S16x33) hz2 _ _).trans (blk9_eq m c t)
theorem ldW10 (c : Dev nD) (t : Fin cfg0.N) : (View.ld (iblk m c 10 t) r0_16) = (m ((c : Thread nD τ).loc main_arg9)) :=
  (View.ld_unit_zero (S := S16x128) hz2 _ _).trans (blk10_eq m c t)
theorem ldW11 (c : Dev nD) (t : Fin cfg0.N) : (View.ld (iblk m c 11 t) r0_17) = (m ((c : Thread nD τ).loc main_arg10)) :=
  (View.ld_unit_zero (S := S16) hz1 _ _).trans (blk11_eq m c t)
theorem ldW12 (c : Dev nD) (t : Fin cfg0.N) : (View.ld (iblk m c 12 t) r0_18) = (m ((c : Thread nD τ).loc main_arg11)) :=
  (View.ld_unit_zero (S := S16x16) hz2 _ _).trans (blk12_eq m c t)
theorem ldW13 (c : Dev nD) (t : Fin cfg0.N) : (View.ld (iblk m c 13 t) r0_19) = (m ((c : Thread nD τ).loc main_arg12)) :=
  (View.ld_unit_zero (S := S128x144) hz2 _ _).trans (blk13_eq m c t)
theorem ldW14 (c : Dev nD) (t : Fin cfg0.N) : (View.ld (iblk m c 14 t) r0_14) = (m ((c : Thread nD τ).loc main_arg13)) :=
  (View.ld_unit_zero (S := S128) hz1 _ _).trans (blk14_eq m c t)
theorem ldW15 (c : Dev nD) (t : Fin cfg0.N) : (View.ld (iblk m c 15 t) r0_18) = (m ((c : Thread nD τ).loc main_arg14)) :=
  (View.ld_unit_zero (S := S16x16) hz2 _ _).trans (blk15_eq m c t)
theorem ldW16 (c : Dev nD) (t : Fin cfg0.N) : (View.ld (iblk m c 16 t) r0_16) = (m ((c : Thread nD τ).loc main_arg15)) :=
  (View.ld_unit_zero (S := S16x128) hz2 _ _).trans (blk16_eq m c t)
theorem ldW17 (c : Dev nD) (t : Fin cfg0.N) : (View.ld (iblk m c 17 t) r0_17) = (m ((c : Thread nD τ).loc main_arg16)) :=
  (View.ld_unit_zero (S := S16) hz1 _ _).trans (blk17_eq m c t)
theorem ldW18 (c : Dev nD) (t : Fin cfg0.N) : (View.ld (iblk m c 18 t) r0_18) = (m ((c : Thread nD τ).loc main_arg17)) :=
  (View.ld_unit_zero (S := S16x16) hz2 _ _).trans (blk18_eq m c t)
theorem ldW19 (c : Dev nD) (t : Fin cfg0.N) : (View.ld (iblk m c 19 t) r0_19) = (m ((c : Thread nD τ).loc main_arg18)) :=
  (View.ld_unit_zero (S := S128x144) hz2 _ _).trans (blk19_eq m c t)
theorem ldW20 (c : Dev nD) (t : Fin cfg0.N) : (View.ld (iblk m c 20 t) r0_14) = (m ((c : Thread nD τ).loc main_arg19)) :=
  (View.ld_unit_zero (S := S128) hz1 _ _).trans (blk20_eq m c t)
theorem ldW21 (c : Dev nD) (t : Fin cfg0.N) : (View.ld (iblk m c 21 t) r0_18) = (m ((c : Thread nD τ).loc main_arg20)) :=
  (View.ld_unit_zero (S := S16x16) hz2 _ _).trans (blk21_eq m c t)
theorem ldW22 (c : Dev nD) (t : Fin cfg0.N) : (View.ld (iblk m c 22 t) r0_16) = (m ((c : Thread nD τ).loc main_arg21)) :=
  (View.ld_unit_zero (S := S16x128) hz2 _ _).trans (blk22_eq m c t)
theorem ldW23 (c : Dev nD) (t : Fin cfg0.N) : (View.ld (iblk m c 23 t) r0_17) = (m ((c : Thread nD τ).loc main_arg22)) :=
  (View.ld_unit_zero (S := S16) hz1 _ _).trans (blk23_eq m c t)

theorem wt_eq (c : Dev nD) (t : Fin cfg0.N) :
    Wt (View.ld (iblk m c 6 t) r0_12) (View.ld (iblk m c 7 t) r0_13) (View.ld (iblk m c 8 t) r0_14) (View.ld (iblk m c 9 t) r0_15) (View.ld (iblk m c 10 t) r0_16) (View.ld (iblk m c 11 t) r0_17) (View.ld (iblk m c 12 t) r0_18) (View.ld (iblk m c 13 t) r0_19) (View.ld (iblk m c 14 t) r0_14) (View.ld (iblk m c 15 t) r0_18) (View.ld (iblk m c 16 t) r0_16) (View.ld (iblk m c 17 t) r0_17) (View.ld (iblk m c 18 t) r0_18) (View.ld (iblk m c 19 t) r0_19) (View.ld (iblk m c 20 t) r0_14) (View.ld (iblk m c 21 t) r0_18) (View.ld (iblk m c 22 t) r0_16) (View.ld (iblk m c 23 t) r0_17) = Wk m c := by
  rw [ldW6 m c t, ldW7 m c t, ldW8 m c t, ldW9 m c t, ldW10 m c t, ldW11 m c t, ldW12 m c t, ldW13 m c t, ldW14 m c t, ldW15 m c t, ldW16 m c t, ldW17 m c t, ldW18 m c t, ldW19 m c t, ldW20 m c t, ldW21 m c t, ldW22 m c t, ldW23 m c t]
  rfl

end Cert.KernelIdeal.Arr

namespace Cert.KernelIdeal.Arr

open Idealize.ShloMosaic Idealize.ShloMosaic.TcCoe Idealize.ShloMosaic.ValueIdx Idealize.SL.Sem Idealize.ShloMosaic.StableHlo
open Cert.KernelIdeal Cert.KernelIdeal.Gen Cert.KernelIdeal.GenP Cert.KernelIdeal.Tile GvpSpec
open Idealize.ShloMosaic.Pipeline (Dat)

variable (m : (ℓ : Loc nD τ sig) → Buf (Elt Ideal) ℓ) (ρ : Dev nD → PrngReg)

/-- Three joined rows are equal when their pieces are. -/
theorem cat3_congr {a b d : ℕ} (c : ℕ) (hc : a + b + d = c) {x x' : Fin a → EReal} {y y' : Fin b → EReal} {z z' : Fin d → EReal}
    (hx : ∀ i, x i = x' i) (hy : ∀ i, y i = y' i) (hz : ∀ i, z i = z' i) : cat3 c hc x y z = cat3 c hc x' y' z' := by
  rw [funext hx, funext hy, funext hz]

theorem r0_3_idx (p : Fin 32) (i : Fin 16) : r0_3.idx (ix3 (0 : Fin 1) p i) = (ix3 (0 : Fin 3) p i : S3x32x16.Idx) :=
  funext fun a => Fin.ext (match a with
    | ⟨0, _⟩ => rfl
    | ⟨1, _⟩ => show 0 + 1 * p.val = p.val by omega
    | ⟨2, _⟩ => show 0 + 1 * i.val = i.val by omega)
theorem r0_6_idx (p : Fin 32) (i : Fin 16) : r0_6.idx (ix3 (0 : Fin 1) p i) = (ix3 (1 : Fin 3) p i : S3x32x16.Idx) :=
  funext fun a => Fin.ext (match a with
    | ⟨0, _⟩ => rfl
    | ⟨1, _⟩ => show 0 + 1 * p.val = p.val by omega
    | ⟨2, _⟩ => show 0 + 1 * i.val = i.val by omega)
theorem r0_9_idx (p : Fin 32) (i : Fin 16) : r0_9.idx (ix3 (0 : Fin 1) p i) = (ix3 (2 : Fin 3) p i : S3x32x16.Idx) :=
  funext fun a => Fin.ext (match a with
    | ⟨0, _⟩ => rfl
    | ⟨1, _⟩ => show 0 + 1 * p.val = p.val by omega
    | ⟨2, _⟩ => show 0 + 1 * i.val = i.val by omega)
theorem r0_4_idx (p : Fin 32) (k : Fin 32) (i : Fin 16) : r0_4.idx (ix4 (0 : Fin 1) p k i) = (ix4 (0 : Fin 3) p k i : S3x32x32x16.Idx) :=
  funext fun a => Fin.ext (match a with
    | ⟨0, _⟩ => rfl
    | ⟨1, _⟩ => show 0 + 1 * p.val = p.val by omega
    | ⟨2, _⟩ => show 0 + 1 * k.val = k.val by omega
    | ⟨3, _⟩ => show 0 + 1 * i.val = i.val by omega)
theorem r0_7_idx (p : Fin 32) (k : Fin 32) (i : Fin 16) : r0_7.idx (ix4 (0 : Fin 1) p k i) = (ix4 (1 : Fin 3) p k i : S3x32x32x16.Idx) :=
  funext fun a => Fin.ext (match a with
    | ⟨0, _⟩ => rfl
    | ⟨1, _⟩ => show 0 + 1 * p.val = p.val by omega
    | ⟨2, _⟩ => show 0 + 1 * k.val = k.val by omega
    | ⟨3, _⟩ => show 0 + 1 * i.val = i.val by omega)
theorem r0_10_idx (p : Fin 32) (k : Fin 32) (i : Fin 16) : r0_10.idx (ix4 (0 : Fin 1) p k i) = (ix4 (2 : Fin 3) p k i : S3x32x32x16.Idx) :=
  funext fun a => Fin.ext (match a with
    | ⟨0, _⟩ => rfl
    | ⟨1, _⟩ => show 0 + 1 * p.val = p.val by omega
    | ⟨2, _⟩ => show 0 + 1 * k.val = k.val by omega
    | ⟨3, _⟩ => show 0 + 1 * i.val = i.val by omega)
theorem r0_5_idx (p : Fin 32) (k : Fin 32) : r0_5.idx (ix3 (0 : Fin 1) p k) = (ix3 (0 : Fin 3) p k : S3x32x32.Idx) :=
  funext fun a => Fin.ext (match a with
    | ⟨0, _⟩ => rfl
    | ⟨1, _⟩ => show 0 + 1 * p.val = p.val by omega
    | ⟨2, _⟩ => show 0 + 1 * k.val = k.val by omega)
theorem r0_8_idx (p : Fin 32) (k : Fin 32) : r0_8.idx (ix3 (0 : Fin 1) p k) = (ix3 (1 : Fin 3) p k : S3x32x32.Idx) :=
  funext fun a => Fin.ext (match a with
    | ⟨0, _⟩ => rfl
    | ⟨1, _⟩ => show 0 + 1 * p.val = p.val by omega
    | ⟨2, _⟩ => show 0 + 1 * k.val = k.val by omega)
theorem r0_11_idx (p : Fin 32) (k : Fin 32) : r0_11.idx (ix3 (0 : Fin 1) p k) = (ix3 (2 : Fin 3) p k : S3x32x32.Idx) :=
  funext fun a => Fin.ext (match a with
    | ⟨0, _⟩ => rfl
    | ⟨1, _⟩ => show 0 + 1 * p.val = p.val by omega
    | ⟨2, _⟩ => show 0 + 1 * k.val = k.val by omega)

/-- The scalar row of an edge of point `t`'s tile is the edge's row of the whole arrays. -/
theorem tileS_eq (c : Dev nD) (t : Fin cfg0.N) (p k : Fin 32) :
    tileS (View.ld (iblk m c 0 t) r0_0) (View.ld (iblk m c 2 t) r0_1) (View.ld (iblk m c 4 t) r0_2) p k = edgeS (m ((c : Thread nD τ).loc main_arg0)) (XS m c) (m ((c : Thread nD τ).loc main_arg2)) (nodeB (trow t p)) (nodeN (trow t p)) k :=
  cat3_congr _ _
    (fun f => (congrFun (View.ld_unit_zero (S := S32x128) hz2 _ (iblk m c 0 t)) (ix2 p f)).trans ((blk0_at m c t p f).trans (W22_at m c (trow t p) f)))
    (fun f => (congrFun (View.ld_unit_zero (S := S32x32x128) hz3 _ (iblk m c 2 t)) (ix3 p k f)).trans ((blk2_at m c t p k f).trans (W24_at m c (trow t p) k f)))
    (fun f => (congrFun (View.ld_unit_zero (S := S32x32x32) hz3 _ (iblk m c 4 t)) (ix3 p k f)).trans ((blk4_at m c t p k f).trans (W26_at m c (trow t p) k f)))

theorem tileV1_eq0 (c : Dev nD) (t : Fin cfg0.N) (p k : Fin 32) :
    tileV1 (View.ld (iblk m c 1 t) r0_3) (View.ld (iblk m c 3 t) r0_4) (View.ld (iblk m c 5 t) r0_5) p k = edgeV (m ((c : Thread nD τ).loc main_arg1)) (XV m c) (m ((c : Thread nD τ).loc main_arg3)) (nodeB (trow t p)) (nodeN (trow t p)) k 0 :=
  cat3_congr _ _
    (fun i => (congrArg (iblk m c 1 t) (r0_3_idx p i)).trans ((blk1_at m c t 0 p i).trans (W23_at m c 0 (trow t p) i)))
    (fun i => (congrArg (iblk m c 3 t) (r0_4_idx p k i)).trans ((blk3_at m c t 0 p k i).trans (W25_at m c 0 (trow t p) k i)))
    (fun i => (congrArg (iblk m c 5 t) (r0_5_idx p k)).trans ((blk5_at m c t 0 p k).trans
      ((W27_at m c 0 (trow t p) k).trans (by rw [Subsingleton.elim i (0 : Fin 1)]))))
theorem tileV1_eq1 (c : Dev nD) (t : Fin cfg0.N) (p k : Fin 32) :
    tileV1 (View.ld (iblk m c 1 t) r0_6) (View.ld (iblk m c 3 t) r0_7) (View.ld (iblk m c 5 t) r0_8) p k = edgeV (m ((c : Thread nD τ).loc main_arg1)) (XV m c) (m ((c : Thread nD τ).loc main_arg3)) (nodeB (trow t p)) (nodeN (trow t p)) k 1 :=
  cat3_congr _ _
    (fun i => (congrArg (iblk m c 1 t) (r0_6_idx p i)).trans ((blk1_at m c t 1 p i).trans (W23_at m c 1 (trow t p) i)))
    (fun i => (congrArg (iblk m c 3 t) (r0_7_idx p k i)).trans ((blk3_at m c t 1 p k i).trans (W25_at m c 1 (trow t p) k i)))
    (fun i => (congrArg (iblk m c 5 t) (r0_8_idx p k)).trans ((blk5_at m c t 1 p k).trans
      ((W27_at m c 1 (trow t p) k).trans (by rw [Subsingleton.elim i (0 : Fin 1)]))))
theorem tileV1_eq2 (c : Dev nD) (t : Fin cfg0.N) (p k : Fin 32) :
    tileV1 (View.ld (iblk m c 1 t) r0_9) (View.ld (iblk m c 3 t) r0_10) (View.ld (iblk m c 5 t) r0_11) p k = edgeV (m ((c : Thread nD τ).loc main_arg1)) (XV m c) (m ((c : Thread nD τ).loc main_arg3)) (nodeB (trow t p)) (nodeN (trow t p)) k 2 :=
  cat3_congr _ _
    (fun i => (congrArg (iblk m c 1 t) (r0_9_idx p i)).trans ((blk1_at m c t 2 p i).trans (W23_at m c 2 (trow t p) i)))
    (fun i => (congrArg (iblk m c 3 t) (r0_10_idx p k i)).trans ((blk3_at m c t 2 p k i).trans (W25_at m c 2 (trow t p) k i)))
    (fun i => (congrArg (iblk m c 5 t) (r0_11_idx p k)).trans ((blk5_at m c t 2 p k).trans
      ((W27_at m c 2 (trow t p) k).trans (by rw [Subsingleton.elim i (0 : Fin 1)]))))

/-- The three coordinates' vector rows of an edge of point `t`'s tile are the edge's rows of the whole arrays. -/
theorem tileV_eq (c : Dev nD) (t : Fin cfg0.N) (p k : Fin 32) :
    tileV (View.ld (iblk m c 1 t) r0_3) (View.ld (iblk m c 1 t) r0_6) (View.ld (iblk m c 1 t) r0_9) (View.ld (iblk m c 3 t) r0_4) (View.ld (iblk m c 3 t) r0_7) (View.ld (iblk m c 3 t) r0_10) (View.ld (iblk m c 5 t) r0_5) (View.ld (iblk m c 5 t) r0_8) (View.ld (iblk m c 5 t) r0_11) p k = edgeV (m ((c : Thread nD τ).loc main_arg1)) (XV m c) (m ((c : Thread nD τ).loc main_arg3)) (nodeB (trow t p)) (nodeN (trow t p)) k := by
  funext u
  match u with
  | ⟨0, _⟩ => exact tileV1_eq0 m c t p k
  | ⟨1, _⟩ => exact tileV1_eq1 m c t p k
  | ⟨2, _⟩ => exact tileV1_eq2 m c t p k

end Cert.KernelIdeal.Arr

namespace Cert.KernelIdeal.Arr

open Idealize.ShloMosaic Idealize.ShloMosaic.TcCoe Idealize.ShloMosaic.ValueIdx Idealize.SL.Sem Idealize.ShloMosaic.StableHlo
open Cert.KernelIdeal Cert.KernelIdeal.Gen Cert.KernelIdeal.GenP Cert.KernelIdeal.Tile GvpSpec
open Idealize.ShloMosaic.Pipeline (Dat)

variable (m : (ℓ : Loc nD τ sig) → Buf (Elt Ideal) ℓ) (ρ : Dev nD → PrngReg)

/-- What point `t` writes back of the scalar result is block `t` of `G24`. -/
theorem flushed24_eq (c : Dev nD) (t : Fin cfg0.N) :
    (dats m 0 c).flushed 24 t = ((cfg0.win 24).blk t).view.read (Elt Ideal) (G24 m c) := by
  show (cfg0.win 24).cut (grid0.coords t) ((dats m 0 c).after 24 t) = _
  rw [after0_24]
  unfold out0_24
  rw [View.canon_unit_zero hz2]
  funext y
  obtain ⟨p, j, rfl⟩ : ∃ (p : Fin 32) (j : Fin 128), y = ix2 p j := ⟨y 0, y 1, eq_ix2 y⟩
  refine (tile_s (View.ld (iblk m c 0 t) r0_0) (View.ld (iblk m c 2 t) r0_1) (View.ld (iblk m c 4 t) r0_2) (View.ld (iblk m c 1 t) r0_3) (View.ld (iblk m c 1 t) r0_6) (View.ld (iblk m c 1 t) r0_9) (View.ld (iblk m c 3 t) r0_4) (View.ld (iblk m c 3 t) r0_7) (View.ld (iblk m c 3 t) r0_10) (View.ld (iblk m c 5 t) r0_5) (View.ld (iblk m c 5 t) r0_8) (View.ld (iblk m c 5 t) r0_11) (View.ld (iblk m c 6 t) r0_12) (View.ld (iblk m c 7 t) r0_13) (View.ld (iblk m c 8 t) r0_14) (View.ld (iblk m c 9 t) r0_15) (View.ld (iblk m c 10 t) r0_16) (View.ld (iblk m c 11 t) r0_17) (View.ld (iblk m c 12 t) r0_18) (View.ld (iblk m c 13 t) r0_19) (View.ld (iblk m c 14 t) r0_14) (View.ld (iblk m c 15 t) r0_18) (View.ld (iblk m c 16 t) r0_16) (View.ld (iblk m c 17 t) r0_17) (View.ld (iblk m c 18 t) r0_18) (View.ld (iblk m c 19 t) r0_19) (View.ld (iblk m c 20 t) r0_14) (View.ld (iblk m c 21 t) r0_18) (View.ld (iblk m c 22 t) r0_16) (View.ld (iblk m c 23 t) r0_17) p j).trans ?_
  show _ = G24 m c (((cfg0.win 24).blk t).view.emb (ix2 p j))
  rw [out24_emb, wt_eq m c t]
  show _ = upd ((m ((c : Thread nD τ).loc main_arg0)) (ix3 (nodeB (trow t p)) (nodeN (trow t p)) j)) (fun k => msgS (Wk m c) (edgeS (m ((c : Thread nD τ).loc main_arg0)) (XS m c) (m ((c : Thread nD τ).loc main_arg2)) (nodeB (trow t p)) (nodeN (trow t p)) k) (edgeV (m ((c : Thread nD τ).loc main_arg1)) (XV m c) (m ((c : Thread nD τ).loc main_arg3)) (nodeB (trow t p)) (nodeN (trow t p)) k) j)
  rw [show (View.ld (iblk m c 0 t) r0_0) (ix2 p j) = (m ((c : Thread nD τ).loc main_arg0)) (ix3 (nodeB (trow t p)) (nodeN (trow t p)) j) from
    (congrFun (View.ld_unit_zero (S := S32x128) hz2 _ (iblk m c 0 t)) (ix2 p j)).trans ((blk0_at m c t p j).trans (W22_at m c (trow t p) j))]
  refine congrArg _ (funext fun k => ?_)
  rw [tileS_eq m c t p k, tileV_eq m c t p k]

end Cert.KernelIdeal.Arr

namespace Cert.KernelIdeal.Arr

open Idealize.ShloMosaic Idealize.ShloMosaic.TcCoe Idealize.ShloMosaic.ValueIdx Idealize.SL.Sem Idealize.ShloMosaic.StableHlo
open Cert.KernelIdeal Cert.KernelIdeal.Gen Cert.KernelIdeal.GenP Cert.KernelIdeal.Tile GvpSpec
open Idealize.ShloMosaic.Pipeline (Dat)

variable (m : (ℓ : Loc nD τ sig) → Buf (Elt Ideal) ℓ) (ρ : Dev nD → PrngReg)

theorem piece25_0 (c : Dev nD) (t : Fin cfg0.N) (p : Fin 32) (g : Fin 16) :
    R47 (U31 (T21 (View.ld (iblk m c 0 t) r0_0) (View.ld (iblk m c 2 t) r0_1) (View.ld (iblk m c 4 t) r0_2) (View.ld (iblk m c 1 t) r0_3) (View.ld (iblk m c 1 t) r0_6) (View.ld (iblk m c 1 t) r0_9) (View.ld (iblk m c 3 t) r0_4) (View.ld (iblk m c 3 t) r0_7) (View.ld (iblk m c 3 t) r0_10) (View.ld (iblk m c 5 t) r0_5) (View.ld (iblk m c 5 t) r0_8) (View.ld (iblk m c 5 t) r0_11) (View.ld (iblk m c 6 t) r0_12) (View.ld (iblk m c 7 t) r0_13) (View.ld (iblk m c 8 t) r0_14) (View.ld (iblk m c 9 t) r0_15) (View.ld (iblk m c 10 t) r0_16) (View.ld (iblk m c 11 t) r0_17)) (T22 (View.ld (iblk m c 0 t) r0_0) (View.ld (iblk m c 2 t) r0_1) (View.ld (iblk m c 4 t) r0_2) (View.ld (iblk m c 1 t) r0_3) (View.ld (iblk m c 1 t) r0_6) (View.ld (iblk m c 1 t) r0_9) (View.ld (iblk m c 3 t) r0_4) (View.ld (iblk m c 3 t) r0_7) (View.ld (iblk m c 3 t) r0_10) (View.ld (iblk m c 5 t) r0_5) (View.ld (iblk m c 5 t) r0_8) (View.ld (iblk m c 5 t) r0_11) (View.ld (iblk m c 6 t) r0_12) (View.ld (iblk m c 7 t) r0_13) (View.ld (iblk m c 8 t) r0_14) (View.ld (iblk m c 9 t) r0_15) (View.ld (iblk m c 10 t) r0_16) (View.ld (iblk m c 11 t) r0_17)) (T23 (View.ld (iblk m c 0 t) r0_0) (View.ld (iblk m c 2 t) r0_1) (View.ld (iblk m c 4 t) r0_2) (View.ld (iblk m c 1 t) r0_3) (View.ld (iblk m c 1 t) r0_6) (View.ld (iblk m c 1 t) r0_9) (View.ld (iblk m c 3 t) r0_4) (View.ld (iblk m c 3 t) r0_7) (View.ld (iblk m c 3 t) r0_10) (View.ld (iblk m c 5 t) r0_5) (View.ld (iblk m c 5 t) r0_8) (View.ld (iblk m c 5 t) r0_11) (View.ld (iblk m c 6 t) r0_12) (View.ld (iblk m c 7 t) r0_13) (View.ld (iblk m c 8 t) r0_14) (View.ld (iblk m c 9 t) r0_15) (View.ld (iblk m c 10 t) r0_16) (View.ld (iblk m c 11 t) r0_17)) (T24 (View.ld (iblk m c 0 t) r0_0) (View.ld (iblk m c 2 t) r0_1) (View.ld (iblk m c 4 t) r0_2) (View.ld (iblk m c 1 t) r0_3) (View.ld (iblk m c 1 t) r0_6) (View.ld (iblk m c 1 t) r0_9) (View.ld (iblk m c 3 t) r0_4) (View.ld (iblk m c 3 t) r0_7) (View.ld (iblk m c 3 t) r0_10) (View.ld (iblk m c 5 t) r0_5) (View.ld (iblk m c 5 t) r0_8) (View.ld (iblk m c 5 t) r0_11) (View.ld (iblk m c 6 t) r0_12) (View.ld (iblk m c 7 t) r0_13) (View.ld (iblk m c 8 t) r0_14)) (View.ld (iblk m c 12 t) r0_18) (View.ld (iblk m c 13 t) r0_19) (View.ld (iblk m c 14 t) r0_14)) (U32 (T21 (View.ld (iblk m c 0 t) r0_0) (View.ld (iblk m c 2 t) r0_1) (View.ld (iblk m c 4 t) r0_2) (View.ld (iblk m c 1 t) r0_3) (View.ld (iblk m c 1 t) r0_6) (View.ld (iblk m c 1 t) r0_9) (View.ld (iblk m c 3 t) r0_4) (View.ld (iblk m c 3 t) r0_7) (View.ld (iblk m c 3 t) r0_10) (View.ld (iblk m c 5 t) r0_5) (View.ld (iblk m c 5 t) r0_8) (View.ld (iblk m c 5 t) r0_11) (View.ld (iblk m c 6 t) r0_12) (View.ld (iblk m c 7 t) r0_13) (View.ld (iblk m c 8 t) r0_14) (View.ld (iblk m c 9 t) r0_15) (View.ld (iblk m c 10 t) r0_16) (View.ld (iblk m c 11 t) r0_17)) (View.ld (iblk m c 12 t) r0_18) (View.ld (iblk m c 15 t) r0_18)) (U33 (T22 (View.ld (iblk m c 0 t) r0_0) (View.ld (iblk m c 2 t) r0_1) (View.ld (iblk m c 4 t) r0_2) (View.ld (iblk m c 1 t) r0_3) (View.ld (iblk m c 1 t) r0_6) (View.ld (iblk m c 1 t) r0_9) (View.ld (iblk m c 3 t) r0_4) (View.ld (iblk m c 3 t) r0_7) (View.ld (iblk m c 3 t) r0_10) (View.ld (iblk m c 5 t) r0_5) (View.ld (iblk m c 5 t) r0_8) (View.ld (iblk m c 5 t) r0_11) (View.ld (iblk m c 6 t) r0_12) (View.ld (iblk m c 7 t) r0_13) (View.ld (iblk m c 8 t) r0_14) (View.ld (iblk m c 9 t) r0_15) (View.ld (iblk m c 10 t) r0_16) (View.ld (iblk m c 11 t) r0_17)) (View.ld (iblk m c 12 t) r0_18) (View.ld (iblk m c 15 t) r0_18)) (U34 (T23 (View.ld (iblk m c 0 t) r0_0) (View.ld (iblk m c 2 t) r0_1) (View.ld (iblk m c 4 t) r0_2) (View.ld (iblk m c 1 t) r0_3) (View.ld (iblk m c 1 t) r0_6) (View.ld (iblk m c 1 t) r0_9) (View.ld (iblk m c 3 t) r0_4) (View.ld (iblk m c 3 t) r0_7) (View.ld (iblk m c 3 t) r0_10) (View.ld (iblk m c 5 t) r0_5) (View.ld (iblk m c 5 t) r0_8) (View.ld (iblk m c 5 t) r0_11) (View.ld (iblk m c 6 t) r0_12) (View.ld (iblk m c 7 t) r0_13) (View.ld (iblk m c 8 t) r0_14) (View.ld (iblk m c 9 t) r0_15) (View.ld (iblk m c 10 t) r0_16) (View.ld (iblk m c 11 t) r0_17)) (View.ld (iblk m c 12 t) r0_18) (View.ld (iblk m c 15 t) r0_18)) (U35 (T21 (View.ld (iblk m c 0 t) r0_0) (View.ld (iblk m c 2 t) r0_1) (View.ld (iblk m c 4 t) r0_2) (View.ld (iblk m c 1 t) r0_3) (View.ld (iblk m c 1 t) r0_6) (View.ld (iblk m c 1 t) r0_9) (View.ld (iblk m c 3 t) r0_4) (View.ld (iblk m c 3 t) r0_7) (View.ld (iblk m c 3 t) r0_10) (View.ld (iblk m c 5 t) r0_5) (View.ld (iblk m c 5 t) r0_8) (View.ld (iblk m c 5 t) r0_11) (View.ld (iblk m c 6 t) r0_12) (View.ld (iblk m c 7 t) r0_13) (View.ld (iblk m c 8 t) r0_14) (View.ld (iblk m c 9 t) r0_15) (View.ld (iblk m c 10 t) r0_16) (View.ld (iblk m c 11 t) r0_17)) (T22 (View.ld (iblk m c 0 t) r0_0) (View.ld (iblk m c 2 t) r0_1) (View.ld (iblk m c 4 t) r0_2) (View.ld (iblk m c 1 t) r0_3) (View.ld (iblk m c 1 t) r0_6) (View.ld (iblk m c 1 t) r0_9) (View.ld (iblk m c 3 t) r0_4) (View.ld (iblk m c 3 t) r0_7) (View.ld (iblk m c 3 t) r0_10) (View.ld (iblk m c 5 t) r0_5) (View.ld (iblk m c 5 t) r0_8) (View.ld (iblk m c 5 t) r0_11) (View.ld (iblk m c 6 t) r0_12) (View.ld (iblk m c 7 t) r0_13) (View.ld (iblk m c 8 t) r0_14) (View.ld (iblk m c 9 t) r0_15) (View.ld (iblk m c 10 t) r0_16) (View.ld (iblk m c 11 t) r0_17)) (T23 (View.ld (iblk m c 0 t) r0_0) (View.ld (iblk m c 2 t) r0_1) (View.ld (iblk m c 4 t) r0_2) (View.ld (iblk m c 1 t) r0_3) (View.ld (iblk m c 1 t) r0_6) (View.ld (iblk m c 1 t) r0_9) (View.ld (iblk m c 3 t) r0_4) (View.ld (iblk m c 3 t) r0_7) (View.ld (iblk m c 3 t) r0_10) (View.ld (iblk m c 5 t) r0_5) (View.ld (iblk m c 5 t) r0_8) (View.ld (iblk m c 5 t) r0_11) (View.ld (iblk m c 6 t) r0_12) (View.ld (iblk m c 7 t) r0_13) (View.ld (iblk m c 8 t) r0_14) (View.ld (iblk m c 9 t) r0_15) (View.ld (iblk m c 10 t) r0_16) (View.ld (iblk m c 11 t) r0_17)) (T24 (View.ld (iblk m c 0 t) r0_0) (View.ld (iblk m c 2 t) r0_1) (View.ld (iblk m c 4 t) r0_2) (View.ld (iblk m c 1 t) r0_3) (View.ld (iblk m c 1 t) r0_6) (View.ld (iblk m c 1 t) r0_9) (View.ld (iblk m c 3 t) r0_4) (View.ld (iblk m c 3 t) r0_7) (View.ld (iblk m c 3 t) r0_10) (View.ld (iblk m c 5 t) r0_5) (View.ld (iblk m c 5 t) r0_8) (View.ld (iblk m c 5 t) r0_11) (View.ld (iblk m c 6 t) r0_12) (View.ld (iblk m c 7 t) r0_13) (View.ld (iblk m c 8 t) r0_14)) (View.ld (iblk m c 12 t) r0_18) (View.ld (iblk m c 13 t) r0_19) (View.ld (iblk m c 14 t) r0_14) (View.ld (iblk m c 16 t) r0_16) (View.ld (iblk m c 17 t) r0_17)) (k0_pay4 (View.ld (iblk m c 1 t) r0_3)) (View.ld (iblk m c 18 t) r0_18) (View.ld (iblk m c 19 t) r0_19) (View.ld (iblk m c 20 t) r0_14) (View.ld (iblk m c 21 t) r0_18) (View.ld (iblk m c 22 t) r0_16) (View.ld (iblk m c 23 t) r0_17) (ix3 (0 : Fin 1) p g)
      = G25 m c (((cfg0.win 25).blk t).view.emb (ix3 (0 : Fin 3) p g)) := by
  refine (tile_v0 (View.ld (iblk m c 0 t) r0_0) (View.ld (iblk m c 2 t) r0_1) (View.ld (iblk m c 4 t) r0_2) (View.ld (iblk m c 1 t) r0_3) (View.ld (iblk m c 1 t) r0_6) (View.ld (iblk m c 1 t) r0_9) (View.ld (iblk m c 3 t) r0_4) (View.ld (iblk m c 3 t) r0_7) (View.ld (iblk m c 3 t) r0_10) (View.ld (iblk m c 5 t) r0_5) (View.ld (iblk m c 5 t) r0_8) (View.ld (iblk m c 5 t) r0_11) (View.ld (iblk m c 6 t) r0_12) (View.ld (iblk m c 7 t) r0_13) (View.ld (iblk m c 8 t) r0_14) (View.ld (iblk m c 9 t) r0_15) (View.ld (iblk m c 10 t) r0_16) (View.ld (iblk m c 11 t) r0_17) (View.ld (iblk m c 12 t) r0_18) (View.ld (iblk m c 13 t) r0_19) (View.ld (iblk m c 14 t) r0_14) (View.ld (iblk m c 15 t) r0_18) (View.ld (iblk m c 16 t) r0_16) (View.ld (iblk m c 17 t) r0_17) (View.ld (iblk m c 18 t) r0_18) (View.ld (iblk m c 19 t) r0_19) (View.ld (iblk m c 20 t) r0_14) (View.ld (iblk m c 21 t) r0_18) (View.ld (iblk m c 22 t) r0_16) (View.ld (iblk m c 23 t) r0_17) p g).trans ?_
  rw [out25_emb, wt_eq m c t]
  show _ = upd ((m ((c : Thread nD τ).loc main_arg1)) (ix4 (nodeB (trow t p)) (nodeN (trow t p)) g 0)) (fun k => msgV (Wk m c) (edgeS (m ((c : Thread nD τ).loc main_arg0)) (XS m c) (m ((c : Thread nD τ).loc main_arg2)) (nodeB (trow t p)) (nodeN (trow t p)) k) (edgeV (m ((c : Thread nD τ).loc main_arg1)) (XV m c) (m ((c : Thread nD τ).loc main_arg3)) (nodeB (trow t p)) (nodeN (trow t p)) k) 0 g)
  rw [show (View.ld (iblk m c 1 t) r0_3) (ix3 (0 : Fin 1) p g) = (m ((c : Thread nD τ).loc main_arg1)) (ix4 (nodeB (trow t p)) (nodeN (trow t p)) g 0) from
    (congrArg (iblk m c 1 t) (r0_3_idx p g)).trans ((blk1_at m c t 0 p g).trans (W23_at m c 0 (trow t p) g))]
  refine congrArg _ (funext fun k => ?_)
  rw [tileS_eq m c t p k, tileV_eq m c t p k]

theorem piece25_1 (c : Dev nD) (t : Fin cfg0.N) (p : Fin 32) (g : Fin 16) :
    R48 (U31 (T21 (View.ld (iblk m c 0 t) r0_0) (View.ld (iblk m c 2 t) r0_1) (View.ld (iblk m c 4 t) r0_2) (View.ld (iblk m c 1 t) r0_3) (View.ld (iblk m c 1 t) r0_6) (View.ld (iblk m c 1 t) r0_9) (View.ld (iblk m c 3 t) r0_4) (View.ld (iblk m c 3 t) r0_7) (View.ld (iblk m c 3 t) r0_10) (View.ld (iblk m c 5 t) r0_5) (View.ld (iblk m c 5 t) r0_8) (View.ld (iblk m c 5 t) r0_11) (View.ld (iblk m c 6 t) r0_12) (View.ld (iblk m c 7 t) r0_13) (View.ld (iblk m c 8 t) r0_14) (View.ld (iblk m c 9 t) r0_15) (View.ld (iblk m c 10 t) r0_16) (View.ld (iblk m c 11 t) r0_17)) (T22 (View.ld (iblk m c 0 t) r0_0) (View.ld (iblk m c 2 t) r0_1) (View.ld (iblk m c 4 t) r0_2) (View.ld (iblk m c 1 t) r0_3) (View.ld (iblk m c 1 t) r0_6) (View.ld (iblk m c 1 t) r0_9) (View.ld (iblk m c 3 t) r0_4) (View.ld (iblk m c 3 t) r0_7) (View.ld (iblk m c 3 t) r0_10) (View.ld (iblk m c 5 t) r0_5) (View.ld (iblk m c 5 t) r0_8) (View.ld (iblk m c 5 t) r0_11) (View.ld (iblk m c 6 t) r0_12) (View.ld (iblk m c 7 t) r0_13) (View.ld (iblk m c 8 t) r0_14) (View.ld (iblk m c 9 t) r0_15) (View.ld (iblk m c 10 t) r0_16) (View.ld (iblk m c 11 t) r0_17)) (T23 (View.ld (iblk m c 0 t) r0_0) (View.ld (iblk m c 2 t) r0_1) (View.ld (iblk m c 4 t) r0_2) (View.ld (iblk m c 1 t) r0_3) (View.ld (iblk m c 1 t) r0_6) (View.ld (iblk m c 1 t) r0_9) (View.ld (iblk m c 3 t) r0_4) (View.ld (iblk m c 3 t) r0_7) (View.ld (iblk m c 3 t) r0_10) (View.ld (iblk m c 5 t) r0_5) (View.ld (iblk m c 5 t) r0_8) (View.ld (iblk m c 5 t) r0_11) (View.ld (iblk m c 6 t) r0_12) (View.ld (iblk m c 7 t) r0_13) (View.ld (iblk m c 8 t) r0_14) (View.ld (iblk m c 9 t) r0_15) (View.ld (iblk m c 10 t) r0_16) (View.ld (iblk m c 11 t) r0_17)) (T24 (View.ld (iblk m c 0 t) r0_0) (View.ld (iblk m c 2 t) r0_1) (View.ld (iblk m c 4 t) r0_2) (View.ld (iblk m c 1 t) r0_3) (View.ld (iblk m c 1 t) r0_6) (View.ld (iblk m c 1 t) r0_9) (View.ld (iblk m c 3 t) r0_4) (View.ld (iblk m c 3 t) r0_7) (View.ld (iblk m c 3 t) r0_10) (View.ld (iblk m c 5 t) r0_5) (View.ld (iblk m c 5 t) r0_8) (View.ld (iblk m c 5 t) r0_11) (View.ld (iblk m c 6 t) r0_12) (View.ld (iblk m c 7 t) r0_13) (View.ld (iblk m c 8 t) r0_14)) (View.ld (iblk m c 12 t) r0_18) (View.ld (iblk m c 13 t) r0_19) (View.ld (iblk m c 14 t) r0_14)) (U32 (T21 (View.ld (iblk m c 0 t) r0_0) (View.ld (iblk m c 2 t) r0_1) (View.ld (iblk m c 4 t) r0_2) (View.ld (iblk m c 1 t) r0_3) (View.ld (iblk m c 1 t) r0_6) (View.ld (iblk m c 1 t) r0_9) (View.ld (iblk m c 3 t) r0_4) (View.ld (iblk m c 3 t) r0_7) (View.ld (iblk m c 3 t) r0_10) (View.ld (iblk m c 5 t) r0_5) (View.ld (iblk m c 5 t) r0_8) (View.ld (iblk m c 5 t) r0_11) (View.ld (iblk m c 6 t) r0_12) (View.ld (iblk m c 7 t) r0_13) (View.ld (iblk m c 8 t) r0_14) (View.ld (iblk m c 9 t) r0_15) (View.ld (iblk m c 10 t) r0_16) (View.ld (iblk m c 11 t) r0_17)) (View.ld (iblk m c 12 t) r0_18) (View.ld (iblk m c 15 t) r0_18)) (U33 (T22 (View.ld (iblk m c 0 t) r0_0) (View.ld (iblk m c 2 t) r0_1) (View.ld (iblk m c 4 t) r0_2) (View.ld (iblk m c 1 t) r0_3) (View.ld (iblk m c 1 t) r0_6) (View.ld (iblk m c 1 t) r0_9) (View.ld (iblk m c 3 t) r0_4) (View.ld (iblk m c 3 t) r0_7) (View.ld (iblk m c 3 t) r0_10) (View.ld (iblk m c 5 t) r0_5) (View.ld (iblk m c 5 t) r0_8) (View.ld (iblk m c 5 t) r0_11) (View.ld (iblk m c 6 t) r0_12) (View.ld (iblk m c 7 t) r0_13) (View.ld (iblk m c 8 t) r0_14) (View.ld (iblk m c 9 t) r0_15) (View.ld (iblk m c 10 t) r0_16) (View.ld (iblk m c 11 t) r0_17)) (View.ld (iblk m c 12 t) r0_18) (View.ld (iblk m c 15 t) r0_18)) (U34 (T23 (View.ld (iblk m c 0 t) r0_0) (View.ld (iblk m c 2 t) r0_1) (View.ld (iblk m c 4 t) r0_2) (View.ld (iblk m c 1 t) r0_3) (View.ld (iblk m c 1 t) r0_6) (View.ld (iblk m c 1 t) r0_9) (View.ld (iblk m c 3 t) r0_4) (View.ld (iblk m c 3 t) r0_7) (View.ld (iblk m c 3 t) r0_10) (View.ld (iblk m c 5 t) r0_5) (View.ld (iblk m c 5 t) r0_8) (View.ld (iblk m c 5 t) r0_11) (View.ld (iblk m c 6 t) r0_12) (View.ld (iblk m c 7 t) r0_13) (View.ld (iblk m c 8 t) r0_14) (View.ld (iblk m c 9 t) r0_15) (View.ld (iblk m c 10 t) r0_16) (View.ld (iblk m c 11 t) r0_17)) (View.ld (iblk m c 12 t) r0_18) (View.ld (iblk m c 15 t) r0_18)) (U35 (T21 (View.ld (iblk m c 0 t) r0_0) (View.ld (iblk m c 2 t) r0_1) (View.ld (iblk m c 4 t) r0_2) (View.ld (iblk m c 1 t) r0_3) (View.ld (iblk m c 1 t) r0_6) (View.ld (iblk m c 1 t) r0_9) (View.ld (iblk m c 3 t) r0_4) (View.ld (iblk m c 3 t) r0_7) (View.ld (iblk m c 3 t) r0_10) (View.ld (iblk m c 5 t) r0_5) (View.ld (iblk m c 5 t) r0_8) (View.ld (iblk m c 5 t) r0_11) (View.ld (iblk m c 6 t) r0_12) (View.ld (iblk m c 7 t) r0_13) (View.ld (iblk m c 8 t) r0_14) (View.ld (iblk m c 9 t) r0_15) (View.ld (iblk m c 10 t) r0_16) (View.ld (iblk m c 11 t) r0_17)) (T22 (View.ld (iblk m c 0 t) r0_0) (View.ld (iblk m c 2 t) r0_1) (View.ld (iblk m c 4 t) r0_2) (View.ld (iblk m c 1 t) r0_3) (View.ld (iblk m c 1 t) r0_6) (View.ld (iblk m c 1 t) r0_9) (View.ld (iblk m c 3 t) r0_4) (View.ld (iblk m c 3 t) r0_7) (View.ld (iblk m c 3 t) r0_10) (View.ld (iblk m c 5 t) r0_5) (View.ld (iblk m c 5 t) r0_8) (View.ld (iblk m c 5 t) r0_11) (View.ld (iblk m c 6 t) r0_12) (View.ld (iblk m c 7 t) r0_13) (View.ld (iblk m c 8 t) r0_14) (View.ld (iblk m c 9 t) r0_15) (View.ld (iblk m c 10 t) r0_16) (View.ld (iblk m c 11 t) r0_17)) (T23 (View.ld (iblk m c 0 t) r0_0) (View.ld (iblk m c 2 t) r0_1) (View.ld (iblk m c 4 t) r0_2) (View.ld (iblk m c 1 t) r0_3) (View.ld (iblk m c 1 t) r0_6) (View.ld (iblk m c 1 t) r0_9) (View.ld (iblk m c 3 t) r0_4) (View.ld (iblk m c 3 t) r0_7) (View.ld (iblk m c 3 t) r0_10) (View.ld (iblk m c 5 t) r0_5) (View.ld (iblk m c 5 t) r0_8) (View.ld (iblk m c 5 t) r0_11) (View.ld (iblk m c 6 t) r0_12) (View.ld (iblk m c 7 t) r0_13) (View.ld (iblk m c 8 t) r0_14) (View.ld (iblk m c 9 t) r0_15) (View.ld (iblk m c 10 t) r0_16) (View.ld (iblk m c 11 t) r0_17)) (T24 (View.ld (iblk m c 0 t) r0_0) (View.ld (iblk m c 2 t) r0_1) (View.ld (iblk m c 4 t) r0_2) (View.ld (iblk m c 1 t) r0_3) (View.ld (iblk m c 1 t) r0_6) (View.ld (iblk m c 1 t) r0_9) (View.ld (iblk m c 3 t) r0_4) (View.ld (iblk m c 3 t) r0_7) (View.ld (iblk m c 3 t) r0_10) (View.ld (iblk m c 5 t) r0_5) (View.ld (iblk m c 5 t) r0_8) (View.ld (iblk m c 5 t) r0_11) (View.ld (iblk m c 6 t) r0_12) (View.ld (iblk m c 7 t) r0_13) (View.ld (iblk m c 8 t) r0_14)) (View.ld (iblk m c 12 t) r0_18) (View.ld (iblk m c 13 t) r0_19) (View.ld (iblk m c 14 t) r0_14) (View.ld (iblk m c 16 t) r0_16) (View.ld (iblk m c 17 t) r0_17)) (k0_pay6 (View.ld (iblk m c 1 t) r0_6)) (View.ld (iblk m c 18 t) r0_18) (View.ld (iblk m c 19 t) r0_19) (View.ld (iblk m c 20 t) r0_14) (View.ld (iblk m c 21 t) r0_18) (View.ld (iblk m c 22 t) r0_16) (View.ld (iblk m c 23 t) r0_17) (ix3 (0 : Fin 1) p g)
      = G25 m c (((cfg0.win 25).blk t).view.emb (ix3 (1 : Fin 3) p g)) := by
  refine (tile_v1 (View.ld (iblk m c 0 t) r0_0) (View.ld (iblk m c 2 t) r0_1) (View.ld (iblk m c 4 t) r0_2) (View.ld (iblk m c 1 t) r0_3) (View.ld (iblk m c 1 t) r0_6) (View.ld (iblk m c 1 t) r0_9) (View.ld (iblk m c 3 t) r0_4) (View.ld (iblk m c 3 t) r0_7) (View.ld (iblk m c 3 t) r0_10) (View.ld (iblk m c 5 t) r0_5) (View.ld (iblk m c 5 t) r0_8) (View.ld (iblk m c 5 t) r0_11) (View.ld (iblk m c 6 t) r0_12) (View.ld (iblk m c 7 t) r0_13) (View.ld (iblk m c 8 t) r0_14) (View.ld (iblk m c 9 t) r0_15) (View.ld (iblk m c 10 t) r0_16) (View.ld (iblk m c 11 t) r0_17) (View.ld (iblk m c 12 t) r0_18) (View.ld (iblk m c 13 t) r0_19) (View.ld (iblk m c 14 t) r0_14) (View.ld (iblk m c 15 t) r0_18) (View.ld (iblk m c 16 t) r0_16) (View.ld (iblk m c 17 t) r0_17) (View.ld (iblk m c 18 t) r0_18) (View.ld (iblk m c 19 t) r0_19) (View.ld (iblk m c 20 t) r0_14) (View.ld (iblk m c 21 t) r0_18) (View.ld (iblk m c 22 t) r0_16) (View.ld (iblk m c 23 t) r0_17) p g).trans ?_
  rw [out25_emb, wt_eq m c t]
  show _ = upd ((m ((c : Thread nD τ).loc main_arg1)) (ix4 (nodeB (trow t p)) (nodeN (trow t p)) g 1)) (fun k => msgV (Wk m c) (edgeS (m ((c : Thread nD τ).loc main_arg0)) (XS m c) (m ((c : Thread nD τ).loc main_arg2)) (nodeB (trow t p)) (nodeN (trow t p)) k) (edgeV (m ((c : Thread nD τ).loc main_arg1)) (XV m c) (m ((c : Thread nD τ).loc main_arg3)) (nodeB (trow t p)) (nodeN (trow t p)) k) 1 g)
  rw [show (View.ld (iblk m c 1 t) r0_6) (ix3 (0 : Fin 1) p g) = (m ((c : Thread nD τ).loc main_arg1)) (ix4 (nodeB (trow t p)) (nodeN (trow t p)) g 1) from
    (congrArg (iblk m c 1 t) (r0_6_idx p g)).trans ((blk1_at m c t 1 p g).trans (W23_at m c 1 (trow t p) g))]
  refine congrArg _ (funext fun k => ?_)
  rw [tileS_eq m c t p k, tileV_eq m c t p k]

theorem piece25_2 (c : Dev nD) (t : Fin cfg0.N) (p : Fin 32) (g : Fin 16) :
    R1 (U31 (T21 (View.ld (iblk m c 0 t) r0_0) (View.ld (iblk m c 2 t) r0_1) (View.ld (iblk m c 4 t) r0_2) (View.ld (iblk m c 1 t) r0_3) (View.ld (iblk m c 1 t) r0_6) (View.ld (iblk m c 1 t) r0_9) (View.ld (iblk m c 3 t) r0_4) (View.ld (iblk m c 3 t) r0_7) (View.ld (iblk m c 3 t) r0_10) (View.ld (iblk m c 5 t) r0_5) (View.ld (iblk m c 5 t) r0_8) (View.ld (iblk m c 5 t) r0_11) (View.ld (iblk m c 6 t) r0_12) (View.ld (iblk m c 7 t) r0_13) (View.ld (iblk m c 8 t) r0_14) (View.ld (iblk m c 9 t) r0_15) (View.ld (iblk m c 10 t) r0_16) (View.ld (iblk m c 11 t) r0_17)) (T22 (View.ld (iblk m c 0 t) r0_0) (View.ld (iblk m c 2 t) r0_1) (View.ld (iblk m c 4 t) r0_2) (View.ld (iblk m c 1 t) r0_3) (View.ld (iblk m c 1 t) r0_6) (View.ld (iblk m c 1 t) r0_9) (View.ld (iblk m c 3 t) r0_4) (View.ld (iblk m c 3 t) r0_7) (View.ld (iblk m c 3 t) r0_10) (View.ld (iblk m c 5 t) r0_5) (View.ld (iblk m c 5 t) r0_8) (View.ld (iblk m c 5 t) r0_11) (View.ld (iblk m c 6 t) r0_12) (View.ld (iblk m c 7 t) r0_13) (View.ld (iblk m c 8 t) r0_14) (View.ld (iblk m c 9 t) r0_15) (View.ld (iblk m c 10 t) r0_16) (View.ld (iblk m c 11 t) r0_17)) (T23 (View.ld (iblk m c 0 t) r0_0) (View.ld (iblk m c 2 t) r0_1) (View.ld (iblk m c 4 t) r0_2) (View.ld (iblk m c 1 t) r0_3) (View.ld (iblk m c 1 t) r0_6) (View.ld (iblk m c 1 t) r0_9) (View.ld (iblk m c 3 t) r0_4) (View.ld (iblk m c 3 t) r0_7) (View.ld (iblk m c 3 t) r0_10) (View.ld (iblk m c 5 t) r0_5) (View.ld (iblk m c 5 t) r0_8) (View.ld (iblk m c 5 t) r0_11) (View.ld (iblk m c 6 t) r0_12) (View.ld (iblk m c 7 t) r0_13) (View.ld (iblk m c 8 t) r0_14) (View.ld (iblk m c 9 t) r0_15) (View.ld (iblk m c 10 t) r0_16) (View.ld (iblk m c 11 t) r0_17)) (T24 (View.ld (iblk m c 0 t) r0_0) (View.ld (iblk m c 2 t) r0_1) (View.ld (iblk m c 4 t) r0_2) (View.ld (iblk m c 1 t) r0_3) (View.ld (iblk m c 1 t) r0_6) (View.ld (iblk m c 1 t) r0_9) (View.ld (iblk m c 3 t) r0_4) (View.ld (iblk m c 3 t) r0_7) (View.ld (iblk m c 3 t) r0_10) (View.ld (iblk m c 5 t) r0_5) (View.ld (iblk m c 5 t) r0_8) (View.ld (iblk m c 5 t) r0_11) (View.ld (iblk m c 6 t) r0_12) (View.ld (iblk m c 7 t) r0_13) (View.ld (iblk m c 8 t) r0_14)) (View.ld (iblk m c 12 t) r0_18) (View.ld (iblk m c 13 t) r0_19) (View.ld (iblk m c 14 t) r0_14)) (U32 (T21 (View.ld (iblk m c 0 t) r0_0) (View.ld (iblk m c 2 t) r0_1) (View.ld (iblk m c 4 t) r0_2) (View.ld (iblk m c 1 t) r0_3) (View.ld (iblk m c 1 t) r0_6) (View.ld (iblk m c 1 t) r0_9) (View.ld (iblk m c 3 t) r0_4) (View.ld (iblk m c 3 t) r0_7) (View.ld (iblk m c 3 t) r0_10) (View.ld (iblk m c 5 t) r0_5) (View.ld (iblk m c 5 t) r0_8) (View.ld (iblk m c 5 t) r0_11) (View.ld (iblk m c 6 t) r0_12) (View.ld (iblk m c 7 t) r0_13) (View.ld (iblk m c 8 t) r0_14) (View.ld (iblk m c 9 t) r0_15) (View.ld (iblk m c 10 t) r0_16) (View.ld (iblk m c 11 t) r0_17)) (View.ld (iblk m c 12 t) r0_18) (View.ld (iblk m c 15 t) r0_18)) (U33 (T22 (View.ld (iblk m c 0 t) r0_0) (View.ld (iblk m c 2 t) r0_1) (View.ld (iblk m c 4 t) r0_2) (View.ld (iblk m c 1 t) r0_3) (View.ld (iblk m c 1 t) r0_6) (View.ld (iblk m c 1 t) r0_9) (View.ld (iblk m c 3 t) r0_4) (View.ld (iblk m c 3 t) r0_7) (View.ld (iblk m c 3 t) r0_10) (View.ld (iblk m c 5 t) r0_5) (View.ld (iblk m c 5 t) r0_8) (View.ld (iblk m c 5 t) r0_11) (View.ld (iblk m c 6 t) r0_12) (View.ld (iblk m c 7 t) r0_13) (View.ld (iblk m c 8 t) r0_14) (View.ld (iblk m c 9 t) r0_15) (View.ld (iblk m c 10 t) r0_16) (View.ld (iblk m c 11 t) r0_17)) (View.ld (iblk m c 12 t) r0_18) (View.ld (iblk m c 15 t) r0_18)) (U34 (T23 (View.ld (iblk m c 0 t) r0_0) (View.ld (iblk m c 2 t) r0_1) (View.ld (iblk m c 4 t) r0_2) (View.ld (iblk m c 1 t) r0_3) (View.ld (iblk m c 1 t) r0_6) (View.ld (iblk m c 1 t) r0_9) (View.ld (iblk m c 3 t) r0_4) (View.ld (iblk m c 3 t) r0_7) (View.ld (iblk m c 3 t) r0_10) (View.ld (iblk m c 5 t) r0_5) (View.ld (iblk m c 5 t) r0_8) (View.ld (iblk m c 5 t) r0_11) (View.ld (iblk m c 6 t) r0_12) (View.ld (iblk m c 7 t) r0_13) (View.ld (iblk m c 8 t) r0_14) (View.ld (iblk m c 9 t) r0_15) (View.ld (iblk m c 10 t) r0_16) (View.ld (iblk m c 11 t) r0_17)) (View.ld (iblk m c 12 t) r0_18) (View.ld (iblk m c 15 t) r0_18)) (U35 (T21 (View.ld (iblk m c 0 t) r0_0) (View.ld (iblk m c 2 t) r0_1) (View.ld (iblk m c 4 t) r0_2) (View.ld (iblk m c 1 t) r0_3) (View.ld (iblk m c 1 t) r0_6) (View.ld (iblk m c 1 t) r0_9) (View.ld (iblk m c 3 t) r0_4) (View.ld (iblk m c 3 t) r0_7) (View.ld (iblk m c 3 t) r0_10) (View.ld (iblk m c 5 t) r0_5) (View.ld (iblk m c 5 t) r0_8) (View.ld (iblk m c 5 t) r0_11) (View.ld (iblk m c 6 t) r0_12) (View.ld (iblk m c 7 t) r0_13) (View.ld (iblk m c 8 t) r0_14) (View.ld (iblk m c 9 t) r0_15) (View.ld (iblk m c 10 t) r0_16) (View.ld (iblk m c 11 t) r0_17)) (T22 (View.ld (iblk m c 0 t) r0_0) (View.ld (iblk m c 2 t) r0_1) (View.ld (iblk m c 4 t) r0_2) (View.ld (iblk m c 1 t) r0_3) (View.ld (iblk m c 1 t) r0_6) (View.ld (iblk m c 1 t) r0_9) (View.ld (iblk m c 3 t) r0_4) (View.ld (iblk m c 3 t) r0_7) (View.ld (iblk m c 3 t) r0_10) (View.ld (iblk m c 5 t) r0_5) (View.ld (iblk m c 5 t) r0_8) (View.ld (iblk m c 5 t) r0_11) (View.ld (iblk m c 6 t) r0_12) (View.ld (iblk m c 7 t) r0_13) (View.ld (iblk m c 8 t) r0_14) (View.ld (iblk m c 9 t) r0_15) (View.ld (iblk m c 10 t) r0_16) (View.ld (iblk m c 11 t) r0_17)) (T23 (View.ld (iblk m c 0 t) r0_0) (View.ld (iblk m c 2 t) r0_1) (View.ld (iblk m c 4 t) r0_2) (View.ld (iblk m c 1 t) r0_3) (View.ld (iblk m c 1 t) r0_6) (View.ld (iblk m c 1 t) r0_9) (View.ld (iblk m c 3 t) r0_4) (View.ld (iblk m c 3 t) r0_7) (View.ld (iblk m c 3 t) r0_10) (View.ld (iblk m c 5 t) r0_5) (View.ld (iblk m c 5 t) r0_8) (View.ld (iblk m c 5 t) r0_11) (View.ld (iblk m c 6 t) r0_12) (View.ld (iblk m c 7 t) r0_13) (View.ld (iblk m c 8 t) r0_14) (View.ld (iblk m c 9 t) r0_15) (View.ld (iblk m c 10 t) r0_16) (View.ld (iblk m c 11 t) r0_17)) (T24 (View.ld (iblk m c 0 t) r0_0) (View.ld (iblk m c 2 t) r0_1) (View.ld (iblk m c 4 t) r0_2) (View.ld (iblk m c 1 t) r0_3) (View.ld (iblk m c 1 t) r0_6) (View.ld (iblk m c 1 t) r0_9) (View.ld (iblk m c 3 t) r0_4) (View.ld (iblk m c 3 t) r0_7) (View.ld (iblk m c 3 t) r0_10) (View.ld (iblk m c 5 t) r0_5) (View.ld (iblk m c 5 t) r0_8) (View.ld (iblk m c 5 t) r0_11) (View.ld (iblk m c 6 t) r0_12) (View.ld (iblk m c 7 t) r0_13) (View.ld (iblk m c 8 t) r0_14)) (View.ld (iblk m c 12 t) r0_18) (View.ld (iblk m c 13 t) r0_19) (View.ld (iblk m c 14 t) r0_14) (View.ld (iblk m c 16 t) r0_16) (View.ld (iblk m c 17 t) r0_17)) (k0_pay8 (View.ld (iblk m c 1 t) r0_9)) (View.ld (iblk m c 18 t) r0_18) (View.ld (iblk m c 19 t) r0_19) (View.ld (iblk m c 20 t) r0_14) (View.ld (iblk m c 21 t) r0_18) (View.ld (iblk m c 22 t) r0_16) (View.ld (iblk m c 23 t) r0_17) (ix3 (0 : Fin 1) p g)
      = G25 m c (((cfg0.win 25).blk t).view.emb (ix3 (2 : Fin 3) p g)) := by
  refine (tile_v2 (View.ld (iblk m c 0 t) r0_0) (View.ld (iblk m c 2 t) r0_1) (View.ld (iblk m c 4 t) r0_2) (View.ld (iblk m c 1 t) r0_3) (View.ld (iblk m c 1 t) r0_6) (View.ld (iblk m c 1 t) r0_9) (View.ld (iblk m c 3 t) r0_4) (View.ld (iblk m c 3 t) r0_7) (View.ld (iblk m c 3 t) r0_10) (View.ld (iblk m c 5 t) r0_5) (View.ld (iblk m c 5 t) r0_8) (View.ld (iblk m c 5 t) r0_11) (View.ld (iblk m c 6 t) r0_12) (View.ld (iblk m c 7 t) r0_13) (View.ld (iblk m c 8 t) r0_14) (View.ld (iblk m c 9 t) r0_15) (View.ld (iblk m c 10 t) r0_16) (View.ld (iblk m c 11 t) r0_17) (View.ld (iblk m c 12 t) r0_18) (View.ld (iblk m c 13 t) r0_19) (View.ld (iblk m c 14 t) r0_14) (View.ld (iblk m c 15 t) r0_18) (View.ld (iblk m c 16 t) r0_16) (View.ld (iblk m c 17 t) r0_17) (View.ld (iblk m c 18 t) r0_18) (View.ld (iblk m c 19 t) r0_19) (View.ld (iblk m c 20 t) r0_14) (View.ld (iblk m c 21 t) r0_18) (View.ld (iblk m c 22 t) r0_16) (View.ld (iblk m c 23 t) r0_17) p g).trans ?_
  rw [out25_emb, wt_eq m c t]
  show _ = upd ((m ((c : Thread nD τ).loc main_arg1)) (ix4 (nodeB (trow t p)) (nodeN (trow t p)) g 2)) (fun k => msgV (Wk m c) (edgeS (m ((c : Thread nD τ).loc main_arg0)) (XS m c) (m ((c : Thread nD τ).loc main_arg2)) (nodeB (trow t p)) (nodeN (trow t p)) k) (edgeV (m ((c : Thread nD τ).loc main_arg1)) (XV m c) (m ((c : Thread nD τ).loc main_arg3)) (nodeB (trow t p)) (nodeN (trow t p)) k) 2 g)
  rw [show (View.ld (iblk m c 1 t) r0_9) (ix3 (0 : Fin 1) p g) = (m ((c : Thread nD τ).loc main_arg1)) (ix4 (nodeB (trow t p)) (nodeN (trow t p)) g 2) from
    (congrArg (iblk m c 1 t) (r0_9_idx p g)).trans ((blk1_at m c t 2 p g).trans (W23_at m c 2 (trow t p) g))]
  refine congrArg _ (funext fun k => ?_)
  rw [tileS_eq m c t p k, tileV_eq m c t p k]

/-- What point `t` writes back of the vector result is block `t` of `G25`: its three stores, one per spatial
    coordinate, tile the block. -/
theorem flushed25_eq (c : Dev nD) (t : Fin cfg0.N) :
    (dats m 0 c).flushed 25 t = ((cfg0.win 25).blk t).view.read (Elt Ideal) (G25 m c) := by
  show (cfg0.win 25).cut (grid0.coords t) ((dats m 0 c).after 25 t) = _
  rw [after0_25]
  unfold out0_25
  funext y
  refine (View.canon_apply_of_pieces (fun i => G25 m c (((cfg0.win 25).blk t).view.emb i)) _ ?_ y (cover0_25 _ _ _ y)).trans rfl
  intro pc hpc x
  simp only [List.mem_cons, List.mem_nil_iff, or_false] at hpc
  rcases hpc with rfl | rfl | rfl
  · obtain ⟨z, p, g, rfl⟩ : ∃ (z : Fin 1) (p : Fin 32) (g : Fin 16), x = ix3 z p g := ⟨x 0, x 1, x 2, eq_ix3 x⟩
    obtain rfl : z = 0 := Subsingleton.elim _ _
    exact (piece25_2 m c t p g).trans (congrArg (fun i => G25 m c (((cfg0.win 25).blk t).view.emb i)) (r0_9_idx p g).symm)
  · obtain ⟨z, p, g, rfl⟩ : ∃ (z : Fin 1) (p : Fin 32) (g : Fin 16), x = ix3 z p g := ⟨x 0, x 1, x 2, eq_ix3 x⟩
    obtain rfl : z = 0 := Subsingleton.elim _ _
    exact (piece25_1 m c t p g).trans (congrArg (fun i => G25 m c (((cfg0.win 25).blk t).view.emb i)) (r0_6_idx p g).symm)
  · obtain ⟨z, p, g, rfl⟩ : ∃ (z : Fin 1) (p : Fin 32) (g : Fin 16), x = ix3 z p g := ⟨x 0, x 1, x 2, eq_ix3 x⟩
    obtain rfl : z = 0 := Subsingleton.elim _ _
    exact (piece25_0 m c t p g).trans (congrArg (fun i => G25 m c (((cfg0.win 25).blk t).view.emb i)) (r0_3_idx p g).symm)

/-- The scalar result's array after the run. -/
theorem final24 (c : Dev nD) : (dats m 0 c).arrAt 24 cfg0.N = G24 m c :=
  (dats m 0 c).arrAt_eq_of_cover 24 (G24 m c) (fun t _ => flushed24_eq m c t) cover24

/-- The vector result's array after the run. -/
theorem final25 (c : Dev nD) : (dats m 0 c).arrAt 25 cfg0.N = G25 m c :=
  (dats m 0 c).arrAt_eq_of_cover 25 (G25 m c) (fun t _ => flushed25_eq m c t) cover25

end Cert.KernelIdeal.Arr

namespace Cert.KernelIdeal.Arr

open Idealize.ShloMosaic Idealize.ShloMosaic.TcCoe Idealize.ShloMosaic.ValueIdx Idealize.SL.Sem Idealize.ShloMosaic.StableHlo
open Cert.KernelIdeal Cert.KernelIdeal.Gen Cert.KernelIdeal.GenP Cert.KernelIdeal.Tile GvpSpec
open Idealize.ShloMosaic.Pipeline (Dat)

variable (m : (ℓ : Loc nD τ sig) → Buf (Elt Ideal) ℓ) (ρ : Dev nD → PrngReg)

theorem node_merge (b : Fin 2) (n : Fin 2048) (h : b.val * 2048 + n.val < 4096) :
    nodeB ⟨b.val * 2048 + n.val, h⟩ = b ∧ nodeN ⟨b.val * 2048 + n.val, h⟩ = n := by
  have hb := b.isLt; have hn := n.isLt
  constructor
  · apply Fin.ext; show (b.val * 2048 + n.val) / 2048 = b.val; omega
  · apply Fin.ext; show (b.val * 2048 + n.val) % 2048 = n.val; omega

/-- @main's first result after the run: the updated scalar features. -/
theorem v41_eq (c : Dev nD) :
    (Pipeline.afterTail₀ cfgs (dats m) 0 (V0 m) [hostOps1] c main_v41 : Vec Ideal S2x2048x128 .f32) = oS m c := by
  funext i
  obtain ⟨b, n, j, rfl⟩ : ∃ (b : Fin 2) (n : Fin 2048) (j : Fin 128), i = ix3 b n j := ⟨i 0, i 1, i 2, eq_ix3 i⟩
  rw [tail41 m (G24 m) (final24 m) c b n j]
  show oS m c (ix3 (nodeB _) (nodeN _) j) = _
  rw [(node_merge b n _).1, (node_merge b n _).2]

/-- @main's second result after the run: the updated vector features. -/
theorem v43_eq (c : Dev nD) :
    (Pipeline.afterTail₀ cfgs (dats m) 0 (V0 m) [hostOps1] c main_v43 : Vec Ideal S2x2048x16x3 .f32) = oV m c := by
  funext i
  obtain ⟨b, n, g, u, rfl⟩ : ∃ (b : Fin 2) (n : Fin 2048) (g : Fin 16) (u : Fin 3), i = ix4 b n g u := ⟨i 0, i 1, i 2, i 3, eq_ix4 i⟩
  rw [tail43 m (G25 m) (final25 m) c b n g u]
  show oV m c (ix4 (nodeB _) (nodeN _) g u) = _
  rw [(node_merge b n _).1, (node_merge b n _).2]

/-- The tile program's run, read: every weakly fair execution ends with the two results at the specification's
    update of the arguments, the arguments unchanged. -/
theorem run : θ_run defs (onTc (τ := τ) (main (F := Ideal))) ⟨m, fun _ => 0, ρ⟩ (fun r => ∀ c : Dev nD,
      r.2.mem ((c.tc : Thread nD τ).loc main_v41) = oS m c
      ∧ r.2.mem ((c.tc : Thread nD τ).loc main_v43) = oV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => ⟨
      ((h c).2 main_v41 (Pipeline.mem_restRefs_of main_v41 (by decide) (by decide))).trans (v41_eq m c),
      ((h c).2 main_v43 (Pipeline.mem_restRefs_of main_v43 (by decide) (by decide))).trans (v43_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      ((h c).1 8).trans (((dats m 0 c).arrAt_in 8 rfl _).trans ((A_eq m c 8).trans (V_main_arg7 m c))),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      ((h c).1 11).trans (((dats m 0 c).arrAt_in 11 rfl _).trans ((A_eq m c 11).trans (V_main_arg10 m c))),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      ((h c).1 14).trans (((dats m 0 c).arrAt_in 14 rfl _).trans ((A_eq m c 14).trans (V_main_arg13 m c))),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      ((h c).1 17).trans (((dats m 0 c).arrAt_in 17 rfl _).trans ((A_eq m c 17).trans (V_main_arg16 m c))),
      (((h c).2 main_arg17 (Pipeline.mem_restRefs_of main_arg17 (by decide) (by decide))).trans (W_main_arg17 m (dats m) c)),
      (((h c).2 main_arg18 (Pipeline.mem_restRefs_of main_arg18 (by decide) (by decide))).trans (W_main_arg18 m (dats m) c)),
      ((h c).1 20).trans (((dats m 0 c).arrAt_in 20 rfl _).trans ((A_eq m c 20).trans (V_main_arg19 m c))),
      (((h c).2 main_arg20 (Pipeline.mem_restRefs_of main_arg20 (by decide) (by decide))).trans (W_main_arg20 m (dats m) c)),
      (((h c).2 main_arg21 (Pipeline.mem_restRefs_of main_arg21 (by decide) (by decide))).trans (W_main_arg21 m (dats m) c)),
      ((h c).1 23).trans (((dats m 0 c).arrAt_in 23 rfl _).trans ((A_eq m c 23).trans (V_main_arg22 m c)))⟩) (run_main m ρ)

end Cert.KernelIdeal.Arr

end
-- ==== Proof.RLayer1.lean ====
/-
  The reference's first layer read at an edge: the element (b, n, k, ·) of its two first-layer results is the
  specification's first layer at the rows of edge (b, n, k) — the node's own row, the gathered neighbour's row (the
  gather is kept as the array it returns) and the edge's own row.
-/
import proofs.«418785_j9663676416046_3_alg».proof.Proof.RefRead
import proofs.«418785_j9663676416046_3_alg».proof.Proof.Spec

noncomputable section

namespace Cert.ReferenceIdeal.Rows

open Idealize.ShloMosaic Idealize.ShloMosaic.ValueIdx Cert.ReferenceIdeal Cert.ReferenceIdeal.Read GvpSpec

variable (x0 : (⟨S2x2048x128, .f32⟩ : BufTy).Contents (Elt Ideal)) (x1 : (⟨S2x2048x16x3, .f32⟩ : BufTy).Contents (Elt Ideal)) (x2 : (⟨S2x2048x32x32, .f32⟩ : BufTy).Contents (Elt Ideal)) (x3 : (⟨S2x2048x32x1x3, .f32⟩ : BufTy).Contents (Elt Ideal)) (x4 : (⟨S2x2048x32, .i32⟩ : BufTy).Contents (Elt Ideal)) (x5 : (⟨S33x33, .f32⟩ : BufTy).Contents (Elt Ideal)) (x6 : (⟨S128x321, .f32⟩ : BufTy).Contents (Elt Ideal)) (x7 : (⟨S128, .f32⟩ : BufTy).Contents (Elt Ideal)) (x8 : (⟨S16x33, .f32⟩ : BufTy).Contents (Elt Ideal)) (x9 : (⟨S16x128, .f32⟩ : BufTy).Contents (Elt Ideal)) (x10 : (⟨S16, .f32⟩ : BufTy).Contents (Elt Ideal))

/-- The first layer's weight arrays. -/
def W1 : LayerW 33 33 128 16 321 := ⟨x5, x6, x7, x8, x9, x10⟩

/-- The binary32 word of 1.0 denotes the extended real 1. -/
private theorem one_word : Ideal.ofBits .f32 0x3F800000#32 = (1 : EReal) :=
  IdealRules.sign_bit.ideal_onePat .f32

/-- The joined vector array at (b, n, k, q, t) is channel q of the edge's vector row of coordinate t: the node's own
    sixteen channels, then the gathered neighbour's sixteen, then the edge's one. -/
private theorem v19_row (b : Fin 2) (n : Fin 2048) (k : Fin 32) (q : Fin 33) (t : Fin 3) :
    val_main_v19 (F := Ideal) x1 x3 x4 (ix5 b n k q t)
      = edgeV x1 (val_main_v13 (F := Ideal) x1 x4) x3 b n k t q := by
  unfold val_main_v19 edgeV cat3
  by_cases h1 : q.val < 16
  · rw [dif_pos h1]
    refine Eq.trans (concatenate_apply_piece _ _ _ (ix5 b n k q t) 0 (by simp) S2x2048x32x16x3
      (val_main_v17 (F := Ideal) x1) (by rfl) (by rfl) 0 (by rfl) (ix5 b n k ⟨q.val, h1⟩ t)
      (fun a => match a with
        | ⟨0, _⟩ => fun _ => rfl | ⟨1, _⟩ => fun _ => rfl | ⟨2, _⟩ => fun _ => rfl
        | ⟨3, _⟩ => fun ha => absurd rfl ha | ⟨4, _⟩ => fun _ => rfl)
      (by show 0 + q.val = q.val; omega)) ?_
    rw [val_main_v17_apply, val_main_v16_apply]
    exact congrArg x1 (funext fun a => Fin.ext (by
      match a with | ⟨0, _⟩ => rfl | ⟨1, _⟩ => rfl | ⟨2, _⟩ => rfl | ⟨3, _⟩ => rfl))
  · rw [dif_neg h1]
    by_cases h2 : q.val < 16 + 16
    · rw [dif_pos h2]
      exact concatenate_apply_piece _ _ _ (ix5 b n k q t) 1 (by simp) S2x2048x32x16x3
        (val_main_v13 (F := Ideal) x1 x4) (by rfl) (by rfl) 16 (by rfl) (ix5 b n k ⟨q.val - 16, by omega⟩ t)
        (fun a => match a with
          | ⟨0, _⟩ => fun _ => rfl | ⟨1, _⟩ => fun _ => rfl | ⟨2, _⟩ => fun _ => rfl
          | ⟨3, _⟩ => fun ha => absurd rfl ha | ⟨4, _⟩ => fun _ => rfl)
        (by show 16 + (q.val - 16) = q.val; omega)
    · rw [dif_neg h2]
      exact concatenate_apply_piece _ _ _ (ix5 b n k q t) 2 (by simp) S2x2048x32x1x3
        x3 (by rfl) (by rfl) 32 (by rfl) (ix5 b n k ⟨q.val - (16 + 16), by omega⟩ t)
        (fun a => match a with
          | ⟨0, _⟩ => fun _ => rfl | ⟨1, _⟩ => fun _ => rfl | ⟨2, _⟩ => fun _ => rfl
          | ⟨3, _⟩ => fun ha => absurd rfl ha | ⟨4, _⟩ => fun _ => rfl)
        (by show 32 + (q.val - (16 + 16)) = q.val; omega)

/-- The transposed joined vector array at (b, n, k, t, q): the same element, coordinate before channel. -/
private theorem v20_row (b : Fin 2) (n : Fin 2048) (k : Fin 32) (t : Fin 3) (q : Fin 33) :
    val_main_v20 (F := Ideal) x1 x3 x4 (ix5 b n k t q)
      = edgeV x1 (val_main_v13 (F := Ideal) x1 x4) x3 b n k t q := by
  rw [val_main_v20_apply]
  refine Eq.trans (congrArg (val_main_v19 (F := Ideal) x1 x3 x4) ?_) (v19_row x1 x3 x4 b n k q t)
  exact funext fun a => Fin.ext (by
    match a with | ⟨0, _⟩ => rfl | ⟨1, _⟩ => rfl | ⟨2, _⟩ => rfl | ⟨3, _⟩ => rfl | ⟨4, _⟩ => rfl)

/-- The first contraction at (b, n, k, t, j) is hidden channel j of the contracted vector row of coordinate t. -/
private theorem v21_row (b : Fin 2) (n : Fin 2048) (k : Fin 32) (t : Fin 3) (j : Fin 33) :
    val_main_v21 (F := Ideal) x1 x3 x4 x5 (ix5 b n k t j)
      = vh (W1 x5 x6 x7 x8 x9 x10) (edgeV x1 (val_main_v13 (F := Ideal) x1 x4) x3 b n k) t j := by
  rw [val_main_v21_apply]
  unfold vh lin
  refine Finset.sum_congr rfl fun q _ => ?_
  have hl : lidx_main_v21 (ix5 b n k t j) q = ix5 b n k t q := funext fun a => Fin.ext (by
    match a with | ⟨0, _⟩ => rfl | ⟨1, _⟩ => rfl | ⟨2, _⟩ => rfl | ⟨3, _⟩ => rfl | ⟨4, _⟩ => rfl)
  have hr : ridx_main_v21 (ix5 b n k t j) q = ix2 j q := funext fun a => Fin.ext (by
    match a with | ⟨0, _⟩ => rfl | ⟨1, _⟩ => rfl)
  rw [hl, hr]
  exact congrArg (fun z => z * x5 (ix2 j q)) (v20_row x1 x3 x4 b n k t q)

/-- The clipped norm at (b, n, k, j): the square root of the larger of the clip and the sum over the three
    coordinates of the squared contracted rows (the sum starts from the zero word, which is 0). -/
private theorem v25_row (b : Fin 2) (n : Fin 2048) (k : Fin 32) (j : Fin 33) :
    val_main_v25 (F := Ideal) x1 x3 x4 x5 (ix4 b n k j)
      = vnorm (vh (W1 x5 x6 x7 x8 x9 x10) (edgeV x1 (val_main_v13 (F := Ideal) x1 x4) x3 b n k)) j := by
  have e : ∀ t : Fin 3, idx_main_v23 (ix4 b n k j) t = ix5 b n k t j := fun t => funext fun a => Fin.ext (by
    match a with | ⟨0, _⟩ => rfl | ⟨1, _⟩ => rfl | ⟨2, _⟩ => rfl | ⟨3, _⟩ => rfl | ⟨4, _⟩ => rfl)
  rw [val_main_v25_apply, val_main_v24_apply, val_main_v23_apply, Fin.sum_univ_three, e 0, e 1, e 2,
    val_main_v22_apply, val_main_v22_apply, val_main_v22_apply,
    v21_row x1 x3 x4 x5 x6 x7 x8 x9 x10 b n k 0 j, v21_row x1 x3 x4 x5 x6 x7 x8 x9 x10 b n k 1 j,
    v21_row x1 x3 x4 x5 x6 x7 x8 x9 x10 b n k 2 j,
    val_main_call0_v1_apply, val_main_call0_v0_apply, val_main_cst_3_apply, val_main_cst_apply,
    Ideal.ofBits_def, Ideal.ofBits_def, Ideal.ofBits_zero_f32, zero_add]
  rfl

/-- The joined scalar array at (b, n, k, f) is entry f of the edge's scalar row: the node's own 128 entries, then
    the gathered neighbour's 128, then the edge's 32. -/
private theorem v18_row (b : Fin 2) (n : Fin 2048) (k : Fin 32) (f : Fin 288) :
    val_main_v18 (F := Ideal) x0 x2 x4 (ix4 b n k f)
      = edgeS x0 (val_main_v6 (F := Ideal) x0 x4) x2 b n k f := by
  unfold val_main_v18 edgeS cat3
  by_cases h1 : f.val < 128
  · rw [dif_pos h1]
    refine Eq.trans (concatenate_apply_piece _ _ _ (ix4 b n k f) 0 (by simp) S2x2048x32x128
      (val_main_v15 (F := Ideal) x0) (by rfl) (by rfl) 0 (by rfl) (ix4 b n k ⟨f.val, h1⟩)
      (fun a => match a with
        | ⟨0, _⟩ => fun _ => rfl | ⟨1, _⟩ => fun _ => rfl | ⟨2, _⟩ => fun _ => rfl
        | ⟨3, _⟩ => fun ha => absurd rfl ha)
      (by show 0 + f.val = f.val; omega)) ?_
    rw [val_main_v15_apply, val_main_v14_apply]
    exact congrArg x0 (funext fun a => Fin.ext (by
      match a with | ⟨0, _⟩ => rfl | ⟨1, _⟩ => rfl | ⟨2, _⟩ => rfl))
  · rw [dif_neg h1]
    by_cases h2 : f.val < 128 + 128
    · rw [dif_pos h2]
      exact concatenate_apply_piece _ _ _ (ix4 b n k f) 1 (by simp) S2x2048x32x128
        (val_main_v6 (F := Ideal) x0 x4) (by rfl) (by rfl) 128 (by rfl) (ix4 b n k ⟨f.val - 128, by omega⟩)
        (fun a => match a with
          | ⟨0, _⟩ => fun _ => rfl | ⟨1, _⟩ => fun _ => rfl | ⟨2, _⟩ => fun _ => rfl
          | ⟨3, _⟩ => fun ha => absurd rfl ha)
        (by show 128 + (f.val - 128) = f.val; omega)
    · rw [dif_neg h2]
      exact concatenate_apply_piece _ _ _ (ix4 b n k f) 2 (by simp) S2x2048x32x32
        x2 (by rfl) (by rfl) 256 (by rfl) (ix4 b n k ⟨f.val - (128 + 128), by omega⟩)
        (fun a => match a with
          | ⟨0, _⟩ => fun _ => rfl | ⟨1, _⟩ => fun _ => rfl | ⟨2, _⟩ => fun _ => rfl
          | ⟨3, _⟩ => fun ha => absurd rfl ha)
        (by show 256 + (f.val - (128 + 128)) = f.val; omega)

/-- The scalar row joined to the clipped norms, at (b, n, k, f): the 288 scalar entries, then the 33 norms. -/
private theorem v26_row (b : Fin 2) (n : Fin 2048) (k : Fin 32) (f : Fin 321) :
    val_main_v26 (F := Ideal) x0 x1 x2 x3 x4 x5 (ix4 b n k f)
      = cat2 321 (rfl : 288 + 33 = 321) (edgeS x0 (val_main_v6 (F := Ideal) x0 x4) x2 b n k)
          (vnorm (vh (W1 x5 x6 x7 x8 x9 x10) (edgeV x1 (val_main_v13 (F := Ideal) x1 x4) x3 b n k))) f := by
  unfold val_main_v26 cat2
  by_cases h1 : f.val < 288
  · rw [dif_pos h1]
    refine Eq.trans (concatenate_pair_apply_left _ _ _ _ (ix4 b n k f) (by rfl) (ix4 b n k ⟨f.val, h1⟩)
      (fun a => match a with | ⟨0, _⟩ => rfl | ⟨1, _⟩ => rfl | ⟨2, _⟩ => rfl | ⟨3, _⟩ => rfl)) ?_
    exact v18_row x0 x2 x4 b n k ⟨f.val, h1⟩
  · rw [dif_neg h1]
    refine Eq.trans (concatenate_pair_apply_right _ _ _ _ (ix4 b n k f) (by rfl) (by rfl) (ix4 b n k ⟨f.val - 288, by omega⟩)
      (fun a => match a with
        | ⟨0, _⟩ => fun _ => rfl | ⟨1, _⟩ => fun _ => rfl | ⟨2, _⟩ => fun _ => rfl
        | ⟨3, _⟩ => fun ha => absurd rfl ha)
      (by show (f.val - 288) + 288 = f.val; omega)) ?_
    exact v25_row x1 x3 x4 x5 x6 x7 x8 x9 x10 b n k ⟨f.val - 288, by omega⟩

/-- The affine map of the joined row at (b, n, k, o) is the scalar row before activation. -/
private theorem v30_row (b : Fin 2) (n : Fin 2048) (k : Fin 32) (o : Fin 128) :
    val_main_v30 (F := Ideal) x0 x1 x2 x3 x4 x5 x6 x7 (ix4 b n k o)
      = sPre (si := 288) rfl (W1 x5 x6 x7 x8 x9 x10) (edgeS x0 (val_main_v6 (F := Ideal) x0 x4) x2 b n k)
          (edgeV x1 (val_main_v13 (F := Ideal) x1 x4) x3 b n k) o := by
  have hb : idx_main_v28 (idx_main_v29 (ix4 b n k o)) = ix1 o := funext fun a => Fin.ext (by
    match a with | ⟨0, _⟩ => rfl)
  rw [val_main_v30_apply, val_main_v27_apply, val_main_v29_apply, val_main_v28_apply, hb, Ideal.addf_def]
  unfold sPre aff lin
  refine congrArg (· + x7 (ix1 o)) (Finset.sum_congr rfl fun f _ => ?_)
  have hl : lidx_main_v27 (ix4 b n k o) f = ix4 b n k f := funext fun a => Fin.ext (by
    match a with | ⟨0, _⟩ => rfl | ⟨1, _⟩ => rfl | ⟨2, _⟩ => rfl | ⟨3, _⟩ => rfl)
  have hr : ridx_main_v27 (ix4 b n k o) f = ix2 o f := funext fun a => Fin.ext (by
    match a with | ⟨0, _⟩ => rfl | ⟨1, _⟩ => rfl)
  rw [hl, hr]
  exact congrArg (fun z => z * x6 (ix2 o f)) (v26_row x0 x1 x2 x3 x4 x5 x6 x7 x8 x9 x10 b n k f)

/-- The second contraction, transposed back, at (b, n, k, g, t): vector channel g of coordinate t before gating. -/
private theorem v32_row (b : Fin 2) (n : Fin 2048) (k : Fin 32) (g : Fin 16) (t : Fin 3) :
    val_main_v32 (F := Ideal) x1 x3 x4 x5 x8 (ix5 b n k g t)
      = vLin (W1 x5 x6 x7 x8 x9 x10) (edgeV x1 (val_main_v13 (F := Ideal) x1 x4) x3 b n k) t g := by
  rw [val_main_v32_apply, val_main_v31_apply]
  unfold vLin lin
  refine Finset.sum_congr rfl fun q _ => ?_
  have hl : lidx_main_v31 (idx_main_v32 (ix5 b n k g t)) q = ix5 b n k t q := funext fun a => Fin.ext (by
    match a with | ⟨0, _⟩ => rfl | ⟨1, _⟩ => rfl | ⟨2, _⟩ => rfl | ⟨3, _⟩ => rfl | ⟨4, _⟩ => rfl)
  have hr : ridx_main_v31 (idx_main_v32 (ix5 b n k g t)) q = ix2 g q := funext fun a => Fin.ext (by
    match a with | ⟨0, _⟩ => rfl | ⟨1, _⟩ => rfl)
  rw [hl, hr]
  exact congrArg (fun z => z * x8 (ix2 g q)) (v21_row x1 x3 x4 x5 x6 x7 x8 x9 x10 b n k t q)

/-- One over one plus the exponential of the negated scalar row, the ones being the word of 1.0, is the logistic
    of the scalar row. -/
private theorem v38_row (b : Fin 2) (n : Fin 2048) (k : Fin 32) (o : Fin 128) :
    val_main_v38 (F := Ideal) x0 x1 x2 x3 x4 x5 x6 x7 (ix4 b n k o)
      = Ideal.logistic (sPre (si := 288) rfl (W1 x5 x6 x7 x8 x9 x10)
          (edgeS x0 (val_main_v6 (F := Ideal) x0 x4) x2 b n k) (edgeV x1 (val_main_v13 (F := Ideal) x1 x4) x3 b n k) o) := by
  rw [val_main_v38_apply, val_main_v37_apply, val_main_cst_5_apply, val_main_v36_apply, val_main_v35_apply,
    val_main_cst_4_apply, val_main_v34_apply, val_main_v33_apply,
    v30_row x0 x1 x2 x3 x4 x5 x6 x7 x8 x9 x10 b n k o, Ideal.ofBits_def, one_word]
  rfl

/-- The affine map of the logistic of the scalar row at (b, n, k, g) is the gate of vector channel g. -/
private theorem v42_row (b : Fin 2) (n : Fin 2048) (k : Fin 32) (g : Fin 16) :
    val_main_v42 (F := Ideal) x0 x1 x2 x3 x4 x5 x6 x7 x9 x10 (ix4 b n k g)
      = gateA (si := 288) rfl (W1 x5 x6 x7 x8 x9 x10) (edgeS x0 (val_main_v6 (F := Ideal) x0 x4) x2 b n k)
          (edgeV x1 (val_main_v13 (F := Ideal) x1 x4) x3 b n k) g := by
  have hb : idx_main_v40 (idx_main_v41 (ix4 b n k g)) = ix1 g := funext fun a => Fin.ext (by
    match a with | ⟨0, _⟩ => rfl)
  rw [val_main_v42_apply, val_main_v39_apply, val_main_v41_apply, val_main_v40_apply, hb, Ideal.addf_def]
  unfold gateA aff lin
  refine congrArg (· + x10 (ix1 g)) (Finset.sum_congr rfl fun o _ => ?_)
  have hl : lidx_main_v39 (ix4 b n k g) o = ix4 b n k o := funext fun a => Fin.ext (by
    match a with | ⟨0, _⟩ => rfl | ⟨1, _⟩ => rfl | ⟨2, _⟩ => rfl | ⟨3, _⟩ => rfl)
  have hr : ridx_main_v39 (ix4 b n k g) o = ix2 g o := funext fun a => Fin.ext (by
    match a with | ⟨0, _⟩ => rfl | ⟨1, _⟩ => rfl)
  rw [hl, hr]
  exact congrArg (fun z => z * x9 (ix2 g o)) (v38_row x0 x1 x2 x3 x4 x5 x6 x7 x8 x9 x10 b n k o)

/-- The same quotient over the gate is the logistic of the gate. -/
private theorem v48_row (b : Fin 2) (n : Fin 2048) (k : Fin 32) (g : Fin 16) :
    val_main_v48 (F := Ideal) x0 x1 x2 x3 x4 x5 x6 x7 x9 x10 (ix4 b n k g)
      = Ideal.logistic (gateA (si := 288) rfl (W1 x5 x6 x7 x8 x9 x10)
          (edgeS x0 (val_main_v6 (F := Ideal) x0 x4) x2 b n k) (edgeV x1 (val_main_v13 (F := Ideal) x1 x4) x3 b n k) g) := by
  rw [val_main_v48_apply, val_main_v47_apply, val_main_cst_7_apply, val_main_v46_apply, val_main_v45_apply,
    val_main_cst_6_apply, val_main_v44_apply, val_main_v43_apply,
    v42_row x0 x1 x2 x3 x4 x5 x6 x7 x8 x9 x10 b n k g, Ideal.ofBits_def, one_word]
  rfl

/-- The activated scalar row of an edge. -/
theorem v52_row (b : Fin 2) (n : Fin 2048) (k : Fin 32) (o : Fin 128) :
    val_main_v52 (F := Ideal) x0 x1 x2 x3 x4 x5 x6 x7 (ix4 b n k o)
      = sOutA (si := 288) rfl (W1 x5 x6 x7 x8 x9 x10) (edgeS x0 (val_main_v6 (F := Ideal) x0 x4) x2 b n k)
          (edgeV x1 (val_main_v13 (F := Ideal) x1 x4) x3 b n k) o := by
  rw [val_main_v52_apply, val_main_call1_v0_apply, val_main_call1_cst_apply,
    v30_row x0 x1 x2 x3 x4 x5 x6 x7 x8 x9 x10 b n k o, Ideal.ofBits_def, Ideal.ofBits_zero_f32]
  rfl

/-- The gated vector rows of an edge (vector channel g, spatial coordinate t). -/
theorem v51_row (b : Fin 2) (n : Fin 2048) (k : Fin 32) (g : Fin 16) (t : Fin 3) :
    val_main_v51 (F := Ideal) x0 x1 x2 x3 x4 x5 x6 x7 x8 x9 x10 (ix5 b n k g t)
      = vOutA (si := 288) rfl (W1 x5 x6 x7 x8 x9 x10) (edgeS x0 (val_main_v6 (F := Ideal) x0 x4) x2 b n k)
          (edgeV x1 (val_main_v13 (F := Ideal) x1 x4) x3 b n k) t g := by
  have hi : idx_main_v49 (idx_main_v50 (ix5 b n k g t)) = ix4 b n k g := funext fun a => Fin.ext (by
    match a with | ⟨0, _⟩ => rfl | ⟨1, _⟩ => rfl | ⟨2, _⟩ => rfl | ⟨3, _⟩ => rfl)
  rw [val_main_v51_apply, val_main_v50_apply, val_main_v49_apply, hi,
    v32_row x1 x3 x4 x5 x6 x7 x8 x9 x10 b n k g t, v48_row x0 x1 x2 x3 x4 x5 x6 x7 x8 x9 x10 b n k g]
  rfl

end Cert.ReferenceIdeal.Rows

end
-- ==== Proof.RLayer2.lean ====
/-
  The reference's second layer read at an edge: given what the first layer's two results are at every edge (any scalar
  row S1 and vector rows V1), the element (b, n, k, ·) of the second layer's two results is the specification's second
  layer at those rows.
-/
import proofs.«418785_j9663676416046_3_alg».proof.Proof.RefRead
import proofs.«418785_j9663676416046_3_alg».proof.Proof.Spec
import Idealize.ShloMosaic.Lib.IdealHost
import Mathlib.Algebra.BigOperators.Fin

noncomputable section

namespace Cert.ReferenceIdeal.Rows

open Idealize.ShloMosaic Idealize.ShloMosaic.ValueIdx Cert.ReferenceIdeal Cert.ReferenceIdeal.Read GvpSpec

variable (x0 : (⟨S2x2048x128, .f32⟩ : BufTy).Contents (Elt Ideal)) (x1 : (⟨S2x2048x16x3, .f32⟩ : BufTy).Contents (Elt Ideal)) (x2 : (⟨S2x2048x32x32, .f32⟩ : BufTy).Contents (Elt Ideal)) (x3 : (⟨S2x2048x32x1x3, .f32⟩ : BufTy).Contents (Elt Ideal)) (x4 : (⟨S2x2048x32, .i32⟩ : BufTy).Contents (Elt Ideal)) (x5 : (⟨S33x33, .f32⟩ : BufTy).Contents (Elt Ideal)) (x6 : (⟨S128x321, .f32⟩ : BufTy).Contents (Elt Ideal)) (x7 : (⟨S128, .f32⟩ : BufTy).Contents (Elt Ideal)) (x8 : (⟨S16x33, .f32⟩ : BufTy).Contents (Elt Ideal)) (x9 : (⟨S16x128, .f32⟩ : BufTy).Contents (Elt Ideal)) (x10 : (⟨S16, .f32⟩ : BufTy).Contents (Elt Ideal)) (x11 : (⟨S16x16, .f32⟩ : BufTy).Contents (Elt Ideal)) (x12 : (⟨S128x144, .f32⟩ : BufTy).Contents (Elt Ideal)) (x13 : (⟨S128, .f32⟩ : BufTy).Contents (Elt Ideal)) (x14 : (⟨S16x16, .f32⟩ : BufTy).Contents (Elt Ideal)) (x15 : (⟨S16x128, .f32⟩ : BufTy).Contents (Elt Ideal)) (x16 : (⟨S16, .f32⟩ : BufTy).Contents (Elt Ideal))
  (S1 : Fin 2 → Fin 2048 → Fin 32 → Fin 128 → EReal) (V1 : Fin 2 → Fin 2048 → Fin 32 → Fin 3 → Fin 16 → EReal)
  (h52 : ∀ b n k o, val_main_v52 (F := Ideal) x0 x1 x2 x3 x4 x5 x6 x7 (ix4 b n k o) = S1 b n k o)
  (h51 : ∀ b n k g t, val_main_v51 (F := Ideal) x0 x1 x2 x3 x4 x5 x6 x7 x8 x9 x10 (ix5 b n k g t) = V1 b n k t g)

/-- The second layer's weight arrays. -/
def W2 : LayerW 16 16 128 16 144 := ⟨x11, x12, x13, x14, x15, x16⟩

/-! ## The second layer's operations read at an edge, one specification function per lemma -/

include h51 in
/-- The transposed first-layer vector rows: element (b, n, k, t, c) is coordinate t, channel c. -/
private theorem v53_row (b : Fin 2) (n : Fin 2048) (k : Fin 32) (t : Fin 3) (c : Fin 16) :
    val_main_v53 (F := Ideal) x0 x1 x2 x3 x4 x5 x6 x7 x8 x9 x10 (ix5 b n k t c) = V1 b n k t c := by
  have e := (funext fun a => Fin.ext (by match a with | ⟨0, _⟩ => rfl | ⟨1, _⟩ => rfl | ⟨2, _⟩ => rfl | ⟨3, _⟩ => rfl | ⟨4, _⟩ => rfl) : idx_main_v53 (ix5 b n k t c) = ix5 b n k c t)
  rw [val_main_v53_apply, e]
  exact h51 b n k c t

include h51 in
/-- The contraction with the hidden matrix is the specification's contracted vector rows. -/
private theorem v54_row (b : Fin 2) (n : Fin 2048) (k : Fin 32) (t : Fin 3) (j : Fin 16) :
    val_main_v54 (F := Ideal) x0 x1 x2 x3 x4 x5 x6 x7 x8 x9 x10 x11 (ix5 b n k t j) = vh (W2 x11 x12 x13 x14 x15 x16) (V1 b n k) t j := by
  rw [val_main_v54_apply]
  unfold vh lin
  refine Finset.sum_congr rfl fun c _ => ?_
  have el := (funext fun a => Fin.ext (by match a with | ⟨0, _⟩ => rfl | ⟨1, _⟩ => rfl | ⟨2, _⟩ => rfl | ⟨3, _⟩ => rfl | ⟨4, _⟩ => rfl) : lidx_main_v54 (ix5 b n k t j) c = ix5 b n k t c)
  have er := (funext fun a => Fin.ext (by match a with | ⟨0, _⟩ => rfl | ⟨1, _⟩ => rfl) : ridx_main_v54 (ix5 b n k t j) c = ix2 j c)
  rw [el, er, v53_row x0 x1 x2 x3 x4 x5 x6 x7 x8 x9 x10 V1 h51]
  rfl

include h51 in
/-- One coordinate's square, at the index the sum over the three coordinates reads. -/
private theorem v55_row (b : Fin 2) (n : Fin 2048) (k : Fin 32) (j : Fin 16) (t : Fin 3) :
    val_main_v55 (F := Ideal) x0 x1 x2 x3 x4 x5 x6 x7 x8 x9 x10 x11 (idx_main_v56 (ix4 b n k j) t)
      = vh (W2 x11 x12 x13 x14 x15 x16) (V1 b n k) t j * vh (W2 x11 x12 x13 x14 x15 x16) (V1 b n k) t j := by
  have e := (funext fun a => Fin.ext (by match a with | ⟨0, _⟩ => rfl | ⟨1, _⟩ => rfl | ⟨2, _⟩ => rfl | ⟨3, _⟩ => rfl | ⟨4, _⟩ => rfl) : idx_main_v56 (ix4 b n k j) t = ix5 b n k t j)
  rw [e, val_main_v55_apply, v54_row x0 x1 x2 x3 x4 x5 x6 x7 x8 x9 x10 x11 x12 x13 x14 x15 x16 V1 h51]
  rfl

include h51 in
/-- The clipped Euclidean norm over the three coordinates: zero plus the three squares, clipped below, square root. -/
private theorem v58_row (b : Fin 2) (n : Fin 2048) (k : Fin 32) (j : Fin 16) :
    val_main_v58 (F := Ideal) x0 x1 x2 x3 x4 x5 x6 x7 x8 x9 x10 x11 (ix4 b n k j) = vnorm (vh (W2 x11 x12 x13 x14 x15 x16) (V1 b n k)) j := by
  rw [val_main_v58_apply, val_main_v57_apply, val_main_call2_v1_apply, val_main_call2_v0_apply,
    val_main_cst_9_apply, val_main_v56_apply, val_main_cst_8_apply, Fin.sum_univ_three,
    v55_row x0 x1 x2 x3 x4 x5 x6 x7 x8 x9 x10 x11 x12 x13 x14 x15 x16 V1 h51, v55_row x0 x1 x2 x3 x4 x5 x6 x7 x8 x9 x10 x11 x12 x13 x14 x15 x16 V1 h51, v55_row x0 x1 x2 x3 x4 x5 x6 x7 x8 x9 x10 x11 x12 x13 x14 x15 x16 V1 h51]
  show Ideal.sqrt (max (Ideal.ofBits .f32 0x322BCC77#32) (Ideal.ofBits .f32 0x00000000#32 + _)) = _
  rw [Ideal.ofBits_zero_f32, zero_add]
  rfl

include h52 h51 in
/-- The joined scalar row: the first 128 entries are the first layer's scalar row, the last 16 the clipped norms. -/
private theorem v59_row (b : Fin 2) (n : Fin 2048) (k : Fin 32) (f : Fin 144) :
    val_main_v59 (F := Ideal) x0 x1 x2 x3 x4 x5 x6 x7 x8 x9 x10 x11 (ix4 b n k f)
      = cat2 144 rfl (S1 b n k) (vnorm (vh (W2 x11 x12 x13 x14 x15 x16) (V1 b n k))) f := by
  unfold val_main_v59 cat2
  by_cases h : f.val < 128
  · rw [dif_pos h]
    refine (concatenate_pair_apply_left (t := S2x2048x32x144) (s₁ := S2x2048x32x128) (s₂ := S2x2048x32x16) 3
      (val_main_v52 (F := Ideal) x0 x1 x2 x3 x4 x5 x6 x7)
      (val_main_v58 (F := Ideal) x0 x1 x2 x3 x4 x5 x6 x7 x8 x9 x10 x11) _
      (ix4 b n k f) rfl (ix4 b n k (⟨f.val, h⟩ : Fin 128)) (fun c => by
      match c with | ⟨0, _⟩ => rfl | ⟨1, _⟩ => rfl | ⟨2, _⟩ => rfl | ⟨3, _⟩ => rfl)).trans (h52 b n k ⟨f.val, h⟩)
  · rw [dif_neg h]
    refine (concatenate_pair_apply_right (t := S2x2048x32x144) (s₁ := S2x2048x32x128) (s₂ := S2x2048x32x16) 3
      (val_main_v52 (F := Ideal) x0 x1 x2 x3 x4 x5 x6 x7)
      (val_main_v58 (F := Ideal) x0 x1 x2 x3 x4 x5 x6 x7 x8 x9 x10 x11) _
      (ix4 b n k f) rfl rfl (ix4 b n k (⟨f.val - 128, by omega⟩ : Fin 16))
      (fun c hc => by
        match c with
        | ⟨0, _⟩ => rfl
        | ⟨1, _⟩ => rfl
        | ⟨2, _⟩ => rfl
        | ⟨3, _⟩ => exact absurd rfl hc) ?_).trans (v58_row x0 x1 x2 x3 x4 x5 x6 x7 x8 x9 x10 x11 x12 x13 x14 x15 x16 V1 h51 b n k ⟨f.val - 128, by omega⟩)
    show f.val - 128 + 128 = f.val
    omega

include h52 h51 in
/-- The affine map of the joined scalar row is the specification's scalar row before activation. -/
private theorem v63_row (b : Fin 2) (n : Fin 2048) (k : Fin 32) (o : Fin 128) :
    val_main_v63 (F := Ideal) x0 x1 x2 x3 x4 x5 x6 x7 x8 x9 x10 x11 x12 x13 (ix4 b n k o)
      = sPre (si := 128) rfl (W2 x11 x12 x13 x14 x15 x16) (S1 b n k) (V1 b n k) o := by
  have eb := (funext fun a => Fin.ext (by match a with | ⟨0, _⟩ => rfl) : idx_main_v61 (idx_main_v62 (ix4 b n k o)) = ix1 o)
  rw [val_main_v63_apply, val_main_v60_apply, val_main_v62_apply, val_main_v61_apply, eb]
  unfold sPre aff lin
  refine congrArg₂ (· + ·) (Finset.sum_congr rfl fun f _ => ?_) rfl
  have el := (funext fun a => Fin.ext (by match a with | ⟨0, _⟩ => rfl | ⟨1, _⟩ => rfl | ⟨2, _⟩ => rfl | ⟨3, _⟩ => rfl) : lidx_main_v60 (ix4 b n k o) f = ix4 b n k f)
  have er := (funext fun a => Fin.ext (by match a with | ⟨0, _⟩ => rfl | ⟨1, _⟩ => rfl) : ridx_main_v60 (ix4 b n k o) f = ix2 o f)
  rw [el, er, v59_row x0 x1 x2 x3 x4 x5 x6 x7 x8 x9 x10 x11 x12 x13 x14 x15 x16 S1 V1 h52 h51]
  rfl

include h52 h51 in
/-- One over one plus the exponential of the negated scalar row is its logistic (the word 0x3F800000 is one). -/
private theorem v71_row (b : Fin 2) (n : Fin 2048) (k : Fin 32) (o : Fin 128) :
    val_main_v71 (F := Ideal) x0 x1 x2 x3 x4 x5 x6 x7 x8 x9 x10 x11 x12 x13 (ix4 b n k o)
      = Ideal.logistic (sPre (si := 128) rfl (W2 x11 x12 x13 x14 x15 x16) (S1 b n k) (V1 b n k) o) := by
  rw [val_main_v71_apply, val_main_v70_apply, val_main_cst_11_apply, val_main_v69_apply, val_main_v68_apply,
    val_main_cst_10_apply, val_main_v67_apply, val_main_v66_apply, v63_row x0 x1 x2 x3 x4 x5 x6 x7 x8 x9 x10 x11 x12 x13 x14 x15 x16 S1 V1 h52 h51]
  show Ideal.div (Ideal.ofBits .f32 0x3F800000#32) (Ideal.ofBits .f32 0x3F800000#32 + Ideal.exp (-_)) = _
  rw [Ideal.ofBits_one_f32]
  rfl

include h52 h51 in
/-- The affine map of the activated scalar row is the specification's gate. -/
private theorem v75_row (b : Fin 2) (n : Fin 2048) (k : Fin 32) (g : Fin 16) :
    val_main_v75 (F := Ideal) x0 x1 x2 x3 x4 x5 x6 x7 x8 x9 x10 x11 x12 x13 x15 x16 (ix4 b n k g)
      = gateA (si := 128) rfl (W2 x11 x12 x13 x14 x15 x16) (S1 b n k) (V1 b n k) g := by
  have eb := (funext fun a => Fin.ext (by match a with | ⟨0, _⟩ => rfl) : idx_main_v73 (idx_main_v74 (ix4 b n k g)) = ix1 g)
  rw [val_main_v75_apply, val_main_v72_apply, val_main_v74_apply, val_main_v73_apply, eb]
  unfold gateA aff lin
  refine congrArg₂ (· + ·) (Finset.sum_congr rfl fun o _ => ?_) rfl
  have el := (funext fun a => Fin.ext (by match a with | ⟨0, _⟩ => rfl | ⟨1, _⟩ => rfl | ⟨2, _⟩ => rfl | ⟨3, _⟩ => rfl) : lidx_main_v72 (ix4 b n k g) o = ix4 b n k o)
  have er := (funext fun a => Fin.ext (by match a with | ⟨0, _⟩ => rfl | ⟨1, _⟩ => rfl) : ridx_main_v72 (ix4 b n k g) o = ix2 g o)
  rw [el, er, v71_row x0 x1 x2 x3 x4 x5 x6 x7 x8 x9 x10 x11 x12 x13 x14 x15 x16 S1 V1 h52 h51]
  rfl

include h52 h51 in
/-- The logistic of the gate. -/
private theorem v81_row (b : Fin 2) (n : Fin 2048) (k : Fin 32) (g : Fin 16) :
    val_main_v81 (F := Ideal) x0 x1 x2 x3 x4 x5 x6 x7 x8 x9 x10 x11 x12 x13 x15 x16 (ix4 b n k g)
      = Ideal.logistic (gateA (si := 128) rfl (W2 x11 x12 x13 x14 x15 x16) (S1 b n k) (V1 b n k) g) := by
  rw [val_main_v81_apply, val_main_v80_apply, val_main_cst_13_apply, val_main_v79_apply, val_main_v78_apply,
    val_main_cst_12_apply, val_main_v77_apply, val_main_v76_apply, v75_row x0 x1 x2 x3 x4 x5 x6 x7 x8 x9 x10 x11 x12 x13 x14 x15 x16 S1 V1 h52 h51]
  show Ideal.div (Ideal.ofBits .f32 0x3F800000#32) (Ideal.ofBits .f32 0x3F800000#32 + Ideal.exp (-_)) = _
  rw [Ideal.ofBits_one_f32]
  rfl

include h51 in
/-- The contraction of the contracted rows with the output matrix is the specification's vector rows before gating. -/
private theorem v64_row (b : Fin 2) (n : Fin 2048) (k : Fin 32) (t : Fin 3) (g : Fin 16) :
    val_main_v64 (F := Ideal) x0 x1 x2 x3 x4 x5 x6 x7 x8 x9 x10 x11 x14 (ix5 b n k t g) = vLin (W2 x11 x12 x13 x14 x15 x16) (V1 b n k) t g := by
  rw [val_main_v64_apply]
  unfold vLin lin
  refine Finset.sum_congr rfl fun c _ => ?_
  have el := (funext fun a => Fin.ext (by match a with | ⟨0, _⟩ => rfl | ⟨1, _⟩ => rfl | ⟨2, _⟩ => rfl | ⟨3, _⟩ => rfl | ⟨4, _⟩ => rfl) : lidx_main_v64 (ix5 b n k t g) c = ix5 b n k t c)
  have er := (funext fun a => Fin.ext (by match a with | ⟨0, _⟩ => rfl | ⟨1, _⟩ => rfl) : ridx_main_v64 (ix5 b n k t g) c = ix2 g c)
  rw [el, er, v54_row x0 x1 x2 x3 x4 x5 x6 x7 x8 x9 x10 x11 x12 x13 x14 x15 x16 V1 h51]
  rfl

include h52 h51 in
/-- The activated scalar row of an edge. -/
theorem v85_row (b : Fin 2) (n : Fin 2048) (k : Fin 32) (o : Fin 128) :
    val_main_v85 (F := Ideal) x0 x1 x2 x3 x4 x5 x6 x7 x8 x9 x10 x11 x12 x13 (ix4 b n k o)
      = sOutA (si := 128) rfl (W2 x11 x12 x13 x14 x15 x16) (S1 b n k) (V1 b n k) o := by
  rw [val_main_v85_apply, val_main_call3_v0_apply, val_main_call3_cst_apply, v63_row x0 x1 x2 x3 x4 x5 x6 x7 x8 x9 x10 x11 x12 x13 x14 x15 x16 S1 V1 h52 h51]
  show max _ (Ideal.ofBits .f32 0x00000000#32) = _
  rw [Ideal.ofBits_zero_f32]
  rfl

include h52 h51 in
/-- The gated vector rows of an edge (vector channel g, spatial coordinate t). -/
theorem v84_row (b : Fin 2) (n : Fin 2048) (k : Fin 32) (g : Fin 16) (t : Fin 3) :
    val_main_v84 (F := Ideal) x0 x1 x2 x3 x4 x5 x6 x7 x8 x9 x10 x11 x12 x13 x14 x15 x16 (ix5 b n k g t)
      = vOutA (si := 128) rfl (W2 x11 x12 x13 x14 x15 x16) (S1 b n k) (V1 b n k) t g := by
  have e1 := (funext fun a => Fin.ext (by match a with | ⟨0, _⟩ => rfl | ⟨1, _⟩ => rfl | ⟨2, _⟩ => rfl | ⟨3, _⟩ => rfl | ⟨4, _⟩ => rfl) : idx_main_v65 (ix5 b n k g t) = ix5 b n k t g)
  have e2 := (funext fun a => Fin.ext (by match a with | ⟨0, _⟩ => rfl | ⟨1, _⟩ => rfl | ⟨2, _⟩ => rfl | ⟨3, _⟩ => rfl) : idx_main_v82 (idx_main_v83 (ix5 b n k g t)) = ix4 b n k g)
  rw [val_main_v84_apply, val_main_v65_apply, val_main_v83_apply, val_main_v82_apply, e1, e2,
    v64_row x0 x1 x2 x3 x4 x5 x6 x7 x8 x9 x10 x11 x12 x13 x14 x15 x16 V1 h51, v81_row x0 x1 x2 x3 x4 x5 x6 x7 x8 x9 x10 x11 x12 x13 x14 x15 x16 S1 V1 h52 h51]
  rfl

end Cert.ReferenceIdeal.Rows

end
-- ==== Proof.RLayer3.lean ====
/-
  The reference's third layer and its two results read at an index: given what the second layer's two results are at
  every edge (any scalar row S2 and vector rows V2), each result holds the node's own entry plus the mean over its 32
  edges of the specification's third layer at those rows.
-/
import proofs.«418785_j9663676416046_3_alg».proof.Proof.RefRead
import proofs.«418785_j9663676416046_3_alg».proof.Proof.Spec

noncomputable section

namespace Cert.ReferenceIdeal.Rows

open Idealize.ShloMosaic Idealize.ShloMosaic.ValueIdx Cert.ReferenceIdeal Cert.ReferenceIdeal.Read GvpSpec

variable (x0 : (⟨S2x2048x128, .f32⟩ : BufTy).Contents (Elt Ideal)) (x1 : (⟨S2x2048x16x3, .f32⟩ : BufTy).Contents (Elt Ideal)) (x2 : (⟨S2x2048x32x32, .f32⟩ : BufTy).Contents (Elt Ideal)) (x3 : (⟨S2x2048x32x1x3, .f32⟩ : BufTy).Contents (Elt Ideal)) (x4 : (⟨S2x2048x32, .i32⟩ : BufTy).Contents (Elt Ideal)) (x5 : (⟨S33x33, .f32⟩ : BufTy).Contents (Elt Ideal)) (x6 : (⟨S128x321, .f32⟩ : BufTy).Contents (Elt Ideal)) (x7 : (⟨S128, .f32⟩ : BufTy).Contents (Elt Ideal)) (x8 : (⟨S16x33, .f32⟩ : BufTy).Contents (Elt Ideal)) (x9 : (⟨S16x128, .f32⟩ : BufTy).Contents (Elt Ideal)) (x10 : (⟨S16, .f32⟩ : BufTy).Contents (Elt Ideal)) (x11 : (⟨S16x16, .f32⟩ : BufTy).Contents (Elt Ideal)) (x12 : (⟨S128x144, .f32⟩ : BufTy).Contents (Elt Ideal)) (x13 : (⟨S128, .f32⟩ : BufTy).Contents (Elt Ideal)) (x14 : (⟨S16x16, .f32⟩ : BufTy).Contents (Elt Ideal)) (x15 : (⟨S16x128, .f32⟩ : BufTy).Contents (Elt Ideal)) (x16 : (⟨S16, .f32⟩ : BufTy).Contents (Elt Ideal)) (x17 : (⟨S16x16, .f32⟩ : BufTy).Contents (Elt Ideal)) (x18 : (⟨S128x144, .f32⟩ : BufTy).Contents (Elt Ideal)) (x19 : (⟨S128, .f32⟩ : BufTy).Contents (Elt Ideal)) (x20 : (⟨S16x16, .f32⟩ : BufTy).Contents (Elt Ideal)) (x21 : (⟨S16x128, .f32⟩ : BufTy).Contents (Elt Ideal)) (x22 : (⟨S16, .f32⟩ : BufTy).Contents (Elt Ideal))
  (S2 : Fin 2 → Fin 2048 → Fin 32 → Fin 128 → EReal) (V2 : Fin 2 → Fin 2048 → Fin 32 → Fin 3 → Fin 16 → EReal)
  (h85 : ∀ b n k o, val_main_v85 (F := Ideal) x0 x1 x2 x3 x4 x5 x6 x7 x8 x9 x10 x11 x12 x13 (ix4 b n k o) = S2 b n k o)
  (h84 : ∀ b n k g t, val_main_v84 (F := Ideal) x0 x1 x2 x3 x4 x5 x6 x7 x8 x9 x10 x11 x12 x13 x14 x15 x16 (ix5 b n k g t) = V2 b n k t g)

/-- The third layer's weight arrays. -/
def W3 : LayerW 16 16 128 16 144 := ⟨x17, x18, x19, x20, x21, x22⟩

local notation "R85" => val_main_v85 (F := Ideal) x0 x1 x2 x3 x4 x5 x6 x7 x8 x9 x10 x11 x12 x13
local notation "R86" => val_main_v86 (F := Ideal) x0 x1 x2 x3 x4 x5 x6 x7 x8 x9 x10 x11 x12 x13 x14 x15 x16
local notation "R87" => val_main_v87 (F := Ideal) x0 x1 x2 x3 x4 x5 x6 x7 x8 x9 x10 x11 x12 x13 x14 x15 x16 x17
local notation "R88" => val_main_v88 (F := Ideal) x0 x1 x2 x3 x4 x5 x6 x7 x8 x9 x10 x11 x12 x13 x14 x15 x16 x17
local notation "R91" => val_main_v91 (F := Ideal) x0 x1 x2 x3 x4 x5 x6 x7 x8 x9 x10 x11 x12 x13 x14 x15 x16 x17
local notation "R92" => val_main_v92 (F := Ideal) x0 x1 x2 x3 x4 x5 x6 x7 x8 x9 x10 x11 x12 x13 x14 x15 x16 x17
local notation "R93" => val_main_v93 (F := Ideal) x0 x1 x2 x3 x4 x5 x6 x7 x8 x9 x10 x11 x12 x13 x14 x15 x16 x17 x18
local notation "R95" => val_main_v95 (F := Ideal) x19
local notation "R96" => val_main_v96 (F := Ideal) x0 x1 x2 x3 x4 x5 x6 x7 x8 x9 x10 x11 x12 x13 x14 x15 x16 x17 x18 x19
local notation "R98" => val_main_v98 (F := Ideal) x0 x1 x2 x3 x4 x5 x6 x7 x8 x9 x10 x11 x12 x13 x14 x15 x16 x17 x20
local notation "R99" => val_main_v99 (F := Ideal) x0 x1 x2 x3 x4 x5 x6 x7 x8 x9 x10 x11 x12 x13 x14 x15 x16 x17 x18 x19 x21
local notation "R101" => val_main_v101 (F := Ideal) x22
local notation "R102" => val_main_v102 (F := Ideal) x0 x1 x2 x3 x4 x5 x6 x7 x8 x9 x10 x11 x12 x13 x14 x15 x16 x17 x18 x19 x21 x22
local notation "R108" => val_main_v108 (F := Ideal) x0 x1 x2 x3 x4 x5 x6 x7 x8 x9 x10 x11 x12 x13 x14 x15 x16 x17 x18 x19 x21 x22
local notation "R111" => val_main_v111 (F := Ideal) x0 x1 x2 x3 x4 x5 x6 x7 x8 x9 x10 x11 x12 x13 x14 x15 x16 x17 x18 x19 x20 x21 x22
local notation "W3'" => W3 x17 x18 x19 x20 x21 x22

/-- The word 0x3F800000 denotes the number one: sign 0, biased exponent 127, fraction 0. -/
private theorem one_word : Ideal.ofBits .f32 0x3F800000#32 = 1 := by
  have h : (8388608 : ℝ) * ((2 : ℝ) ^ 23)⁻¹ = 1 := by norm_num
  simp [Ideal.ofBits, Ideal.ieee]
  exact_mod_cast h

include h84 in
/-- The second layer's vector rows with the spatial coordinate ahead of the channel. -/
private theorem r86_at (b : Fin 2) (n : Fin 2048) (k : Fin 32) (t : Fin 3) (g : Fin 16) :
    R86 (ix5 b n k t g) = V2 b n k t g := by
  have e : idx_main_v86 (ix5 b n k t g) = ix5 b n k g t := funext fun a => Fin.ext (by match a with | ⟨0, _⟩ => rfl | ⟨1, _⟩ => rfl | ⟨2, _⟩ => rfl | ⟨3, _⟩ => rfl | ⟨4, _⟩ => rfl)
  rw [val_main_v86_apply, e]
  exact h84 b n k g t

include h84 in
/-- The contracted vector rows: each coordinate's row times the matrix of hidden channels. -/
private theorem r87_at (b : Fin 2) (n : Fin 2048) (k : Fin 32) (t : Fin 3) (j : Fin 16) :
    R87 (ix5 b n k t j) = vh W3' (V2 b n k) t j := by
  rw [val_main_v87_apply]
  show _ = ∑ i : Fin 16, V2 b n k t i * x17 (ix2 j i)
  refine Finset.sum_congr rfl fun i _ => ?_
  have el : lidx_main_v87 (ix5 b n k t j) i = ix5 b n k t i := funext fun a => Fin.ext (by match a with | ⟨0, _⟩ => rfl | ⟨1, _⟩ => rfl | ⟨2, _⟩ => rfl | ⟨3, _⟩ => rfl | ⟨4, _⟩ => rfl)
  have er : ridx_main_v87 (ix5 b n k t j) i = ix2 j i := funext fun a => Fin.ext (by match a with | ⟨0, _⟩ => rfl | ⟨1, _⟩ => rfl)
  rw [el, er, r86_at (h84 := h84)]

include h84 in
/-- The clipped Euclidean norm of the contracted rows over the three coordinates: the sum starts from the zero word,
    the lower clip is the word of 1e-8. -/
private theorem r91_at (b : Fin 2) (n : Fin 2048) (k : Fin 32) (j : Fin 16) :
    R91 (ix4 b n k j) = vnorm (vh W3' (V2 b n k)) j := by
  have e : ∀ t : Fin 3, R88 (idx_main_v89 (ix4 b n k j) t)
      = vh W3' (V2 b n k) t j * vh W3' (V2 b n k) t j := fun t => by
    have ei : idx_main_v89 (ix4 b n k j) t = ix5 b n k t j := funext fun a => Fin.ext (by match a with | ⟨0, _⟩ => rfl | ⟨1, _⟩ => rfl | ⟨2, _⟩ => rfl | ⟨3, _⟩ => rfl | ⟨4, _⟩ => rfl)
    rw [ei, val_main_v88_apply, r87_at (h84 := h84)]
    rfl
  rw [val_main_v91_apply, val_main_v90_apply, val_main_call4_v1_apply, val_main_call4_v0_apply,
    val_main_cst_15_apply, val_main_v89_apply, val_main_cst_14_apply, Finset.sum_congr rfl fun t _ => e t,
    Fin.sum_univ_three]
  show Ideal.sqrt (max (Ideal.ofBits .f32 0x322BCC77#32) (Ideal.ofBits .f32 0x00000000#32 + _)) = _
  rw [Ideal.ofBits_zero_f32, zero_add]
  rfl

include h85 h84 in
/-- The joined scalar row: the second layer's 128 scalars, then the 16 norms. -/
private theorem r92_at (b : Fin 2) (n : Fin 2048) (k : Fin 32) (f : Fin 144) :
    R92 (ix4 b n k f) = cat2 144 rfl (S2 b n k) (vnorm (vh W3' (V2 b n k))) f := by
  unfold val_main_v92 cat2
  by_cases hf : f.val < 128
  · rw [dif_pos hf]
    refine (concatenate_pair_apply_left (t := S2x2048x32x144) (s₁ := S2x2048x32x128) (s₂ := S2x2048x32x16) 3 _ _
      Gen.concatenates_S2x2048x32x128_S2x2048x32x16_S2x2048x32x144_d3 (ix4 b n k f) rfl (ix4 b n k ⟨f.val, hf⟩)
      (fun c => ?_)).trans (h85 b n k ⟨f.val, hf⟩)
    match c with | ⟨0, _⟩ => rfl | ⟨1, _⟩ => rfl | ⟨2, _⟩ => rfl | ⟨3, _⟩ => rfl
  · rw [dif_neg hf]
    refine (concatenate_pair_apply_right (t := S2x2048x32x144) (s₁ := S2x2048x32x128) (s₂ := S2x2048x32x16) 3 _ _
      Gen.concatenates_S2x2048x32x128_S2x2048x32x16_S2x2048x32x144_d3 (ix4 b n k f) rfl rfl
      (ix4 b n k ⟨f.val - 128, by have := f.isLt; omega⟩) (fun c hc => ?_) ?_).trans ?_
    · match c with
      | ⟨0, _⟩ => rfl | ⟨1, _⟩ => rfl | ⟨2, _⟩ => rfl
      | ⟨3, _⟩ => exact absurd rfl hc
    · show f.val - 128 + 128 = f.val
      omega
    · exact r91_at (h84 := h84) ..

include h85 h84 in
/-- The scalar row before activation: the joined row times the weight matrix, plus the bias. -/
private theorem r96_at (b : Fin 2) (n : Fin 2048) (k : Fin 32) (o : Fin 128) :
    R96 (ix4 b n k o) = sPre (si := 128) rfl W3' (S2 b n k) (V2 b n k) o := by
  have e93 : R93 (ix4 b n k o)
      = ∑ i : Fin 144, cat2 144 rfl (S2 b n k) (vnorm (vh W3' (V2 b n k))) i * x18 (ix2 o i) := by
    rw [val_main_v93_apply]
    refine Finset.sum_congr rfl fun i _ => ?_
    have el : lidx_main_v93 (ix4 b n k o) i = ix4 b n k i := funext fun a => Fin.ext (by match a with | ⟨0, _⟩ => rfl | ⟨1, _⟩ => rfl | ⟨2, _⟩ => rfl | ⟨3, _⟩ => rfl)
    have er : ridx_main_v93 (ix4 b n k o) i = ix2 o i := funext fun a => Fin.ext (by match a with | ⟨0, _⟩ => rfl | ⟨1, _⟩ => rfl)
    rw [el, er, r92_at (h85 := h85) (h84 := h84)]
  have e95 : R95 (ix4 b n k o) = x19 (ix1 o) := by
    rw [val_main_v95_apply, val_main_v94_apply]
    exact congrArg x19 (funext fun a => Fin.ext (by match a with | ⟨0, _⟩ => rfl))
  rw [val_main_v96_apply, e93, e95]
  rfl

include h84 in
/-- The vector rows before gating, with the channel ahead of the spatial coordinate. -/
private theorem r98_at (b : Fin 2) (n : Fin 2048) (k : Fin 32) (g : Fin 16) (t : Fin 3) :
    R98 (ix5 b n k g t) = vLin W3' (V2 b n k) t g := by
  have e : idx_main_v98 (ix5 b n k g t) = ix5 b n k t g := funext fun a => Fin.ext (by match a with | ⟨0, _⟩ => rfl | ⟨1, _⟩ => rfl | ⟨2, _⟩ => rfl | ⟨3, _⟩ => rfl | ⟨4, _⟩ => rfl)
  rw [val_main_v98_apply, e, val_main_v97_apply]
  show _ = ∑ i : Fin 16, vh W3' (V2 b n k) t i * x20 (ix2 g i)
  refine Finset.sum_congr rfl fun i _ => ?_
  have el : lidx_main_v97 (ix5 b n k t g) i = ix5 b n k t i := funext fun a => Fin.ext (by match a with | ⟨0, _⟩ => rfl | ⟨1, _⟩ => rfl | ⟨2, _⟩ => rfl | ⟨3, _⟩ => rfl | ⟨4, _⟩ => rfl)
  have er : ridx_main_v97 (ix5 b n k t g) i = ix2 g i := funext fun a => Fin.ext (by match a with | ⟨0, _⟩ => rfl | ⟨1, _⟩ => rfl)
  rw [el, er, r87_at (h84 := h84)]

include h85 h84 in
/-- The last layer's gate: an affine map of the scalar row itself. -/
private theorem r102_at (b : Fin 2) (n : Fin 2048) (k : Fin 32) (g : Fin 16) :
    R102 (ix4 b n k g) = gateN (si := 128) rfl W3' (S2 b n k) (V2 b n k) g := by
  have e99 : R99 (ix4 b n k g)
      = ∑ o : Fin 128, sPre (si := 128) rfl W3' (S2 b n k) (V2 b n k) o * x21 (ix2 g o) := by
    rw [val_main_v99_apply]
    refine Finset.sum_congr rfl fun o _ => ?_
    have el : lidx_main_v99 (ix4 b n k g) o = ix4 b n k o := funext fun a => Fin.ext (by match a with | ⟨0, _⟩ => rfl | ⟨1, _⟩ => rfl | ⟨2, _⟩ => rfl | ⟨3, _⟩ => rfl)
    have er : ridx_main_v99 (ix4 b n k g) o = ix2 g o := funext fun a => Fin.ext (by match a with | ⟨0, _⟩ => rfl | ⟨1, _⟩ => rfl)
    rw [el, er, r96_at (h85 := h85) (h84 := h84)]
  have e101 : R101 (ix4 b n k g) = x22 (ix1 g) := by
    rw [val_main_v101_apply, val_main_v100_apply]
    exact congrArg x22 (funext fun a => Fin.ext (by match a with | ⟨0, _⟩ => rfl))
  rw [val_main_v102_apply, e99, e101]
  rfl

include h85 h84 in
/-- The logistic of the gate, spelt as one over one plus the exponential of the negated gate. -/
private theorem r108_at (b : Fin 2) (n : Fin 2048) (k : Fin 32) (g : Fin 16) :
    R108 (ix4 b n k g) = Ideal.logistic (gateN (si := 128) rfl W3' (S2 b n k) (V2 b n k) g) := by
  rw [val_main_v108_apply, val_main_v107_apply, val_main_cst_17_apply, val_main_v106_apply, val_main_v105_apply,
    val_main_cst_16_apply, val_main_v104_apply, val_main_v103_apply, r102_at (h85 := h85) (h84 := h84)]
  show Ideal.div (Ideal.ofBits .f32 0x3F800000#32) (Ideal.ofBits .f32 0x3F800000#32 + Ideal.exp (-_)) = _
  rw [one_word]
  rfl

include h85 h84 in
/-- The gated vector rows of one edge. -/
private theorem r111_at (b : Fin 2) (n : Fin 2048) (k : Fin 32) (g : Fin 16) (t : Fin 3) :
    R111 (ix5 b n k g t) = vOutN (si := 128) rfl W3' (S2 b n k) (V2 b n k) t g := by
  have e : idx_main_v109 (idx_main_v110 (ix5 b n k g t)) = ix4 b n k g := funext fun a => Fin.ext (by match a with | ⟨0, _⟩ => rfl | ⟨1, _⟩ => rfl | ⟨2, _⟩ => rfl | ⟨3, _⟩ => rfl)
  rw [val_main_v111_apply, val_main_v110_apply, val_main_v109_apply, e, r98_at (h84 := h84),
    r108_at (h85 := h85) (h84 := h84)]
  rfl

include h85 h84 in
/-- The updated scalar features at a node and channel. -/
theorem v118_apply (b : Fin 2) (n : Fin 2048) (j : Fin 128) :
    val_main_v118 (F := Ideal) x0 x1 x2 x3 x4 x5 x6 x7 x8 x9 x10 x11 x12 x13 x14 x15 x16 x17 x18 x19 (ix3 b n j)
      = upd (x0 (ix3 b n j)) (fun k => sPre (si := 128) rfl (W3 x17 x18 x19 x20 x21 x22) (S2 b n k) (V2 b n k) j) := by
  have e : ∀ k : Fin 32, val_main_v96 (F := Ideal) x0 x1 x2 x3 x4 x5 x6 x7 x8 x9 x10 x11 x12 x13 x14 x15 x16 x17 x18 x19
      (idx_main_v112 (ix3 b n j) k)
      = sPre (si := 128) rfl (W3 x17 x18 x19 x20 x21 x22) (S2 b n k) (V2 b n k) j := fun k => by
    have ei : idx_main_v112 (ix3 b n j) k = ix4 b n k j :=
      funext fun a => Fin.ext (by match a with | ⟨0, _⟩ => rfl | ⟨1, _⟩ => rfl | ⟨2, _⟩ => rfl | ⟨3, _⟩ => rfl)
    rw [ei, r96_at (h85 := h85) (h84 := h84)]
  rw [val_main_v118_apply, val_main_v114_apply, val_main_v113_apply, val_main_cst_19_apply, val_main_v112_apply,
    val_main_cst_18_apply, Finset.sum_congr rfl fun k _ => e k]
  show x0 (ix3 b n j) + Ideal.div (Ideal.ofBits .f32 0x00000000#32 + _) (Ideal.ofBits .f32 0x42000000#32) = _
  rw [Ideal.ofBits_zero_f32, zero_add]
  rfl

include h85 h84 in
/-- The updated vector features at a node, vector channel g and spatial coordinate t. -/
theorem v119_apply (b : Fin 2) (n : Fin 2048) (g : Fin 16) (t : Fin 3) :
    val_main_v119 (F := Ideal) x0 x1 x2 x3 x4 x5 x6 x7 x8 x9 x10 x11 x12 x13 x14 x15 x16 x17 x18 x19 x20 x21 x22 (ix4 b n g t)
      = upd (x1 (ix4 b n g t)) (fun k => vOutN (si := 128) rfl (W3 x17 x18 x19 x20 x21 x22) (S2 b n k) (V2 b n k) t g) := by
  have e : ∀ k : Fin 32, val_main_v111 (F := Ideal) x0 x1 x2 x3 x4 x5 x6 x7 x8 x9 x10 x11 x12 x13 x14 x15 x16 x17 x18 x19 x20 x21 x22
      (idx_main_v115 (ix4 b n g t) k)
      = vOutN (si := 128) rfl (W3 x17 x18 x19 x20 x21 x22) (S2 b n k) (V2 b n k) t g := fun k => by
    have ei : idx_main_v115 (ix4 b n g t) k = ix5 b n k g t :=
      funext fun a => Fin.ext (by match a with | ⟨0, _⟩ => rfl | ⟨1, _⟩ => rfl | ⟨2, _⟩ => rfl | ⟨3, _⟩ => rfl | ⟨4, _⟩ => rfl)
    rw [ei, r111_at (h85 := h85) (h84 := h84)]
  rw [val_main_v119_apply, val_main_v117_apply, val_main_v116_apply, val_main_cst_21_apply, val_main_v115_apply,
    val_main_cst_20_apply, Finset.sum_congr rfl fun k _ => e k]
  show x1 (ix4 b n g t) + Ideal.div (Ideal.ofBits .f32 0x00000000#32 + _) (Ideal.ofBits .f32 0x42000000#32) = _
  rw [Ideal.ofBits_zero_f32, zero_add]
  rfl

end Cert.ReferenceIdeal.Rows

end
-- ==== Proof.RArr.lean ====
/-
  The reference's two results as whole arrays: chaining the three layers' row lemmas, each result is the
  specification's update — every node's own entry plus the mean of its 32 edges' messages, a message being the three
  layers applied to the edge's rows (own row, gathered neighbour's row, edge row).
-/
import proofs.«418785_j9663676416046_3_alg».proof.Proof.RLayer1
import proofs.«418785_j9663676416046_3_alg».proof.Proof.RLayer2
import proofs.«418785_j9663676416046_3_alg».proof.Proof.RLayer3

noncomputable section

namespace Cert.ReferenceIdeal.Rows

open Idealize.ShloMosaic Idealize.ShloMosaic.ValueIdx Cert.ReferenceIdeal Cert.ReferenceIdeal.Read GvpSpec

variable (x0 : (⟨S2x2048x128, .f32⟩ : BufTy).Contents (Elt Ideal)) (x1 : (⟨S2x2048x16x3, .f32⟩ : BufTy).Contents (Elt Ideal)) (x2 : (⟨S2x2048x32x32, .f32⟩ : BufTy).Contents (Elt Ideal)) (x3 : (⟨S2x2048x32x1x3, .f32⟩ : BufTy).Contents (Elt Ideal)) (x4 : (⟨S2x2048x32, .i32⟩ : BufTy).Contents (Elt Ideal)) (x5 : (⟨S33x33, .f32⟩ : BufTy).Contents (Elt Ideal)) (x6 : (⟨S128x321, .f32⟩ : BufTy).Contents (Elt Ideal)) (x7 : (⟨S128, .f32⟩ : BufTy).Contents (Elt Ideal)) (x8 : (⟨S16x33, .f32⟩ : BufTy).Contents (Elt Ideal)) (x9 : (⟨S16x128, .f32⟩ : BufTy).Contents (Elt Ideal)) (x10 : (⟨S16, .f32⟩ : BufTy).Contents (Elt Ideal)) (x11 : (⟨S16x16, .f32⟩ : BufTy).Contents (Elt Ideal)) (x12 : (⟨S128x144, .f32⟩ : BufTy).Contents (Elt Ideal)) (x13 : (⟨S128, .f32⟩ : BufTy).Contents (Elt Ideal)) (x14 : (⟨S16x16, .f32⟩ : BufTy).Contents (Elt Ideal)) (x15 : (⟨S16x128, .f32⟩ : BufTy).Contents (Elt Ideal)) (x16 : (⟨S16, .f32⟩ : BufTy).Contents (Elt Ideal)) (x17 : (⟨S16x16, .f32⟩ : BufTy).Contents (Elt Ideal)) (x18 : (⟨S128x144, .f32⟩ : BufTy).Contents (Elt Ideal)) (x19 : (⟨S128, .f32⟩ : BufTy).Contents (Elt Ideal)) (x20 : (⟨S16x16, .f32⟩ : BufTy).Contents (Elt Ideal)) (x21 : (⟨S16x128, .f32⟩ : BufTy).Contents (Elt Ideal)) (x22 : (⟨S16, .f32⟩ : BufTy).Contents (Elt Ideal))

/-- The three layers' weight arrays. -/
def Wr : Weights := ⟨(W1 x5 x6 x7 x8 x9 x10), (W2 x11 x12 x13 x14 x15 x16), (W3 x17 x18 x19 x20 x21 x22)⟩

/-- The updated scalar features, whole. -/
theorem ref_s :
    val_main_v118 (F := Ideal) x0 x1 x2 x3 x4 x5 x6 x7 x8 x9 x10 x11 x12 x13 x14 x15 x16 x17 x18 x19
      = outS (Wr x5 x6 x7 x8 x9 x10 x11 x12 x13 x14 x15 x16 x17 x18 x19 x20 x21 x22) x0 (val_main_v6 (F := Ideal) x0 x4) x2 x1 (val_main_v13 (F := Ideal) x1 x4) x3 := by
  funext i
  obtain ⟨b, n, j, rfl⟩ : ∃ b n j, i = ix3 b n j := ⟨i 0, i 1, i 2, eq_ix3 i⟩
  rw [v118_apply x0 x1 x2 x3 x4 x5 x6 x7 x8 x9 x10 x11 x12 x13 x14 x15 x16 x17 x18 x19 x20 x21 x22 (fun b n k => sOutA (si := 128) rfl (W2 x11 x12 x13 x14 x15 x16) (sOutA (si := 288) rfl (W1 x5 x6 x7 x8 x9 x10) (edgeS x0 (val_main_v6 (F := Ideal) x0 x4) x2 b n k) (edgeV x1 (val_main_v13 (F := Ideal) x1 x4) x3 b n k)) (vOutA (si := 288) rfl (W1 x5 x6 x7 x8 x9 x10) (edgeS x0 (val_main_v6 (F := Ideal) x0 x4) x2 b n k) (edgeV x1 (val_main_v13 (F := Ideal) x1 x4) x3 b n k))) (fun b n k => vOutA (si := 128) rfl (W2 x11 x12 x13 x14 x15 x16) (sOutA (si := 288) rfl (W1 x5 x6 x7 x8 x9 x10) (edgeS x0 (val_main_v6 (F := Ideal) x0 x4) x2 b n k) (edgeV x1 (val_main_v13 (F := Ideal) x1 x4) x3 b n k)) (vOutA (si := 288) rfl (W1 x5 x6 x7 x8 x9 x10) (edgeS x0 (val_main_v6 (F := Ideal) x0 x4) x2 b n k) (edgeV x1 (val_main_v13 (F := Ideal) x1 x4) x3 b n k))) (fun b n k o => v85_row x0 x1 x2 x3 x4 x5 x6 x7 x8 x9 x10 x11 x12 x13 x14 x15 x16 (fun b n k => sOutA (si := 288) rfl (W1 x5 x6 x7 x8 x9 x10) (edgeS x0 (val_main_v6 (F := Ideal) x0 x4) x2 b n k) (edgeV x1 (val_main_v13 (F := Ideal) x1 x4) x3 b n k)) (fun b n k => vOutA (si := 288) rfl (W1 x5 x6 x7 x8 x9 x10) (edgeS x0 (val_main_v6 (F := Ideal) x0 x4) x2 b n k) (edgeV x1 (val_main_v13 (F := Ideal) x1 x4) x3 b n k)) (fun b n k o => v52_row x0 x1 x2 x3 x4 x5 x6 x7 x8 x9 x10 b n k o) (fun b n k g t => v51_row x0 x1 x2 x3 x4 x5 x6 x7 x8 x9 x10 b n k g t) b n k o) (fun b n k g t => v84_row x0 x1 x2 x3 x4 x5 x6 x7 x8 x9 x10 x11 x12 x13 x14 x15 x16 (fun b n k => sOutA (si := 288) rfl (W1 x5 x6 x7 x8 x9 x10) (edgeS x0 (val_main_v6 (F := Ideal) x0 x4) x2 b n k) (edgeV x1 (val_main_v13 (F := Ideal) x1 x4) x3 b n k)) (fun b n k => vOutA (si := 288) rfl (W1 x5 x6 x7 x8 x9 x10) (edgeS x0 (val_main_v6 (F := Ideal) x0 x4) x2 b n k) (edgeV x1 (val_main_v13 (F := Ideal) x1 x4) x3 b n k)) (fun b n k o => v52_row x0 x1 x2 x3 x4 x5 x6 x7 x8 x9 x10 b n k o) (fun b n k g t => v51_row x0 x1 x2 x3 x4 x5 x6 x7 x8 x9 x10 b n k g t) b n k g t) b n j]
  rfl

/-- The updated vector features, whole. -/
theorem ref_v :
    val_main_v119 (F := Ideal) x0 x1 x2 x3 x4 x5 x6 x7 x8 x9 x10 x11 x12 x13 x14 x15 x16 x17 x18 x19 x20 x21 x22
      = outV (Wr x5 x6 x7 x8 x9 x10 x11 x12 x13 x14 x15 x16 x17 x18 x19 x20 x21 x22) x0 (val_main_v6 (F := Ideal) x0 x4) x2 x1 (val_main_v13 (F := Ideal) x1 x4) x3 := by
  funext i
  obtain ⟨b, n, g, t, rfl⟩ : ∃ b n g t, i = ix4 b n g t := ⟨i 0, i 1, i 2, i 3, eq_ix4 i⟩
  rw [v119_apply x0 x1 x2 x3 x4 x5 x6 x7 x8 x9 x10 x11 x12 x13 x14 x15 x16 x17 x18 x19 x20 x21 x22 (fun b n k => sOutA (si := 128) rfl (W2 x11 x12 x13 x14 x15 x16) (sOutA (si := 288) rfl (W1 x5 x6 x7 x8 x9 x10) (edgeS x0 (val_main_v6 (F := Ideal) x0 x4) x2 b n k) (edgeV x1 (val_main_v13 (F := Ideal) x1 x4) x3 b n k)) (vOutA (si := 288) rfl (W1 x5 x6 x7 x8 x9 x10) (edgeS x0 (val_main_v6 (F := Ideal) x0 x4) x2 b n k) (edgeV x1 (val_main_v13 (F := Ideal) x1 x4) x3 b n k))) (fun b n k => vOutA (si := 128) rfl (W2 x11 x12 x13 x14 x15 x16) (sOutA (si := 288) rfl (W1 x5 x6 x7 x8 x9 x10) (edgeS x0 (val_main_v6 (F := Ideal) x0 x4) x2 b n k) (edgeV x1 (val_main_v13 (F := Ideal) x1 x4) x3 b n k)) (vOutA (si := 288) rfl (W1 x5 x6 x7 x8 x9 x10) (edgeS x0 (val_main_v6 (F := Ideal) x0 x4) x2 b n k) (edgeV x1 (val_main_v13 (F := Ideal) x1 x4) x3 b n k))) (fun b n k o => v85_row x0 x1 x2 x3 x4 x5 x6 x7 x8 x9 x10 x11 x12 x13 x14 x15 x16 (fun b n k => sOutA (si := 288) rfl (W1 x5 x6 x7 x8 x9 x10) (edgeS x0 (val_main_v6 (F := Ideal) x0 x4) x2 b n k) (edgeV x1 (val_main_v13 (F := Ideal) x1 x4) x3 b n k)) (fun b n k => vOutA (si := 288) rfl (W1 x5 x6 x7 x8 x9 x10) (edgeS x0 (val_main_v6 (F := Ideal) x0 x4) x2 b n k) (edgeV x1 (val_main_v13 (F := Ideal) x1 x4) x3 b n k)) (fun b n k o => v52_row x0 x1 x2 x3 x4 x5 x6 x7 x8 x9 x10 b n k o) (fun b n k g t => v51_row x0 x1 x2 x3 x4 x5 x6 x7 x8 x9 x10 b n k g t) b n k o) (fun b n k g t => v84_row x0 x1 x2 x3 x4 x5 x6 x7 x8 x9 x10 x11 x12 x13 x14 x15 x16 (fun b n k => sOutA (si := 288) rfl (W1 x5 x6 x7 x8 x9 x10) (edgeS x0 (val_main_v6 (F := Ideal) x0 x4) x2 b n k) (edgeV x1 (val_main_v13 (F := Ideal) x1 x4) x3 b n k)) (fun b n k => vOutA (si := 288) rfl (W1 x5 x6 x7 x8 x9 x10) (edgeS x0 (val_main_v6 (F := Ideal) x0 x4) x2 b n k) (edgeV x1 (val_main_v13 (F := Ideal) x1 x4) x3 b n k)) (fun b n k o => v52_row x0 x1 x2 x3 x4 x5 x6 x7 x8 x9 x10 b n k o) (fun b n k g t => v51_row x0 x1 x2 x3 x4 x5 x6 x7 x8 x9 x10 b n k g t) b n k g t) b n g t]
  rfl

end Cert.ReferenceIdeal.Rows

end
-- ==== Proof.Gather.lean ====
/-
  The two programs gather the same neighbours.  The tile program's gathered scalar rows and vector rows are the arrays
  the reference's two gathers return: the operand differs by a change of float format, which is the identity on
  extended reals; the index array is the same comparison with zero, the same shift by the number of nodes, the same
  choice and the same added unit axis; and the two gathers have the same dimension numbers.
-/
import proofs.«418785_j9663676416046_3_alg».proof.Proof.KHost
import proofs.«418785_j9663676416046_3_alg».proof.Proof.RefRead

noncomputable section

namespace Cert.Gather

open Idealize.ShloMosaic Idealize.ShloMosaic.TcCoe Idealize.SL.Sem

/-- The two programs' neighbour indices are one array: the same comparison with zero, the same shift by the number of
    nodes, the same choice, the same added unit axis. -/
private theorem nbrIdx_eq5 (m : (ℓ : Loc Cert.KernelIdeal.nD Cert.KernelIdeal.τ Cert.KernelIdeal.sig) → Buf (Elt Ideal) ℓ)
    (c : Dev Cert.KernelIdeal.nD) :
    Cert.KernelIdeal.Arr.nbrIdx m c = Cert.ReferenceIdeal.Read.val_main_v5 (F := Ideal)
      (m ((c : Thread Cert.KernelIdeal.nD Cert.KernelIdeal.τ).loc Cert.KernelIdeal.main_arg4)) := rfl

/-- The same for the second gather's copy of the index computation. -/
private theorem nbrIdx_eq12 (m : (ℓ : Loc Cert.KernelIdeal.nD Cert.KernelIdeal.τ Cert.KernelIdeal.sig) → Buf (Elt Ideal) ℓ)
    (c : Dev Cert.KernelIdeal.nD) :
    Cert.KernelIdeal.Arr.nbrIdx m c = Cert.ReferenceIdeal.Read.val_main_v12 (F := Ideal)
      (m ((c : Thread Cert.KernelIdeal.nD Cert.KernelIdeal.τ).loc Cert.KernelIdeal.main_arg4)) := rfl

/-- The gathered neighbours' scalar rows are the reference's gather. -/
theorem XS_eq (m : (ℓ : Loc Cert.KernelIdeal.nD Cert.KernelIdeal.τ Cert.KernelIdeal.sig) → Buf (Elt Ideal) ℓ)
    (c : Dev Cert.KernelIdeal.nD) :
    (Cert.KernelIdeal.Arr.XS m c : (⟨4, ![2, 2048, 32, 128]⟩ : Shape).Idx → EReal)
      = Cert.ReferenceIdeal.Read.val_main_v6 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg4)) := by
  unfold Cert.KernelIdeal.Arr.XS Cert.ReferenceIdeal.Read.val_main_v6
  rw [nbrIdx_eq5]
  generalize Cert.ReferenceIdeal.Read.val_main_v5 (F := Ideal) _ = I
  generalize m ((c : Thread Cert.KernelIdeal.nD Cert.KernelIdeal.τ).loc Cert.KernelIdeal.main_arg0) = X
  rfl

/-- The gathered neighbours' vector rows are the reference's gather. -/
theorem XV_eq (m : (ℓ : Loc Cert.KernelIdeal.nD Cert.KernelIdeal.τ Cert.KernelIdeal.sig) → Buf (Elt Ideal) ℓ)
    (c : Dev Cert.KernelIdeal.nD) :
    (Cert.KernelIdeal.Arr.XV m c : (⟨5, ![2, 2048, 32, 16, 3]⟩ : Shape).Idx → EReal)
      = Cert.ReferenceIdeal.Read.val_main_v13 (F := Ideal)
          (m ((c : Thread Cert.KernelIdeal.nD Cert.KernelIdeal.τ).loc Cert.KernelIdeal.main_arg1))
          (m ((c : Thread Cert.KernelIdeal.nD Cert.KernelIdeal.τ).loc Cert.KernelIdeal.main_arg4)) := by
  unfold Cert.KernelIdeal.Arr.XV Cert.ReferenceIdeal.Read.val_main_v13
  rw [nbrIdx_eq12]
  generalize Cert.ReferenceIdeal.Read.val_main_v12 (F := Ideal) _ = I
  generalize m ((c : Thread Cert.KernelIdeal.nD Cert.KernelIdeal.τ).loc Cert.KernelIdeal.main_arg1) = X
  rfl

end Cert.Gather

end
-- ==== Proof.lean ====
/-
  The certificate of a three-layer geometric-vector-perceptron convolution: a tiled kernel (one grid point per 32
  nodes; every intermediate a matrix with one row per edge of the tile; the spatial coordinate of the vector
  features kept as three separate matrices) against the plain array program (one five-axis tensor per intermediate).
  Both compute, for every node, its own features plus the mean over its 32 edges of a message, and the message of an
  edge is ONE function of that edge's rows — its node's row, the gathered neighbour's row, the edge's own row — and of
  the weights: three layers of contraction, clipped norm over the three coordinates, affine map and logistic gate.  On
  extended reals the format changes are the identity, a matrix product into a zero accumulator and a host
  contraction are the same sum, and the logistic is the same expression on both sides, so the two programs' results
  are the same arrays; no law that needs finiteness is used.  The neighbour gather is the same operation in both
  programs and is never opened.
-/
import proofs.«418785_j9663676416046_3_alg».proof.Defs
import proofs.«418785_j9663676416046_3_alg».proof.Proof.Gen.Kernel
import proofs.«418785_j9663676416046_3_alg».proof.Proof.Gen.KernelIdeal
import proofs.«418785_j9663676416046_3_alg».proof.Proof.Gen.ReferenceIdeal
import proofs.«418785_j9663676416046_3_alg».proof.Proof.RefRun
import proofs.«418785_j9663676416046_3_alg».proof.Proof.Gen.Pre_finite_inputs
import proofs.«418785_j9663676416046_3_alg».proof.Proof.KernelFrame
import proofs.«418785_j9663676416046_3_alg».proof.Proof.KernelIdealFrame
import proofs.«418785_j9663676416046_3_alg».proof.Proof.KFinal
import proofs.«418785_j9663676416046_3_alg».proof.Proof.RArr
import proofs.«418785_j9663676416046_3_alg».proof.Proof.Gather
import Idealize.ShloMosaic.Adequacy
import Idealize.ShloMosaic.Init

noncomputable section

namespace Cert.Proof

open Idealize.ShloMosaic Idealize.ShloMosaic.TcCoe Idealize.SL.Sem GvpSpec

/-- The word-level kernel terminates, faults nowhere and keeps its arguments. -/
theorem frame_k : Cert.frame_Kernel := fun m ρ _ => Cert.Kernel.GenP.frame m ρ

/-- So does its reading on extended reals. -/
theorem frame_ki : Cert.frame_KernelIdeal := fun m ρ _ => Cert.KernelIdeal.GenP.frame m ρ

/-- The array program's run with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The two programs, run from memories that agree on the arguments, end with the same two results: the
    specification's update of the arguments. -/
theorem algebraic : Cert.algebraic_KernelIdeal_ReferenceIdeal := by
  intro m ρ m' ρ' _ hagree
  refine ⟨fun c => Cert.KernelIdeal.Arr.oS m c, fun c => Cert.KernelIdeal.Arr.oV m c, Cert.KernelIdeal.Arr.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12, e13, e14, e15, e16, e17, e18, e19, e20, e21, e22⟩ := hagree c
    rw [e0, e1, e2, e3, e4, e5, e6, e7, e8, e9, e10, e11, e12, e13, e14, e15, e16, e17, e18, e19,
      Cert.ReferenceIdeal.Rows.ref_s (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)),
      ← Cert.Gather.XS_eq m c, ← Cert.Gather.XV_eq m c]
    rfl
  · obtain ⟨e0, e1, e2, e3, e4, e5, e6, e7, e8, e9, e10, e11, e12, e13, e14, e15, e16, e17, e18, e19, e20, e21, e22⟩ := hagree c
    rw [e0, e1, e2, e3, e4, e5, e6, e7, e8, e9, e10, e11, e12, e13, e14, e15, e16, e17, e18, e19, e20, e21, e22,
      Cert.ReferenceIdeal.Rows.ref_v (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)),
      ← Cert.Gather.XS_eq m c, ← Cert.Gather.XV_eq m c]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
